-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2x900x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x256 : Shape := ⟨3, ![64, 900, 256]⟩
abbrev S64x900x4 : Shape := ⟨3, ![64, 900, 4]⟩
abbrev S64x256 : Shape := ⟨2, ![64, 256]⟩
abbrev S64x256x4 : Shape := ⟨3, ![64, 256, 4]⟩
abbrev S_ : Shape := ⟨0, ![]⟩

class Facts : Prop where
  bcast_S_S64x900x256 : S_.BroadcastsInDim S64x900x256 (![] : Fin 0 → Fin S64x900x256.rank)
  reducesTo_S64x900x256_S_d0_1_2 : S64x900x256.ReducesTo [0, 1, 2] S_
  h_S_ : 0 < S_.numel
  bcast_S_S64x900x4 : S_.BroadcastsInDim S64x900x4 (![] : Fin 0 → Fin S64x900x4.rank)
  reducesTo_S64x900x4_S_d0_1_2 : S64x900x4.ReducesTo [0, 1, 2] S_
  bcast_S_S64x256x4 : S_.BroadcastsInDim S64x256x4 (![] : Fin 0 → Fin S64x256x4.rank)
  reducesTo_S64x256x4_S_d0_1_2 : S64x256x4.ReducesTo [0, 1, 2] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg2 : IVec S64x256 32) (main_v13 : IVec S_ 1) (main_v15 : IVec S64x256 1) (main_c_5 : IVec S_ 1) : IVec S_ 1 :=
  let main_v16 : IVec S_ 1 := (fun x v => Host.reduce IntOp.andi x v reducesTo_S64x256_S_d0_1 h_S_) main_v15 main_c_5
  let main_v17 : IVec S_ 1 := andi main_v13 main_v16
  let main_c_6 : IVec S_ 32 := constantI S_ 32 256#32
  let main_v18 : IVec S64x256 32 := broadcastInDim S64x256 ![] bcast_S_S64x256 main_c_6
  let main_v19 : IVec S64x256 1 := cmpi .slt main_arg2 main_v18
  let main_c_7 : IVec S_ 1 := constantI S_ 1 1#1
  let main_v20 : IVec S_ 1 := (fun x v => Host.reduce IntOp.andi x v reducesTo_S64x256_S_d0_1 h_S_) main_v19 main_c_7
  let main_v21 : IVec S_ 1 := andi main_v17 main_v20
  main_v21

def fn {F : FTy → Type} [FloatOps F] (main_arg0 : FVec F S64x900x256 .f32) (main_arg1 : FVec F S64x900x4 .f32) (main_arg2 : IVec S64x256 32) (main_arg3 : FVec F S64x256x4 .f32) : IVec S_ 1 :=
  let main_v0 : FVec F S64x900x256 .f32 := Host.absf main_arg0
  let main_cst : FVec F S_ .f32 := constant S_ .f32 0x7F800000#32
  let main_v1 : FVec F S64x900x256 .f32 := broadcastInDim S64x900x256 ![] bcast_S_S64x900x256 main_cst
  let main_v2 : IVec S64x900x256 1 := cmpf .olt main_v0 main_v1
  let main_c : IVec S_ 1 := constantI S_ 1 1#1
  let main_v3 : IVec S_ 1 := (fun x v => Host.reduce IntOp.andi x v reducesTo_S64x900x256_S_d0_1_2 h_S_) main_v2 main_c
  let main_v4 : FVec F S64x900x4 .f32 := Host.absf main_arg1
  let main_cst_0 : FVec F S_ .f32 := constant S_ .f32 0x7F800000#32
  let main_v5 : FVec F S64x900x4 .f32 := broadcastInDim S64x900x4 ![] bcast_S_S64x900x4 main_cst_0
  let main_v6 : IVec S64x900x4 1 := cmpf .olt main_v4 main_v5
  let main_c_1 : IVec S_ 1 := constantI S_ 1 1#1
  let main_v7 : IVec S_ 1 := (fun x v => Host.reduce IntOp.andi x v reducesTo_S64x900x4_S_d0_1_2 h_S_) main_v6 main_c_1
  let main_v8 : IVec S_ 1 := andi main_v3 main_v7
  let main_v9 : FVec F S64x256x4 .f32 := Host.absf main_arg3
  let main_cst_2 : FVec F S_ .f32 := constant S_ .f32 0x7F800000#32
  let main_v10 : FVec F S64x256x4 .f32 := broadcastInDim S64x256x4 ![] bcast_S_S64x256x4 main_cst_2
  let main_v11 : IVec S64x256x4 1 := cmpf .olt main_v9 main_v10
  let main_c_3 : IVec S_ 1 := constantI S_ 1 1#1
  let main_v12 : IVec S_ 1 := (fun x v => Host.reduce IntOp.andi x v reducesTo_S64x256x4_S_d0_1_2 h_S_) main_v11 main_c_3
  let main_v13 : IVec S_ 1 := andi main_v8 main_v12
  let main_c_4 : IVec S_ 32 := constantI S_ 32 0#32
  let main_v14 : IVec S64x256 32 := broadcastInDim S64x256 ![] bcast_S_S64x256 main_c_4
  let main_v15 : IVec S64x256 1 := cmpi .sge main_arg2 main_v14
  let main_c_5 : IVec S_ 1 := constantI S_ 1 1#1
  fn_part1 (F := F) main_arg2 main_v13 main_v15 main_c_5
-- ==== Kernel.lean ====
abbrev S64x900x256 : Shape := ⟨3, ![64, 900, 256]⟩
abbrev S64x900x4 : Shape := ⟨3, ![64, 900, 4]⟩
abbrev S64x256 : Shape := ⟨2, ![64, 256]⟩
abbrev S64x256x4 : Shape := ⟨3, ![64, 256, 4]⟩
abbrev S64x4x256 : Shape := ⟨3, ![64, 4, 256]⟩
abbrev S_ : Shape := ⟨0, ![]⟩
abbrev S64x1x256 : Shape := ⟨3, ![64, 1, 256]⟩
abbrev S2x900x256 : Shape := ⟨3, ![2, 900, 256]⟩
abbrev S2x900x4 : Shape := ⟨3, ![2, 900, 4]⟩
abbrev S2x4x256 : Shape := ⟨3, ![2, 4, 256]⟩
abbrev S2x1x256 : Shape := ⟨3, ![2, 1, 256]⟩
abbrev S2x900 : Shape := ⟨2, ![2, 900]⟩
abbrev S2x900x1 : Shape := ⟨3, ![2, 900, 1]⟩
abbrev S2x256 : Shape := ⟨2, ![2, 256]⟩
abbrev S2x256x256 : Shape := ⟨3, ![2, 256, 256]⟩

abbrev nBuf : Space → Nat
  | .hbm => 15
  | .vmem => 10
  | .smem => 0
  | _ => 0

abbrev bufTy : (tb : Table) → Fin (tcTables nBuf tb) → BufTy
  | .hbm, ⟨0, _⟩ => ⟨S64x900x256, .f32⟩
  | .hbm, ⟨1, _⟩ => ⟨S64x900x4, .f32⟩
  | .hbm, ⟨2, _⟩ => ⟨S64x256, .i32⟩
  | .hbm, ⟨3, _⟩ => ⟨S64x256x4, .f32⟩
  | .hbm, ⟨4, _⟩ => ⟨S64x4x256, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x256, .i32⟩
  | .hbm, ⟨9, _⟩ => ⟨S64x256, .i32⟩
  | .hbm, ⟨10, _⟩ => ⟨S_, .i32⟩
  | .hbm, ⟨11, _⟩ => ⟨S64x256, .i32⟩
  | .hbm, ⟨12, _⟩ => ⟨S64x256, .i32⟩
  | .hbm, ⟨13, _⟩ => ⟨S64x1x256, .i32⟩
  | .hbm, ⟨14, _⟩ => ⟨S64x900x256, .f32⟩
  | .local _ .vmem, ⟨0, _⟩ => ⟨S2x900x256, .f32⟩
  | .local _ .vmem, ⟨1, _⟩ => ⟨S2x900x256, .f32⟩
  | .local _ .vmem, ⟨2, _⟩ => ⟨S2x900x4, .f32⟩
  | .local _ .vmem, ⟨3, _⟩ => ⟨S2x900x4, .f32⟩
  | .local _ .vmem, ⟨4, _⟩ => ⟨S2x4x256, .f32⟩
  | .local _ .vmem, ⟨5, _⟩ => ⟨S2x4x256, .f32⟩
  | .local _ .vmem, ⟨6, _⟩ => ⟨S2x1x256, .i32⟩
  | .local _ .vmem, ⟨7, _⟩ => ⟨S2x1x256, .i32⟩
  | .local _ .vmem, ⟨8, _⟩ => ⟨S2x900x256, .f32⟩
  | .local _ .vmem, ⟨9, _⟩ => ⟨S2x900x256, .f32⟩
  | _, _ => ⟨S64x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x900x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256x4_S64x4x256_0_2_1 : S64x256x4.Transposes [0, 2, 1] S64x4x256
  bcast_S_S64x256 : S_.BroadcastsInDim S64x256 (![] : Fin 0 → Fin S64x256.rank)
  shapeCasts_S64x256_S64x1x256 : S64x256.ShapeCasts S64x1x256
  inb_S2x900x256_S2x900x256_0_0_0 : ∀ a, (![0, 0, 0] : Fin 3 → Nat) a + S2x900x256.size a ≤ S2x900x256.size a
  h_S2x900x256 : 0 < S2x900x256.numel
  reduces_S2x900x256_S2x900 : S2x900x256.Reduces [2] S2x900
  shapeCasts_S2x900_S2x900x1 : S2x900.ShapeCasts S2x900x1
  broadcasts_S2x900x1_S2x900x256 : S2x900x1.Broadcasts S2x900x256
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  shapeCasts_S2x1x256_S2x256 : S2x1x256.ShapeCasts S2x256
  iota_S2x256x256_d1_w32 : S2x256x256.Iotas .tc 32 [1]
  shapeCasts_S2x256_S2x1x256 : S2x256.ShapeCasts S2x1x256
  broadcasts_S2x1x256_S2x256x256 : S2x1x256.Broadcasts S2x256x256
  natLt_1_32 : 1 < 32
  bitsLt_bf16_f32 : FTy.bits .bf16 < FTy.bits .f32
  inb_S2x900x4_S2x900x4_0_0_0 : ∀ a, (![0, 0, 0] : Fin 3 → Nat) a + S2x900x4.size a ≤ S2x900x4.size a
  h_S2x900x4 : 0 < S2x900x4.numel
  inb_S2x4x256_S2x4x256_0_0_0 : ∀ a, (![0, 0, 0] : Fin 3 → Nat) a + S2x4x256.size a ≤ S2x4x256.size a
  h_S2x4x256 : 0 < S2x4x256.numel
  shapeCasts_S2x4x256_S2x4x256 : S2x4x256.ShapeCasts S2x4x256
  slices_S2x900x4_o0_0_0_S2x900x1 : S2x900x4.Slices ![0, 0, 0] S2x900x1
  slices_S2x900x4_o0_0_1_S2x900x1 : S2x900x4.Slices ![0, 0, 1] S2x900x1
  slices_S2x900x4_o0_0_2_S2x900x1 : S2x900x4.Slices ![0, 0, 2] S2x900x1
  slices_S2x900x4_o0_0_3_S2x900x1 : S2x900x4.Slices ![0, 0, 3] S2x900x1
  slices_S2x4x256_o0_0_0_S2x1x256 : S2x4x256.Slices ![0, 0, 0] S2x1x256
  slices_S2x4x256_o0_1_0_S2x1x256 : S2x4x256.Slices ![0, 1, 0] S2x1x256
  slices_S2x4x256_o0_2_0_S2x1x256 : S2x4x256.Slices ![0, 2, 0] S2x1x256
  slices_S2x4x256_o0_3_0_S2x1x256 : S2x4x256.Slices ![0, 3, 0] S2x1x256
  broadcasts_S2x1x256_S2x900x256 : S2x1x256.Broadcasts S2x900x256
  dot_S2x900x256_S2x256x256_S2x900x256_2_1_1_2_0_0_wf : DotDims.WF S2x900x256 S2x256x256 S2x900x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x900x256.size a ≤ S64x900x256.size a
  hwx0_0 : ∀ i : grid0.Coords, EltTy.bits .f32 = 32 ∨ (Rect.block (s := S64x900x256) S2x900x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x900x4.size a ≤ S64x900x4.size a
  hwx0_1 : ∀ i : grid0.Coords, EltTy.bits .f32 = 32 ∨ (Rect.block (s := S64x900x4) S2x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4x256.size a ≤ S64x4x256.size a
  hwx0_2 : ∀ i : grid0.Coords, EltTy.bits .f32 = 32 ∨ (Rect.block (s := S64x4x256) S2x4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x256.size a ≤ S64x1x256.size a
  hwx0_3 : ∀ i : grid0.Coords, EltTy.bits .i32 = 32 ∨ (Rect.block (s := S64x1x256) S2x1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x900x256.size a ≤ S64x900x256.size a
  hwx0_4 : ∀ i : grid0.Coords, EltTy.bits .f32 = 32 ∨ (Rect.block (s := S64x900x256) S2x900x256.size (cc0_transform_4 i) (hinb0_4 i)).WholeWords (EltTy.packing .f32)

variable [Facts₀]

def dot_S2x900x256_S2x256x256_S2x900x256_2_1_1_2_0_0 : DotDims S2x900x256 S2x256x256 S2x900x256 where
  lhsContracting := [2]
  rhsContracting := [1]
  lhsNonContracting := [1]
  rhsNonContracting := [2]
  lhsBatch := [0]
  rhsBatch := [0]
  wf := dot_S2x900x256_S2x256x256_S2x900x256_2_1_1_2_0_0_wf

abbrev win0_0 : Pipeline.Window sig grid0 :=
  Pipeline.Window.ofSpec (Memref.whole main_arg0) S2x900x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2x900x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x900x256 : Shape := ⟨3, ![64, 900, 256]⟩
abbrev S64x900x4 : Shape := ⟨3, ![64, 900, 4]⟩
abbrev S64x256 : Shape := ⟨2, ![64, 256]⟩
abbrev S64x256x4 : Shape := ⟨3, ![64, 256, 4]⟩
abbrev S_ : Shape := ⟨0, ![]⟩
abbrev S64x900 : Shape := ⟨2, ![64, 900]⟩
abbrev S64x900x1 : Shape := ⟨3, ![64, 900, 1]⟩
abbrev S64x256x1 : Shape := ⟨3, ![64, 256, 1]⟩
abbrev S64x900x1x4 : Shape := ⟨4, ![64, 900, 1, 4]⟩
abbrev S64x1x256x4 : Shape := ⟨4, ![64, 1, 256, 4]⟩
abbrev S64x900x256x4 : Shape := ⟨4, ![64, 900, 256, 4]⟩
abbrev S64x900x1x1 : Shape := ⟨4, ![64, 900, 1, 1]⟩
abbrev S64x1x256x1 : Shape := ⟨4, ![64, 1, 256, 1]⟩
abbrev S64x1x256 : Shape := ⟨3, ![64, 1, 256]⟩
abbrev S64x900x1x2 : Shape := ⟨4, ![64, 900, 1, 2]⟩
abbrev S64x1x256x2 : Shape := ⟨4, ![64, 1, 256, 2]⟩
abbrev S64x900x256x2 : Shape := ⟨4, ![64, 900, 256, 2]⟩
abbrev S64x900x256x1 : Shape := ⟨4, ![64, 900, 256, 1]⟩

abbrev nBuf : Space → Nat
  | .hbm => 197
  | .vmem => 0
  | .smem => 0
  | _ => 0

abbrev hbmTy0_0 (i : Nat) : BufTy := match i % 128 with
  | 0 => ⟨S64x900x256, .f32⟩
  | 1 => ⟨S64x900x4, .f32⟩
  | 2 => ⟨S64x256, .i32⟩
  | 3 => ⟨S64x256x4, .f32⟩
  | 4 => ⟨S_, .f32⟩
  | 5 => ⟨S64x900, .f32⟩
  | 6 => ⟨S_, .f32⟩
  | 7 => ⟨S64x900, .f32⟩
  | 8 => ⟨S64x900, .f32⟩
  | 9 => ⟨S64x900x1, .f32⟩
  | 10 => ⟨S64x900x256, .f32⟩
  | 11 => ⟨S64x900x256, .f32⟩
  | 12 => ⟨S64x900x256, .f32⟩
  | 13 => ⟨S_, .f32⟩
  | 14 => ⟨S64x900, .f32⟩
  | 15 => ⟨S64x900x1, .f32⟩
  | 16 => ⟨S64x900x256, .f32⟩
  | 17 => ⟨S64x900x256, .f32⟩
  | 18 => ⟨S_, .i32⟩
  | 19 => ⟨S64x256, .i32⟩
  | 20 => ⟨S64x256, .i1⟩
  | 21 => ⟨S_, .i32⟩
  | 22 => ⟨S64x256, .i32⟩
  | 23 => ⟨S64x256, .i32⟩
  | 24 => ⟨S64x256, .i32⟩
  | 25 => ⟨S64x256x1, .i32⟩
  | 26 => ⟨S64x900x256, .f32⟩
  | 27 => ⟨S64x900x256, .f32⟩
  | 28 => ⟨S64x900x1x4, .f32⟩
  | 29 => ⟨S64x1x256x4, .f32⟩
  | 30 => ⟨S64x900x256x4, .f32⟩
  | 31 => ⟨S64x900x256x4, .f32⟩
  | 32 => ⟨S64x900x256x4, .f32⟩
  | 33 => ⟨S64x900x256x4, .f32⟩
  | 34 => ⟨S_, .f32⟩
  | 35 => ⟨S64x900x256, .f32⟩
  | 36 => ⟨S64x900x1, .f32⟩
  | 37 => ⟨S64x900, .f32⟩
  | 38 => ⟨S64x900x1, .f32⟩
  | 39 => ⟨S64x900, .f32⟩
  | 40 => ⟨S64x900x1, .f32⟩
  | 41 => ⟨S64x900, .f32⟩
  | 42 => ⟨S64x900x1, .f32⟩
  | 43 => ⟨S64x900, .f32⟩
  | 44 => ⟨S_, .f32⟩
  | 45 => ⟨S64x900, .f32⟩
  | 46 => ⟨S64x900, .f32⟩
  | 47 => ⟨S64x900, .f32⟩
  | 48 => ⟨S_, .f32⟩
  | 49 => ⟨S64x900, .f32⟩
  | 50 => ⟨S64x900, .f32⟩
  | 51 => ⟨S64x900, .f32⟩
  | 52 => ⟨S_, .f32⟩
  | 53 => ⟨S64x900, .f32⟩
  | 54 => ⟨S64x900, .f32⟩
  | 55 => ⟨S64x900, .f32⟩
  | 56 => ⟨S_, .f32⟩
  | 57 => ⟨S64x900, .f32⟩
  | 58 => ⟨S64x900, .f32⟩
  | 59 => ⟨S64x900, .f32⟩
  | 60 => ⟨S64x900x1, .f32⟩
  | 61 => ⟨S64x900x1, .f32⟩
  | 62 => ⟨S64x900x1, .f32⟩
  | 63 => ⟨S64x900x1, .f32⟩
  | 64 => ⟨S64x900x4, .f32⟩
  | 65 => ⟨S64x900x1x4, .f32⟩
  | 66 => ⟨S64x256x1, .f32⟩
  | 67 => ⟨S64x256, .f32⟩
  | 68 => ⟨S64x256x1, .f32⟩
  | 69 => ⟨S64x256, .f32⟩
  | 70 => ⟨S64x256x1, .f32⟩
  | 71 => ⟨S64x256, .f32⟩
  | 72 => ⟨S64x256x1, .f32⟩
  | 73 => ⟨S64x256, .f32⟩
  | 74 => ⟨S_, .f32⟩
  | 75 => ⟨S64x256, .f32⟩
  | 76 => ⟨S64x256, .f32⟩
  | 77 => ⟨S64x256, .f32⟩
  | 78 => ⟨S_, .f32⟩
  | 79 => ⟨S64x256, .f32⟩
  | 80 => ⟨S64x256, .f32⟩
  | 81 => ⟨S64x256, .f32⟩
  | 82 => ⟨S_, .f32⟩
  | 83 => ⟨S64x256, .f32⟩
  | 84 => ⟨S64x256, .f32⟩
  | 85 => ⟨S64x256, .f32⟩
  | 86 => ⟨S_, .f32⟩
  | 87 => ⟨S64x256, .f32⟩
  | 88 => ⟨S64x256, .f32⟩
  | 89 => ⟨S64x256, .f32⟩
  | 90 => ⟨S64x256x1, .f32⟩
  | 91 => ⟨S64x256x1, .f32⟩
  | 92 => ⟨S64x256x1, .f32⟩
  | 93 => ⟨S64x256x1, .f32⟩
  | 94 => ⟨S64x256x4, .f32⟩
  | 95 => ⟨S64x1x256x4, .f32⟩
  | 96 => ⟨S64x900x1x1, .f32⟩
  | 97 => ⟨S64x900x1, .f32⟩
  | 98 => ⟨S64x900x1x1, .f32⟩
  | 99 => ⟨S64x900x1, .f32⟩
  | 100 => ⟨S64x900x1, .f32⟩
  | 101 => ⟨S64x900x1x1, .f32⟩
  | 102 => ⟨S64x900x1, .f32⟩
  | 103 => ⟨S64x900x1x1, .f32⟩
  | 104 => ⟨S64x900x1, .f32⟩
  | 105 => ⟨S64x900x1, .f32⟩
  | 106 => ⟨S64x900x1, .f32⟩
  | 107 => ⟨S64x1x256x1, .f32⟩
  | 108 => ⟨S64x1x256, .f32⟩
  | 109 => ⟨S64x1x256x1, .f32⟩
  | 110 => ⟨S64x1x256, .f32⟩
  | 111 => ⟨S64x1x256, .f32⟩
  | 112 => ⟨S64x1x256x1, .f32⟩
  | 113 => ⟨S64x1x256, .f32⟩
  | 114 => ⟨S64x1x256x1, .f32⟩
  | 115 => ⟨S64x1x256, .f32⟩
  | 116 => ⟨S64x1x256, .f32⟩
  | 117 => ⟨S64x1x256, .f32⟩
  | 118 => ⟨S64x900x1x2, .f32⟩
  | 119 => ⟨S64x1x256x2, .f32⟩
  | 120 => ⟨S64x900x256x2, .f32⟩
  | 121 => ⟨S64x900x256x2, .f32⟩
  | 122 => ⟨S64x900x256x2, .f32⟩
  | 123 => ⟨S64x900x1x2, .f32⟩
  | 124 => ⟨S64x1x256x2, .f32⟩
  | 125 => ⟨S64x900x256x2, .f32⟩
  | 126 => ⟨S64x900x256x2, .f32⟩
  | 127 => ⟨S64x900x256x2, .f32⟩
  | _ => ⟨S64x900x256, .f32⟩

abbrev hbmTy0_1 (i : Nat) : BufTy := match i % 128 with
  | 0 => ⟨S64x900x256x2, .f32⟩
  | 1 => ⟨S_, .f32⟩
  | 2 => ⟨S_, .f32⟩
  | 3 => ⟨S64x900x256x2, .f32⟩
  | 4 => ⟨S64x900x256x2, .f32⟩
  | 5 => ⟨S64x900x256x1, .f32⟩
  | 6 => ⟨S64x900x256, .f32⟩
  | 7 => ⟨S64x900x256x1, .f32⟩
  | 8 => ⟨S64x900x256, .f32⟩
  | 9 => ⟨S64x900x256, .f32⟩
  | 10 => ⟨S64x900x256, .f32⟩
  | 11 => ⟨S64x900x256, .f32⟩
  | 12 => ⟨S64x900x256, .f32⟩
  | 13 => ⟨S64x900x256, .f32⟩
  | 14 => ⟨S64x900x256, .f32⟩
  | 15 => ⟨S64x900x1x2, .f32⟩
  | 16 => ⟨S64x1x256x2, .f32⟩
  | 17 => ⟨S64x900x256x2, .f32⟩
  | 18 => ⟨S64x900x256x2, .f32⟩
  | 19 => ⟨S64x900x256x2, .f32⟩
  | 20 => ⟨S64x900x1x2, .f32⟩
  | 21 => ⟨S64x1x256x2, .f32⟩
  | 22 => ⟨S64x900x256x2, .f32⟩
  | 23 => ⟨S64x900x256x2, .f32⟩
  | 24 => ⟨S64x900x256x2, .f32⟩
  | 25 => ⟨S64x900x256x2, .f32⟩
  | 26 => ⟨S_, .f32⟩
  | 27 => ⟨S_, .f32⟩
  | 28 => ⟨S64x900x256x2, .f32⟩
  | 29 => ⟨S64x900x256x2, .f32⟩
  | 30 => ⟨S64x900x256x1, .f32⟩
  | 31 => ⟨S64x900x256, .f32⟩
  | 32 => ⟨S64x900x256x1, .f32⟩
  | 33 => ⟨S64x900x256, .f32⟩
  | 34 => ⟨S64x900x256, .f32⟩
  | 35 => ⟨S64x900x256, .f32⟩
  | 36 => ⟨S64x900x256, .f32⟩
  | 37 => ⟨S64x900x256, .f32⟩
  | 38 => ⟨S_, .f32⟩
  | 39 => ⟨S64x900x256, .f32⟩
  | 40 => ⟨S64x900x256, .f32⟩
  | 41 => ⟨S_, .f32⟩
  | 42 => ⟨S64x900x256, .f32⟩
  | 43 => ⟨S64x900x256, .f32⟩
  | 44 => ⟨S64x900x256, .f32⟩
  | 45 => ⟨S64x900x256, .f32⟩
  | 46 => ⟨S_, .f32⟩
  | 47 => ⟨S64x900x256, .f32⟩
  | 48 => ⟨S64x900x256, .f32⟩
  | 49 => ⟨S64x900x256, .f32⟩
  | 50 => ⟨S_, .f32⟩
  | 51 => ⟨S_, .f32⟩
  | 52 => ⟨S_, .f32⟩
  | 53 => ⟨S64x900x256, .i1⟩
  | 54 => ⟨S_, .f32⟩
  | 55 => ⟨S64x900x256, .f32⟩
  | 56 => ⟨S64x900x256, .f32⟩
  | 57 => ⟨S_, .f32⟩
  | 58 => ⟨S64x900x256, .f32⟩
  | 59 => ⟨S64x900x256, .i1⟩
  | 60 => ⟨S_, .f32⟩
  | 61 => ⟨S64x900x256, .f32⟩
  | 62 => ⟨S64x900x256, .f32⟩
  | 63 => ⟨S_, .f32⟩
  | 64 => ⟨S64x900x256, .f32⟩
  | 65 => ⟨S64x900x256, .i1⟩
  | 66 => ⟨S_, .f32⟩
  | 67 => ⟨S64x900x256, .f32⟩
  | 68 => ⟨S64x900x256, .f32⟩
  | _ => ⟨S64x900x256, .f32⟩

abbrev hbmTy (i : Nat) : BufTy := match i / 128 with
  | 0 => hbmTy0_0 i
  | 1 => hbmTy0_1 i
  | _ => ⟨S64x900x256, .f32⟩

abbrev bufTy : (tb : Table) → Fin (tcTables nBuf tb) → BufTy
  | .hbm, ⟨i, _⟩ => hbmTy i
  | _, _ => ⟨S64x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_12 : Ref sig .tc := ⟨.hbm, 129, rfl⟩
abbrev main_call0_v0 : Ref sig .tc := ⟨.hbm, 130, rfl⟩
abbrev main_call0_v1 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_13 : Ref sig .tc := ⟨.hbm, 154, rfl⟩
abbrev main_call1_v0 : Ref sig .tc := ⟨.hbm, 155, rfl⟩
abbrev main_call1_v1 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_cst_14 : Ref sig .tc := ⟨.hbm, 166, rfl⟩
abbrev main_v142 : Ref sig .tc := ⟨.hbm, 167, rfl⟩
abbrev main_v143 : Ref sig .tc := ⟨.hbm, 168, rfl⟩
abbrev main_cst_15 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_cst_16 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_17 : Ref sig .tc := ⟨.hbm, 178, rfl⟩
abbrev main_cst_18 : Ref sig .tc := ⟨.hbm, 179, rfl⟩
abbrev main_cst_19 : Ref sig .tc := ⟨.hbm, 180, rfl⟩
abbrev main_call2_v0 : Ref sig .tc := ⟨.hbm, 181, rfl⟩
abbrev main_call2_v1 : Ref sig .tc := ⟨.hbm, 182, rfl⟩
abbrev main_call2_call0_v0 : Ref sig .tc := ⟨.hbm, 183, rfl⟩
abbrev main_call2_v2 : Ref sig .tc := ⟨.hbm, 184, rfl⟩
abbrev main_call2_cst : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_call1_v0 : Ref sig .tc := ⟨.hbm, 189, rfl⟩
abbrev main_call2_v6 : Ref sig .tc := ⟨.hbm, 190, rfl⟩
abbrev main_call2_cst_0 : Ref sig .tc := ⟨.hbm, 191, rfl⟩
abbrev main_call2_v7 : Ref sig .tc := ⟨.hbm, 192, rfl⟩
abbrev main_call2_v8 : Ref sig .tc := ⟨.hbm, 193, rfl⟩
abbrev main_call2_v9 : Ref sig .tc := ⟨.hbm, 194, rfl⟩
abbrev main_call2_call2_v0 : Ref sig .tc := ⟨.hbm, 195, rfl⟩
abbrev main_v151 : Ref sig .tc := ⟨.hbm, 196, rfl⟩

abbrev nD : Nat := 1
abbrev τ : Topo := Topo.v7x

variable {F : FTy → Type} [FloatOps F]

class Facts₀ : Prop where
  reducesTo_S64x900x256_S64x900_d2 : S64x900x256.ReducesTo [2] S64x900
  h_S_ : 0 < S_.numel
  bcast_S_S64x900 : S_.BroadcastsInDim S64x900 (![] : Fin 0 → Fin S64x900.rank)
  bcast_S64x900_S64x900x1_0_1 : S64x900.BroadcastsInDim S64x900x1 (![0, 1] : Fin 2 → Fin S64x900x1.rank)
  bcast_S64x900x1_S64x900x256_0_1_2 : S64x900x1.BroadcastsInDim S64x900x256 (![0, 1, 2] : Fin 3 → Fin S64x900x256.rank)
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x900x4_S64x900x1x4_0_1_3 : S64x900x4.BroadcastsInDim S64x900x1x4 (![0, 1, 3] : Fin 3 → Fin S64x900x1x4.rank)
  bcast_S64x256x4_S64x1x256x4_0_2_3 : S64x256x4.BroadcastsInDim S64x1x256x4 (![0, 2, 3] : Fin 3 → Fin S64x1x256x4.rank)
  bcast_S64x900x1x4_S64x900x256x4_0_1_2_3 : S64x900x1x4.BroadcastsInDim S64x900x256x4 (![0, 1, 2, 3] : Fin 4 → Fin S64x900x256x4.rank)
  bcast_S64x1x256x4_S64x900x256x4_0_1_2_3 : S64x1x256x4.BroadcastsInDim S64x900x256x4 (![0, 1, 2, 3] : Fin 4 → Fin S64x900x256x4.rank)
  reducesTo_S64x900x256x4_S64x900x256_d3 : S64x900x256x4.ReducesTo [3] S64x900x256
  slices_S64x900x4_S64x900x1_0_0_0 : S64x900x4.Slices ![0, 0, 0] S64x900x1
  shapeCasts_S64x900x1_S64x900 : S64x900x1.ShapeCasts S64x900
  slices_S64x900x4_S64x900x1_0_0_1 : S64x900x4.Slices ![0, 0, 1] S64x900x1
  slices_S64x900x4_S64x900x1_0_0_2 : S64x900x4.Slices ![0, 0, 2] S64x900x1
  slices_S64x900x4_S64x900x1_0_0_3 : S64x900x4.Slices ![0, 0, 3] S64x900x1
  concatenates_S64x900x1_S64x900x1_S64x900x1_S64x900x1_S64x900x4_d2 : Shape.Concatenates [S64x900x1, S64x900x1, S64x900x1, S64x900x1] S64x900x4 2
  slices_S64x256x4_S64x256x1_0_0_0 : S64x256x4.Slices ![0, 0, 0] S64x256x1
  shapeCasts_S64x256x1_S64x256 : S64x256x1.ShapeCasts S64x256
  slices_S64x256x4_S64x256x1_0_0_1 : S64x256x4.Slices ![0, 0, 1] S64x256x1
  slices_S64x256x4_S64x256x1_0_0_2 : S64x256x4.Slices ![0, 0, 2] S64x256x1
  slices_S64x256x4_S64x256x1_0_0_3 : S64x256x4.Slices ![0, 0, 3] S64x256x1
  concatenates_S64x256x1_S64x256x1_S64x256x1_S64x256x1_S64x256x4_d2 : Shape.Concatenates [S64x256x1, S64x256x1, S64x256x1, S64x256x1] S64x256x4 2
  slices_S64x900x1x4_S64x900x1x1_0_0_0_2 : S64x900x1x4.Slices ![0, 0, 0, 2] S64x900x1x1
  shapeCasts_S64x900x1x1_S64x900x1 : S64x900x1x1.ShapeCasts S64x900x1
  slices_S64x900x1x4_S64x900x1x1_0_0_0_0 : S64x900x1x4.Slices ![0, 0, 0, 0] S64x900x1x1
  slices_S64x900x1x4_S64x900x1x1_0_0_0_3 : S64x900x1x4.Slices ![0, 0, 0, 3] S64x900x1x1
  slices_S64x900x1x4_S64x900x1x1_0_0_0_1 : S64x900x1x4.Slices ![0, 0, 0, 1] S64x900x1x1
  slices_S64x1x256x4_S64x1x256x1_0_0_0_2 : S64x1x256x4.Slices ![0, 0, 0, 2] S64x1x256x1
  shapeCasts_S64x1x256x1_S64x1x256 : S64x1x256x1.ShapeCasts S64x1x256
  slices_S64x1x256x4_S64x1x256x1_0_0_0_0 : S64x1x256x4.Slices ![0, 0, 0, 0] S64x1x256x1
  slices_S64x1x256x4_S64x1x256x1_0_0_0_3 : S64x1x256x4.Slices ![0, 0, 0, 3] S64x1x256x1
  slices_S64x1x256x4_S64x1x256x1_0_0_0_1 : S64x1x256x4.Slices ![0, 0, 0, 1] S64x1x256x1
  slices_S64x900x1x4_S64x900x1x2_0_0_0_0 : S64x900x1x4.Slices ![0, 0, 0, 0] S64x900x1x2
  slices_S64x1x256x4_S64x1x256x2_0_0_0_0 : S64x1x256x4.Slices ![0, 0, 0, 0] S64x1x256x2
  bcast_S64x900x1x2_S64x900x256x2_0_1_2_3 : S64x900x1x2.BroadcastsInDim S64x900x256x2 (![0, 1, 2, 3] : Fin 4 → Fin S64x900x256x2.rank)
  bcast_S64x1x256x2_S64x900x256x2_0_1_2_3 : S64x1x256x2.BroadcastsInDim S64x900x256x2 (![0, 1, 2, 3] : Fin 4 → Fin S64x900x256x2.rank)
  slices_S64x900x1x4_S64x900x1x2_0_0_0_2 : S64x900x1x4.Slices ![0, 0, 0, 2] S64x900x1x2
  slices_S64x1x256x4_S64x1x256x2_0_0_0_2 : S64x1x256x4.Slices ![0, 0, 0, 2] S64x1x256x2
  bcast_S_S64x900x256x2 : S_.BroadcastsInDim S64x900x256x2 (![] : Fin 0 → Fin S64x900x256x2.rank)
  slices_S64x900x256x2_S64x900x256x1_0_0_0_0 : S64x900x256x2.Slices ![0, 0, 0, 0] S64x900x256x1
  shapeCasts_S64x900x256x1_S64x900x256 : S64x900x256x1.ShapeCasts S64x900x256
  slices_S64x900x256x2_S64x900x256x1_0_0_0_1 : S64x900x256x2.Slices ![0, 0, 0, 1] S64x900x256x1
  bcast_S64x1x256_S64x900x256_0_1_2 : S64x1x256.BroadcastsInDim S64x900x256 (![0, 1, 2] : Fin 3 → Fin S64x900x256.rank)
  bcast_S_S64x900x256 : S_.BroadcastsInDim S64x900x256 (![] : Fin 0 → Fin S64x900x256.rank)
  gather_S64x900x256_S64x256x1_S64x900x256_1_2_0_0_2_2_19001_wf : GatherDims.WF S64x900x256 S64x256x1 S64x900x256 [1] [2] [0] [2] [0] 2 ![1, 900, 1]

variable [Facts₀]

def gather_S64x900x256_S64x256x1_S64x900x256_1_2_0_0_2_2_19001 : GatherDims S64x900x256 S64x256x1 S64x900x256 where
  offsetDims := [1]
  collapsedSliceDims := [2]
  operandBatchingDims := [0]
  startIndicesBatchingDims := [0]
  startIndexMap := [2]
  indexVectorDim := 2
  sliceSizes := ![1, 900, 1]
  wf := gather_S64x900x256_S64x256x1_S64x900x256_1_2_0_0_2_2_19001_wf

class Facts : Prop extends Facts₀ where

variable [Facts]
-- ==== Proof.PreFacts.lean ====
/-
  What the precondition says, read back: it is the conjunction of five `all`-reductions; it being true gives, element by
  element, that every logit is a finite extended real (its absolute value is below +∞) and that every label word, read
  signed, lies in [0, 256), that is: its unsigned value is below 256.
-/
import proofs.«412448_j60825326846459_2_alg».proof.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

variable [Cert.Pre_finite_inputs.Facts]
open Cert.Pre_finite_inputs.Facts

instance : Subsingleton S_.Idx := ⟨fun a b => funext fun d => d.elim0⟩

/-- an extended real whose absolute value is below +∞ is neither infinity -/
theorem finite_of_abs_lt (x : EReal) (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  simp only [Ideal.cmp, StableHlo.Predicate.ofBool_eq_one_iff, decide_eq_true_eq] at h
  constructor
  · rintro rfl; simp at h
  · rintro rfl; simp at h

/-- The three facts the proofs use, element by element. -/
theorem read (a0 : FVec Ideal S64x900x256 .f32) (a1 : FVec Ideal S64x900x4 .f32) (a2 : IVec S64x256 32) (a3 : FVec Ideal S64x256x4 .f32)
    (h : fn (F := Ideal) a0 a1 a2 a3 = fun _ => 1#1) :
    (∀ i, a0 i ≠ ⊤ ∧ a0 i ≠ ⊥) ∧ (∀ j, (a2 j).toNat < 256) := by
  have h0 := congrFun h ValueIdx.ix0
  dsimp only [fn, fn_part1] at h0
  simp only [andi, IntOp.andi_eq_one] at h0
  obtain ⟨⟨⟨⟨hA0, -⟩, -⟩, hge⟩, hlt⟩ := h0
  refine ⟨fun i => ?_, fun j => ?_⟩
  · have hi := Host.reduce_andi_all _ _ _ _ _ hA0 i
    exact finite_of_abs_lt (a0 i) hi
  · have h1 := Host.reduce_andi_all _ _ _ _ _ hge j
    have h2 := Host.reduce_andi_all _ _ _ _ _ hlt j
    have h1' : IntOp.cmpi .sge (a2 j) 0#32 = 1#1 := h1
    have h2' : IntOp.cmpi .slt (a2 j) 256#32 = 1#1 := h2
    rw [IntOp.cmpi_sge] at h1'
    rw [IntOp.cmpi_slt] at h2'
    have e0 : (0#32 : BitVec 32).toInt = 0 := by decide
    have e256 : (256#32 : BitVec 32).toInt = 256 := by decide
    rw [e0] at h1'
    rw [e256] at h2'
    rw [BitVec.toInt_eq_toNat_cond] at h1' h2'
    have hb := (a2 j).isLt
    split at h1' <;> omega

end Cert.PreFacts
end
-- ==== Proof.CostSpec.lean ====
/-
  The matching cost of one (query, target) pair, as a function on the extended reals, and the whole
  cost array as one function of the four argument arrays.

  For batch b, query q and target t the cost is
      scrub ( 1 · (−p[b,q,ℓ(b,t)]) + 5 · L1(box_q, box_t) + 2 · (−GIoU(box_q, box_t)) )
  where p[b,q,·] is the softmax of the logits row (b,q,·) (its maximum subtracted first), ℓ(b,t) is the
  target's class label, boxes are (cx, cy, w, h), L1 is the sum of the four absolute coordinate
  differences, GIoU is the generalized intersection-over-union of the two boxes taken as corner
  boxes (c ∓ w/2), and scrub replaces +∞ by 10⁶ and then −∞ by −10⁶.  Every operation is the
  extended-real one of the ideal instance (a quotient by zero included), so the function is total.
-/
import Idealize.ShloMosaic.PureOps.Ideal
import Idealize.ShloMosaic.Lib.ValueIdx

noncomputable section

namespace Cert.CostSpec

open Idealize.ShloMosaic Idealize.ShloMosaic.ValueIdx

/-- one half, the box half-extent factor -/
def half : EReal := Ideal.ofBits .f32 0x3F000000#32
/-- the three cost weights 1, 5, 2 -/
def wClass : EReal := Ideal.ofBits .f32 0x3F800000#32
def wBox : EReal := Ideal.ofBits .f32 0x40A00000#32
def wGiou : EReal := Ideal.ofBits .f32 0x40000000#32
/-- 10⁶ and −10⁶, what the two infinities are replaced by -/
def big : EReal := Ideal.ofBits .f32 0x49742400#32
def nbig : EReal := Ideal.ofBits .f32 0xC9742400#32
/-- the two infinity patterns -/
def pinf : EReal := Ideal.ofBits .f32 0x7F800000#32
def ninf : EReal := Ideal.ofBits .f32 0xFF800000#32
/-- the zero pattern (the extended real 0) -/
def zero : EReal := Ideal.ofBits .f32 0x00000000#32

/-- low and high corner of an interval of centre `c` and width `w` -/
def lo (c w : EReal) : EReal := c - half * w
def hi (c w : EReal) : EReal := c + half * w

/-- |x| on the extended reals -/
def absE (x : EReal) : EReal := max x (-x)

/-- the L1 distance of two (cx, cy, w, h) boxes, summed in coordinate order -/
def l1 (pcx pcy pw ph tcx tcy tw th : EReal) : EReal :=
  ((absE (pcx - tcx) + absE (pcy - tcy)) + absE (pw - tw)) + absE (ph - th)

/-- width·height of a corner box -/
def area (x1 y1 x2 y2 : EReal) : EReal := (x2 - x1) * (y2 - y1)

/-- the overlap of two intervals, clipped below at zero -/
def overlap (a1 a2 b1 b2 : EReal) : EReal := max (min a2 b2 - max a1 b1) zero
/-- the extent of the hull of two intervals, clipped below at zero -/
def hull (a1 a2 b1 b2 : EReal) : EReal := max (max a2 b2 - min a1 b1) zero

/-- the generalized IoU of a query box and a target box given as (cx, cy, w, h) -/
def giou (pcx pcy pw ph tcx tcy tw th : EReal) : EReal :=
  let inter := overlap (lo pcx pw) (hi pcx pw) (lo tcx tw) (hi tcx tw) * overlap (lo pcy ph) (hi pcy ph) (lo tcy th) (hi tcy th)
  let union := (area (lo pcx pw) (lo pcy ph) (hi pcx pw) (hi pcy ph) + area (lo tcx tw) (lo tcy th) (hi tcx tw) (hi tcy th)) - inter
  let areac := hull (lo pcx pw) (hi pcx pw) (lo tcx tw) (hi tcx tw) * hull (lo pcy ph) (hi pcy ph) (lo tcy th) (hi tcy th)
  Ideal.div inter union - Ideal.div (areac - union) areac

/-- +∞ ↦ 10⁶, then −∞ ↦ −10⁶ -/
def scrub (x : EReal) : EReal :=
  Scalar.select (Ideal.cmp .oeq (Scalar.select (Ideal.cmp .oeq x pinf) big x) ninf) nbig
    (Scalar.select (Ideal.cmp .oeq x pinf) big x)

/-- the cost of one pair from the class probability `pl` and the eight box coordinates -/
def pairCost (pl pcx pcy pw ph tcx tcy tw th : EReal) : EReal :=
  scrub ((wClass * (-pl) + wBox * l1 pcx pcy pw ph tcx tcy tw th) + wGiou * (-(giou pcx pcy pw ph tcx tcy tw th)))

/-- the maximum of a row of 256 logits (folded from −∞) -/
def rowMax (x : Fin 256 → EReal) : EReal := (Finset.univ : Finset (Fin 256)).fold max ninf x

/-- the softmax of a row at class `c`: e^(x c − max) over the sum of the row's e^(x k − max) -/
def prob (x : Fin 256 → EReal) (c : Fin 256) : EReal :=
  Ideal.div (Ideal.exp (x c - rowMax x)) (∑ k : Fin 256, Ideal.exp (x k - rowMax x))

/-- a label word as a class index (labels are in [0, 256) under the precondition; reduced mod 256 to be total) -/
def labelIdx (l : BitVec 32) : Fin 256 := ⟨l.toNat % 256, Nat.mod_lt _ (by decide)⟩

abbrev SLogits : Shape := ⟨3, ![64, 900, 256]⟩
abbrev SBoxes : Shape := ⟨3, ![64, 900, 4]⟩
abbrev SLabels : Shape := ⟨2, ![64, 256]⟩
abbrev STBoxes : Shape := ⟨3, ![64, 256, 4]⟩

/-- the cost of (batch b, query q, target t) from the four argument arrays -/
def Gat (lg : SLogits.Idx → EReal) (bx : SBoxes.Idx → EReal) (lb : SLabels.Idx → BitVec 32) (tb : STBoxes.Idx → EReal)
    (b : Fin 64) (q : Fin 900) (t : Fin 256) : EReal :=
  pairCost (prob (fun c => lg (ix3 b q c)) (labelIdx (lb (ix2 b t))))
    (bx (ix3 b q (0 : Fin 4))) (bx (ix3 b q (1 : Fin 4))) (bx (ix3 b q (2 : Fin 4))) (bx (ix3 b q (3 : Fin 4)))
    (tb (ix3 b t (0 : Fin 4))) (tb (ix3 b t (1 : Fin 4))) (tb (ix3 b t (2 : Fin 4))) (tb (ix3 b t (3 : Fin 4)))

/-- the whole [64, 900, 256] cost array -/
def G (lg : SLogits.Idx → EReal) (bx : SBoxes.Idx → EReal) (lb : SLabels.Idx → BitVec 32) (tb : STBoxes.Idx → EReal) :
    SLogits.Idx → EReal :=
  fun i => Gat lg bx lb tb (i 0) (i 1) (i 2)

theorem G_ix3 (lg : SLogits.Idx → EReal) (bx : SBoxes.Idx → EReal) (lb : SLabels.Idx → BitVec 32) (tb : STBoxes.Idx → EReal)
    (b : Fin 64) (q : Fin 900) (t : Fin 256) : G lg bx lb tb (ix3 b q t) = Gat lg bx lb tb b q t := rfl

/-- the zero pattern is the extended real 0 -/
theorem zero_eq : zero = 0 := by simp [zero, Ideal.ofBits, Ideal.ieee]
/-- the −∞ pattern is ⊥ -/
theorem ninf_eq : ninf = ⊥ := by simp [ninf, Ideal.ofBits, Ideal.ieee]
/-- the +∞ pattern is ⊤ -/
theorem pinf_eq : pinf = ⊤ := by simp [pinf, Ideal.ofBits, Ideal.ieee]

end Cert.CostSpec

end
-- ==== Proof.KernelClassFacts.lean ====
/-
  Extended-real facts about the softmax of a row of 256 finite logits, and two facts about 32-bit words.

  For a row of reals the row maximum (a fold of max from −∞ over a nonempty index set) is a real; each
  e^(x k − max) is a positive real; their sum over the 256 classes is a positive real; so the quotient
  e^(x c − max) / Σ is a real, and a real minus itself is 0.  A class index below 256 and a label word
  below 256 agree as words exactly when the index is the label's class; and a one-bit comparison
  widened to a word and read as a signed integer is 1 or 0.
-/
import proofs.«412448_j60825326846459_2_alg».proof.Proof.CostSpec
import Mathlib.Data.Finset.Fold
import Mathlib.Data.EReal.Operations
import Mathlib.Analysis.SpecialFunctions.Exp

noncomputable section

namespace Cert.KernelIdeal.KClass

open Idealize.ShloMosaic Cert.CostSpec

/-- The maximum of a row of reals is a real. -/
theorem rowMax_coe (a : Fin 256 → ℝ) : ∃ m : ℝ, rowMax (fun c => (a c : EReal)) = (m : EReal) := by
  have h1 : rowMax (fun c => (a c : EReal)) ≠ ⊤ := by
    apply ne_of_lt
    unfold rowMax
    rw [Finset.fold_max_lt]
    exact ⟨by rw [ninf_eq]; exact bot_lt_top, fun c _ => EReal.coe_lt_top _⟩
  have h2 : rowMax (fun c => (a c : EReal)) ≠ ⊥ := by
    apply ne_of_gt
    unfold rowMax
    rw [Finset.lt_fold_max]
    exact Or.inr ⟨0, Finset.mem_univ _, EReal.bot_lt_coe _⟩
  exact ⟨(rowMax _).toReal, (EReal.coe_toReal h1 h2).symm⟩

/-- A finite sum of reals, taken in the extended reals, is the real sum. -/
theorem sum_coe (s : Finset (Fin 256)) (f : Fin 256 → ℝ) :
    ∑ k ∈ s, ((f k : ℝ) : EReal) = ((∑ k ∈ s, f k : ℝ) : EReal) := by
  refine Finset.induction_on s (by simp) ?_
  intro a s ha ih
  rw [Finset.sum_insert ha, Finset.sum_insert ha, ih, EReal.coe_add]

/-- The softmax of a row of reals is a real at every class. -/
theorem prob_coe (a : Fin 256 → ℝ) (c : Fin 256) : ∃ r : ℝ, prob (fun c => (a c : EReal)) c = (r : EReal) := by
  obtain ⟨m, hm⟩ := rowMax_coe a
  have he : ∀ k, Ideal.exp ((a k : EReal) - (m : EReal)) = ((Real.exp (a k - m) : ℝ) : EReal) := fun k => by
    rw [← EReal.coe_sub, Ideal.exp_coe]
  have hS : (∑ k, Real.exp (a k - m)) ≠ 0 :=
    ne_of_gt (Finset.sum_pos (fun k _ => Real.exp_pos _) Finset.univ_nonempty)
  unfold prob
  rw [hm]
  simp only [he]
  rw [sum_coe, Ideal.div_coe hS, ← EReal.coe_mul]
  exact ⟨_, rfl⟩

/-- The softmax of a row of finite extended reals is a real at every class. -/
theorem prob_real (x : Fin 256 → EReal) (hx : ∀ c, x c ≠ ⊤ ∧ x c ≠ ⊥) (c : Fin 256) :
    ∃ r : ℝ, prob x c = (r : EReal) := by
  have hxe : x = fun c => (((x c).toReal : ℝ) : EReal) :=
    funext fun c => (EReal.coe_toReal (hx c).1 (hx c).2).symm
  rw [hxe]
  exact prob_coe _ c

/-- So such a probability minus itself is 0. -/
theorem prob_sub_self (x : Fin 256 → EReal) (hx : ∀ c, x c ≠ ⊤ ∧ x c ≠ ⊥) (c : Fin 256) :
    prob x c - prob x c = 0 := by
  obtain ⟨r, hr⟩ := prob_real x hx c
  rw [hr, ← EReal.coe_sub, sub_self, EReal.coe_zero]

/-- A class index and an in-range label word are the same word exactly when the index is the label's class. -/
theorem word_eq_iff (c : Fin 256) (l : BitVec 32) (hl : l.toNat < 256) :
    BitVec.ofNat 32 c.val = l ↔ c = labelIdx l := by
  have hc := c.isLt
  constructor
  · intro h
    have h1 : l.toNat = c.val := by
      rw [← h, BitVec.toNat_ofNat]
      omega
    apply Fin.ext
    show c.val = l.toNat % 256
    omega
  · intro h
    have h1 : c.val = l.toNat % 256 := congrArg Fin.val h
    apply BitVec.eq_of_toNat_eq
    rw [BitVec.toNat_ofNat]
    omega

/-- The comparison "equal" of two words, widened to a word and converted signed, is 1 or 0. -/
theorem onehot_word (w1 w2 : BitVec 32) :
    (((((IntOp.cmpi .eq w1 w2).setWidth 32).toInt : ℤ) : ℝ) : EReal) = if w1 = w2 then 1 else 0 := by
  by_cases h : w1 = w2
  · have : IntOp.cmpi .eq w1 w2 = 1#1 := by simp [IntOp.cmpi, h]
    rw [this, if_pos h]
    simp
  · have hb : (w1 == w2) = false := beq_eq_false_iff_ne.mpr h
    have : IntOp.cmpi .eq w1 w2 = 0#1 := by simp [IntOp.cmpi, hb]
    rw [this, if_neg h]
    simp

end Cert.KernelIdeal.KClass

end
-- ==== Proof.KernelClass.lean ====
/-
  The class cost the kernel body computes, read at one (batch, query, target).

  From the logits block and the labels block the body takes, row by row, the maximum of the 256 logits,
  the exponentials of the logits less that maximum, their sum and the quotient p (the softmax); a
  one-hot table oh[b, c, t] = 1 if the class coordinate c is the label of target t, else 0; the two
  batched products p · oh and (p − p) · oh over the class axis; and the negative of their sum.
  At the ideal values every narrowing is the identity.  The first product at (b, q, t) is the sum over c of
  p[b,q,c] · oh[b,c,t], in which only c = label(b,t) contributes, so it is p[b,q,label(b,t)]; the logits being
  finite, p is a real, p − p is 0 and the second product is 0.  Hence the payload at (b, q, t) is
  −p[b,q,label(b,t)], the specification's class probability negated.
-/
import proofs.«412448_j60825326846459_2_alg».proof.Proof.Gen.KernelIdeal.Skeleton
import proofs.«412448_j60825326846459_2_alg».proof.Proof.CostSpec
import proofs.«412448_j60825326846459_2_alg».proof.Proof.KernelClassFacts
import Idealize.ShloMosaic.PureOps.Ideal.Laws
import Idealize.ShloMosaic.Lib.ValueIdx
import Idealize.ShloMosaic.Lib.Pipeline.Value

noncomputable section

namespace Cert.KernelIdeal.KClass

open Idealize.ShloMosaic Idealize.ShloMosaic.ValueIdx Cert.KernelIdeal Cert.KernelIdeal.Facts₀ Cert.CostSpec

/-! ## The softmax side: the row maximum, the exponentials, their sum and the quotient -/

/-- The index a one-axis reduction over the class axis inserts is (batch, query, class). -/
theorem lift_class (h : S2x900x256.Reduces [2] S2x900) (bb : Fin 2) (q : Fin 900) (c : Fin 256) :
    h.lift (ix2 bb q) c = ix3 bb q c := by
  funext a
  apply Fin.ext
  match a with
  | ⟨0, _⟩ => rfl
  | ⟨1, _⟩ => rfl
  | ⟨2, _⟩ => rfl

/-- The vector of row maxima. -/
def vMax (x0 : FVec Ideal S2x900x256 .f32) : FVec Ideal S2x900 .f32 :=
  multiReduction .maximumf [2] S2x900 x0 0xFF800000#32 reduces_S2x900x256_S2x900 (.inl rfl) rfl

/-- At (batch, query) it is the maximum of that row of logits. -/
theorem vMax_apply (x0 : FVec Ideal S2x900x256 .f32) (bb : Fin 2) (q : Fin 900) :
    vMax x0 (ix2 bb q) = rowMax (fun c => x0 (ix3 bb q c)) := by
  unfold vMax
  refine (Ideal.multiReduction_maximumf_single x0 _ reduces_S2x900x256_S2x900 (.inl rfl) rfl (ix2 bb q)).trans ?_
  show (Finset.univ : Finset (Fin 256)).fold max (Ideal.ofBits .f32 0xFF800000#32) (x0 ∘ reduces_S2x900x256_S2x900.lift (ix2 bb q)) = _
  unfold rowMax
  refine congrArg (fun f => (Finset.univ : Finset (Fin 256)).fold max ninf f) ?_
  funext c
  exact congrArg x0 (lift_class _ bb q c)

/-- A [2,900] vector cast to [2,900,1] and broadcast along the class axis reads its (batch, query) entry. -/
theorem bcast_row_apply (v : FVec Ideal S2x900 .f32) (bb : Fin 2) (q : Fin 900) (c : Fin 256) :
    broadcastTo S2x900x256 (shapeCast S2x900x1 v shapeCasts_S2x900_S2x900x1) broadcasts_S2x900x1_S2x900x256 (ix3 bb q c)
      = v (ix2 bb q) := by
  refine (broadcastTo_apply _ broadcasts_S2x900x1_S2x900x256 (ix3 bb q c) (ix3 bb q (0 : Fin 1)) (fun a => ?_)).trans ?_
  · match a with
    | ⟨0, _⟩ => rfl
    | ⟨1, _⟩ => rfl
    | ⟨2, _⟩ => rfl
  · refine shapeCast_apply v shapeCasts_S2x900_S2x900x1 (ix3 bb q (0 : Fin 1)) (ix2 bb q) ?_
    rw [Shape.rowMajor_val_two, Shape.rowMajor_val_three]
    show bb.val * 900 + q.val = (bb.val * 900 + q.val) * 1 + 0
    omega

/-- The vector of exponentials of the logits less their row maximum. -/
def vExp (x0 : FVec Ideal S2x900x256 .f32) : FVec Ideal S2x900x256 .f32 :=
  exp (subf x0 (broadcastTo S2x900x256 (shapeCast S2x900x1 (vMax x0) shapeCasts_S2x900_S2x900x1) broadcasts_S2x900x1_S2x900x256))

theorem vExp_apply (x0 : FVec Ideal S2x900x256 .f32) (bb : Fin 2) (q : Fin 900) (c : Fin 256) :
    vExp x0 (ix3 bb q c) = Ideal.exp (x0 (ix3 bb q c) - rowMax (fun k => x0 (ix3 bb q k))) := by
  show Ideal.exp (x0 (ix3 bb q c) - broadcastTo S2x900x256 (shapeCast S2x900x1 (vMax x0) shapeCasts_S2x900_S2x900x1) broadcasts_S2x900x1_S2x900x256 (ix3 bb q c)) = _
  rw [bcast_row_apply, vMax_apply]

/-- The vector of row sums of the exponentials. -/
def vSum (x0 : FVec Ideal S2x900x256 .f32) : FVec Ideal S2x900 .f32 :=
  multiReduction .add [2] S2x900 (vExp x0) 0x00000000#32 reduces_S2x900x256_S2x900 (.inl rfl) rfl

theorem vSum_apply (x0 : FVec Ideal S2x900x256 .f32) (bb : Fin 2) (q : Fin 900) :
    vSum x0 (ix2 bb q) = ∑ k : Fin 256, Ideal.exp (x0 (ix3 bb q k) - rowMax (fun c => x0 (ix3 bb q c))) := by
  unfold vSum
  refine (Ideal.multiReduction_add_single (vExp x0) _ reduces_S2x900x256_S2x900 (.inl rfl) rfl (ix2 bb q)).trans ?_
  show ∑ k : Fin 256, vExp x0 (reduces_S2x900x256_S2x900.lift (ix2 bb q) k) = _
  refine Finset.sum_congr rfl fun k _ => ?_
  rw [lift_class, vExp_apply]

/-- The softmax: each exponential over its row's sum. -/
def vProb (x0 : FVec Ideal S2x900x256 .f32) : FVec Ideal S2x900x256 .f32 :=
  divf (vExp x0) (broadcastTo S2x900x256 (shapeCast S2x900x1 (vSum x0) shapeCasts_S2x900_S2x900x1) broadcasts_S2x900x1_S2x900x256)

/-- At (batch, query, class) it is the specification's probability of that class in that row. -/
theorem vProb_apply (x0 : FVec Ideal S2x900x256 .f32) (bb : Fin 2) (q : Fin 900) (c : Fin 256) :
    vProb x0 (ix3 bb q c) = prob (fun k => x0 (ix3 bb q k)) c := by
  show Ideal.div (vExp x0 (ix3 bb q c)) (broadcastTo S2x900x256 (shapeCast S2x900x1 (vSum x0) shapeCasts_S2x900_S2x900x1) broadcasts_S2x900x1_S2x900x256 (ix3 bb q c)) = _
  rw [bcast_row_apply, vSum_apply, vExp_apply]
  rfl

/-! ## The one-hot table of the labels -/

/-- The labels block, re-laid as [2,256] and back and broadcast along the class axis, reads the label of (batch, target). -/
theorem labels_apply (x3 : IVec S2x1x256 32) (bb : Fin 2) (c t : Fin 256) :
    broadcastTo S2x256x256 (shapeCast S2x1x256 (shapeCast S2x256 (shapeCast S2x1x256 x3 shapeCasts_S2x1x256_S2x1x256)
        shapeCasts_S2x1x256_S2x256) shapeCasts_S2x256_S2x1x256) broadcasts_S2x1x256_S2x256x256 (ix3 bb c t)
      = x3 (ix3 bb (0 : Fin 1) t) := by
  refine (broadcastTo_apply _ broadcasts_S2x1x256_S2x256x256 (ix3 bb c t) (ix3 bb (0 : Fin 1) t) (fun a => ?_)).trans ?_
  · match a with
    | ⟨0, _⟩ => rfl
    | ⟨1, _⟩ => rfl
    | ⟨2, _⟩ => rfl
  refine (shapeCast_apply _ shapeCasts_S2x256_S2x1x256 (ix3 bb (0 : Fin 1) t) (ix2 bb t) ?_).trans ?_
  · rw [Shape.rowMajor_val_two, Shape.rowMajor_val_three]
    show bb.val * 256 + t.val = (bb.val * 1 + 0) * 256 + t.val
    omega
  refine (shapeCast_apply _ shapeCasts_S2x1x256_S2x256 (ix2 bb t) (ix3 bb (0 : Fin 1) t) ?_).trans ?_
  · rw [Shape.rowMajor_val_two, Shape.rowMajor_val_three]
    show (bb.val * 1 + 0) * 256 + t.val = bb.val * 256 + t.val
    omega
  rw [shapeCast_self]

/-- The one-hot table: 1 where the class coordinate is the target's label, as words, else 0. -/
def vOneHot (x3 : IVec S2x1x256 32) : FVec Ideal S2x256x256 .f32 :=
  sitofp .f32 (extui 32 (cmpi .eq (iota .tc S2x256x256 32 [1] iota_S2x256x256_d1_w32)
    (broadcastTo S2x256x256 (shapeCast S2x1x256 (shapeCast S2x256 (shapeCast S2x1x256 x3 shapeCasts_S2x1x256_S2x1x256)
        shapeCasts_S2x1x256_S2x256) shapeCasts_S2x256_S2x1x256) broadcasts_S2x1x256_S2x256x256)) natLt_1_32)

theorem vOneHot_apply (x3 : IVec S2x1x256 32) (bb : Fin 2) (c t : Fin 256) :
    vOneHot x3 (ix3 bb c t) = if BitVec.ofNat 32 c.val = x3 (ix3 bb (0 : Fin 1) t) then 1 else 0 := by
  show (((((IntOp.cmpi .eq (iota .tc S2x256x256 32 [1] iota_S2x256x256_d1_w32 (ix3 bb c t))
      (broadcastTo S2x256x256 (shapeCast S2x1x256 (shapeCast S2x256 (shapeCast S2x1x256 x3 shapeCasts_S2x1x256_S2x1x256)
        shapeCasts_S2x1x256_S2x256) shapeCasts_S2x256_S2x1x256) broadcasts_S2x1x256_S2x256x256 (ix3 bb c t))).setWidth 32).toInt : ℤ) : ℝ) : EReal) = _
  rw [iota_single_apply, labels_apply]
  exact onehot_word _ _

/-! ## The batched product with the one-hot table -/

/-- The left operand's index at output (batch, query, target) and contraction coordinate c is (batch, query, c). -/
theorem lhs_idx (bb : Fin 2) (q : Fin 900) (t c : Fin 256) :
    dot_S2x900x256_S2x256x256_S2x900x256_2_1_1_2_0_0.lhsIdx (ix3 bb q t)
      ((contrEquiv1 dot_S2x900x256_S2x256x256_S2x900x256_2_1_1_2_0_0 256 rfl rfl).symm c) = ix3 bb q c := by
  funext ax
  apply Fin.ext
  match ax with
  | ⟨0, _⟩ => simp [DotDims.lhsIdx, dot_S2x900x256_S2x256x256_S2x900x256_2_1_1_2_0_0]; rfl
  | ⟨1, _⟩ => simp [DotDims.lhsIdx, dot_S2x900x256_S2x256x256_S2x900x256_2_1_1_2_0_0]; rfl
  | ⟨2, _⟩ =>
    exact (DotDims.lhsIdx_val_of_single dot_S2x900x256_S2x256x256_S2x900x256_2_1_1_2_0_0 (cl := 2) rfl _ _).trans
      (contrEquiv1_symm_val dot_S2x900x256_S2x256x256_S2x900x256_2_1_1_2_0_0 256 rfl rfl c)

/-- The right operand's index there is (batch, c, target). -/
theorem rhs_idx (bb : Fin 2) (q : Fin 900) (t c : Fin 256) :
    dot_S2x900x256_S2x256x256_S2x900x256_2_1_1_2_0_0.rhsIdx (ix3 bb q t)
      ((contrEquiv1 dot_S2x900x256_S2x256x256_S2x900x256_2_1_1_2_0_0 256 rfl rfl).symm c) = ix3 bb c t := by
  funext ax
  apply Fin.ext
  match ax with
  | ⟨0, _⟩ => simp [DotDims.rhsIdx, dot_S2x900x256_S2x256x256_S2x900x256_2_1_1_2_0_0]; rfl
  | ⟨1, _⟩ =>
    exact (DotDims.rhsIdx_val_of_single dot_S2x900x256_S2x256x256_S2x900x256_2_1_1_2_0_0 (cr := 1) rfl _ _).trans
      (contrEquiv1_symm_val dot_S2x900x256_S2x256x256_S2x900x256_2_1_1_2_0_0 256 rfl rfl c)
  | ⟨2, _⟩ => simp [DotDims.rhsIdx, dot_S2x900x256_S2x256x256_S2x900x256_2_1_1_2_0_0]; rfl

/-- The product into the zero splat, read at (batch, query, target): the sum over the classes of the products. -/
theorem matmul_read (A : FVec Ideal S2x900x256 .bf16) (B : FVec Ideal S2x256x256 .bf16) (bb : Fin 2) (q : Fin 900) (t : Fin 256) :
    matmul dot_S2x900x256_S2x256x256_S2x900x256_2_1_1_2_0_0 none A B (constant S2x900x256 .f32 0x00000000#32) (ix3 bb q t)
      = ∑ c : Fin 256, A (ix3 bb q c) * B (ix3 bb c t) := by
  show FloatOps.matmul dot_S2x900x256_S2x256x256_S2x900x256_2_1_1_2_0_0 none A B (constant S2x900x256 .f32 0x00000000#32) (ix3 bb q t) = _
  rw [Ideal.matmul_constant_zero_apply,
    ← Equiv.sum_comp (contrEquiv1 dot_S2x900x256_S2x256x256_S2x900x256_2_1_1_2_0_0 256 rfl rfl).symm]
  refine Finset.sum_congr rfl fun c _ => ?_
  rw [lhs_idx, rhs_idx]

/-! ## The payload, and its value at an index -/

/-- The payload is the zero splat less the sum of the two products of the (narrowed) softmax, and of the softmax less
    itself, with the (narrowed) one-hot table: the printed sequence with its intermediate vectors named. -/
theorem pay2_eq (x0 : Vec Ideal S2x900x256 .f32) (x3 : Vec Ideal S2x1x256 .i32) :
    Cert.KernelIdeal.Gen.k0_pay2 (F := Ideal) x0 x3
      = subf (broadcast S2x900x256 (Scalar.ofBits (F := Ideal) .f32 0x00000000#32))
          (addf
            (matmul dot_S2x900x256_S2x256x256_S2x900x256_2_1_1_2_0_0 none (truncf .bf16 (vProb x0) bitsLt_bf16_f32)
              (truncf .bf16 (vOneHot x3) bitsLt_bf16_f32) (constant S2x900x256 .f32 0x00000000#32))
            (matmul dot_S2x900x256_S2x256x256_S2x900x256_2_1_1_2_0_0 none
              (truncf .bf16 (subf (vProb x0) (vProb x0)) bitsLt_bf16_f32)
              (truncf .bf16 (vOneHot x3) bitsLt_bf16_f32) (constant S2x900x256 .f32 0x00000000#32))) := rfl

/-- THE CLASS COST AT AN INDEX: for finite logits and in-range labels the payload at (batch, query, target) is the
    negated probability, in that query's row of logits, of the target's label. -/
theorem classCost_apply (x0 : Vec Ideal S2x900x256 .f32) (x3 : Vec Ideal S2x1x256 .i32)
    (hfin : ∀ i, x0 i ≠ ⊤ ∧ x0 i ≠ ⊥) (hlab : ∀ j, (x3 j).toNat < 256) (bb : Fin 2) (q : Fin 900) (t : Fin 256) :
    Cert.KernelIdeal.Gen.k0_pay2 (F := Ideal) x0 x3 (ix3 bb q t)
      = -(Cert.CostSpec.prob (fun c => x0 (ix3 bb q c)) (Cert.CostSpec.labelIdx (x3 (ix3 bb (0 : Fin 1) t)))) := by
  have hrow : ∀ c : Fin 256, (fun k => x0 (ix3 bb q k)) c ≠ ⊤ ∧ (fun k => x0 (ix3 bb q k)) c ≠ ⊥ := fun c => hfin _
  -- the first product: only the label's class contributes
  have h1 : ∑ c : Fin 256, (truncf .bf16 (vProb x0) bitsLt_bf16_f32 : FVec Ideal S2x900x256 .bf16) (ix3 bb q c)
        * (truncf .bf16 (vOneHot x3) bitsLt_bf16_f32 : FVec Ideal S2x256x256 .bf16) (ix3 bb c t)
      = prob (fun k => x0 (ix3 bb q k)) (labelIdx (x3 (ix3 bb (0 : Fin 1) t))) := by
    rw [Finset.sum_eq_single (labelIdx (x3 (ix3 bb (0 : Fin 1) t)))]
    · show vProb x0 (ix3 bb q (labelIdx (x3 (ix3 bb (0 : Fin 1) t))))
          * vOneHot x3 (ix3 bb (labelIdx (x3 (ix3 bb (0 : Fin 1) t))) t) = _
      rw [vProb_apply, vOneHot_apply, if_pos ((word_eq_iff _ _ (hlab _)).mpr rfl), mul_one]
    · intro c _ hc
      show vProb x0 (ix3 bb q c) * vOneHot x3 (ix3 bb c t) = 0
      rw [vOneHot_apply, if_neg (fun h => hc ((word_eq_iff c _ (hlab _)).mp h)), mul_zero]
    · intro h
      exact absurd (Finset.mem_univ _) h
  -- the second product: every term has the factor p − p = 0
  have h2 : ∑ c : Fin 256, (truncf .bf16 (subf (vProb x0) (vProb x0)) bitsLt_bf16_f32 : FVec Ideal S2x900x256 .bf16) (ix3 bb q c)
        * (truncf .bf16 (vOneHot x3) bitsLt_bf16_f32 : FVec Ideal S2x256x256 .bf16) (ix3 bb c t) = 0 := by
    refine Finset.sum_eq_zero fun c _ => ?_
    show (vProb x0 (ix3 bb q c) - vProb x0 (ix3 bb q c)) * vOneHot x3 (ix3 bb c t) = 0
    rw [vProb_apply, prob_sub_self _ hrow, zero_mul]
  rw [pay2_eq]
  show Ideal.ofBits .f32 0x00000000#32
      - (matmul dot_S2x900x256_S2x256x256_S2x900x256_2_1_1_2_0_0 none (truncf .bf16 (vProb x0) bitsLt_bf16_f32)
            (truncf .bf16 (vOneHot x3) bitsLt_bf16_f32) (constant S2x900x256 .f32 0x00000000#32) (ix3 bb q t)
          + matmul dot_S2x900x256_S2x256x256_S2x900x256_2_1_1_2_0_0 none
              (truncf .bf16 (subf (vProb x0) (vProb x0)) bitsLt_bf16_f32)
              (truncf .bf16 (vOneHot x3) bitsLt_bf16_f32) (constant S2x900x256 .f32 0x00000000#32) (ix3 bb q t)) = _
  rw [matmul_read, matmul_read, h1, h2, add_zero, Ideal.ofBits_zero_f32, zero_sub]

end Cert.KernelIdeal.KClass

end
-- ==== Proof.KernelBox.lean ====
/-
  The kernel's box costs and its final combination, read at one index (batch, query, target).

  The body's value is a chain of pointwise extended-real operations over eight coordinate
  vectors: the four columns of the query boxes block [2,900,4] and the four rows of the
  transposed target boxes block [2,4,256], each stretched to [2,900,256].  A column slice read
  at (b,q,0) is the block at (b,q,k); a row slice read at (b,0,t) is the block at (b,k,t); a
  stretch of a [2,900,1] vector read at (b,q,t) is the vector at (b,q,0), and of a [2,1,256]
  vector the vector at (b,0,t).  With these four readings every payload of the body is, at
  (b,q,t), the matching piece of the specification: corners, L1 distance, areas, overlap,
  hull, generalized IoU, the weighted sum and the scrub of the two infinities.
-/
import proofs.«412448_j60825326846459_2_alg».proof.Proof.Gen.KernelIdeal.Skeleton
import proofs.«412448_j60825326846459_2_alg».proof.Proof.CostSpec
import Idealize.ShloMosaic.Lib.ValueIdx
import Idealize.ShloMosaic.Lib.Pipeline.Value
import Idealize.ShloMosaic.PureOps.Ideal.Laws

noncomputable section

namespace Cert.KernelIdeal.KBox

open Idealize.ShloMosaic Idealize.ShloMosaic.ValueIdx
open Cert.KernelIdeal Cert.KernelIdeal.Gen

/-! ## The four layout readings -/

section Layout
variable {α : Type}

/-- Column `k` of a [2,900,4] block, read at (b,q,0), is the block at (b,q,k). -/
theorem col_apply (k : Nat) (x : S2x900x4.Idx → α) (h : S2x900x4.Slices ![0, 0, k] S2x900x1)
    (bb : Fin 2) (q : Fin 900) (kk : Fin 4) (hkk : kk.val = k) :
    extractStridedSlice S2x900x1 ![0, 0, k] x h (ix3 bb q (0 : Fin 1)) = x (ix3 bb q kk) :=
  extractStridedSlice_apply _ x h _ _ fun a =>
    match a with
    | ⟨0, _⟩ => by show bb.val = 0 + bb.val; omega
    | ⟨1, _⟩ => by show q.val = 0 + q.val; omega
    | ⟨2, _⟩ => by show kk.val = k + 0; omega

/-- Row `k` of a [2,4,256] block, read at (b,0,t), is the block at (b,k,t). -/
theorem row_apply (k : Nat) (x : S2x4x256.Idx → α) (h : S2x4x256.Slices ![0, k, 0] S2x1x256)
    (bb : Fin 2) (t : Fin 256) (kk : Fin 4) (hkk : kk.val = k) :
    extractStridedSlice S2x1x256 ![0, k, 0] x h (ix3 bb (0 : Fin 1) t) = x (ix3 bb kk t) :=
  extractStridedSlice_apply _ x h _ _ fun a =>
    match a with
    | ⟨0, _⟩ => by show bb.val = 0 + bb.val; omega
    | ⟨1, _⟩ => by show kk.val = k + 0; omega
    | ⟨2, _⟩ => by show t.val = 0 + t.val; omega

/-- A [2,900,1] vector stretched to [2,900,256], read at (b,q,t), is the vector at (b,q,0). -/
theorem bcQ_apply (v : S2x900x1.Idx → α) (h : S2x900x1.Broadcasts S2x900x256)
    (bb : Fin 2) (q : Fin 900) (t : Fin 256) :
    broadcastTo S2x900x256 v h (ix3 bb q t) = v (ix3 bb q (0 : Fin 1)) :=
  broadcastTo_apply v h _ _ fun a =>
    match a with
    | ⟨0, _⟩ => rfl
    | ⟨1, _⟩ => rfl
    | ⟨2, _⟩ => rfl

/-- A [2,1,256] vector stretched to [2,900,256], read at (b,q,t), is the vector at (b,0,t). -/
theorem bcT_apply (v : S2x1x256.Idx → α) (h : S2x1x256.Broadcasts S2x900x256)
    (bb : Fin 2) (q : Fin 900) (t : Fin 256) :
    broadcastTo S2x900x256 v h (ix3 bb q t) = v (ix3 bb (0 : Fin 1) t) :=
  broadcastTo_apply v h _ _ fun a =>
    match a with
    | ⟨0, _⟩ => rfl
    | ⟨1, _⟩ => rfl
    | ⟨2, _⟩ => rfl

end Layout

/-! ## The slices of the two boxes blocks at an index -/

section Slices
variable (x1 : Vec Ideal S2x900x4 .f32) (x2 : Vec Ideal S2x4x256 .f32) (bb : Fin 2) (q : Fin 900) (t : Fin 256)

/-- The query boxes' centre-x column. -/
theorem pay4_at : k0_pay4 x1 (ix3 bb q (0 : Fin 1)) = x1 (ix3 bb q (0 : Fin 4)) := by
  unfold k0_pay4; exact col_apply 0 x1 _ bb q 0 rfl
/-- The query boxes' centre-y column. -/
theorem pay5_at : k0_pay5 x1 (ix3 bb q (0 : Fin 1)) = x1 (ix3 bb q (1 : Fin 4)) := by
  unfold k0_pay5; exact col_apply 1 x1 _ bb q 1 rfl
/-- The query boxes' width column. -/
theorem pay6_at : k0_pay6 x1 (ix3 bb q (0 : Fin 1)) = x1 (ix3 bb q (2 : Fin 4)) := by
  unfold k0_pay6; exact col_apply 2 x1 _ bb q 2 rfl
/-- The query boxes' height column. -/
theorem pay7_at : k0_pay7 x1 (ix3 bb q (0 : Fin 1)) = x1 (ix3 bb q (3 : Fin 4)) := by
  unfold k0_pay7; exact col_apply 3 x1 _ bb q 3 rfl

/-- The cast of the target boxes block to its own shape is the block. -/
theorem pay3_eq : k0_pay3 x2 = x2 := by
  unfold k0_pay3; exact shapeCast_self x2 _

/-- The target boxes' centre-x row. -/
theorem pay8_at : k0_pay8 x2 (ix3 bb (0 : Fin 1) t) = x2 (ix3 bb (0 : Fin 4) t) := by
  unfold k0_pay8; rw [pay3_eq]; exact row_apply 0 x2 _ bb t 0 rfl
/-- The target boxes' centre-y row. -/
theorem pay9_at : k0_pay9 x2 (ix3 bb (0 : Fin 1) t) = x2 (ix3 bb (1 : Fin 4) t) := by
  unfold k0_pay9; rw [pay3_eq]; exact row_apply 1 x2 _ bb t 1 rfl
/-- The target boxes' width row. -/
theorem pay10_at : k0_pay10 x2 (ix3 bb (0 : Fin 1) t) = x2 (ix3 bb (2 : Fin 4) t) := by
  unfold k0_pay10; rw [pay3_eq]; exact row_apply 2 x2 _ bb t 2 rfl
/-- The target boxes' height row. -/
theorem pay11_at : k0_pay11 x2 (ix3 bb (0 : Fin 1) t) = x2 (ix3 bb (3 : Fin 4) t) := by
  unfold k0_pay11; rw [pay3_eq]; exact row_apply 3 x2 _ bb t 3 rfl

end Slices

/-! ## Corners and areas: pointwise, so read at any index by unfolding -/

section Pointwise
open Cert.CostSpec

/-- The low x corner of the query boxes: centre minus half the width. -/
theorem pay13_eq (c w : FVec Ideal S2x900x1 .f32) (i : S2x900x1.Idx) :
    k0_pay13 c w (k0_pay12 (F := Ideal)) i = lo (c i) (w i) := rfl
/-- The low y corner of the query boxes. -/
theorem pay14_eq (c w : FVec Ideal S2x900x1 .f32) (i : S2x900x1.Idx) : k0_pay14 c w i = lo (c i) (w i) := rfl
/-- The high x corner of the query boxes: centre plus half the width. -/
theorem pay15_eq (c w : FVec Ideal S2x900x1 .f32) (i : S2x900x1.Idx) : k0_pay15 c w i = hi (c i) (w i) := rfl
/-- The high y corner of the query boxes. -/
theorem pay16_eq (c w : FVec Ideal S2x900x1 .f32) (i : S2x900x1.Idx) : k0_pay16 c w i = hi (c i) (w i) := rfl
/-- The low x corner of the target boxes. -/
theorem pay17_eq (c w : FVec Ideal S2x1x256 .f32) (i : S2x1x256.Idx) : k0_pay17 c w i = lo (c i) (w i) := rfl
/-- The low y corner of the target boxes. -/
theorem pay18_eq (c w : FVec Ideal S2x1x256 .f32) (i : S2x1x256.Idx) : k0_pay18 c w i = lo (c i) (w i) := rfl
/-- The high x corner of the target boxes. -/
theorem pay19_eq (c w : FVec Ideal S2x1x256 .f32) (i : S2x1x256.Idx) : k0_pay19 c w i = hi (c i) (w i) := rfl
/-- The high y corner of the target boxes. -/
theorem pay20_eq (c w : FVec Ideal S2x1x256 .f32) (i : S2x1x256.Idx) : k0_pay20 c w i = hi (c i) (w i) := rfl

/-- The query boxes' area: (high x − low x) · (high y − low y). -/
theorem pay22_eq (cx cy w h : FVec Ideal S2x900x1 .f32) (i : S2x900x1.Idx) :
    k0_pay22 cx cy w h (k0_pay12 (F := Ideal)) i
      = area (lo (cx i) (w i)) (lo (cy i) (h i)) (hi (cx i) (w i)) (hi (cy i) (h i)) := rfl
/-- The target boxes' area. -/
theorem pay23_eq (cx cy w h : FVec Ideal S2x1x256 .f32) (i : S2x1x256.Idx) :
    k0_pay23 cx cy w h i = area (lo (cx i) (w i)) (lo (cy i) (h i)) (hi (cx i) (w i)) (hi (cy i) (h i)) := rfl

end Pointwise

/-! ## The stretched payloads at (b,q,t) -/

section Stretched
open Cert.CostSpec
variable (bb : Fin 2) (q : Fin 900) (t : Fin 256)

/-- The absolute value at an index is the maximum of the element and its negative. -/
theorem absf_at {s : Shape} {φ : FTy} (v : FVec Ideal s φ) (i : s.Idx) : absf v i = absE (v i) := rfl

/-- The L1 cost: the four absolute coordinate differences, summed in coordinate order. -/
theorem pay21_at (pcx pcy pw ph : FVec Ideal S2x900x1 .f32) (tcx tcy tw th : FVec Ideal S2x1x256 .f32) :
    k0_pay21 pcx pcy pw ph tcx tcy tw th (ix3 bb q t)
      = l1 (pcx (ix3 bb q (0 : Fin 1))) (pcy (ix3 bb q (0 : Fin 1))) (pw (ix3 bb q (0 : Fin 1))) (ph (ix3 bb q (0 : Fin 1)))
          (tcx (ix3 bb (0 : Fin 1) t)) (tcy (ix3 bb (0 : Fin 1) t)) (tw (ix3 bb (0 : Fin 1) t)) (th (ix3 bb (0 : Fin 1) t)) := by
  unfold k0_pay21
  simp only [addf_apply, subf_apply, absf_at, bcQ_apply, bcT_apply]
  rfl

/-- The larger of the two low x corners. -/
theorem pay24_at (pcx pw : FVec Ideal S2x900x1 .f32) (tcx tw : FVec Ideal S2x1x256 .f32) :
    k0_pay24 pcx pw tcx tw (k0_pay12 (F := Ideal)) (ix3 bb q t)
      = max (lo (pcx (ix3 bb q (0 : Fin 1))) (pw (ix3 bb q (0 : Fin 1))))
          (lo (tcx (ix3 bb (0 : Fin 1) t)) (tw (ix3 bb (0 : Fin 1) t))) := by
  unfold k0_pay24
  simp only [maximumf_apply, bcQ_apply, bcT_apply]
  rfl

/-- The query boxes' low y corner, stretched. -/
theorem pay25_at (pcy ph : FVec Ideal S2x900x1 .f32) :
    k0_pay25 pcy ph (ix3 bb q t) = lo (pcy (ix3 bb q (0 : Fin 1))) (ph (ix3 bb q (0 : Fin 1))) := by
  unfold k0_pay25
  simp only [bcQ_apply]
  rfl

/-- The target boxes' low y corner, stretched. -/
theorem pay26_at (tcy th : FVec Ideal S2x1x256 .f32) :
    k0_pay26 tcy th (ix3 bb q t) = lo (tcy (ix3 bb (0 : Fin 1) t)) (th (ix3 bb (0 : Fin 1) t)) := by
  unfold k0_pay26
  simp only [bcT_apply]
  rfl

end Stretched

/-! ## The weighted sum and the scrub at (b,q,t) -/

section Combine
open Cert.CostSpec
variable (bb : Fin 2) (q : Fin 900) (t : Fin 256)

/-- THE WEIGHTED SUM. Where, at (b,q,t), the class payload is −p, the eight corner vectors are the
    specification's corners of the two boxes, and the L1 payload, the two area payloads and the three
    low-corner payloads are the specification's pieces, the sum 1·class + 5·L1 + 2·(0 − GIoU) is the
    argument of the specification's scrub: intersection, union, hull and the two quotients are the
    specification's `giou` operation by operation, and 0 − g is −g. -/
theorem pay27_at {v28 : FVec Ideal S2x900x256 .f32} {v42 v45 v48 v51 : FVec Ideal S2x900x1 .f32}
    {v54 v57 v60 v63 : FVec Ideal S2x1x256 .f32} {v82 : FVec Ideal S2x900x256 .f32} {v85 : FVec Ideal S2x900x1 .f32}
    {v88 : FVec Ideal S2x1x256 .f32} {v91 v92 v93 : FVec Ideal S2x900x256 .f32}
    {pl pcx pcy pw ph tcx tcy tw th : EReal}
    (h28 : v28 (ix3 bb q t) = -pl)
    (h42 : v42 (ix3 bb q (0 : Fin 1)) = lo pcx pw) (h45 : v45 (ix3 bb q (0 : Fin 1)) = lo pcy ph)
    (h48 : v48 (ix3 bb q (0 : Fin 1)) = hi pcx pw) (h51 : v51 (ix3 bb q (0 : Fin 1)) = hi pcy ph)
    (h54 : v54 (ix3 bb (0 : Fin 1) t) = lo tcx tw) (h57 : v57 (ix3 bb (0 : Fin 1) t) = lo tcy th)
    (h60 : v60 (ix3 bb (0 : Fin 1) t) = hi tcx tw) (h63 : v63 (ix3 bb (0 : Fin 1) t) = hi tcy th)
    (h82 : v82 (ix3 bb q t) = l1 pcx pcy pw ph tcx tcy tw th)
    (h85 : v85 (ix3 bb q (0 : Fin 1)) = area (lo pcx pw) (lo pcy ph) (hi pcx pw) (hi pcy ph))
    (h88 : v88 (ix3 bb (0 : Fin 1) t) = area (lo tcx tw) (lo tcy th) (hi tcx tw) (hi tcy th))
    (h91 : v91 (ix3 bb q t) = max (lo pcx pw) (lo tcx tw))
    (h92 : v92 (ix3 bb q t) = lo pcy ph) (h93 : v93 (ix3 bb q t) = lo tcy th) :
    k0_pay27 v28 v42 v45 v48 v51 v54 v57 v60 v63 v82 v85 v88 v91 v92 v93 (ix3 bb q t)
      = (wClass * (-pl) + wBox * l1 pcx pcy pw ph tcx tcy tw th) + wGiou * (-(giou pcx pcy pw ph tcx tcy tw th)) := by
  unfold k0_pay27
  simp only [addf_apply, subf_apply, mulf_apply, divf_apply, maximumf_apply, minimumf_apply, broadcast_apply,
    bcQ_apply, bcT_apply, h28, h42, h45, h48, h51, h54, h57, h60, h63, h82, h85, h88, h91, h92, h93]
  -- the kernel's 0 − g against the specification's −g
  rw [show ∀ g : EReal, (Scalar.ofBits (F := Ideal) .f32 0x00000000#32 : EReal) - g = -g from fun g => by
    show zero - g = -g
    rw [zero_eq, zero_sub]]
  rfl

/-- An extended real is never different from itself, so the comparison "ordered and not equal" of a value
    with itself is the bit 0. -/
theorem cmp_one_self (x : EReal) : Ideal.cmp .one x x = 0#1 := by
  unfold Ideal.cmp
  simp

/-- THE SCRUB. The two replacements of the infinities are the specification's; the last select, on "the value
    differs from itself", never fires. -/
theorem pay1_at (v : FVec Ideal S2x900x256 .f32) (i : S2x900x256.Idx) :
    k0_pay1 v (Scalar.ofBits .f32 0x7F800000#32) i = scrub (v i) := by
  show Scalar.select (Ideal.cmp .one (scrub (v i)) (scrub (v i))) big (scrub (v i)) = scrub (v i)
  rw [cmp_one_self, select_zero]

end Combine

/-! ## The body's stored value -/

/-- The value the body stores, as a function of the class payload and the two boxes blocks: the stored term with the
    class payload a parameter and each whole-block load the block itself. -/
def bodyOut {F : FTy → Type} [FloatOps F] (cls : FVec F S2x900x256 .f32) (x1 : Vec F S2x900x4 .f32) (x2 : Vec F S2x4x256 .f32) :
    FVec F S2x900x256 .f32 :=
  k0_pay1 (k0_pay27 cls (k0_pay13 (k0_pay4 x1) (k0_pay6 x1) (k0_pay12 (F := F))) (k0_pay14 (k0_pay5 x1) (k0_pay7 x1)) (k0_pay15 (k0_pay4 x1) (k0_pay6 x1)) (k0_pay16 (k0_pay5 x1) (k0_pay7 x1)) (k0_pay17 (k0_pay8 x2) (k0_pay10 x2)) (k0_pay18 (k0_pay9 x2) (k0_pay11 x2)) (k0_pay19 (k0_pay8 x2) (k0_pay10 x2)) (k0_pay20 (k0_pay9 x2) (k0_pay11 x2)) (k0_pay21 (k0_pay4 x1) (k0_pay5 x1) (k0_pay6 x1) (k0_pay7 x1) (k0_pay8 x2) (k0_pay9 x2) (k0_pay10 x2) (k0_pay11 x2)) (k0_pay22 (k0_pay4 x1) (k0_pay5 x1) (k0_pay6 x1) (k0_pay7 x1) (k0_pay12 (F := F))) (k0_pay23 (k0_pay8 x2) (k0_pay9 x2) (k0_pay10 x2) (k0_pay11 x2)) (k0_pay24 (k0_pay4 x1) (k0_pay6 x1) (k0_pay8 x2) (k0_pay10 x2) (k0_pay12 (F := F))) (k0_pay25 (k0_pay5 x1) (k0_pay7 x1)) (k0_pay26 (k0_pay9 x2) (k0_pay11 x2))) (Scalar.ofBits .f32 0x7F800000#32)

/-- THE BODY AT AN INDEX: where the class payload at (b,q,t) is −p, the stored value there is the specification's
    pair cost of p, query box (b,q) and target box (b,t). -/
theorem bodyOut_apply (cls : FVec Ideal S2x900x256 .f32) (x1 : Vec Ideal S2x900x4 .f32) (x2 : Vec Ideal S2x4x256 .f32)
    (bb : Fin 2) (q : Fin 900) (t : Fin 256) (pl : EReal) (hcls : cls (ix3 bb q t) = -pl) :
    bodyOut (F := Ideal) cls x1 x2 (ix3 bb q t)
      = Cert.CostSpec.pairCost pl (x1 (ix3 bb q (0 : Fin 4))) (x1 (ix3 bb q (1 : Fin 4))) (x1 (ix3 bb q (2 : Fin 4))) (x1 (ix3 bb q (3 : Fin 4)))
          (x2 (ix3 bb (0 : Fin 4) t)) (x2 (ix3 bb (1 : Fin 4) t)) (x2 (ix3 bb (2 : Fin 4) t)) (x2 (ix3 bb (3 : Fin 4) t)) := by
  unfold bodyOut
  refine (pay1_at _ _).trans ?_
  unfold Cert.CostSpec.pairCost
  refine congrArg Cert.CostSpec.scrub ?_
  refine pay27_at bb q t hcls ?_ ?_ ?_ ?_ ?_ ?_ ?_ ?_ ?_ ?_ ?_ ?_ ?_ ?_
  · exact (pay13_eq _ _ _).trans (congrArg₂ Cert.CostSpec.lo (pay4_at x1 bb q) (pay6_at x1 bb q))
  · exact (pay14_eq _ _ _).trans (congrArg₂ Cert.CostSpec.lo (pay5_at x1 bb q) (pay7_at x1 bb q))
  · exact (pay15_eq _ _ _).trans (congrArg₂ Cert.CostSpec.hi (pay4_at x1 bb q) (pay6_at x1 bb q))
  · exact (pay16_eq _ _ _).trans (congrArg₂ Cert.CostSpec.hi (pay5_at x1 bb q) (pay7_at x1 bb q))
  · exact (pay17_eq _ _ _).trans (congrArg₂ Cert.CostSpec.lo (pay8_at x2 bb t) (pay10_at x2 bb t))
  · exact (pay18_eq _ _ _).trans (congrArg₂ Cert.CostSpec.lo (pay9_at x2 bb t) (pay11_at x2 bb t))
  · exact (pay19_eq _ _ _).trans (congrArg₂ Cert.CostSpec.hi (pay8_at x2 bb t) (pay10_at x2 bb t))
  · exact (pay20_eq _ _ _).trans (congrArg₂ Cert.CostSpec.hi (pay9_at x2 bb t) (pay11_at x2 bb t))
  · refine (pay21_at bb q t _ _ _ _ _ _ _ _).trans ?_
    rw [pay4_at, pay5_at, pay6_at, pay7_at, pay8_at, pay9_at, pay10_at, pay11_at]
  · refine (pay22_eq _ _ _ _ _).trans ?_
    rw [pay4_at, pay5_at, pay6_at, pay7_at]
  · refine (pay23_eq _ _ _ _ _).trans ?_
    rw [pay8_at, pay9_at, pay10_at, pay11_at]
  · refine (pay24_at bb q t _ _ _ _).trans ?_
    rw [pay4_at, pay6_at, pay8_at, pay10_at]
  · refine (pay25_at bb q t _ _).trans ?_
    rw [pay5_at, pay7_at]
  · refine (pay26_at bb q t _ _).trans ?_
    rw [pay9_at, pay11_at]

end Cert.KernelIdeal.KBox

end
-- ==== Proof.KernelArray.lean ====
/-
  From the kernel's blocks to its whole output array.

  The kernel's one grid of 32 points works on blocks of two batches: at point t each of the five windows holds
  rows 2t and 2t+1 (batch axis) of its array — the logits, the query boxes, the target boxes transposed to
  [64, 4, 256], the labels clipped to [0, 255] and given a unit middle axis, and the result.  Here:
  the two host arrays read at an index (the transpose at (b, k, s) is the target boxes at (b, s, k); the clip is the
  identity on a label in [0, 256); the unit axis reads (b, 0, s) at (b, s)); each window's block at a point as rows of
  its argument array; the value a point stores at (bb, q, s) as the matching cost of (batch 2t + bb, query q, target s),
  from the class part and the box part of the body; and, every batch row b lying in the block of point b / 2, the
  whole result array as the cost array `CostSpec.G` of the four arguments.
-/
import proofs.«412448_j60825326846459_2_alg».proof.Proof.Gen.KernelIdeal.Value
import proofs.«412448_j60825326846459_2_alg».proof.Proof.CostSpec
import proofs.«412448_j60825326846459_2_alg».proof.Proof.KernelClass
import proofs.«412448_j60825326846459_2_alg».proof.Proof.KernelBox
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.KArray

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.CostSpec (G Gat prob labelIdx pairCost)

variable (m : (ℓ : Loc nD τ sig) → Buf (Elt Ideal) ℓ) (ρ : Dev nD → PrngReg)

/-! ## The host arrays the region finds -/

/-- the label array clipped to [0, 255] as signed words: max with 0, then min with 255 -/
def clipped (lb : S64x256.Idx → BitVec 32) : S64x256.Idx → BitVec 32 :=
  minsi (broadcastInDim S64x256 ![] bcast_S_S64x256 (constantI S_ 32 255#32))
    (maxsi (broadcastInDim S64x256 ![] bcast_S_S64x256 (constantI S_ 32 0#32)) lb)

/-- The transposed target boxes as the region finds them. -/
theorem V_v0 (c : Dev nD) : (V m c main_v0 : S64x4x256.Idx → EReal)
    = transpose S64x4x256 [0, 2, 1] (m ((c : Thread nD τ).loc main_arg3) : S64x256x4.Idx → EReal) transposes_S64x256x4_S64x4x256_0_2_1 := by
  dsimp only [Gen.V]
  simp only [Gen.hostOps0, Gen.hostOps0_1, Gen.hostOps0_2, List.flatten_cons, List.flatten_nil, List.append_nil, List.cons_append, List.nil_append]
  after_results

/-- The labels as the region finds them: clipped, then given a unit middle axis. -/
theorem V_v2 (c : Dev nD) : (V m c main_v2 : S64x1x256.Idx → BitVec 32)
    = shapeCast S64x1x256 (clipped (m ((c : Thread nD τ).loc main_arg2) : S64x256.Idx → BitVec 32)) shapeCasts_S64x256_S64x1x256 := by
  dsimp only [Gen.V]
  simp only [Gen.hostOps0, Gen.hostOps0_1, Gen.hostOps0_2, List.flatten_cons, List.flatten_nil, List.append_nil, List.cons_append, List.nil_append]
  after_results
  rfl

/-- a word in [0, 256) is its own clip: as a signed number it lies between 0 and 255 -/
theorem clip_word (l : BitVec 32) (h : l.toNat < 256) : IntOp.minsi 255#32 (IntOp.maxsi 0#32 l) = l := by
  have hi : l.toInt = (l.toNat : Int) := by
    rw [BitVec.toInt_eq_toNat_cond, if_pos (by omega)]
  have h0 : (0#32 : BitVec 32).toInt = 0 := by decide
  have h255 : (255#32 : BitVec 32).toInt = 255 := by decide
  have e1 : IntOp.maxsi 0#32 l = l := by
    unfold IntOp.maxsi
    rw [if_neg]
    rw [BitVec.slt, hi, h0]
    simp
  rw [e1]
  unfold IntOp.minsi
  rw [if_neg]
  rw [BitVec.slt, hi, h255]
  simp
  omega

/-- the clipped label array at an index whose label is in range is the label -/
theorem clipped_apply (lb : S64x256.Idx → BitVec 32) (j : S64x256.Idx) (h : (lb j).toNat < 256) : clipped lb j = lb j :=
  clip_word (lb j) h

/-- the transposed target boxes at (b, k, t) are the target boxes at (b, t, k) -/
theorem transposed_apply (tb : S64x256x4.Idx → EReal) (b : Fin 64) (k : Fin 4) (t : Fin 256) :
    transpose S64x4x256 [0, 2, 1] tb transposes_S64x256x4_S64x4x256_0_2_1 (ix3 b k t) = tb (ix3 b t k) :=
  transpose_apply _ tb _ (ix3 b k t) (ix3 b t k) (fun a => by fin_cases a <;> rfl)

/-- the labels with a unit middle axis at (b, 0, t) are the labels at (b, t) -/
theorem unitAxis_apply (lb : S64x256.Idx → BitVec 32) (b : Fin 64) (z : Fin 1) (t : Fin 256) :
    shapeCast S64x1x256 lb shapeCasts_S64x256_S64x1x256 (ix3 b z t) = lb (ix2 b t) := by
  refine shapeCast_apply lb _ (ix3 b z t) (ix2 b t) ?_
  rw [Shape.rowMajor_val_two, Shape.rowMajor_val_three]
  have hz : z.val = 0 := by omega
  show b.val * 256 + t.val = (b.val * 1 + z.val) * 256 + t.val
  rw [hz]; omega

/-! ## Each window's block at a point, read off its array -/

/-- The printed index maps, decided over the 32 grid points: block t of every window starts at row 2·t of its array
    on the batch axis and at 0 on the two others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem t_lt (t : Fin cfg0.N) : t.val < 32 := lt_of_lt_of_eq t.isLt N_0

/-- the batch row of block coordinate bb at grid point t: 2·t + bb -/
def row (t : Fin cfg0.N) (bb : Fin 2) : Fin 64 := ⟨2 * t.val + bb.val, by have := t_lt t; omega⟩

/-- Window 0's block at t is rows 2t, 2t+1 of the logits. -/
theorem blk0 (c : Dev nD) (t : Fin cfg0.N) (bb : Fin 2) (q : Fin 900) (k : Fin 256) :
    (iblk m c 0 t : S2x900x256.Idx → EReal) (ix3 bb q k)
      = (m ((c : Thread nD τ).loc main_arg0) : S64x900x256.Idx → EReal) (ix3 (row t bb) q k) := by
  obtain ⟨⟨e0, e1, e2⟩, -⟩ := idx_facts t
  rw [← V_main_arg0 m c]
  show V m c main_arg0 (((cfg0.win 0).blk t).view.emb (ix3 bb q k)) = V m c main_arg0 (ix3 (row t bb) q k)
  refine congrArg (V m c main_arg0) (funext fun a => Fin.ext ?_)
  match a with
  | ⟨0, _⟩ => show win0_0.index t (0 : Fin 3) * 2 + 1 * bb.val = 2 * t.val + bb.val; omega
  | ⟨1, _⟩ => show win0_0.index t (1 : Fin 3) * 900 + 1 * q.val = q.val; omega
  | ⟨2, _⟩ => show win0_0.index t (2 : Fin 3) * 256 + 1 * k.val = k.val; omega

/-- Window 1's block at t is rows 2t, 2t+1 of the boxes. -/
theorem blk1 (c : Dev nD) (t : Fin cfg0.N) (bb : Fin 2) (q : Fin 900) (k : Fin 4) :
    (iblk m c 1 t : S2x900x4.Idx → EReal) (ix3 bb q k)
      = (m ((c : Thread nD τ).loc main_arg1) : S64x900x4.Idx → EReal) (ix3 (row t bb) q k) := by
  obtain ⟨-, ⟨e0, e1, e2⟩, -⟩ := idx_facts t
  rw [← V_main_arg1 m c]
  show V m c main_arg1 (((cfg0.win 1).blk t).view.emb (ix3 bb q k)) = V m c main_arg1 (ix3 (row t bb) q k)
  refine congrArg (V m c main_arg1) (funext fun a => Fin.ext ?_)
  match a with
  | ⟨0, _⟩ => show win0_1.index t (0 : Fin 3) * 2 + 1 * bb.val = 2 * t.val + bb.val; omega
  | ⟨1, _⟩ => show win0_1.index t (1 : Fin 3) * 900 + 1 * q.val = q.val; omega
  | ⟨2, _⟩ => show win0_1.index t (2 : Fin 3) * 4 + 1 * k.val = k.val; omega

/-- Window 2's block at t is rows 2t, 2t+1 of the transposed target boxes: at (bb, k, s) the target box s's coordinate k. -/
theorem blk2 (c : Dev nD) (t : Fin cfg0.N) (bb : Fin 2) (k : Fin 4) (s : Fin 256) :
    (iblk m c 2 t : S2x4x256.Idx → EReal) (ix3 bb k s)
      = (m ((c : Thread nD τ).loc main_arg3) : S64x256x4.Idx → EReal) (ix3 (row t bb) s k) := by
  obtain ⟨-, -, ⟨e0, e1, e2⟩, -⟩ := idx_facts t
  refine Eq.trans ?_ (transposed_apply _ (row t bb) k s)
  rw [← V_v0 m c]
  show V m c main_v0 (((cfg0.win 2).blk t).view.emb (ix3 bb k s)) = V m c main_v0 (ix3 (row t bb) k s)
  refine congrArg (V m c main_v0) (funext fun a => Fin.ext ?_)
  match a with
  | ⟨0, _⟩ => show win0_2.index t (0 : Fin 3) * 2 + 1 * bb.val = 2 * t.val + bb.val; omega
  | ⟨1, _⟩ => show win0_2.index t (1 : Fin 3) * 4 + 1 * k.val = k.val; omega
  | ⟨2, _⟩ => show win0_2.index t (2 : Fin 3) * 256 + 1 * s.val = s.val; omega

/-- Window 3's block at t is rows 2t, 2t+1 of the clipped labels with their unit axis: at (bb, 0, s) target s's label,
    the clip being the identity on a label in range. -/
theorem blk3 (c : Dev nD) (hlab : ∀ j, ((m ((c : Thread nD τ).loc main_arg2) : S64x256.Idx → BitVec 32) j).toNat < 256)
    (t : Fin cfg0.N) (bb : Fin 2) (z : Fin 1) (s : Fin 256) :
    (iblk m c 3 t : S2x1x256.Idx → BitVec 32) (ix3 bb z s)
      = (m ((c : Thread nD τ).loc main_arg2) : S64x256.Idx → BitVec 32) (ix2 (row t bb) s) := by
  obtain ⟨-, -, -, ⟨e0, e1, e2⟩, -⟩ := idx_facts t
  refine Eq.trans ?_ (clipped_apply _ (ix2 (row t bb) s) (hlab _))
  refine Eq.trans ?_ (unitAxis_apply _ (row t bb) z s)
  rw [← V_v2 m c]
  show V m c main_v2 (((cfg0.win 3).blk t).view.emb (ix3 bb z s)) = V m c main_v2 (ix3 (row t bb) z s)
  refine congrArg (V m c main_v2) (funext fun a => Fin.ext ?_)
  match a with
  | ⟨0, _⟩ => show win0_3.index t (0 : Fin 3) * 2 + 1 * bb.val = 2 * t.val + bb.val; omega
  | ⟨1, _⟩ => show win0_3.index t (1 : Fin 3) * 1 + 1 * z.val = z.val; omega
  | ⟨2, _⟩ => show win0_3.index t (2 : Fin 3) * 256 + 1 * s.val = s.val; omega

/-! ## What a point stores, at an index of its block -/

theorem hz : (![0, 0, 0] : Fin 3 → Nat) = fun _ => 0 := funext fun a => by fin_cases a <;> rfl

/-- The body's one covering store at zero offsets leaves its payload, whose loads are the whole blocks: the stored
    term is the box part's function of the class payload and the two box blocks. -/
theorem out_eq (x0 : Vec Ideal S2x900x256 .f32) (x1 : Vec Ideal S2x900x4 .f32) (x2 : Vec Ideal S2x4x256 .f32) (x3 : Vec Ideal S2x1x256 .i32) :
    out0_4 x0 x1 x2 x3 = KBox.bodyOut (F := Ideal) (k0_pay2 x0 x3) x1 x2 := by
  unfold out0_4 KBox.bodyOut
  rw [View.canon_unit_zero hz]
  simp only [View.ld_unit_zero (S := S2x900x256) hz, View.ld_unit_zero (S := S2x900x4) hz, View.ld_unit_zero (S := S2x4x256) hz, View.ld_unit_zero (S := S2x1x256) hz]

/-- WHAT A POINT STORES at (bb, q, s) of its block, for blocks that are rows `sel bb` of the four arrays: the cost of
    (batch `sel bb`, query q, target s). -/
theorem point_eq (x0 : Vec Ideal S2x900x256 .f32) (x1 : Vec Ideal S2x900x4 .f32) (x2 : Vec Ideal S2x4x256 .f32) (x3 : Vec Ideal S2x1x256 .i32)
    (lg : S64x900x256.Idx → EReal) (bx : S64x900x4.Idx → EReal) (lb : S64x256.Idx → BitVec 32) (tb : S64x256x4.Idx → EReal)
    (sel : Fin 2 → Fin 64)
    (h0 : ∀ (bb : Fin 2) (q : Fin 900) (k : Fin 256), x0 (ix3 bb q k) = lg (ix3 (sel bb) q k))
    (h1 : ∀ (bb : Fin 2) (q : Fin 900) (k : Fin 4), x1 (ix3 bb q k) = bx (ix3 (sel bb) q k))
    (h2 : ∀ (bb : Fin 2) (k : Fin 4) (s : Fin 256), x2 (ix3 bb k s) = tb (ix3 (sel bb) s k))
    (h3 : ∀ (bb : Fin 2) (z : Fin 1) (s : Fin 256), x3 (ix3 bb z s) = lb (ix2 (sel bb) s))
    (hfin : ∀ i, lg i ≠ ⊤ ∧ lg i ≠ ⊥) (hlab : ∀ j, (lb j).toNat < 256)
    (bb : Fin 2) (q : Fin 900) (s : Fin 256) :
    out0_4 x0 x1 x2 x3 (ix3 bb q s) = Gat lg bx lb tb (sel bb) q s := by
  have hfin0 : ∀ i, x0 i ≠ ⊤ ∧ x0 i ≠ ⊥ := fun i => by
    obtain ⟨b', q', k', rfl⟩ : ∃ (b' : Fin 2) (q' : Fin 900) (k' : Fin 256), i = ix3 b' q' k' := ⟨i 0, i 1, i 2, eq_ix3 i⟩
    rw [h0]; exact hfin _
  have hlab3 : ∀ j, (x3 j).toNat < 256 := fun j => by
    obtain ⟨b', z', s', rfl⟩ : ∃ (b' : Fin 2) (z' : Fin 1) (s' : Fin 256), j = ix3 b' z' s' := ⟨j 0, j 1, j 2, eq_ix3 j⟩
    rw [h3]; exact hlab _
  rw [out_eq]
  refine (KBox.bodyOut_apply _ x1 x2 bb q s _ (KClass.classCost_apply x0 x3 hfin0 hlab3 bb q s)).trans ?_
  unfold Gat
  rw [h3, h1, h1, h1, h1, h2, h2, h2, h2]
  simp only [h0]

/-! ## The whole array -/

/-- WHAT POINT t WRITES BACK is block t of the cost array of the four arguments. -/
theorem flushed_eq (c : Dev nD)
    (hfin : ∀ i, (m ((c : Thread nD τ).loc main_arg0) : S64x900x256.Idx → EReal) i ≠ (⊤ : EReal) ∧ (m ((c : Thread nD τ).loc main_arg0) : S64x900x256.Idx → EReal) i ≠ (⊥ : EReal))
    (hlab : ∀ j, ((m ((c : Thread nD τ).loc main_arg2) : S64x256.Idx → BitVec 32) j).toNat < 256) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2)) (m ((c : Thread nD τ).loc main_arg3))) := by
  obtain ⟨-, -, -, -, ⟨e0, e1, e2⟩⟩ := idx_facts t
  rw [flushed4]
  funext j
  obtain ⟨bb, q, s, rfl⟩ : ∃ (bb : Fin 2) (q : Fin 900) (s : Fin 256), j = ix3 bb q s := ⟨j 0, j 1, j 2, eq_ix3 (n0 := 2) (n1 := 900) (n2 := 256) j⟩
  have hemb : ((cfg0.win 4).blk t).view.emb (ix3 bb q s) = (ix3 (row t bb) q s : S64x900x256.Idx) := by
    funext a; apply Fin.ext
    match a with
    | ⟨0, _⟩ => show win0_4.index t (0 : Fin 3) * 2 + 1 * bb.val = 2 * t.val + bb.val; omega
    | ⟨1, _⟩ => show win0_4.index t (1 : Fin 3) * 900 + 1 * q.val = q.val; omega
    | ⟨2, _⟩ => show win0_4.index t (2 : Fin 3) * 256 + 1 * s.val = s.val; omega
  show out0_4 (iblk m c 0 t) (iblk m c 1 t) (iblk m c 2 t) (iblk m c 3 t) (ix3 bb q s)
    = G (m ((c : Thread nD τ).loc main_arg0)) (m ((c : Thread nD τ).loc main_arg1)) (m ((c : Thread nD τ).loc main_arg2)) (m ((c : Thread nD τ).loc main_arg3))
        (((cfg0.win 4).blk t).view.emb (ix3 bb q s))
  rw [hemb, Cert.CostSpec.G_ix3]
  exact point_eq (iblk m c 0 t) (iblk m c 1 t) (iblk m c 2 t) (iblk m c 3 t) _ _ _ _ (row t)
    (blk0 m c t) (blk1 m c t) (blk2 m c t) (blk3 m c hlab t) hfin hlab bb q s

/-- An index of the cost array is in point t's block iff each coordinate is in the block's range on its axis. -/
theorem mem_blk (t : Fin cfg0.N) (i : S64x900x256.Idx) :
    i ∈ ((cfg0.win 4).blk t).view.set ↔ ∀ a : Fin 3, win0_4.index t a * S2x900x256.size a ≤ (i a).val ∧ (i a).val < win0_4.index t a * S2x900x256.size a + S2x900x256.size a := by
  show i ∈ ((View.whole main_v3).slice (win0_4.rect t)).set ↔ _
  rw [View.set_slice_whole, Rect.mem_set_unit]
  exact Iff.rfl

/-- Batch row b lies in the block of point b / 2: every index of the array is covered. -/
theorem cover (i : S64x900x256.Idx) : ∃ t : Fin cfg0.N, (cfg0.win 4).flush t = true ∧ i ∈ ((cfg0.win 4).blk t).view.set := by
  have hi0 : (i 0).val < 64 := (i 0).isLt
  have hi1 : (i 1).val < 900 := (i 1).isLt
  have hi2 : (i 2).val < 256 := (i 2).isLt
  have hN : (i 0).val / 2 < cfg0.N := by rw [show cfg0.N = 32 from N_0]; omega
  refine ⟨⟨(i 0).val / 2, hN⟩, flush0_4 _, ?_⟩
  obtain ⟨-, -, -, -, ⟨e0, e1, e2⟩⟩ := idx_facts ⟨(i 0).val / 2, hN⟩
  rw [mem_blk]
  intro a
  match a with
  | ⟨0, _⟩ =>
    show win0_4.index ⟨(i 0).val / 2, hN⟩ (0 : Fin 3) * 2 ≤ (i 0).val ∧ (i 0).val < win0_4.index ⟨(i 0).val / 2, hN⟩ (0 : Fin 3) * 2 + 2
    rw [e0]; show (i 0).val / 2 * 2 ≤ (i 0).val ∧ (i 0).val < (i 0).val / 2 * 2 + 2; omega
  | ⟨1, _⟩ =>
    show win0_4.index ⟨(i 0).val / 2, hN⟩ (1 : Fin 3) * 900 ≤ (i 1).val ∧ (i 1).val < win0_4.index ⟨(i 0).val / 2, hN⟩ (1 : Fin 3) * 900 + 900
    rw [e1]; omega
  | ⟨2, _⟩ =>
    show win0_4.index ⟨(i 0).val / 2, hN⟩ (2 : Fin 3) * 256 ≤ (i 2).val ∧ (i 2).val < win0_4.index ⟨(i 0).val / 2, hN⟩ (2 : Fin 3) * 256 + 256
    rw [e2]; omega

/-- THE ARRAY after the run is the cost array of the four arguments. -/
theorem final (c : Dev nD)
    (hfin : ∀ i, (m ((c : Thread nD τ).loc main_arg0) : S64x900x256.Idx → EReal) i ≠ (⊤ : EReal) ∧ (m ((c : Thread nD τ).loc main_arg0) : S64x900x256.Idx → EReal) i ≠ (⊥ : EReal))
    (hlab : ∀ j, ((m ((c : Thread nD τ).loc main_arg2) : S64x256.Idx → BitVec 32) j).toNat < 256) :
    (dats m 0 c).arrAt 4 cfg0.N
      = G (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c hfin hlab t) cover

/-- THE RUN: from finite logits and labels in range, the result array ends holding the cost array of the four
    arguments, which are unchanged. -/
theorem run
    (hfin : ∀ (c : Dev nD) (i : S64x900x256.Idx), (m ((c.tc : Thread nD τ).loc main_arg0) : S64x900x256.Idx → EReal) i ≠ (⊤ : EReal)
      ∧ (m ((c.tc : Thread nD τ).loc main_arg0) : S64x900x256.Idx → EReal) i ≠ (⊥ : EReal))
    (hlab : ∀ (c : Dev nD) (j : S64x256.Idx), ((m ((c.tc : Thread nD τ).loc main_arg2) : S64x256.Idx → BitVec 32) j).toNat < 256) :
    θ_run (defs (F := Ideal)) (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c (hfin c) (hlab c)), (h c).2⟩) (Value.run_blocks m ρ)

end Cert.KernelIdeal.KArray

end
-- ==== Proof.RefTerms.lean ====
/- The reference program's 193 operations — @main's, with each call replaced by its callee's operations — as one
   definition each, in program order: `res_‹buffer›` is the pure function of the operation that writes ‹buffer›, applied to
   the definitions of its operands, as a function of the four argument arrays. -/
import proofs.«412448_j60825326846459_2_alg».proof.Proof.Gen.ReferenceIdeal

noncomputable section

namespace Cert.ReferenceIdeal.RefRun

open Cert.ReferenceIdeal Cert.ReferenceIdeal.Gen Idealize.ShloMosaic

variable {F : FTy → Type} [FloatOps F]

/-- What `main_cst` holds: a constant. -/
def res_main_cst (a0 : FVec F S64x900x256 .f32) (a1 : FVec F S64x900x4 .f32) (a2 : IVec S64x256 32) (a3 : FVec F S64x256x4 .f32) : FVec F S_ .f32 :=
  (constant S_ .f32 0xFF800000#32)

/-- What `main_v0` holds: of `main_arg0`, `main_cst`. -/
def res_main_v0 (a0 : FVec F S64x900x256 .f32) (a1 : FVec F S64x900x4 .f32) (a2 : IVec S64x256 32) (a3 : FVec F S64x256x4 .f32) : FVec F S64x900 .f32 :=
  ((fun x v => Host.reduce FloatOps.maximumf x v reducesTo_S64x900x256_S64x900_d2 h_S_) : (⟨S64x900x256, .f32⟩ : BufTy).Contents (Elt F) → (⟨S_, .f32⟩ : BufTy).Contents (Elt F) → (⟨S64x900, .f32⟩ : BufTy).Contents (Elt F)) a0 (res_main_cst a0 a1 a2 a3)

/-- What `main_cst_0` holds: a constant. -/
def res_main_cst_0 (a0 : FVec F S64x900x256 .f32) (a1 : FVec F S64x900x4 .f32) (a2 : IVec S64x256 32) (a3 : FVec F S64x256x4 .f32) : FVec F S_ .f32 :=
  (constant S_ .f32 0xFF800000#32)

/-- What `main_v1` holds: of `main_cst_0`. -/
def res_main_v1 (a0 : FVec F S64x900x256 .f32) (a1 : FVec F S64x900x4 .f32) (a2 : IVec S64x256 32) (a3 : FVec F S64x256x4 .f32) : FVec F S64x900 .f32 :=
  (broadcastInDim S64x900 ![] bcast_S_S64x900 : (⟨S_, .f32⟩ : BufTy).Contents (Elt F) → (⟨S64x900, .f32⟩ : BufTy).Contents (Elt F)) (res_main_cst_0 a0 a1 a2 a3)

/-- What `main_v2` holds: of `main_v1`, `main_v0`. -/
def res_main_v2 (a0 : FVec F S64x900x256 .f32) (a1 : FVec F S64x900x4 .f32) (a2 : IVec S64x256 32) (a3 : FVec F S64x256x4 .f32) : FVec F S64x900 .f32 :=
  (maximumf : (⟨S64x900, .f32⟩ : BufTy).Contents (Elt F) → (⟨S64x900, .f32⟩ : BufTy).Contents (Elt F) → (⟨S64x900, .f32⟩ : BufTy).Contents (Elt F)) (res_main_v1 a0 a1 a2 a3) (res_main_v0 a0 a1 a2 a3)

/-- What `main_v3` holds: of `main_v2`. -/
def res_main_v3 (a0 : FVec F S64x900x256 .f32) (a1 : FVec F S64x900x4 .f32) (a2 : IVec S64x256 32) (a3 : FVec F S64x256x4 .f32) : FVec F S64x900x1 .f32 :=
  (broadcastInDim S64x900x1 ![0, 1] bcast_S64x900_S64x900x1_0_1 : (⟨S64x900, .f32⟩ : BufTy).Contents (Elt F) → (⟨S64x900x1, .f32⟩ : BufTy).Contents (Elt F)) (res_main_v2 a0 a1 a2 a3)

/-- What `main_v4` holds: of `main_v3`. -/
def res_main_v4 (a0 : FVec F S64x900x256 .f32) (a1 : FVec F S64x900x4 .f32) (a2 : IVec S64x256 32) (a3 : FVec F S64x256x4 .f32) : FVec F S64x900x256 .f32 :=
  (broadcastInDim S64x900x256 ![0, 1, 2] bcast_S64x900x1_S64x900x256_0_1_2 : (⟨S64x900x1, .f32⟩ : BufTy).Contents (Elt F) → (⟨S64x900x256, .f32⟩ : BufTy).Contents (Elt F)) (res_main_v3 a0 a1 a2 a3)

/-- What `main_v5` holds: of `main_arg0`, `main_v4`. -/
def res_main_v5 (a0 : FVec F S64x900x256 .f32) (a1 : FVec F S64x900x4 .f32) (a2 : IVec S64x256 32) (a3 : FVec F S64x256x4 .f32) : FVec F S64x900x256 .f32 :=
  (subf : (⟨S64x900x256, .f32⟩ : BufTy).Contents (Elt F) → (⟨S64x900x256, .f32⟩ : BufTy).Contents (Elt F) → (⟨S64x900x256, .f32⟩ : BufTy).Contents (Elt F)) a0 (res_main_v4 a0 a1 a2 a3)

/-- What `main_v6` holds: of `main_v5`. -/
def res_main_v6 (a0 : FVec F S64x900x256 .f32) (a1 : FVec F S64x900x4 .f32) (a2 : IVec S64x256 32) (a3 : FVec F S64x256x4 .f32) : FVec F S64x900x256 .f32 :=
  (Host.exp : (⟨S64x900x256, .f32⟩ : BufTy).Contents (Elt F) → (⟨S64x900x256, .f32⟩ : BufTy).Contents (Elt F)) (res_main_v5 a0 a1 a2 a3)

/-- What `main_cst_1` holds: a constant. -/
def res_main_cst_1 (a0 : FVec F S64x900x256 .f32) (a1 : FVec F S64x900x4 .f32) (a2 : IVec S64x256 32) (a3 : FVec F S64x256x4 .f32) : FVec F S_ .f32 :=
  (constant S_ .f32 0x00000000#32)

/-- What `main_v7` holds: of `main_v6`, `main_cst_1`. -/
def res_main_v7 (a0 : FVec F S64x900x256 .f32) (a1 : FVec F S64x900x4 .f32) (a2 : IVec S64x256 32) (a3 : FVec F S64x256x4 .f32) : FVec F S64x900 .f32 :=
  ((fun x v => Host.reduceAdd x v reducesTo_S64x900x256_S64x900_d2 h_S_) : (⟨S64x900x256, .f32⟩ : BufTy).Contents (Elt F) → (⟨S_, .f32⟩ : BufTy).Contents (Elt F) → (⟨S64x900, .f32⟩ : BufTy).Contents (Elt F)) (res_main_v6 a0 a1 a2 a3) (res_main_cst_1 a0 a1 a2 a3)

/-- What `main_v8` holds: of `main_v7`. -/
def res_main_v8 (a0 : FVec F S64x900x256 .f32) (a1 : FVec F S64x900x4 .f32) (a2 : IVec S64x256 32) (a3 : FVec F S64x256x4 .f32) : FVec F S64x900x1 .f32 :=
  (broadcastInDim S64x900x1 ![0, 1] bcast_S64x900_S64x900x1_0_1 : (⟨S64x900, .f32⟩ : BufTy).Contents (Elt F) → (⟨S64x900x1, .f32⟩ : BufTy).Contents (Elt F)) (res_main_v7 a0 a1 a2 a3)

/-- What `main_v9` holds: of `main_v8`. -/
def res_main_v9 (a0 : FVec F S64x900x256 .f32) (a1 : FVec F S64x900x4 .f32) (a2 : IVec S64x256 32) (a3 : FVec F S64x256x4 .f32) : FVec F S64x900x256 .f32 :=
  (broadcastInDim S64x900x256 ![0, 1, 2] bcast_S64x900x1_S64x900x256_0_1_2 : (⟨S64x900x1, .f32⟩ : BufTy).Contents (Elt F) → (⟨S64x900x256, .f32⟩ : BufTy).Contents (Elt F)) (res_main_v8 a0 a1 a2 a3)

/-- What `main_v10` holds: of `main_v6`, `main_v9`. -/
def res_main_v10 (a0 : FVec F S64x900x256 .f32) (a1 : FVec F S64x900x4 .f32) (a2 : IVec S64x256 32) (a3 : FVec F S64x256x4 .f32) : FVec F S64x900x256 .f32 :=
  (Host.divf : (⟨S64x900x256, .f32⟩ : BufTy).Contents (Elt F) → (⟨S64x900x256, .f32⟩ : BufTy).Contents (Elt F) → (⟨S64x900x256, .f32⟩ : BufTy).Contents (Elt F)) (res_main_v6 a0 a1 a2 a3) (res_main_v9 a0 a1 a2 a3)

/-- What `main_c` holds: a constant. -/
def res_main_c (a0 : FVec F S64x900x256 .f32) (a1 : FVec F S64x900x4 .f32) (a2 : IVec S64x256 32) (a3 : FVec F S64x256x4 .f32) : IVec S_ 32 :=
  (constantI S_ 32 0#32)

/-- What `main_v11` holds: of `main_c`. -/
def res_main_v11 (a0 : FVec F S64x900x256 .f32) (a1 : FVec F S64x900x4 .f32) (a2 : IVec S64x256 32) (a3 : FVec F S64x256x4 .f32) : IVec S64x256 32 :=
  (broadcastInDim S64x256 ![] bcast_S_S64x256 : (⟨S_, .i32⟩ : BufTy).Contents (Elt F) → (⟨S64x256, .i32⟩ : BufTy).Contents (Elt F)) (res_main_c a0 a1 a2 a3)

/-- What `main_v12` holds: of `main_arg2`, `main_v11`. -/
def res_main_v12 (a0 : FVec F S64x900x256 .f32) (a1 : FVec F S64x900x4 .f32) (a2 : IVec S64x256 32) (a3 : FVec F S64x256x4 .f32) : IVec S64x256 1 :=
  (cmpi .slt : (⟨S64x256, .i32⟩ : BufTy).Contents (Elt F) → (⟨S64x256, .i32⟩ : BufTy).Contents (Elt F) → (⟨S64x256, .i1⟩ : BufTy).Contents (Elt F)) a2 (res_main_v11 a0 a1 a2 a3)

/-- What `main_c_2` holds: a constant. -/
def res_main_c_2 (a0 : FVec F S64x900x256 .f32) (a1 : FVec F S64x900x4 .f32) (a2 : IVec S64x256 32) (a3 : FVec F S64x256x4 .f32) : IVec S_ 32 :=
  (constantI S_ 32 256#32)

/-- What `main_v13` holds: of `main_c_2`. -/
def res_main_v13 (a0 : FVec F S64x900x256 .f32) (a1 : FVec F S64x900x4 .f32) (a2 : IVec S64x256 32) (a3 : FVec F S64x256x4 .f32) : IVec S64x256 32 :=
  (broadcastInDim S64x256 ![] bcast_S_S64x256 : (⟨S_, .i32⟩ : BufTy).Contents (Elt F) → (⟨S64x256, .i32⟩ : BufTy).Contents (Elt F)) (res_main_c_2 a0 a1 a2 a3)

/-- What `main_v14` holds: of `main_arg2`, `main_v13`. -/
def res_main_v14 (a0 : FVec F S64x900x256 .f32) (a1 : FVec F S64x900x4 .f32) (a2 : IVec S64x256 32) (a3 : FVec F S64x256x4 .f32) : IVec S64x256 32 :=
  (addi : (⟨S64x256, .i32⟩ : BufTy).Contents (Elt F) → (⟨S64x256, .i32⟩ : BufTy).Contents (Elt F) → (⟨S64x256, .i32⟩ : BufTy).Contents (Elt F)) a2 (res_main_v13 a0 a1 a2 a3)

/-- What `main_v15` holds: of `main_v12`, `main_v14`, `main_arg2`. -/
def res_main_v15 (a0 : FVec F S64x900x256 .f32) (a1 : FVec F S64x900x4 .f32) (a2 : IVec S64x256 32) (a3 : FVec F S64x256x4 .f32) : IVec S64x256 32 :=
  (select : (⟨S64x256, .i1⟩ : BufTy).Contents (Elt F) → (⟨S64x256, .i32⟩ : BufTy).Contents (Elt F) → (⟨S64x256, .i32⟩ : BufTy).Contents (Elt F) → (⟨S64x256, .i32⟩ : BufTy).Contents (Elt F)) (res_main_v12 a0 a1 a2 a3) (res_main_v14 a0 a1 a2 a3) a2

/-- What `main_v16` holds: of `main_v15`. -/
def res_main_v16 (a0 : FVec F S64x900x256 .f32) (a1 : FVec F S64x900x4 .f32) (a2 : IVec S64x256 32) (a3 : FVec F S64x256x4 .f32) : IVec S64x256x1 32 :=
  (broadcastInDim S64x256x1 ![0, 1] bcast_S64x256_S64x256x1_0_1 : (⟨S64x256, .i32⟩ : BufTy).Contents (Elt F) → (⟨S64x256x1, .i32⟩ : BufTy).Contents (Elt F)) (res_main_v15 a0 a1 a2 a3)

/-- What `main_v17` holds: of `main_v10`, `main_v16`. -/
def res_main_v17 (a0 : FVec F S64x900x256 .f32) (a1 : FVec F S64x900x4 .f32) (a2 : IVec S64x256 32) (a3 : FVec F S64x256x4 .f32) : FVec F S64x900x256 .f32 :=
  ((fun x i => Host.gather gather_S64x900x256_S64x256x1_S64x900x256_1_2_0_0_2_2_19001 x i) : (⟨S64x900x256, .f32⟩ : BufTy).Contents (Elt F) → (⟨S64x256x1, .i32⟩ : BufTy).Contents (Elt F) → (⟨S64x900x256, .f32⟩ : BufTy).Contents (Elt F)) (res_main_v10 a0 a1 a2 a3) (res_main_v16 a0 a1 a2 a3)

/-- What `main_v18` holds: of `main_v17`. -/
def res_main_v18 (a0 : FVec F S64x900x256 .f32) (a1 : FVec F S64x900x4 .f32) (a2 : IVec S64x256 32) (a3 : FVec F S64x256x4 .f32) : FVec F S64x900x256 .f32 :=
  (Host.negf : (⟨S64x900x256, .f32⟩ : BufTy).Contents (Elt F) → (⟨S64x900x256, .f32⟩ : BufTy).Contents (Elt F)) (res_main_v17 a0 a1 a2 a3)

/-- What `main_v19` holds: of `main_arg1`. -/
def res_main_v19 (a0 : FVec F S64x900x256 .f32) (a1 : FVec F S64x900x4 .f32) (a2 : IVec S64x256 32) (a3 : FVec F S64x256x4 .f32) : FVec F S64x900x1x4 .f32 :=
  (broadcastInDim S64x900x1x4 ![0, 1, 3] bcast_S64x900x4_S64x900x1x4_0_1_3 : (⟨S64x900x4, .f32⟩ : BufTy).Contents (Elt F) → (⟨S64x900x1x4, .f32⟩ : BufTy).Contents (Elt F)) a1

/-- What `main_v20` holds: of `main_arg3`. -/
def res_main_v20 (a0 : FVec F S64x900x256 .f32) (a1 : FVec F S64x900x4 .f32) (a2 : IVec S64x256 32) (a3 : FVec F S64x256x4 .f32) : FVec F S64x1x256x4 .f32 :=
  (broadcastInDim S64x1x256x4 ![0, 2, 3] bcast_S64x256x4_S64x1x256x4_0_2_3 : (⟨S64x256x4, .f32⟩ : BufTy).Contents (Elt F) → (⟨S64x1x256x4, .f32⟩ : BufTy).Contents (Elt F)) a3

/-- What `main_v21` holds: of `main_v19`. -/
def res_main_v21 (a0 : FVec F S64x900x256 .f32) (a1 : FVec F S64x900x4 .f32) (a2 : IVec S64x256 32) (a3 : FVec F S64x256x4 .f32) : FVec F S64x900x256x4 .f32 :=
  (broadcastInDim S64x900x256x4 ![0, 1, 2, 3] bcast_S64x900x1x4_S64x900x256x4_0_1_2_3 : (⟨S64x900x1x4, .f32⟩ : BufTy).Contents (Elt F) → (⟨S64x900x256x4, .f32⟩ : BufTy).Contents (Elt F)) (res_main_v19 a0 a1 a2 a3)

/-- What `main_v22` holds: of `main_v20`. -/
def res_main_v22 (a0 : FVec F S64x900x256 .f32) (a1 : FVec F S64x900x4 .f32) (a2 : IVec S64x256 32) (a3 : FVec F S64x256x4 .f32) : FVec F S64x900x256x4 .f32 :=
  (broadcastInDim S64x900x256x4 ![0, 1, 2, 3] bcast_S64x1x256x4_S64x900x256x4_0_1_2_3 : (⟨S64x1x256x4, .f32⟩ : BufTy).Contents (Elt F) → (⟨S64x900x256x4, .f32⟩ : BufTy).Contents (Elt F)) (res_main_v20 a0 a1 a2 a3)

/-- What `main_v23` holds: of `main_v21`, `main_v22`. -/
def res_main_v23 (a0 : FVec F S64x900x256 .f32) (a1 : FVec F S64x900x4 .f32) (a2 : IVec S64x256 32) (a3 : FVec F S64x256x4 .f32) : FVec F S64x900x256x4 .f32 :=
  (subf : (⟨S64x900x256x4, .f32⟩ : BufTy).Contents (Elt F) → (⟨S64x900x256x4, .f32⟩ : BufTy).Contents (Elt F) → (⟨S64x900x256x4, .f32⟩ : BufTy).Contents (Elt F)) (res_main_v21 a0 a1 a2 a3) (res_main_v22 a0 a1 a2 a3)

/-- What `main_v24` holds: of `main_v23`. -/
def res_main_v24 (a0 : FVec F S64x900x256 .f32) (a1 : FVec F S64x900x4 .f32) (a2 : IVec S64x256 32) (a3 : FVec F S64x256x4 .f32) : FVec F S64x900x256x4 .f32 :=
  (Host.absf : (⟨S64x900x256x4, .f32⟩ : BufTy).Contents (Elt F) → (⟨S64x900x256x4, .f32⟩ : BufTy).Contents (Elt F)) (res_main_v23 a0 a1 a2 a3)

/-- What `main_cst_3` holds: a constant. -/
def res_main_cst_3 (a0 : FVec F S64x900x256 .f32) (a1 : FVec F S64x900x4 .f32) (a2 : IVec S64x256 32) (a3 : FVec F S64x256x4 .f32) : FVec F S_ .f32 :=
  (constant S_ .f32 0x00000000#32)

/-- What `main_v25` holds: of `main_v24`, `main_cst_3`. -/
def res_main_v25 (a0 : FVec F S64x900x256 .f32) (a1 : FVec F S64x900x4 .f32) (a2 : IVec S64x256 32) (a3 : FVec F S64x256x4 .f32) : FVec F S64x900x256 .f32 :=
  ((fun x v => Host.reduceAdd x v reducesTo_S64x900x256x4_S64x900x256_d3 h_S_) : (⟨S64x900x256x4, .f32⟩ : BufTy).Contents (Elt F) → (⟨S_, .f32⟩ : BufTy).Contents (Elt F) → (⟨S64x900x256, .f32⟩ : BufTy).Contents (Elt F)) (res_main_v24 a0 a1 a2 a3) (res_main_cst_3 a0 a1 a2 a3)

/-- What `main_v26` holds: of `main_arg1`. -/
def res_main_v26 (a0 : FVec F S64x900x256 .f32) (a1 : FVec F S64x900x4 .f32) (a2 : IVec S64x256 32) (a3 : FVec F S64x256x4 .f32) : FVec F S64x900x1 .f32 :=
  ((extractStridedSlice S64x900x1 ![0, 0, 0] · slices_S64x900x4_S64x900x1_0_0_0) : (⟨S64x900x4, .f32⟩ : BufTy).Contents (Elt F) → (⟨S64x900x1, .f32⟩ : BufTy).Contents (Elt F)) a1

/-- What `main_v27` holds: of `main_v26`. -/
def res_main_v27 (a0 : FVec F S64x900x256 .f32) (a1 : FVec F S64x900x4 .f32) (a2 : IVec S64x256 32) (a3 : FVec F S64x256x4 .f32) : FVec F S64x900 .f32 :=
  shapeCast S64x900 (res_main_v26 a0 a1 a2 a3) shapeCasts_S64x900x1_S64x900

/-- What `main_v28` holds: of `main_arg1`. -/
def res_main_v28 (a0 : FVec F S64x900x256 .f32) (a1 : FVec F S64x900x4 .f32) (a2 : IVec S64x256 32) (a3 : FVec F S64x256x4 .f32) : FVec F S64x900x1 .f32 :=
  ((extractStridedSlice S64x900x1 ![0, 0, 1] · slices_S64x900x4_S64x900x1_0_0_1) : (⟨S64x900x4, .f32⟩ : BufTy).Contents (Elt F) → (⟨S64x900x1, .f32⟩ : BufTy).Contents (Elt F)) a1

/-- What `main_v29` holds: of `main_v28`. -/
def res_main_v29 (a0 : FVec F S64x900x256 .f32) (a1 : FVec F S64x900x4 .f32) (a2 : IVec S64x256 32) (a3 : FVec F S64x256x4 .f32) : FVec F S64x900 .f32 :=
  shapeCast S64x900 (res_main_v28 a0 a1 a2 a3) shapeCasts_S64x900x1_S64x900

/-- What `main_v30` holds: of `main_arg1`. -/
def res_main_v30 (a0 : FVec F S64x900x256 .f32) (a1 : FVec F S64x900x4 .f32) (a2 : IVec S64x256 32) (a3 : FVec F S64x256x4 .f32) : FVec F S64x900x1 .f32 :=
  ((extractStridedSlice S64x900x1 ![0, 0, 2] · slices_S64x900x4_S64x900x1_0_0_2) : (⟨S64x900x4, .f32⟩ : BufTy).Contents (Elt F) → (⟨S64x900x1, .f32⟩ : BufTy).Contents (Elt F)) a1

/-- What `main_v31` holds: of `main_v30`. -/
def res_main_v31 (a0 : FVec F S64x900x256 .f32) (a1 : FVec F S64x900x4 .f32) (a2 : IVec S64x256 32) (a3 : FVec F S64x256x4 .f32) : FVec F S64x900 .f32 :=
  shapeCast S64x900 (res_main_v30 a0 a1 a2 a3) shapeCasts_S64x900x1_S64x900

/-- What `main_v32` holds: of `main_arg1`. -/
def res_main_v32 (a0 : FVec F S64x900x256 .f32) (a1 : FVec F S64x900x4 .f32) (a2 : IVec S64x256 32) (a3 : FVec F S64x256x4 .f32) : FVec F S64x900x1 .f32 :=
  ((extractStridedSlice S64x900x1 ![0, 0, 3] · slices_S64x900x4_S64x900x1_0_0_3) : (⟨S64x900x4, .f32⟩ : BufTy).Contents (Elt F) → (⟨S64x900x1, .f32⟩ : BufTy).Contents (Elt F)) a1

/-- What `main_v33` holds: of `main_v32`. -/
def res_main_v33 (a0 : FVec F S64x900x256 .f32) (a1 : FVec F S64x900x4 .f32) (a2 : IVec S64x256 32) (a3 : FVec F S64x256x4 .f32) : FVec F S64x900 .f32 :=
  shapeCast S64x900 (res_main_v32 a0 a1 a2 a3) shapeCasts_S64x900x1_S64x900

/-- What `main_cst_4` holds: a constant. -/
def res_main_cst_4 (a0 : FVec F S64x900x256 .f32) (a1 : FVec F S64x900x4 .f32) (a2 : IVec S64x256 32) (a3 : FVec F S64x256x4 .f32) : FVec F S_ .f32 :=
  (constant S_ .f32 0x3F000000#32)

/-- What `main_v34` holds: of `main_cst_4`. -/
def res_main_v34 (a0 : FVec F S64x900x256 .f32) (a1 : FVec F S64x900x4 .f32) (a2 : IVec S64x256 32) (a3 : FVec F S64x256x4 .f32) : FVec F S64x900 .f32 :=
  (broadcastInDim S64x900 ![] bcast_S_S64x900 : (⟨S_, .f32⟩ : BufTy).Contents (Elt F) → (⟨S64x900, .f32⟩ : BufTy).Contents (Elt F)) (res_main_cst_4 a0 a1 a2 a3)

/-- What `main_v35` holds: of `main_v34`, `main_v31`. -/
def res_main_v35 (a0 : FVec F S64x900x256 .f32) (a1 : FVec F S64x900x4 .f32) (a2 : IVec S64x256 32) (a3 : FVec F S64x256x4 .f32) : FVec F S64x900 .f32 :=
  (mulf : (⟨S64x900, .f32⟩ : BufTy).Contents (Elt F) → (⟨S64x900, .f32⟩ : BufTy).Contents (Elt F) → (⟨S64x900, .f32⟩ : BufTy).Contents (Elt F)) (res_main_v34 a0 a1 a2 a3) (res_main_v31 a0 a1 a2 a3)

/-- What `main_v36` holds: of `main_v27`, `main_v35`. -/
def res_main_v36 (a0 : FVec F S64x900x256 .f32) (a1 : FVec F S64x900x4 .f32) (a2 : IVec S64x256 32) (a3 : FVec F S64x256x4 .f32) : FVec F S64x900 .f32 :=
  (subf : (⟨S64x900, .f32⟩ : BufTy).Contents (Elt F) → (⟨S64x900, .f32⟩ : BufTy).Contents (Elt F) → (⟨S64x900, .f32⟩ : BufTy).Contents (Elt F)) (res_main_v27 a0 a1 a2 a3) (res_main_v35 a0 a1 a2 a3)

/-- What `main_cst_5` holds: a constant. -/
def res_main_cst_5 (a0 : FVec F S64x900x256 .f32) (a1 : FVec F S64x900x4 .f32) (a2 : IVec S64x256 32) (a3 : FVec F S64x256x4 .f32) : FVec F S_ .f32 :=
  (constant S_ .f32 0x3F000000#32)

/-- What `main_v37` holds: of `main_cst_5`. -/
def res_main_v37 (a0 : FVec F S64x900x256 .f32) (a1 : FVec F S64x900x4 .f32) (a2 : IVec S64x256 32) (a3 : FVec F S64x256x4 .f32) : FVec F S64x900 .f32 :=
  (broadcastInDim S64x900 ![] bcast_S_S64x900 : (⟨S_, .f32⟩ : BufTy).Contents (Elt F) → (⟨S64x900, .f32⟩ : BufTy).Contents (Elt F)) (res_main_cst_5 a0 a1 a2 a3)

/-- What `main_v38` holds: of `main_v37`, `main_v33`. -/
def res_main_v38 (a0 : FVec F S64x900x256 .f32) (a1 : FVec F S64x900x4 .f32) (a2 : IVec S64x256 32) (a3 : FVec F S64x256x4 .f32) : FVec F S64x900 .f32 :=
  (mulf : (⟨S64x900, .f32⟩ : BufTy).Contents (Elt F) → (⟨S64x900, .f32⟩ : BufTy).Contents (Elt F) → (⟨S64x900, .f32⟩ : BufTy).Contents (Elt F)) (res_main_v37 a0 a1 a2 a3) (res_main_v33 a0 a1 a2 a3)

/-- What `main_v39` holds: of `main_v29`, `main_v38`. -/
def res_main_v39 (a0 : FVec F S64x900x256 .f32) (a1 : FVec F S64x900x4 .f32) (a2 : IVec S64x256 32) (a3 : FVec F S64x256x4 .f32) : FVec F S64x900 .f32 :=
  (subf : (⟨S64x900, .f32⟩ : BufTy).Contents (Elt F) → (⟨S64x900, .f32⟩ : BufTy).Contents (Elt F) → (⟨S64x900, .f32⟩ : BufTy).Contents (Elt F)) (res_main_v29 a0 a1 a2 a3) (res_main_v38 a0 a1 a2 a3)

/-- What `main_cst_6` holds: a constant. -/
def res_main_cst_6 (a0 : FVec F S64x900x256 .f32) (a1 : FVec F S64x900x4 .f32) (a2 : IVec S64x256 32) (a3 : FVec F S64x256x4 .f32) : FVec F S_ .f32 :=
  (constant S_ .f32 0x3F000000#32)

/-- What `main_v40` holds: of `main_cst_6`. -/
def res_main_v40 (a0 : FVec F S64x900x256 .f32) (a1 : FVec F S64x900x4 .f32) (a2 : IVec S64x256 32) (a3 : FVec F S64x256x4 .f32) : FVec F S64x900 .f32 :=
  (broadcastInDim S64x900 ![] bcast_S_S64x900 : (⟨S_, .f32⟩ : BufTy).Contents (Elt F) → (⟨S64x900, .f32⟩ : BufTy).Contents (Elt F)) (res_main_cst_6 a0 a1 a2 a3)

/-- What `main_v41` holds: of `main_v40`, `main_v31`. -/
def res_main_v41 (a0 : FVec F S64x900x256 .f32) (a1 : FVec F S64x900x4 .f32) (a2 : IVec S64x256 32) (a3 : FVec F S64x256x4 .f32) : FVec F S64x900 .f32 :=
  (mulf : (⟨S64x900, .f32⟩ : BufTy).Contents (Elt F) → (⟨S64x900, .f32⟩ : BufTy).Contents (Elt F) → (⟨S64x900, .f32⟩ : BufTy).Contents (Elt F)) (res_main_v40 a0 a1 a2 a3) (res_main_v31 a0 a1 a2 a3)

/-- What `main_v42` holds: of `main_v27`, `main_v41`. -/
def res_main_v42 (a0 : FVec F S64x900x256 .f32) (a1 : FVec F S64x900x4 .f32) (a2 : IVec S64x256 32) (a3 : FVec F S64x256x4 .f32) : FVec F S64x900 .f32 :=
  (addf : (⟨S64x900, .f32⟩ : BufTy).Contents (Elt F) → (⟨S64x900, .f32⟩ : BufTy).Contents (Elt F) → (⟨S64x900, .f32⟩ : BufTy).Contents (Elt F)) (res_main_v27 a0 a1 a2 a3) (res_main_v41 a0 a1 a2 a3)

/-- What `main_cst_7` holds: a constant. -/
def res_main_cst_7 (a0 : FVec F S64x900x256 .f32) (a1 : FVec F S64x900x4 .f32) (a2 : IVec S64x256 32) (a3 : FVec F S64x256x4 .f32) : FVec F S_ .f32 :=
  (constant S_ .f32 0x3F000000#32)

/-- What `main_v43` holds: of `main_cst_7`. -/
def res_main_v43 (a0 : FVec F S64x900x256 .f32) (a1 : FVec F S64x900x4 .f32) (a2 : IVec S64x256 32) (a3 : FVec F S64x256x4 .f32) : FVec F S64x900 .f32 :=
  (broadcastInDim S64x900 ![] bcast_S_S64x900 : (⟨S_, .f32⟩ : BufTy).Contents (Elt F) → (⟨S64x900, .f32⟩ : BufTy).Contents (Elt F)) (res_main_cst_7 a0 a1 a2 a3)

/-- What `main_v44` holds: of `main_v43`, `main_v33`. -/
def res_main_v44 (a0 : FVec F S64x900x256 .f32) (a1 : FVec F S64x900x4 .f32) (a2 : IVec S64x256 32) (a3 : FVec F S64x256x4 .f32) : FVec F S64x900 .f32 :=
  (mulf : (⟨S64x900, .f32⟩ : BufTy).Contents (Elt F) → (⟨S64x900, .f32⟩ : BufTy).Contents (Elt F) → (⟨S64x900, .f32⟩ : BufTy).Contents (Elt F)) (res_main_v43 a0 a1 a2 a3) (res_main_v33 a0 a1 a2 a3)

/-- What `main_v45` holds: of `main_v29`, `main_v44`. -/
def res_main_v45 (a0 : FVec F S64x900x256 .f32) (a1 : FVec F S64x900x4 .f32) (a2 : IVec S64x256 32) (a3 : FVec F S64x256x4 .f32) : FVec F S64x900 .f32 :=
  (addf : (⟨S64x900, .f32⟩ : BufTy).Contents (Elt F) → (⟨S64x900, .f32⟩ : BufTy).Contents (Elt F) → (⟨S64x900, .f32⟩ : BufTy).Contents (Elt F)) (res_main_v29 a0 a1 a2 a3) (res_main_v44 a0 a1 a2 a3)

/-- What `main_v46` holds: of `main_v36`. -/
def res_main_v46 (a0 : FVec F S64x900x256 .f32) (a1 : FVec F S64x900x4 .f32) (a2 : IVec S64x256 32) (a3 : FVec F S64x256x4 .f32) : FVec F S64x900x1 .f32 :=
  (broadcastInDim S64x900x1 ![0, 1] bcast_S64x900_S64x900x1_0_1 : (⟨S64x900, .f32⟩ : BufTy).Contents (Elt F) → (⟨S64x900x1, .f32⟩ : BufTy).Contents (Elt F)) (res_main_v36 a0 a1 a2 a3)

/-- What `main_v47` holds: of `main_v39`. -/
def res_main_v47 (a0 : FVec F S64x900x256 .f32) (a1 : FVec F S64x900x4 .f32) (a2 : IVec S64x256 32) (a3 : FVec F S64x256x4 .f32) : FVec F S64x900x1 .f32 :=
  (broadcastInDim S64x900x1 ![0, 1] bcast_S64x900_S64x900x1_0_1 : (⟨S64x900, .f32⟩ : BufTy).Contents (Elt F) → (⟨S64x900x1, .f32⟩ : BufTy).Contents (Elt F)) (res_main_v39 a0 a1 a2 a3)

/-- What `main_v48` holds: of `main_v42`. -/
def res_main_v48 (a0 : FVec F S64x900x256 .f32) (a1 : FVec F S64x900x4 .f32) (a2 : IVec S64x256 32) (a3 : FVec F S64x256x4 .f32) : FVec F S64x900x1 .f32 :=
  (broadcastInDim S64x900x1 ![0, 1] bcast_S64x900_S64x900x1_0_1 : (⟨S64x900, .f32⟩ : BufTy).Contents (Elt F) → (⟨S64x900x1, .f32⟩ : BufTy).Contents (Elt F)) (res_main_v42 a0 a1 a2 a3)

/-- What `main_v49` holds: of `main_v45`. -/
def res_main_v49 (a0 : FVec F S64x900x256 .f32) (a1 : FVec F S64x900x4 .f32) (a2 : IVec S64x256 32) (a3 : FVec F S64x256x4 .f32) : FVec F S64x900x1 .f32 :=
  (broadcastInDim S64x900x1 ![0, 1] bcast_S64x900_S64x900x1_0_1 : (⟨S64x900, .f32⟩ : BufTy).Contents (Elt F) → (⟨S64x900x1, .f32⟩ : BufTy).Contents (Elt F)) (res_main_v45 a0 a1 a2 a3)

/-- What `main_v50` holds: of `main_v46`, `main_v47`, `main_v48`, `main_v49`. -/
def res_main_v50 (a0 : FVec F S64x900x256 .f32) (a1 : FVec F S64x900x4 .f32) (a2 : IVec S64x256 32) (a3 : FVec F S64x256x4 .f32) : FVec F S64x900x4 .f32 :=
  ((fun u => concatenate S64x900x4 2 [⟨S64x900x1, u 0⟩, ⟨S64x900x1, u 1⟩, ⟨S64x900x1, u 2⟩, ⟨S64x900x1, u 3⟩] concatenates_S64x900x1_S64x900x1_S64x900x1_S64x900x1_S64x900x4_d2) : ((k : Fin 4) → ((![main_v46, main_v47, main_v48, main_v49] : Fin 4 → Ref sig .tc) k).ty.Contents (Elt F)) → (⟨S64x900x4, .f32⟩ : BufTy).Contents (Elt F)) (Fin.cons (res_main_v46 a0 a1 a2 a3) (Fin.cons (res_main_v47 a0 a1 a2 a3) (Fin.cons (res_main_v48 a0 a1 a2 a3) (Fin.cons (res_main_v49 a0 a1 a2 a3) (fun i => i.elim0)))))

/-- The same, the operands in their places in the list. -/
theorem res_main_v50_eq (a0 : FVec F S64x900x256 .f32) (a1 : FVec F S64x900x4 .f32) (a2 : IVec S64x256 32) (a3 : FVec F S64x256x4 .f32) : res_main_v50 a0 a1 a2 a3 = concatenate S64x900x4 2 [⟨S64x900x1, res_main_v46 a0 a1 a2 a3⟩, ⟨S64x900x1, res_main_v47 a0 a1 a2 a3⟩, ⟨S64x900x1, res_main_v48 a0 a1 a2 a3⟩, ⟨S64x900x1, res_main_v49 a0 a1 a2 a3⟩] concatenates_S64x900x1_S64x900x1_S64x900x1_S64x900x1_S64x900x4_d2 := rfl

/-- What `main_v51` holds: of `main_v50`. -/
def res_main_v51 (a0 : FVec F S64x900x256 .f32) (a1 : FVec F S64x900x4 .f32) (a2 : IVec S64x256 32) (a3 : FVec F S64x256x4 .f32) : FVec F S64x900x1x4 .f32 :=
  (broadcastInDim S64x900x1x4 ![0, 1, 3] bcast_S64x900x4_S64x900x1x4_0_1_3 : (⟨S64x900x4, .f32⟩ : BufTy).Contents (Elt F) → (⟨S64x900x1x4, .f32⟩ : BufTy).Contents (Elt F)) (res_main_v50 a0 a1 a2 a3)

/-- What `main_v52` holds: of `main_arg3`. -/
def res_main_v52 (a0 : FVec F S64x900x256 .f32) (a1 : FVec F S64x900x4 .f32) (a2 : IVec S64x256 32) (a3 : FVec F S64x256x4 .f32) : FVec F S64x256x1 .f32 :=
  ((extractStridedSlice S64x256x1 ![0, 0, 0] · slices_S64x256x4_S64x256x1_0_0_0) : (⟨S64x256x4, .f32⟩ : BufTy).Contents (Elt F) → (⟨S64x256x1, .f32⟩ : BufTy).Contents (Elt F)) a3

/-- What `main_v53` holds: of `main_v52`. -/
def res_main_v53 (a0 : FVec F S64x900x256 .f32) (a1 : FVec F S64x900x4 .f32) (a2 : IVec S64x256 32) (a3 : FVec F S64x256x4 .f32) : FVec F S64x256 .f32 :=
  shapeCast S64x256 (res_main_v52 a0 a1 a2 a3) shapeCasts_S64x256x1_S64x256

/-- What `main_v54` holds: of `main_arg3`. -/
def res_main_v54 (a0 : FVec F S64x900x256 .f32) (a1 : FVec F S64x900x4 .f32) (a2 : IVec S64x256 32) (a3 : FVec F S64x256x4 .f32) : FVec F S64x256x1 .f32 :=
  ((extractStridedSlice S64x256x1 ![0, 0, 1] · slices_S64x256x4_S64x256x1_0_0_1) : (⟨S64x256x4, .f32⟩ : BufTy).Contents (Elt F) → (⟨S64x256x1, .f32⟩ : BufTy).Contents (Elt F)) a3

/-- What `main_v55` holds: of `main_v54`. -/
def res_main_v55 (a0 : FVec F S64x900x256 .f32) (a1 : FVec F S64x900x4 .f32) (a2 : IVec S64x256 32) (a3 : FVec F S64x256x4 .f32) : FVec F S64x256 .f32 :=
  shapeCast S64x256 (res_main_v54 a0 a1 a2 a3) shapeCasts_S64x256x1_S64x256

/-- What `main_v56` holds: of `main_arg3`. -/
def res_main_v56 (a0 : FVec F S64x900x256 .f32) (a1 : FVec F S64x900x4 .f32) (a2 : IVec S64x256 32) (a3 : FVec F S64x256x4 .f32) : FVec F S64x256x1 .f32 :=
  ((extractStridedSlice S64x256x1 ![0, 0, 2] · slices_S64x256x4_S64x256x1_0_0_2) : (⟨S64x256x4, .f32⟩ : BufTy).Contents (Elt F) → (⟨S64x256x1, .f32⟩ : BufTy).Contents (Elt F)) a3

/-- What `main_v57` holds: of `main_v56`. -/
def res_main_v57 (a0 : FVec F S64x900x256 .f32) (a1 : FVec F S64x900x4 .f32) (a2 : IVec S64x256 32) (a3 : FVec F S64x256x4 .f32) : FVec F S64x256 .f32 :=
  shapeCast S64x256 (res_main_v56 a0 a1 a2 a3) shapeCasts_S64x256x1_S64x256

/-- What `main_v58` holds: of `main_arg3`. -/
def res_main_v58 (a0 : FVec F S64x900x256 .f32) (a1 : FVec F S64x900x4 .f32) (a2 : IVec S64x256 32) (a3 : FVec F S64x256x4 .f32) : FVec F S64x256x1 .f32 :=
  ((extractStridedSlice S64x256x1 ![0, 0, 3] · slices_S64x256x4_S64x256x1_0_0_3) : (⟨S64x256x4, .f32⟩ : BufTy).Contents (Elt F) → (⟨S64x256x1, .f32⟩ : BufTy).Contents (Elt F)) a3

/-- What `main_v59` holds: of `main_v58`. -/
def res_main_v59 (a0 : FVec F S64x900x256 .f32) (a1 : FVec F S64x900x4 .f32) (a2 : IVec S64x256 32) (a3 : FVec F S64x256x4 .f32) : FVec F S64x256 .f32 :=
  shapeCast S64x256 (res_main_v58 a0 a1 a2 a3) shapeCasts_S64x256x1_S64x256

/-- What `main_cst_8` holds: a constant. -/
def res_main_cst_8 (a0 : FVec F S64x900x256 .f32) (a1 : FVec F S64x900x4 .f32) (a2 : IVec S64x256 32) (a3 : FVec F S64x256x4 .f32) : FVec F S_ .f32 :=
  (constant S_ .f32 0x3F000000#32)

/-- What `main_v60` holds: of `main_cst_8`. -/
def res_main_v60 (a0 : FVec F S64x900x256 .f32) (a1 : FVec F S64x900x4 .f32) (a2 : IVec S64x256 32) (a3 : FVec F S64x256x4 .f32) : FVec F S64x256 .f32 :=
  (broadcastInDim S64x256 ![] bcast_S_S64x256 : (⟨S_, .f32⟩ : BufTy).Contents (Elt F) → (⟨S64x256, .f32⟩ : BufTy).Contents (Elt F)) (res_main_cst_8 a0 a1 a2 a3)

/-- What `main_v61` holds: of `main_v60`, `main_v57`. -/
def res_main_v61 (a0 : FVec F S64x900x256 .f32) (a1 : FVec F S64x900x4 .f32) (a2 : IVec S64x256 32) (a3 : FVec F S64x256x4 .f32) : FVec F S64x256 .f32 :=
  (mulf : (⟨S64x256, .f32⟩ : BufTy).Contents (Elt F) → (⟨S64x256, .f32⟩ : BufTy).Contents (Elt F) → (⟨S64x256, .f32⟩ : BufTy).Contents (Elt F)) (res_main_v60 a0 a1 a2 a3) (res_main_v57 a0 a1 a2 a3)

/-- What `main_v62` holds: of `main_v53`, `main_v61`. -/
def res_main_v62 (a0 : FVec F S64x900x256 .f32) (a1 : FVec F S64x900x4 .f32) (a2 : IVec S64x256 32) (a3 : FVec F S64x256x4 .f32) : FVec F S64x256 .f32 :=
  (subf : (⟨S64x256, .f32⟩ : BufTy).Contents (Elt F) → (⟨S64x256, .f32⟩ : BufTy).Contents (Elt F) → (⟨S64x256, .f32⟩ : BufTy).Contents (Elt F)) (res_main_v53 a0 a1 a2 a3) (res_main_v61 a0 a1 a2 a3)

/-- What `main_cst_9` holds: a constant. -/
def res_main_cst_9 (a0 : FVec F S64x900x256 .f32) (a1 : FVec F S64x900x4 .f32) (a2 : IVec S64x256 32) (a3 : FVec F S64x256x4 .f32) : FVec F S_ .f32 :=
  (constant S_ .f32 0x3F000000#32)

/-- What `main_v63` holds: of `main_cst_9`. -/
def res_main_v63 (a0 : FVec F S64x900x256 .f32) (a1 : FVec F S64x900x4 .f32) (a2 : IVec S64x256 32) (a3 : FVec F S64x256x4 .f32) : FVec F S64x256 .f32 :=
  (broadcastInDim S64x256 ![] bcast_S_S64x256 : (⟨S_, .f32⟩ : BufTy).Contents (Elt F) → (⟨S64x256, .f32⟩ : BufTy).Contents (Elt F)) (res_main_cst_9 a0 a1 a2 a3)

/-- What `main_v64` holds: of `main_v63`, `main_v59`. -/
def res_main_v64 (a0 : FVec F S64x900x256 .f32) (a1 : FVec F S64x900x4 .f32) (a2 : IVec S64x256 32) (a3 : FVec F S64x256x4 .f32) : FVec F S64x256 .f32 :=
  (mulf : (⟨S64x256, .f32⟩ : BufTy).Contents (Elt F) → (⟨S64x256, .f32⟩ : BufTy).Contents (Elt F) → (⟨S64x256, .f32⟩ : BufTy).Contents (Elt F)) (res_main_v63 a0 a1 a2 a3) (res_main_v59 a0 a1 a2 a3)

/-- What `main_v65` holds: of `main_v55`, `main_v64`. -/
def res_main_v65 (a0 : FVec F S64x900x256 .f32) (a1 : FVec F S64x900x4 .f32) (a2 : IVec S64x256 32) (a3 : FVec F S64x256x4 .f32) : FVec F S64x256 .f32 :=
  (subf : (⟨S64x256, .f32⟩ : BufTy).Contents (Elt F) → (⟨S64x256, .f32⟩ : BufTy).Contents (Elt F) → (⟨S64x256, .f32⟩ : BufTy).Contents (Elt F)) (res_main_v55 a0 a1 a2 a3) (res_main_v64 a0 a1 a2 a3)

/-- What `main_cst_10` holds: a constant. -/
def res_main_cst_10 (a0 : FVec F S64x900x256 .f32) (a1 : FVec F S64x900x4 .f32) (a2 : IVec S64x256 32) (a3 : FVec F S64x256x4 .f32) : FVec F S_ .f32 :=
  (constant S_ .f32 0x3F000000#32)

/-- What `main_v66` holds: of `main_cst_10`. -/
def res_main_v66 (a0 : FVec F S64x900x256 .f32) (a1 : FVec F S64x900x4 .f32) (a2 : IVec S64x256 32) (a3 : FVec F S64x256x4 .f32) : FVec F S64x256 .f32 :=
  (broadcastInDim S64x256 ![] bcast_S_S64x256 : (⟨S_, .f32⟩ : BufTy).Contents (Elt F) → (⟨S64x256, .f32⟩ : BufTy).Contents (Elt F)) (res_main_cst_10 a0 a1 a2 a3)

/-- What `main_v67` holds: of `main_v66`, `main_v57`. -/
def res_main_v67 (a0 : FVec F S64x900x256 .f32) (a1 : FVec F S64x900x4 .f32) (a2 : IVec S64x256 32) (a3 : FVec F S64x256x4 .f32) : FVec F S64x256 .f32 :=
  (mulf : (⟨S64x256, .f32⟩ : BufTy).Contents (Elt F) → (⟨S64x256, .f32⟩ : BufTy).Contents (Elt F) → (⟨S64x256, .f32⟩ : BufTy).Contents (Elt F)) (res_main_v66 a0 a1 a2 a3) (res_main_v57 a0 a1 a2 a3)

/-- What `main_v68` holds: of `main_v53`, `main_v67`. -/
def res_main_v68 (a0 : FVec F S64x900x256 .f32) (a1 : FVec F S64x900x4 .f32) (a2 : IVec S64x256 32) (a3 : FVec F S64x256x4 .f32) : FVec F S64x256 .f32 :=
  (addf : (⟨S64x256, .f32⟩ : BufTy).Contents (Elt F) → (⟨S64x256, .f32⟩ : BufTy).Contents (Elt F) → (⟨S64x256, .f32⟩ : BufTy).Contents (Elt F)) (res_main_v53 a0 a1 a2 a3) (res_main_v67 a0 a1 a2 a3)

/-- What `main_cst_11` holds: a constant. -/
def res_main_cst_11 (a0 : FVec F S64x900x256 .f32) (a1 : FVec F S64x900x4 .f32) (a2 : IVec S64x256 32) (a3 : FVec F S64x256x4 .f32) : FVec F S_ .f32 :=
  (constant S_ .f32 0x3F000000#32)

/-- What `main_v69` holds: of `main_cst_11`. -/
def res_main_v69 (a0 : FVec F S64x900x256 .f32) (a1 : FVec F S64x900x4 .f32) (a2 : IVec S64x256 32) (a3 : FVec F S64x256x4 .f32) : FVec F S64x256 .f32 :=
  (broadcastInDim S64x256 ![] bcast_S_S64x256 : (⟨S_, .f32⟩ : BufTy).Contents (Elt F) → (⟨S64x256, .f32⟩ : BufTy).Contents (Elt F)) (res_main_cst_11 a0 a1 a2 a3)

/-- What `main_v70` holds: of `main_v69`, `main_v59`. -/
def res_main_v70 (a0 : FVec F S64x900x256 .f32) (a1 : FVec F S64x900x4 .f32) (a2 : IVec S64x256 32) (a3 : FVec F S64x256x4 .f32) : FVec F S64x256 .f32 :=
  (mulf : (⟨S64x256, .f32⟩ : BufTy).Contents (Elt F) → (⟨S64x256, .f32⟩ : BufTy).Contents (Elt F) → (⟨S64x256, .f32⟩ : BufTy).Contents (Elt F)) (res_main_v69 a0 a1 a2 a3) (res_main_v59 a0 a1 a2 a3)

/-- What `main_v71` holds: of `main_v55`, `main_v70`. -/
def res_main_v71 (a0 : FVec F S64x900x256 .f32) (a1 : FVec F S64x900x4 .f32) (a2 : IVec S64x256 32) (a3 : FVec F S64x256x4 .f32) : FVec F S64x256 .f32 :=
  (addf : (⟨S64x256, .f32⟩ : BufTy).Contents (Elt F) → (⟨S64x256, .f32⟩ : BufTy).Contents (Elt F) → (⟨S64x256, .f32⟩ : BufTy).Contents (Elt F)) (res_main_v55 a0 a1 a2 a3) (res_main_v70 a0 a1 a2 a3)

/-- What `main_v72` holds: of `main_v62`. -/
def res_main_v72 (a0 : FVec F S64x900x256 .f32) (a1 : FVec F S64x900x4 .f32) (a2 : IVec S64x256 32) (a3 : FVec F S64x256x4 .f32) : FVec F S64x256x1 .f32 :=
  (broadcastInDim S64x256x1 ![0, 1] bcast_S64x256_S64x256x1_0_1 : (⟨S64x256, .f32⟩ : BufTy).Contents (Elt F) → (⟨S64x256x1, .f32⟩ : BufTy).Contents (Elt F)) (res_main_v62 a0 a1 a2 a3)

/-- What `main_v73` holds: of `main_v65`. -/
def res_main_v73 (a0 : FVec F S64x900x256 .f32) (a1 : FVec F S64x900x4 .f32) (a2 : IVec S64x256 32) (a3 : FVec F S64x256x4 .f32) : FVec F S64x256x1 .f32 :=
  (broadcastInDim S64x256x1 ![0, 1] bcast_S64x256_S64x256x1_0_1 : (⟨S64x256, .f32⟩ : BufTy).Contents (Elt F) → (⟨S64x256x1, .f32⟩ : BufTy).Contents (Elt F)) (res_main_v65 a0 a1 a2 a3)

/-- What `main_v74` holds: of `main_v68`. -/
def res_main_v74 (a0 : FVec F S64x900x256 .f32) (a1 : FVec F S64x900x4 .f32) (a2 : IVec S64x256 32) (a3 : FVec F S64x256x4 .f32) : FVec F S64x256x1 .f32 :=
  (broadcastInDim S64x256x1 ![0, 1] bcast_S64x256_S64x256x1_0_1 : (⟨S64x256, .f32⟩ : BufTy).Contents (Elt F) → (⟨S64x256x1, .f32⟩ : BufTy).Contents (Elt F)) (res_main_v68 a0 a1 a2 a3)

/-- What `main_v75` holds: of `main_v71`. -/
def res_main_v75 (a0 : FVec F S64x900x256 .f32) (a1 : FVec F S64x900x4 .f32) (a2 : IVec S64x256 32) (a3 : FVec F S64x256x4 .f32) : FVec F S64x256x1 .f32 :=
  (broadcastInDim S64x256x1 ![0, 1] bcast_S64x256_S64x256x1_0_1 : (⟨S64x256, .f32⟩ : BufTy).Contents (Elt F) → (⟨S64x256x1, .f32⟩ : BufTy).Contents (Elt F)) (res_main_v71 a0 a1 a2 a3)

/-- What `main_v76` holds: of `main_v72`, `main_v73`, `main_v74`, `main_v75`. -/
def res_main_v76 (a0 : FVec F S64x900x256 .f32) (a1 : FVec F S64x900x4 .f32) (a2 : IVec S64x256 32) (a3 : FVec F S64x256x4 .f32) : FVec F S64x256x4 .f32 :=
  ((fun u => concatenate S64x256x4 2 [⟨S64x256x1, u 0⟩, ⟨S64x256x1, u 1⟩, ⟨S64x256x1, u 2⟩, ⟨S64x256x1, u 3⟩] concatenates_S64x256x1_S64x256x1_S64x256x1_S64x256x1_S64x256x4_d2) : ((k : Fin 4) → ((![main_v72, main_v73, main_v74, main_v75] : Fin 4 → Ref sig .tc) k).ty.Contents (Elt F)) → (⟨S64x256x4, .f32⟩ : BufTy).Contents (Elt F)) (Fin.cons (res_main_v72 a0 a1 a2 a3) (Fin.cons (res_main_v73 a0 a1 a2 a3) (Fin.cons (res_main_v74 a0 a1 a2 a3) (Fin.cons (res_main_v75 a0 a1 a2 a3) (fun i => i.elim0)))))

/-- The same, the operands in their places in the list. -/
theorem res_main_v76_eq (a0 : FVec F S64x900x256 .f32) (a1 : FVec F S64x900x4 .f32) (a2 : IVec S64x256 32) (a3 : FVec F S64x256x4 .f32) : res_main_v76 a0 a1 a2 a3 = concatenate S64x256x4 2 [⟨S64x256x1, res_main_v72 a0 a1 a2 a3⟩, ⟨S64x256x1, res_main_v73 a0 a1 a2 a3⟩, ⟨S64x256x1, res_main_v74 a0 a1 a2 a3⟩, ⟨S64x256x1, res_main_v75 a0 a1 a2 a3⟩] concatenates_S64x256x1_S64x256x1_S64x256x1_S64x256x1_S64x256x4_d2 := rfl

/-- What `main_v77` holds: of `main_v76`. -/
def res_main_v77 (a0 : FVec F S64x900x256 .f32) (a1 : FVec F S64x900x4 .f32) (a2 : IVec S64x256 32) (a3 : FVec F S64x256x4 .f32) : FVec F S64x1x256x4 .f32 :=
  (broadcastInDim S64x1x256x4 ![0, 2, 3] bcast_S64x256x4_S64x1x256x4_0_2_3 : (⟨S64x256x4, .f32⟩ : BufTy).Contents (Elt F) → (⟨S64x1x256x4, .f32⟩ : BufTy).Contents (Elt F)) (res_main_v76 a0 a1 a2 a3)

/-- What `main_v78` holds: of `main_v51`. -/
def res_main_v78 (a0 : FVec F S64x900x256 .f32) (a1 : FVec F S64x900x4 .f32) (a2 : IVec S64x256 32) (a3 : FVec F S64x256x4 .f32) : FVec F S64x900x1x1 .f32 :=
  ((extractStridedSlice S64x900x1x1 ![0, 0, 0, 2] · slices_S64x900x1x4_S64x900x1x1_0_0_0_2) : (⟨S64x900x1x4, .f32⟩ : BufTy).Contents (Elt F) → (⟨S64x900x1x1, .f32⟩ : BufTy).Contents (Elt F)) (res_main_v51 a0 a1 a2 a3)

/-- What `main_v79` holds: of `main_v78`. -/
def res_main_v79 (a0 : FVec F S64x900x256 .f32) (a1 : FVec F S64x900x4 .f32) (a2 : IVec S64x256 32) (a3 : FVec F S64x256x4 .f32) : FVec F S64x900x1 .f32 :=
  shapeCast S64x900x1 (res_main_v78 a0 a1 a2 a3) shapeCasts_S64x900x1x1_S64x900x1

/-- What `main_v80` holds: of `main_v51`. -/
def res_main_v80 (a0 : FVec F S64x900x256 .f32) (a1 : FVec F S64x900x4 .f32) (a2 : IVec S64x256 32) (a3 : FVec F S64x256x4 .f32) : FVec F S64x900x1x1 .f32 :=
  ((extractStridedSlice S64x900x1x1 ![0, 0, 0, 0] · slices_S64x900x1x4_S64x900x1x1_0_0_0_0) : (⟨S64x900x1x4, .f32⟩ : BufTy).Contents (Elt F) → (⟨S64x900x1x1, .f32⟩ : BufTy).Contents (Elt F)) (res_main_v51 a0 a1 a2 a3)

/-- What `main_v81` holds: of `main_v80`. -/
def res_main_v81 (a0 : FVec F S64x900x256 .f32) (a1 : FVec F S64x900x4 .f32) (a2 : IVec S64x256 32) (a3 : FVec F S64x256x4 .f32) : FVec F S64x900x1 .f32 :=
  shapeCast S64x900x1 (res_main_v80 a0 a1 a2 a3) shapeCasts_S64x900x1x1_S64x900x1

/-- What `main_v82` holds: of `main_v79`, `main_v81`. -/
def res_main_v82 (a0 : FVec F S64x900x256 .f32) (a1 : FVec F S64x900x4 .f32) (a2 : IVec S64x256 32) (a3 : FVec F S64x256x4 .f32) : FVec F S64x900x1 .f32 :=
  (subf : (⟨S64x900x1, .f32⟩ : BufTy).Contents (Elt F) → (⟨S64x900x1, .f32⟩ : BufTy).Contents (Elt F) → (⟨S64x900x1, .f32⟩ : BufTy).Contents (Elt F)) (res_main_v79 a0 a1 a2 a3) (res_main_v81 a0 a1 a2 a3)

/-- What `main_v83` holds: of `main_v51`. -/
def res_main_v83 (a0 : FVec F S64x900x256 .f32) (a1 : FVec F S64x900x4 .f32) (a2 : IVec S64x256 32) (a3 : FVec F S64x256x4 .f32) : FVec F S64x900x1x1 .f32 :=
  ((extractStridedSlice S64x900x1x1 ![0, 0, 0, 3] · slices_S64x900x1x4_S64x900x1x1_0_0_0_3) : (⟨S64x900x1x4, .f32⟩ : BufTy).Contents (Elt F) → (⟨S64x900x1x1, .f32⟩ : BufTy).Contents (Elt F)) (res_main_v51 a0 a1 a2 a3)

/-- What `main_v84` holds: of `main_v83`. -/
def res_main_v84 (a0 : FVec F S64x900x256 .f32) (a1 : FVec F S64x900x4 .f32) (a2 : IVec S64x256 32) (a3 : FVec F S64x256x4 .f32) : FVec F S64x900x1 .f32 :=
  shapeCast S64x900x1 (res_main_v83 a0 a1 a2 a3) shapeCasts_S64x900x1x1_S64x900x1

/-- What `main_v85` holds: of `main_v51`. -/
def res_main_v85 (a0 : FVec F S64x900x256 .f32) (a1 : FVec F S64x900x4 .f32) (a2 : IVec S64x256 32) (a3 : FVec F S64x256x4 .f32) : FVec F S64x900x1x1 .f32 :=
  ((extractStridedSlice S64x900x1x1 ![0, 0, 0, 1] · slices_S64x900x1x4_S64x900x1x1_0_0_0_1) : (⟨S64x900x1x4, .f32⟩ : BufTy).Contents (Elt F) → (⟨S64x900x1x1, .f32⟩ : BufTy).Contents (Elt F)) (res_main_v51 a0 a1 a2 a3)

/-- What `main_v86` holds: of `main_v85`. -/
def res_main_v86 (a0 : FVec F S64x900x256 .f32) (a1 : FVec F S64x900x4 .f32) (a2 : IVec S64x256 32) (a3 : FVec F S64x256x4 .f32) : FVec F S64x900x1 .f32 :=
  shapeCast S64x900x1 (res_main_v85 a0 a1 a2 a3) shapeCasts_S64x900x1x1_S64x900x1

/-- What `main_v87` holds: of `main_v84`, `main_v86`. -/
def res_main_v87 (a0 : FVec F S64x900x256 .f32) (a1 : FVec F S64x900x4 .f32) (a2 : IVec S64x256 32) (a3 : FVec F S64x256x4 .f32) : FVec F S64x900x1 .f32 :=
  (subf : (⟨S64x900x1, .f32⟩ : BufTy).Contents (Elt F) → (⟨S64x900x1, .f32⟩ : BufTy).Contents (Elt F) → (⟨S64x900x1, .f32⟩ : BufTy).Contents (Elt F)) (res_main_v84 a0 a1 a2 a3) (res_main_v86 a0 a1 a2 a3)

/-- What `main_v88` holds: of `main_v82`, `main_v87`. -/
def res_main_v88 (a0 : FVec F S64x900x256 .f32) (a1 : FVec F S64x900x4 .f32) (a2 : IVec S64x256 32) (a3 : FVec F S64x256x4 .f32) : FVec F S64x900x1 .f32 :=
  (mulf : (⟨S64x900x1, .f32⟩ : BufTy).Contents (Elt F) → (⟨S64x900x1, .f32⟩ : BufTy).Contents (Elt F) → (⟨S64x900x1, .f32⟩ : BufTy).Contents (Elt F)) (res_main_v82 a0 a1 a2 a3) (res_main_v87 a0 a1 a2 a3)

/-- What `main_v89` holds: of `main_v77`. -/
def res_main_v89 (a0 : FVec F S64x900x256 .f32) (a1 : FVec F S64x900x4 .f32) (a2 : IVec S64x256 32) (a3 : FVec F S64x256x4 .f32) : FVec F S64x1x256x1 .f32 :=
  ((extractStridedSlice S64x1x256x1 ![0, 0, 0, 2] · slices_S64x1x256x4_S64x1x256x1_0_0_0_2) : (⟨S64x1x256x4, .f32⟩ : BufTy).Contents (Elt F) → (⟨S64x1x256x1, .f32⟩ : BufTy).Contents (Elt F)) (res_main_v77 a0 a1 a2 a3)

/-- What `main_v90` holds: of `main_v89`. -/
def res_main_v90 (a0 : FVec F S64x900x256 .f32) (a1 : FVec F S64x900x4 .f32) (a2 : IVec S64x256 32) (a3 : FVec F S64x256x4 .f32) : FVec F S64x1x256 .f32 :=
  shapeCast S64x1x256 (res_main_v89 a0 a1 a2 a3) shapeCasts_S64x1x256x1_S64x1x256

/-- What `main_v91` holds: of `main_v77`. -/
def res_main_v91 (a0 : FVec F S64x900x256 .f32) (a1 : FVec F S64x900x4 .f32) (a2 : IVec S64x256 32) (a3 : FVec F S64x256x4 .f32) : FVec F S64x1x256x1 .f32 :=
  ((extractStridedSlice S64x1x256x1 ![0, 0, 0, 0] · slices_S64x1x256x4_S64x1x256x1_0_0_0_0) : (⟨S64x1x256x4, .f32⟩ : BufTy).Contents (Elt F) → (⟨S64x1x256x1, .f32⟩ : BufTy).Contents (Elt F)) (res_main_v77 a0 a1 a2 a3)

/-- What `main_v92` holds: of `main_v91`. -/
def res_main_v92 (a0 : FVec F S64x900x256 .f32) (a1 : FVec F S64x900x4 .f32) (a2 : IVec S64x256 32) (a3 : FVec F S64x256x4 .f32) : FVec F S64x1x256 .f32 :=
  shapeCast S64x1x256 (res_main_v91 a0 a1 a2 a3) shapeCasts_S64x1x256x1_S64x1x256

/-- What `main_v93` holds: of `main_v90`, `main_v92`. -/
def res_main_v93 (a0 : FVec F S64x900x256 .f32) (a1 : FVec F S64x900x4 .f32) (a2 : IVec S64x256 32) (a3 : FVec F S64x256x4 .f32) : FVec F S64x1x256 .f32 :=
  (subf : (⟨S64x1x256, .f32⟩ : BufTy).Contents (Elt F) → (⟨S64x1x256, .f32⟩ : BufTy).Contents (Elt F) → (⟨S64x1x256, .f32⟩ : BufTy).Contents (Elt F)) (res_main_v90 a0 a1 a2 a3) (res_main_v92 a0 a1 a2 a3)

/-- What `main_v94` holds: of `main_v77`. -/
def res_main_v94 (a0 : FVec F S64x900x256 .f32) (a1 : FVec F S64x900x4 .f32) (a2 : IVec S64x256 32) (a3 : FVec F S64x256x4 .f32) : FVec F S64x1x256x1 .f32 :=
  ((extractStridedSlice S64x1x256x1 ![0, 0, 0, 3] · slices_S64x1x256x4_S64x1x256x1_0_0_0_3) : (⟨S64x1x256x4, .f32⟩ : BufTy).Contents (Elt F) → (⟨S64x1x256x1, .f32⟩ : BufTy).Contents (Elt F)) (res_main_v77 a0 a1 a2 a3)

/-- What `main_v95` holds: of `main_v94`. -/
def res_main_v95 (a0 : FVec F S64x900x256 .f32) (a1 : FVec F S64x900x4 .f32) (a2 : IVec S64x256 32) (a3 : FVec F S64x256x4 .f32) : FVec F S64x1x256 .f32 :=
  shapeCast S64x1x256 (res_main_v94 a0 a1 a2 a3) shapeCasts_S64x1x256x1_S64x1x256

/-- What `main_v96` holds: of `main_v77`. -/
def res_main_v96 (a0 : FVec F S64x900x256 .f32) (a1 : FVec F S64x900x4 .f32) (a2 : IVec S64x256 32) (a3 : FVec F S64x256x4 .f32) : FVec F S64x1x256x1 .f32 :=
  ((extractStridedSlice S64x1x256x1 ![0, 0, 0, 1] · slices_S64x1x256x4_S64x1x256x1_0_0_0_1) : (⟨S64x1x256x4, .f32⟩ : BufTy).Contents (Elt F) → (⟨S64x1x256x1, .f32⟩ : BufTy).Contents (Elt F)) (res_main_v77 a0 a1 a2 a3)

/-- What `main_v97` holds: of `main_v96`. -/
def res_main_v97 (a0 : FVec F S64x900x256 .f32) (a1 : FVec F S64x900x4 .f32) (a2 : IVec S64x256 32) (a3 : FVec F S64x256x4 .f32) : FVec F S64x1x256 .f32 :=
  shapeCast S64x1x256 (res_main_v96 a0 a1 a2 a3) shapeCasts_S64x1x256x1_S64x1x256

/-- What `main_v98` holds: of `main_v95`, `main_v97`. -/
def res_main_v98 (a0 : FVec F S64x900x256 .f32) (a1 : FVec F S64x900x4 .f32) (a2 : IVec S64x256 32) (a3 : FVec F S64x256x4 .f32) : FVec F S64x1x256 .f32 :=
  (subf : (⟨S64x1x256, .f32⟩ : BufTy).Contents (Elt F) → (⟨S64x1x256, .f32⟩ : BufTy).Contents (Elt F) → (⟨S64x1x256, .f32⟩ : BufTy).Contents (Elt F)) (res_main_v95 a0 a1 a2 a3) (res_main_v97 a0 a1 a2 a3)

/-- What `main_v99` holds: of `main_v93`, `main_v98`. -/
def res_main_v99 (a0 : FVec F S64x900x256 .f32) (a1 : FVec F S64x900x4 .f32) (a2 : IVec S64x256 32) (a3 : FVec F S64x256x4 .f32) : FVec F S64x1x256 .f32 :=
  (mulf : (⟨S64x1x256, .f32⟩ : BufTy).Contents (Elt F) → (⟨S64x1x256, .f32⟩ : BufTy).Contents (Elt F) → (⟨S64x1x256, .f32⟩ : BufTy).Contents (Elt F)) (res_main_v93 a0 a1 a2 a3) (res_main_v98 a0 a1 a2 a3)

/-- What `main_v100` holds: of `main_v51`. -/
def res_main_v100 (a0 : FVec F S64x900x256 .f32) (a1 : FVec F S64x900x4 .f32) (a2 : IVec S64x256 32) (a3 : FVec F S64x256x4 .f32) : FVec F S64x900x1x2 .f32 :=
  ((extractStridedSlice S64x900x1x2 ![0, 0, 0, 0] · slices_S64x900x1x4_S64x900x1x2_0_0_0_0) : (⟨S64x900x1x4, .f32⟩ : BufTy).Contents (Elt F) → (⟨S64x900x1x2, .f32⟩ : BufTy).Contents (Elt F)) (res_main_v51 a0 a1 a2 a3)

/-- What `main_v101` holds: of `main_v77`. -/
def res_main_v101 (a0 : FVec F S64x900x256 .f32) (a1 : FVec F S64x900x4 .f32) (a2 : IVec S64x256 32) (a3 : FVec F S64x256x4 .f32) : FVec F S64x1x256x2 .f32 :=
  ((extractStridedSlice S64x1x256x2 ![0, 0, 0, 0] · slices_S64x1x256x4_S64x1x256x2_0_0_0_0) : (⟨S64x1x256x4, .f32⟩ : BufTy).Contents (Elt F) → (⟨S64x1x256x2, .f32⟩ : BufTy).Contents (Elt F)) (res_main_v77 a0 a1 a2 a3)

/-- What `main_v102` holds: of `main_v100`. -/
def res_main_v102 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)) (res_main_v100 a0 a1 a2 a3)

/-- What `main_v103` holds: of `main_v101`. -/
def res_main_v103 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)) (res_main_v101 a0 a1 a2 a3)

/-- What `main_v104` holds: of `main_v102`, `main_v103`. -/
def res_main_v104 (a0 : FVec F S64x900x256 .f32) (a1 : FVec F S64x900x4 .f32) (a2 : IVec S64x256 32) (a3 : FVec F S64x256x4 .f32) : FVec F S64x900x256x2 .f32 :=
  (maximumf : (⟨S64x900x256x2, .f32⟩ : BufTy).Contents (Elt F) → (⟨S64x900x256x2, .f32⟩ : BufTy).Contents (Elt F) → (⟨S64x900x256x2, .f32⟩ : BufTy).Contents (Elt F)) (res_main_v102 a0 a1 a2 a3) (res_main_v103 a0 a1 a2 a3)

/-- What `main_v105` holds: of `main_v51`. -/
def res_main_v105 (a0 : FVec F S64x900x256 .f32) (a1 : FVec F S64x900x4 .f32) (a2 : IVec S64x256 32) (a3 : FVec F S64x256x4 .f32) : FVec F S64x900x1x2 .f32 :=
  ((extractStridedSlice S64x900x1x2 ![0, 0, 0, 2] · slices_S64x900x1x4_S64x900x1x2_0_0_0_2) : (⟨S64x900x1x4, .f32⟩ : BufTy).Contents (Elt F) → (⟨S64x900x1x2, .f32⟩ : BufTy).Contents (Elt F)) (res_main_v51 a0 a1 a2 a3)

/-- What `main_v106` holds: of `main_v77`. -/
def res_main_v106 (a0 : FVec F S64x900x256 .f32) (a1 : FVec F S64x900x4 .f32) (a2 : IVec S64x256 32) (a3 : FVec F S64x256x4 .f32) : FVec F S64x1x256x2 .f32 :=
  ((extractStridedSlice S64x1x256x2 ![0, 0, 0, 2] · slices_S64x1x256x4_S64x1x256x2_0_0_0_2) : (⟨S64x1x256x4, .f32⟩ : BufTy).Contents (Elt F) → (⟨S64x1x256x2, .f32⟩ : BufTy).Contents (Elt F)) (res_main_v77 a0 a1 a2 a3)

/-- What `main_v107` holds: of `main_v105`. -/
def res_main_v107 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)) (res_main_v105 a0 a1 a2 a3)

/-- What `main_v108` holds: of `main_v106`. -/
def res_main_v108 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)) (res_main_v106 a0 a1 a2 a3)

/-- What `main_v109` holds: of `main_v107`, `main_v108`. -/
def res_main_v109 (a0 : FVec F S64x900x256 .f32) (a1 : FVec F S64x900x4 .f32) (a2 : IVec S64x256 32) (a3 : FVec F S64x256x4 .f32) : FVec F S64x900x256x2 .f32 :=
  (minimumf : (⟨S64x900x256x2, .f32⟩ : BufTy).Contents (Elt F) → (⟨S64x900x256x2, .f32⟩ : BufTy).Contents (Elt F) → (⟨S64x900x256x2, .f32⟩ : BufTy).Contents (Elt F)) (res_main_v107 a0 a1 a2 a3) (res_main_v108 a0 a1 a2 a3)

/-- What `main_v110` holds: of `main_v109`, `main_v104`. -/
def res_main_v110 (a0 : FVec F S64x900x256 .f32) (a1 : FVec F S64x900x4 .f32) (a2 : IVec S64x256 32) (a3 : FVec F S64x256x4 .f32) : FVec F S64x900x256x2 .f32 :=
  (subf : (⟨S64x900x256x2, .f32⟩ : BufTy).Contents (Elt F) → (⟨S64x900x256x2, .f32⟩ : BufTy).Contents (Elt F) → (⟨S64x900x256x2, .f32⟩ : BufTy).Contents (Elt F)) (res_main_v109 a0 a1 a2 a3) (res_main_v104 a0 a1 a2 a3)

/-- What `main_cst_12` holds: a constant. -/
def res_main_cst_12 (a0 : FVec F S64x900x256 .f32) (a1 : FVec F S64x900x4 .f32) (a2 : IVec S64x256 32) (a3 : FVec F S64x256x4 .f32) : FVec F S_ .f32 :=
  (constant S_ .f32 0x00000000#32)

/-- What `main_call0_v0` holds: of `main_cst_12`. -/
def res_main_call0_v0 (a0 : FVec F S64x900x256 .f32) (a1 : FVec F S64x900x4 .f32) (a2 : IVec S64x256 32) (a3 : FVec F S64x256x4 .f32) : FVec F S_ .f32 :=
  res_main_cst_12 a0 a1 a2 a3

/-- What `main_call0_v1` holds: of `main_call0_v0`. -/
def res_main_call0_v1 (a0 : FVec F S64x900x256 .f32) (a1 : FVec F S64x900x4 .f32) (a2 : IVec S64x256 32) (a3 : FVec F S64x256x4 .f32) : FVec F S64x900x256x2 .f32 :=
  (broadcastInDim S64x900x256x2 ![] bcast_S_S64x900x256x2 : (⟨S_, .f32⟩ : BufTy).Contents (Elt F) → (⟨S64x900x256x2, .f32⟩ : BufTy).Contents (Elt F)) (res_main_call0_v0 a0 a1 a2 a3)

/-- What `main_v111` holds: of `main_call0_v1`, `main_v110`. -/
def res_main_v111 (a0 : FVec F S64x900x256 .f32) (a1 : FVec F S64x900x4 .f32) (a2 : IVec S64x256 32) (a3 : FVec F S64x256x4 .f32) : FVec F S64x900x256x2 .f32 :=
  (maximumf : (⟨S64x900x256x2, .f32⟩ : BufTy).Contents (Elt F) → (⟨S64x900x256x2, .f32⟩ : BufTy).Contents (Elt F) → (⟨S64x900x256x2, .f32⟩ : BufTy).Contents (Elt F)) (res_main_call0_v1 a0 a1 a2 a3) (res_main_v110 a0 a1 a2 a3)

/-- What `main_v112` holds: of `main_v111`. -/
def res_main_v112 (a0 : FVec F S64x900x256 .f32) (a1 : FVec F S64x900x4 .f32) (a2 : IVec S64x256 32) (a3 : FVec F S64x256x4 .f32) : FVec F S64x900x256x1 .f32 :=
  ((extractStridedSlice S64x900x256x1 ![0, 0, 0, 0] · slices_S64x900x256x2_S64x900x256x1_0_0_0_0) : (⟨S64x900x256x2, .f32⟩ : BufTy).Contents (Elt F) → (⟨S64x900x256x1, .f32⟩ : BufTy).Contents (Elt F)) (res_main_v111 a0 a1 a2 a3)

/-- What `main_v113` holds: of `main_v112`. -/
def res_main_v113 (a0 : FVec F S64x900x256 .f32) (a1 : FVec F S64x900x4 .f32) (a2 : IVec S64x256 32) (a3 : FVec F S64x256x4 .f32) : FVec F S64x900x256 .f32 :=
  shapeCast S64x900x256 (res_main_v112 a0 a1 a2 a3) shapeCasts_S64x900x256x1_S64x900x256

/-- What `main_v114` holds: of `main_v111`. -/
def res_main_v114 (a0 : FVec F S64x900x256 .f32) (a1 : FVec F S64x900x4 .f32) (a2 : IVec S64x256 32) (a3 : FVec F S64x256x4 .f32) : FVec F S64x900x256x1 .f32 :=
  ((extractStridedSlice S64x900x256x1 ![0, 0, 0, 1] · slices_S64x900x256x2_S64x900x256x1_0_0_0_1) : (⟨S64x900x256x2, .f32⟩ : BufTy).Contents (Elt F) → (⟨S64x900x256x1, .f32⟩ : BufTy).Contents (Elt F)) (res_main_v111 a0 a1 a2 a3)

/-- What `main_v115` holds: of `main_v114`. -/
def res_main_v115 (a0 : FVec F S64x900x256 .f32) (a1 : FVec F S64x900x4 .f32) (a2 : IVec S64x256 32) (a3 : FVec F S64x256x4 .f32) : FVec F S64x900x256 .f32 :=
  shapeCast S64x900x256 (res_main_v114 a0 a1 a2 a3) shapeCasts_S64x900x256x1_S64x900x256

/-- What `main_v116` holds: of `main_v113`, `main_v115`. -/
def res_main_v116 (a0 : FVec F S64x900x256 .f32) (a1 : FVec F S64x900x4 .f32) (a2 : IVec S64x256 32) (a3 : FVec F S64x256x4 .f32) : FVec F S64x900x256 .f32 :=
  (mulf : (⟨S64x900x256, .f32⟩ : BufTy).Contents (Elt F) → (⟨S64x900x256, .f32⟩ : BufTy).Contents (Elt F) → (⟨S64x900x256, .f32⟩ : BufTy).Contents (Elt F)) (res_main_v113 a0 a1 a2 a3) (res_main_v115 a0 a1 a2 a3)

/-- What `main_v117` holds: of `main_v88`. -/
def res_main_v117 (a0 : FVec F S64x900x256 .f32) (a1 : FVec F S64x900x4 .f32) (a2 : IVec S64x256 32) (a3 : FVec F S64x256x4 .f32) : FVec F S64x900x256 .f32 :=
  (broadcastInDim S64x900x256 ![0, 1, 2] bcast_S64x900x1_S64x900x256_0_1_2 : (⟨S64x900x1, .f32⟩ : BufTy).Contents (Elt F) → (⟨S64x900x256, .f32⟩ : BufTy).Contents (Elt F)) (res_main_v88 a0 a1 a2 a3)

/-- What `main_v118` holds: of `main_v99`. -/
def res_main_v118 (a0 : FVec F S64x900x256 .f32) (a1 : FVec F S64x900x4 .f32) (a2 : IVec S64x256 32) (a3 : FVec F S64x256x4 .f32) : FVec F S64x900x256 .f32 :=
  (broadcastInDim S64x900x256 ![0, 1, 2] bcast_S64x1x256_S64x900x256_0_1_2 : (⟨S64x1x256, .f32⟩ : BufTy).Contents (Elt F) → (⟨S64x900x256, .f32⟩ : BufTy).Contents (Elt F)) (res_main_v99 a0 a1 a2 a3)

/-- What `main_v119` holds: of `main_v117`, `main_v118`. -/
def res_main_v119 (a0 : FVec F S64x900x256 .f32) (a1 : FVec F S64x900x4 .f32) (a2 : IVec S64x256 32) (a3 : FVec F S64x256x4 .f32) : FVec F S64x900x256 .f32 :=
  (addf : (⟨S64x900x256, .f32⟩ : BufTy).Contents (Elt F) → (⟨S64x900x256, .f32⟩ : BufTy).Contents (Elt F) → (⟨S64x900x256, .f32⟩ : BufTy).Contents (Elt F)) (res_main_v117 a0 a1 a2 a3) (res_main_v118 a0 a1 a2 a3)

/-- What `main_v120` holds: of `main_v119`, `main_v116`. -/
def res_main_v120 (a0 : FVec F S64x900x256 .f32) (a1 : FVec F S64x900x4 .f32) (a2 : IVec S64x256 32) (a3 : FVec F S64x256x4 .f32) : FVec F S64x900x256 .f32 :=
  (subf : (⟨S64x900x256, .f32⟩ : BufTy).Contents (Elt F) → (⟨S64x900x256, .f32⟩ : BufTy).Contents (Elt F) → (⟨S64x900x256, .f32⟩ : BufTy).Contents (Elt F)) (res_main_v119 a0 a1 a2 a3) (res_main_v116 a0 a1 a2 a3)

/-- What `main_v121` holds: of `main_v116`, `main_v120`. -/
def res_main_v121 (a0 : FVec F S64x900x256 .f32) (a1 : FVec F S64x900x4 .f32) (a2 : IVec S64x256 32) (a3 : FVec F S64x256x4 .f32) : FVec F S64x900x256 .f32 :=
  (Host.divf : (⟨S64x900x256, .f32⟩ : BufTy).Contents (Elt F) → (⟨S64x900x256, .f32⟩ : BufTy).Contents (Elt F) → (⟨S64x900x256, .f32⟩ : BufTy).Contents (Elt F)) (res_main_v116 a0 a1 a2 a3) (res_main_v120 a0 a1 a2 a3)

/-- What `main_v122` holds: of `main_v51`. -/
def res_main_v122 (a0 : FVec F S64x900x256 .f32) (a1 : FVec F S64x900x4 .f32) (a2 : IVec S64x256 32) (a3 : FVec F S64x256x4 .f32) : FVec F S64x900x1x2 .f32 :=
  ((extractStridedSlice S64x900x1x2 ![0, 0, 0, 0] · slices_S64x900x1x4_S64x900x1x2_0_0_0_0) : (⟨S64x900x1x4, .f32⟩ : BufTy).Contents (Elt F) → (⟨S64x900x1x2, .f32⟩ : BufTy).Contents (Elt F)) (res_main_v51 a0 a1 a2 a3)

/-- What `main_v123` holds: of `main_v77`. -/
def res_main_v123 (a0 : FVec F S64x900x256 .f32) (a1 : FVec F S64x900x4 .f32) (a2 : IVec S64x256 32) (a3 : FVec F S64x256x4 .f32) : FVec F S64x1x256x2 .f32 :=
  ((extractStridedSlice S64x1x256x2 ![0, 0, 0, 0] · slices_S64x1x256x4_S64x1x256x2_0_0_0_0) : (⟨S64x1x256x4, .f32⟩ : BufTy).Contents (Elt F) → (⟨S64x1x256x2, .f32⟩ : BufTy).Contents (Elt F)) (res_main_v77 a0 a1 a2 a3)

/-- What `main_v124` holds: of `main_v122`. -/
def res_main_v124 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)) (res_main_v122 a0 a1 a2 a3)

/-- What `main_v125` holds: of `main_v123`. -/
def res_main_v125 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)) (res_main_v123 a0 a1 a2 a3)

/-- What `main_v126` holds: of `main_v124`, `main_v125`. -/
def res_main_v126 (a0 : FVec F S64x900x256 .f32) (a1 : FVec F S64x900x4 .f32) (a2 : IVec S64x256 32) (a3 : FVec F S64x256x4 .f32) : FVec F S64x900x256x2 .f32 :=
  (minimumf : (⟨S64x900x256x2, .f32⟩ : BufTy).Contents (Elt F) → (⟨S64x900x256x2, .f32⟩ : BufTy).Contents (Elt F) → (⟨S64x900x256x2, .f32⟩ : BufTy).Contents (Elt F)) (res_main_v124 a0 a1 a2 a3) (res_main_v125 a0 a1 a2 a3)

/-- What `main_v127` holds: of `main_v51`. -/
def res_main_v127 (a0 : FVec F S64x900x256 .f32) (a1 : FVec F S64x900x4 .f32) (a2 : IVec S64x256 32) (a3 : FVec F S64x256x4 .f32) : FVec F S64x900x1x2 .f32 :=
  ((extractStridedSlice S64x900x1x2 ![0, 0, 0, 2] · slices_S64x900x1x4_S64x900x1x2_0_0_0_2) : (⟨S64x900x1x4, .f32⟩ : BufTy).Contents (Elt F) → (⟨S64x900x1x2, .f32⟩ : BufTy).Contents (Elt F)) (res_main_v51 a0 a1 a2 a3)

/-- What `main_v128` holds: of `main_v77`. -/
def res_main_v128 (a0 : FVec F S64x900x256 .f32) (a1 : FVec F S64x900x4 .f32) (a2 : IVec S64x256 32) (a3 : FVec F S64x256x4 .f32) : FVec F S64x1x256x2 .f32 :=
  ((extractStridedSlice S64x1x256x2 ![0, 0, 0, 2] · slices_S64x1x256x4_S64x1x256x2_0_0_0_2) : (⟨S64x1x256x4, .f32⟩ : BufTy).Contents (Elt F) → (⟨S64x1x256x2, .f32⟩ : BufTy).Contents (Elt F)) (res_main_v77 a0 a1 a2 a3)

/-- What `main_v129` holds: of `main_v127`. -/
def res_main_v129 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)) (res_main_v127 a0 a1 a2 a3)

/-- What `main_v130` holds: of `main_v128`. -/
def res_main_v130 (a0 : FVec F S64x900x256 .f32) (a1 : FVec F S64x900x4 .f32) (a2 : IVec S64x256 32) (a3 : FVec F S64x256x4 .f32) : FVec F S64x900x256x2 .f32 :=
  (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)) (res_main_v128 a0 a1 a2 a3)

/-- What `main_v131` holds: of `main_v129`, `main_v130`. -/
def res_main_v131 (a0 : FVec F S64x900x256 .f32) (a1 : FVec F S64x900x4 .f32) (a2 : IVec S64x256 32) (a3 : FVec F S64x256x4 .f32) : FVec F S64x900x256x2 .f32 :=
  (maximumf : (⟨S64x900x256x2, .f32⟩ : BufTy).Contents (Elt F) → (⟨S64x900x256x2, .f32⟩ : BufTy).Contents (Elt F) → (⟨S64x900x256x2, .f32⟩ : BufTy).Contents (Elt F)) (res_main_v129 a0 a1 a2 a3) (res_main_v130 a0 a1 a2 a3)

/-- What `main_v132` holds: of `main_v131`, `main_v126`. -/
def res_main_v132 (a0 : FVec F S64x900x256 .f32) (a1 : FVec F S64x900x4 .f32) (a2 : IVec S64x256 32) (a3 : FVec F S64x256x4 .f32) : FVec F S64x900x256x2 .f32 :=
  (subf : (⟨S64x900x256x2, .f32⟩ : BufTy).Contents (Elt F) → (⟨S64x900x256x2, .f32⟩ : BufTy).Contents (Elt F) → (⟨S64x900x256x2, .f32⟩ : BufTy).Contents (Elt F)) (res_main_v131 a0 a1 a2 a3) (res_main_v126 a0 a1 a2 a3)

/-- What `main_cst_13` holds: a constant. -/
def res_main_cst_13 (a0 : FVec F S64x900x256 .f32) (a1 : FVec F S64x900x4 .f32) (a2 : IVec S64x256 32) (a3 : FVec F S64x256x4 .f32) : FVec F S_ .f32 :=
  (constant S_ .f32 0x00000000#32)

/-- What `main_call1_v0` holds: of `main_cst_13`. -/
def res_main_call1_v0 (a0 : FVec F S64x900x256 .f32) (a1 : FVec F S64x900x4 .f32) (a2 : IVec S64x256 32) (a3 : FVec F S64x256x4 .f32) : FVec F S_ .f32 :=
  res_main_cst_13 a0 a1 a2 a3

/-- What `main_call1_v1` holds: of `main_call1_v0`. -/
def res_main_call1_v1 (a0 : FVec F S64x900x256 .f32) (a1 : FVec F S64x900x4 .f32) (a2 : IVec S64x256 32) (a3 : FVec F S64x256x4 .f32) : FVec F S64x900x256x2 .f32 :=
  (broadcastInDim S64x900x256x2 ![] bcast_S_S64x900x256x2 : (⟨S_, .f32⟩ : BufTy).Contents (Elt F) → (⟨S64x900x256x2, .f32⟩ : BufTy).Contents (Elt F)) (res_main_call1_v0 a0 a1 a2 a3)

/-- What `main_v133` holds: of `main_call1_v1`, `main_v132`. -/
def res_main_v133 (a0 : FVec F S64x900x256 .f32) (a1 : FVec F S64x900x4 .f32) (a2 : IVec S64x256 32) (a3 : FVec F S64x256x4 .f32) : FVec F S64x900x256x2 .f32 :=
  (maximumf : (⟨S64x900x256x2, .f32⟩ : BufTy).Contents (Elt F) → (⟨S64x900x256x2, .f32⟩ : BufTy).Contents (Elt F) → (⟨S64x900x256x2, .f32⟩ : BufTy).Contents (Elt F)) (res_main_call1_v1 a0 a1 a2 a3) (res_main_v132 a0 a1 a2 a3)

/-- What `main_v134` holds: of `main_v133`. -/
def res_main_v134 (a0 : FVec F S64x900x256 .f32) (a1 : FVec F S64x900x4 .f32) (a2 : IVec S64x256 32) (a3 : FVec F S64x256x4 .f32) : FVec F S64x900x256x1 .f32 :=
  ((extractStridedSlice S64x900x256x1 ![0, 0, 0, 0] · slices_S64x900x256x2_S64x900x256x1_0_0_0_0) : (⟨S64x900x256x2, .f32⟩ : BufTy).Contents (Elt F) → (⟨S64x900x256x1, .f32⟩ : BufTy).Contents (Elt F)) (res_main_v133 a0 a1 a2 a3)

/-- What `main_v135` holds: of `main_v134`. -/
def res_main_v135 (a0 : FVec F S64x900x256 .f32) (a1 : FVec F S64x900x4 .f32) (a2 : IVec S64x256 32) (a3 : FVec F S64x256x4 .f32) : FVec F S64x900x256 .f32 :=
  shapeCast S64x900x256 (res_main_v134 a0 a1 a2 a3) shapeCasts_S64x900x256x1_S64x900x256

/-- What `main_v136` holds: of `main_v133`. -/
def res_main_v136 (a0 : FVec F S64x900x256 .f32) (a1 : FVec F S64x900x4 .f32) (a2 : IVec S64x256 32) (a3 : FVec F S64x256x4 .f32) : FVec F S64x900x256x1 .f32 :=
  ((extractStridedSlice S64x900x256x1 ![0, 0, 0, 1] · slices_S64x900x256x2_S64x900x256x1_0_0_0_1) : (⟨S64x900x256x2, .f32⟩ : BufTy).Contents (Elt F) → (⟨S64x900x256x1, .f32⟩ : BufTy).Contents (Elt F)) (res_main_v133 a0 a1 a2 a3)

/-- What `main_v137` holds: of `main_v136`. -/
def res_main_v137 (a0 : FVec F S64x900x256 .f32) (a1 : FVec F S64x900x4 .f32) (a2 : IVec S64x256 32) (a3 : FVec F S64x256x4 .f32) : FVec F S64x900x256 .f32 :=
  shapeCast S64x900x256 (res_main_v136 a0 a1 a2 a3) shapeCasts_S64x900x256x1_S64x900x256

/-- What `main_v138` holds: of `main_v135`, `main_v137`. -/
def res_main_v138 (a0 : FVec F S64x900x256 .f32) (a1 : FVec F S64x900x4 .f32) (a2 : IVec S64x256 32) (a3 : FVec F S64x256x4 .f32) : FVec F S64x900x256 .f32 :=
  (mulf : (⟨S64x900x256, .f32⟩ : BufTy).Contents (Elt F) → (⟨S64x900x256, .f32⟩ : BufTy).Contents (Elt F) → (⟨S64x900x256, .f32⟩ : BufTy).Contents (Elt F)) (res_main_v135 a0 a1 a2 a3) (res_main_v137 a0 a1 a2 a3)

/-- What `main_v139` holds: of `main_v138`, `main_v120`. -/
def res_main_v139 (a0 : FVec F S64x900x256 .f32) (a1 : FVec F S64x900x4 .f32) (a2 : IVec S64x256 32) (a3 : FVec F S64x256x4 .f32) : FVec F S64x900x256 .f32 :=
  (subf : (⟨S64x900x256, .f32⟩ : BufTy).Contents (Elt F) → (⟨S64x900x256, .f32⟩ : BufTy).Contents (Elt F) → (⟨S64x900x256, .f32⟩ : BufTy).Contents (Elt F)) (res_main_v138 a0 a1 a2 a3) (res_main_v120 a0 a1 a2 a3)

/-- What `main_v140` holds: of `main_v139`, `main_v138`. -/
def res_main_v140 (a0 : FVec F S64x900x256 .f32) (a1 : FVec F S64x900x4 .f32) (a2 : IVec S64x256 32) (a3 : FVec F S64x256x4 .f32) : FVec F S64x900x256 .f32 :=
  (Host.divf : (⟨S64x900x256, .f32⟩ : BufTy).Contents (Elt F) → (⟨S64x900x256, .f32⟩ : BufTy).Contents (Elt F) → (⟨S64x900x256, .f32⟩ : BufTy).Contents (Elt F)) (res_main_v139 a0 a1 a2 a3) (res_main_v138 a0 a1 a2 a3)

/-- What `main_v141` holds: of `main_v121`, `main_v140`. -/
def res_main_v141 (a0 : FVec F S64x900x256 .f32) (a1 : FVec F S64x900x4 .f32) (a2 : IVec S64x256 32) (a3 : FVec F S64x256x4 .f32) : FVec F S64x900x256 .f32 :=
  (subf : (⟨S64x900x256, .f32⟩ : BufTy).Contents (Elt F) → (⟨S64x900x256, .f32⟩ : BufTy).Contents (Elt F) → (⟨S64x900x256, .f32⟩ : BufTy).Contents (Elt F)) (res_main_v121 a0 a1 a2 a3) (res_main_v140 a0 a1 a2 a3)

/-- What `main_cst_14` holds: a constant. -/
def res_main_cst_14 (a0 : FVec F S64x900x256 .f32) (a1 : FVec F S64x900x4 .f32) (a2 : IVec S64x256 32) (a3 : FVec F S64x256x4 .f32) : FVec F S_ .f32 :=
  (constant S_ .f32 0x3F800000#32)

/-- What `main_v142` holds: of `main_cst_14`. -/
def res_main_v142 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_cst_14 a0 a1 a2 a3)

/-- What `main_v143` holds: of `main_v142`, `main_v18`. -/
def res_main_v143 (a0 : FVec F S64x900x256 .f32) (a1 : FVec F S64x900x4 .f32) (a2 : IVec S64x256 32) (a3 : FVec F S64x256x4 .f32) : FVec F S64x900x256 .f32 :=
  (mulf : (⟨S64x900x256, .f32⟩ : BufTy).Contents (Elt F) → (⟨S64x900x256, .f32⟩ : BufTy).Contents (Elt F) → (⟨S64x900x256, .f32⟩ : BufTy).Contents (Elt F)) (res_main_v142 a0 a1 a2 a3) (res_main_v18 a0 a1 a2 a3)

/-- What `main_cst_15` holds: a constant. -/
def res_main_cst_15 (a0 : FVec F S64x900x256 .f32) (a1 : FVec F S64x900x4 .f32) (a2 : IVec S64x256 32) (a3 : FVec F S64x256x4 .f32) : FVec F S_ .f32 :=
  (constant S_ .f32 0x40A00000#32)

/-- What `main_v144` holds: of `main_cst_15`. -/
def res_main_v144 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_cst_15 a0 a1 a2 a3)

/-- What `main_v145` holds: of `main_v144`, `main_v25`. -/
def res_main_v145 (a0 : FVec F S64x900x256 .f32) (a1 : FVec F S64x900x4 .f32) (a2 : IVec S64x256 32) (a3 : FVec F S64x256x4 .f32) : FVec F S64x900x256 .f32 :=
  (mulf : (⟨S64x900x256, .f32⟩ : BufTy).Contents (Elt F) → (⟨S64x900x256, .f32⟩ : BufTy).Contents (Elt F) → (⟨S64x900x256, .f32⟩ : BufTy).Contents (Elt F)) (res_main_v144 a0 a1 a2 a3) (res_main_v25 a0 a1 a2 a3)

/-- What `main_v146` holds: of `main_v143`, `main_v145`. -/
def res_main_v146 (a0 : FVec F S64x900x256 .f32) (a1 : FVec F S64x900x4 .f32) (a2 : IVec S64x256 32) (a3 : FVec F S64x256x4 .f32) : FVec F S64x900x256 .f32 :=
  (addf : (⟨S64x900x256, .f32⟩ : BufTy).Contents (Elt F) → (⟨S64x900x256, .f32⟩ : BufTy).Contents (Elt F) → (⟨S64x900x256, .f32⟩ : BufTy).Contents (Elt F)) (res_main_v143 a0 a1 a2 a3) (res_main_v145 a0 a1 a2 a3)

/-- What `main_v147` holds: of `main_v141`. -/
def res_main_v147 (a0 : FVec F S64x900x256 .f32) (a1 : FVec F S64x900x4 .f32) (a2 : IVec S64x256 32) (a3 : FVec F S64x256x4 .f32) : FVec F S64x900x256 .f32 :=
  (Host.negf : (⟨S64x900x256, .f32⟩ : BufTy).Contents (Elt F) → (⟨S64x900x256, .f32⟩ : BufTy).Contents (Elt F)) (res_main_v141 a0 a1 a2 a3)

/-- What `main_cst_16` holds: a constant. -/
def res_main_cst_16 (a0 : FVec F S64x900x256 .f32) (a1 : FVec F S64x900x4 .f32) (a2 : IVec S64x256 32) (a3 : FVec F S64x256x4 .f32) : FVec F S_ .f32 :=
  (constant S_ .f32 0x40000000#32)

/-- What `main_v148` holds: of `main_cst_16`. -/
def res_main_v148 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_cst_16 a0 a1 a2 a3)

/-- What `main_v149` holds: of `main_v148`, `main_v147`. -/
def res_main_v149 (a0 : FVec F S64x900x256 .f32) (a1 : FVec F S64x900x4 .f32) (a2 : IVec S64x256 32) (a3 : FVec F S64x256x4 .f32) : FVec F S64x900x256 .f32 :=
  (mulf : (⟨S64x900x256, .f32⟩ : BufTy).Contents (Elt F) → (⟨S64x900x256, .f32⟩ : BufTy).Contents (Elt F) → (⟨S64x900x256, .f32⟩ : BufTy).Contents (Elt F)) (res_main_v148 a0 a1 a2 a3) (res_main_v147 a0 a1 a2 a3)

/-- What `main_v150` holds: of `main_v146`, `main_v149`. -/
def res_main_v150 (a0 : FVec F S64x900x256 .f32) (a1 : FVec F S64x900x4 .f32) (a2 : IVec S64x256 32) (a3 : FVec F S64x256x4 .f32) : FVec F S64x900x256 .f32 :=
  (addf : (⟨S64x900x256, .f32⟩ : BufTy).Contents (Elt F) → (⟨S64x900x256, .f32⟩ : BufTy).Contents (Elt F) → (⟨S64x900x256, .f32⟩ : BufTy).Contents (Elt F)) (res_main_v146 a0 a1 a2 a3) (res_main_v149 a0 a1 a2 a3)

/-- What `main_cst_17` holds: a constant. -/
def res_main_cst_17 (a0 : FVec F S64x900x256 .f32) (a1 : FVec F S64x900x4 .f32) (a2 : IVec S64x256 32) (a3 : FVec F S64x256x4 .f32) : FVec F S_ .f32 :=
  (constant S_ .f32 0x49742400#32)

/-- What `main_cst_18` holds: a constant. -/
def res_main_cst_18 (a0 : FVec F S64x900x256 .f32) (a1 : FVec F S64x900x4 .f32) (a2 : IVec S64x256 32) (a3 : FVec F S64x256x4 .f32) : FVec F S_ .f32 :=
  (constant S_ .f32 0xC9742400#32)

/-- What `main_cst_19` holds: a constant. -/
def res_main_cst_19 (a0 : FVec F S64x900x256 .f32) (a1 : FVec F S64x900x4 .f32) (a2 : IVec S64x256 32) (a3 : FVec F S64x256x4 .f32) : FVec F S_ .f32 :=
  (constant S_ .f32 0x49742400#32)

/-- What `main_call2_v0` holds: of `main_v150`, `main_v150`. -/
def res_main_call2_v0 (a0 : FVec F S64x900x256 .f32) (a1 : FVec F S64x900x4 .f32) (a2 : IVec S64x256 32) (a3 : FVec F S64x256x4 .f32) : IVec S64x900x256 1 :=
  (cmpf .une : (⟨S64x900x256, .f32⟩ : BufTy).Contents (Elt F) → (⟨S64x900x256, .f32⟩ : BufTy).Contents (Elt F) → (⟨S64x900x256, .i1⟩ : BufTy).Contents (Elt F)) (res_main_v150 a0 a1 a2 a3) (res_main_v150 a0 a1 a2 a3)

/-- What `main_call2_v1` holds: of `main_cst_17`. -/
def res_main_call2_v1 (a0 : FVec F S64x900x256 .f32) (a1 : FVec F S64x900x4 .f32) (a2 : IVec S64x256 32) (a3 : FVec F S64x256x4 .f32) : FVec F S_ .f32 :=
  res_main_cst_17 a0 a1 a2 a3

/-- What `main_call2_call0_v0` holds: of `main_call2_v1`. -/
def res_main_call2_call0_v0 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_call2_v1 a0 a1 a2 a3)

/-- What `main_call2_v2` holds: of `main_call2_v0`, `main_call2_call0_v0`, `main_v150`. -/
def res_main_call2_v2 (a0 : FVec F S64x900x256 .f32) (a1 : FVec F S64x900x4 .f32) (a2 : IVec S64x256 32) (a3 : FVec F S64x256x4 .f32) : FVec F S64x900x256 .f32 :=
  (select : (⟨S64x900x256, .i1⟩ : BufTy).Contents (Elt F) → (⟨S64x900x256, .f32⟩ : BufTy).Contents (Elt F) → (⟨S64x900x256, .f32⟩ : BufTy).Contents (Elt F) → (⟨S64x900x256, .f32⟩ : BufTy).Contents (Elt F)) (res_main_call2_v0 a0 a1 a2 a3) (res_main_call2_call0_v0 a0 a1 a2 a3) (res_main_v150 a0 a1 a2 a3)

/-- What `main_call2_cst` holds: a constant. -/
def res_main_call2_cst (a0 : FVec F S64x900x256 .f32) (a1 : FVec F S64x900x4 .f32) (a2 : IVec S64x256 32) (a3 : FVec F S64x256x4 .f32) : FVec F S_ .f32 :=
  (constant S_ .f32 0x7F800000#32)

/-- What `main_call2_v3` holds: of `main_call2_cst`. -/
def res_main_call2_v3 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_call2_cst a0 a1 a2 a3)

/-- What `main_call2_v4` holds: of `main_call2_v2`, `main_call2_v3`. -/
def res_main_call2_v4 (a0 : FVec F S64x900x256 .f32) (a1 : FVec F S64x900x4 .f32) (a2 : IVec S64x256 32) (a3 : FVec F S64x256x4 .f32) : IVec S64x900x256 1 :=
  (cmpf .oeq : (⟨S64x900x256, .f32⟩ : BufTy).Contents (Elt F) → (⟨S64x900x256, .f32⟩ : BufTy).Contents (Elt F) → (⟨S64x900x256, .i1⟩ : BufTy).Contents (Elt F)) (res_main_call2_v2 a0 a1 a2 a3) (res_main_call2_v3 a0 a1 a2 a3)

/-- What `main_call2_v5` holds: of `main_cst_19`. -/
def res_main_call2_v5 (a0 : FVec F S64x900x256 .f32) (a1 : FVec F S64x900x4 .f32) (a2 : IVec S64x256 32) (a3 : FVec F S64x256x4 .f32) : FVec F S_ .f32 :=
  res_main_cst_19 a0 a1 a2 a3

/-- What `main_call2_call1_v0` holds: of `main_call2_v5`. -/
def res_main_call2_call1_v0 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_call2_v5 a0 a1 a2 a3)

/-- What `main_call2_v6` holds: of `main_call2_v4`, `main_call2_call1_v0`, `main_call2_v2`. -/
def res_main_call2_v6 (a0 : FVec F S64x900x256 .f32) (a1 : FVec F S64x900x4 .f32) (a2 : IVec S64x256 32) (a3 : FVec F S64x256x4 .f32) : FVec F S64x900x256 .f32 :=
  (select : (⟨S64x900x256, .i1⟩ : BufTy).Contents (Elt F) → (⟨S64x900x256, .f32⟩ : BufTy).Contents (Elt F) → (⟨S64x900x256, .f32⟩ : BufTy).Contents (Elt F) → (⟨S64x900x256, .f32⟩ : BufTy).Contents (Elt F)) (res_main_call2_v4 a0 a1 a2 a3) (res_main_call2_call1_v0 a0 a1 a2 a3) (res_main_call2_v2 a0 a1 a2 a3)

/-- What `main_call2_cst_0` holds: a constant. -/
def res_main_call2_cst_0 (a0 : FVec F S64x900x256 .f32) (a1 : FVec F S64x900x4 .f32) (a2 : IVec S64x256 32) (a3 : FVec F S64x256x4 .f32) : FVec F S_ .f32 :=
  (constant S_ .f32 0xFF800000#32)

/-- What `main_call2_v7` holds: of `main_call2_cst_0`. -/
def res_main_call2_v7 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_call2_cst_0 a0 a1 a2 a3)

/-- What `main_call2_v8` holds: of `main_call2_v6`, `main_call2_v7`. -/
def res_main_call2_v8 (a0 : FVec F S64x900x256 .f32) (a1 : FVec F S64x900x4 .f32) (a2 : IVec S64x256 32) (a3 : FVec F S64x256x4 .f32) : IVec S64x900x256 1 :=
  (cmpf .oeq : (⟨S64x900x256, .f32⟩ : BufTy).Contents (Elt F) → (⟨S64x900x256, .f32⟩ : BufTy).Contents (Elt F) → (⟨S64x900x256, .i1⟩ : BufTy).Contents (Elt F)) (res_main_call2_v6 a0 a1 a2 a3) (res_main_call2_v7 a0 a1 a2 a3)

/-- What `main_call2_v9` holds: of `main_cst_18`. -/
def res_main_call2_v9 (a0 : FVec F S64x900x256 .f32) (a1 : FVec F S64x900x4 .f32) (a2 : IVec S64x256 32) (a3 : FVec F S64x256x4 .f32) : FVec F S_ .f32 :=
  res_main_cst_18 a0 a1 a2 a3

/-- What `main_call2_call2_v0` holds: of `main_call2_v9`. -/
def res_main_call2_call2_v0 (a0 : FVec F S64x900x256 .f32) (a1 : FVec F S64x900x4 .f32) (a2 : IVec S64x256 32) (a3 : FVec F S64x256x4 .f32) : FVec F S64x900x256 .f32 :=
  (broadcastInDim S64x900x256 ![] bcast_S_S64x900x256 : (⟨S_, .f32⟩ : BufTy).Contents (Elt F) → (⟨S64x900x256, .f32⟩ : BufTy).Contents (Elt F)) (res_main_call2_v9 a0 a1 a2 a3)

/-- What `main_v151` holds: of `main_call2_v8`, `main_call2_call2_v0`, `main_call2_v6`. -/
def res_main_v151 (a0 : FVec F S64x900x256 .f32) (a1 : FVec F S64x900x4 .f32) (a2 : IVec S64x256 32) (a3 : FVec F S64x256x4 .f32) : FVec F S64x900x256 .f32 :=
  (select : (⟨S64x900x256, .i1⟩ : BufTy).Contents (Elt F) → (⟨S64x900x256, .f32⟩ : BufTy).Contents (Elt F) → (⟨S64x900x256, .f32⟩ : BufTy).Contents (Elt F) → (⟨S64x900x256, .f32⟩ : BufTy).Contents (Elt F)) (res_main_call2_v8 a0 a1 a2 a3) (res_main_call2_call2_v0 a0 a1 a2 a3) (res_main_call2_v6 a0 a1 a2 a3)

end Cert.ReferenceIdeal.RefRun

end
-- ==== Proof.RefOps.lean ====
/- The reference program's 193 operations — @main's, with each call replaced by its callee's operations over the call's
   buffer record — as 7 consecutive lists `ops_c‹k›`, each with the list `ops_c‹k›_W` of the buffers it writes, and their
   concatenation `ops`. A list ends where a window of @main ends, before each concatenate, and after at most thirty operations. -/
import proofs.«412448_j60825326846459_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 30 of 193 (in @main's window `main_part0`). -/
abbrev ops_c0 : List (HloOp τ sig (Elt F)) :=
  [ nullary main_cst (constant S_ .f32 0xFF800000#32),
    binary main_arg0 main_cst main_v0 ((fun x v => Host.reduce FloatOps.maximumf x v reducesTo_S64x900x256_S64x900_d2 h_S_) : (⟨S64x900x256, .f32⟩ : BufTy).Contents (Elt F) → (⟨S_, .f32⟩ : BufTy).Contents (Elt F) → (⟨S64x900, .f32⟩ : BufTy).Contents (Elt F)),
    nullary main_cst_0 (constant S_ .f32 0xFF800000#32),
    unary main_cst_0 main_v1 (broadcastInDim S64x900 ![] bcast_S_S64x900 : (⟨S_, .f32⟩ : BufTy).Contents (Elt F) → (⟨S64x900, .f32⟩ : BufTy).Contents (Elt F)),
    binary main_v1 main_v0 main_v2 (maximumf : (⟨S64x900, .f32⟩ : BufTy).Contents (Elt F) → (⟨S64x900, .f32⟩ : BufTy).Contents (Elt F) → (⟨S64x900, .f32⟩ : BufTy).Contents (Elt F)),
    unary main_v2 main_v3 (broadcastInDim S64x900x1 ![0, 1] bcast_S64x900_S64x900x1_0_1 : (⟨S64x900, .f32⟩ : BufTy).Contents (Elt F) → (⟨S64x900x1, .f32⟩ : BufTy).Contents (Elt F)),
    unary main_v3 main_v4 (broadcastInDim S64x900x256 ![0, 1, 2] bcast_S64x900x1_S64x900x256_0_1_2 : (⟨S64x900x1, .f32⟩ : BufTy).Contents (Elt F) → (⟨S64x900x256, .f32⟩ : BufTy).Contents (Elt F)),
    binary main_arg0 main_v4 main_v5 (subf : (⟨S64x900x256, .f32⟩ : BufTy).Contents (Elt F) → (⟨S64x900x256, .f32⟩ : BufTy).Contents (Elt F) → (⟨S64x900x256, .f32⟩ : BufTy).Contents (Elt F)),
    unary main_v5 main_v6 (Host.exp : (⟨S64x900x256, .f32⟩ : BufTy).Contents (Elt F) → (⟨S64x900x256, .f32⟩ : BufTy).Contents (Elt F)),
    nullary main_cst_1 (constant S_ .f32 0x00000000#32),
    binary main_v6 main_cst_1 main_v7 ((fun x v => Host.reduceAdd x v reducesTo_S64x900x256_S64x900_d2 h_S_) : (⟨S64x900x256, .f32⟩ : BufTy).Contents (Elt F) → (⟨S_, .f32⟩ : BufTy).Contents (Elt F) → (⟨S64x900, .f32⟩ : BufTy).Contents (Elt F)),
    unary main_v7 main_v8 (broadcastInDim S64x900x1 ![0, 1] bcast_S64x900_S64x900x1_0_1 : (⟨S64x900, .f32⟩ : BufTy).Contents (Elt F) → (⟨S64x900x1, .f32⟩ : BufTy).Contents (Elt F)),
    unary main_v8 main_v9 (broadcastInDim S64x900x256 ![0, 1, 2] bcast_S64x900x1_S64x900x256_0_1_2 : (⟨S64x900x1, .f32⟩ : BufTy).Contents (Elt F) → (⟨S64x900x256, .f32⟩ : BufTy).Contents (Elt F)),
    binary main_v6 main_v9 main_v10 (Host.divf : (⟨S64x900x256, .f32⟩ : BufTy).Contents (Elt F) → (⟨S64x900x256, .f32⟩ : BufTy).Contents (Elt F) → (⟨S64x900x256, .f32⟩ : BufTy).Contents (Elt F)),
    nullary main_c (constantI S_ 32 0#32),
    unary main_c main_v11 (broadcastInDim S64x256 ![] bcast_S_S64x256 : (⟨S_, .i32⟩ : BufTy).Contents (Elt F) → (⟨S64x256, .i32⟩ : BufTy).Contents (Elt F)),
    binary main_arg2 main_v11 main_v12 (cmpi .slt : (⟨S64x256, .i32⟩ : BufTy).Contents (Elt F) → (⟨S64x256, .i32⟩ : BufTy).Contents (Elt F) → (⟨S64x256, .i1⟩ : BufTy).Contents (Elt F)),
    nullary main_c_2 (constantI S_ 32 256#32),
    unary main_c_2 main_v13 (broadcastInDim S64x256 ![] bcast_S_S64x256 : (⟨S_, .i32⟩ : BufTy).Contents (Elt F) → (⟨S64x256, .i32⟩ : BufTy).Contents (Elt F)),
    binary main_arg2 main_v13 main_v14 (addi : (⟨S64x256, .i32⟩ : BufTy).Contents (Elt F) → (⟨S64x256, .i32⟩ : BufTy).Contents (Elt F) → (⟨S64x256, .i32⟩ : BufTy).Contents (Elt F)),
    ternary main_v12 main_v14 main_arg2 main_v15 (select : (⟨S64x256, .i1⟩ : BufTy).Contents (Elt F) → (⟨S64x256, .i32⟩ : BufTy).Contents (Elt F) → (⟨S64x256, .i32⟩ : BufTy).Contents (Elt F) → (⟨S64x256, .i32⟩ : BufTy).Contents (Elt F)),
    unary main_v15 main_v16 (broadcastInDim S64x256x1 ![0, 1] bcast_S64x256_S64x256x1_0_1 : (⟨S64x256, .i32⟩ : BufTy).Contents (Elt F) → (⟨S64x256x1, .i32⟩ : BufTy).Contents (Elt F)),
    binary main_v10 main_v16 main_v17 ((fun x i => Host.gather gather_S64x900x256_S64x256x1_S64x900x256_1_2_0_0_2_2_19001 x i) : (⟨S64x900x256, .f32⟩ : BufTy).Contents (Elt F) → (⟨S64x256x1, .i32⟩ : BufTy).Contents (Elt F) → (⟨S64x900x256, .f32⟩ : BufTy).Contents (Elt F)),
    unary main_v17 main_v18 (Host.negf : (⟨S64x900x256, .f32⟩ : BufTy).Contents (Elt F) → (⟨S64x900x256, .f32⟩ : BufTy).Contents (Elt F)),
    unary main_arg1 main_v19 (broadcastInDim S64x900x1x4 ![0, 1, 3] bcast_S64x900x4_S64x900x1x4_0_1_3 : (⟨S64x900x4, .f32⟩ : BufTy).Contents (Elt F) → (⟨S64x900x1x4, .f32⟩ : BufTy).Contents (Elt F)),
    unary main_arg3 main_v20 (broadcastInDim S64x1x256x4 ![0, 2, 3] bcast_S64x256x4_S64x1x256x4_0_2_3 : (⟨S64x256x4, .f32⟩ : BufTy).Contents (Elt F) → (⟨S64x1x256x4, .f32⟩ : BufTy).Contents (Elt F)),
    unary main_v19 main_v21 (broadcastInDim S64x900x256x4 ![0, 1, 2, 3] bcast_S64x900x1x4_S64x900x256x4_0_1_2_3 : (⟨S64x900x1x4, .f32⟩ : BufTy).Contents (Elt F) → (⟨S64x900x256x4, .f32⟩ : BufTy).Contents (Elt F)),
    unary main_v20 main_v22 (broadcastInDim S64x900x256x4 ![0, 1, 2, 3] bcast_S64x1x256x4_S64x900x256x4_0_1_2_3 : (⟨S64x1x256x4, .f32⟩ : BufTy).Contents (Elt F) → (⟨S64x900x256x4, .f32⟩ : BufTy).Contents (Elt F)),
    binary main_v21 main_v22 main_v23 (subf : (⟨S64x900x256x4, .f32⟩ : BufTy).Contents (Elt F) → (⟨S64x900x256x4, .f32⟩ : BufTy).Contents (Elt F) → (⟨S64x900x256x4, .f32⟩ : BufTy).Contents (Elt F)),
    unary main_v23 main_v24 (Host.absf : (⟨S64x900x256x4, .f32⟩ : BufTy).Contents (Elt F) → (⟨S64x900x256x4, .f32⟩ : BufTy).Contents (Elt F)) ]

/-- The buffers those operations write, in order. -/
abbrev ops_c0_W : List (Ref sig .tc) :=
  [main_cst, main_v0, main_cst_0, main_v1, main_v2, main_v3, main_v4, main_v5, main_v6, main_cst_1, main_v7, main_v8, main_v9, main_v10, main_c, main_v11, main_v12, main_c_2, main_v13, main_v14, main_v15, main_v16, main_v17, main_v18, main_v19, main_v20, main_v21, main_v22, main_v23, main_v24]

/-- Operations 31 … 60 of 193 (in @main's window `main_part0`). -/
abbrev ops_c1 : List (HloOp τ sig (Elt F)) :=
  [ nullary main_cst_3 (constant S_ .f32 0x00000000#32),
    binary main_v24 main_cst_3 main_v25 ((fun x v => Host.reduceAdd x v reducesTo_S64x900x256x4_S64x900x256_d3 h_S_) : (⟨S64x900x256x4, .f32⟩ : BufTy).Contents (Elt F) → (⟨S_, .f32⟩ : BufTy).Contents (Elt F) → (⟨S64x900x256, .f32⟩ : BufTy).Contents (Elt F)),
    unary main_arg1 main_v26 ((extractStridedSlice S64x900x1 ![0, 0, 0] · slices_S64x900x4_S64x900x1_0_0_0) : (⟨S64x900x4, .f32⟩ : BufTy).Contents (Elt F) → (⟨S64x900x1, .f32⟩ : BufTy).Contents (Elt F)),
    reshape main_v26 main_v27 rfl shapeCasts_S64x900x1_S64x900,
    unary main_arg1 main_v28 ((extractStridedSlice S64x900x1 ![0, 0, 1] · slices_S64x900x4_S64x900x1_0_0_1) : (⟨S64x900x4, .f32⟩ : BufTy).Contents (Elt F) → (⟨S64x900x1, .f32⟩ : BufTy).Contents (Elt F)),
    reshape main_v28 main_v29 rfl shapeCasts_S64x900x1_S64x900,
    unary main_arg1 main_v30 ((extractStridedSlice S64x900x1 ![0, 0, 2] · slices_S64x900x4_S64x900x1_0_0_2) : (⟨S64x900x4, .f32⟩ : BufTy).Contents (Elt F) → (⟨S64x900x1, .f32⟩ : BufTy).Contents (Elt F)),
    reshape main_v30 main_v31 rfl shapeCasts_S64x900x1_S64x900,
    unary main_arg1 main_v32 ((extractStridedSlice S64x900x1 ![0, 0, 3] · slices_S64x900x4_S64x900x1_0_0_3) : (⟨S64x900x4, .f32⟩ : BufTy).Contents (Elt F) → (⟨S64x900x1, .f32⟩ : BufTy).Contents (Elt F)),
    reshape main_v32 main_v33 rfl shapeCasts_S64x900x1_S64x900,
    nullary main_cst_4 (constant S_ .f32 0x3F000000#32),
    unary main_cst_4 main_v34 (broadcastInDim S64x900 ![] bcast_S_S64x900 : (⟨S_, .f32⟩ : BufTy).Contents (Elt F) → (⟨S64x900, .f32⟩ : BufTy).Contents (Elt F)),
    binary main_v34 main_v31 main_v35 (mulf : (⟨S64x900, .f32⟩ : BufTy).Contents (Elt F) → (⟨S64x900, .f32⟩ : BufTy).Contents (Elt F) → (⟨S64x900, .f32⟩ : BufTy).Contents (Elt F)),
    binary main_v27 main_v35 main_v36 (subf : (⟨S64x900, .f32⟩ : BufTy).Contents (Elt F) → (⟨S64x900, .f32⟩ : BufTy).Contents (Elt F) → (⟨S64x900, .f32⟩ : BufTy).Contents (Elt F)),
    nullary main_cst_5 (constant S_ .f32 0x3F000000#32),
    unary main_cst_5 main_v37 (broadcastInDim S64x900 ![] bcast_S_S64x900 : (⟨S_, .f32⟩ : BufTy).Contents (Elt F) → (⟨S64x900, .f32⟩ : BufTy).Contents (Elt F)),
    binary main_v37 main_v33 main_v38 (mulf : (⟨S64x900, .f32⟩ : BufTy).Contents (Elt F) → (⟨S64x900, .f32⟩ : BufTy).Contents (Elt F) → (⟨S64x900, .f32⟩ : BufTy).Contents (Elt F)),
    binary main_v29 main_v38 main_v39 (subf : (⟨S64x900, .f32⟩ : BufTy).Contents (Elt F) → (⟨S64x900, .f32⟩ : BufTy).Contents (Elt F) → (⟨S64x900, .f32⟩ : BufTy).Contents (Elt F)),
    nullary main_cst_6 (constant S_ .f32 0x3F000000#32),
    unary main_cst_6 main_v40 (broadcastInDim S64x900 ![] bcast_S_S64x900 : (⟨S_, .f32⟩ : BufTy).Contents (Elt F) → (⟨S64x900, .f32⟩ : BufTy).Contents (Elt F)),
    binary main_v40 main_v31 main_v41 (mulf : (⟨S64x900, .f32⟩ : BufTy).Contents (Elt F) → (⟨S64x900, .f32⟩ : BufTy).Contents (Elt F) → (⟨S64x900, .f32⟩ : BufTy).Contents (Elt F)),
    binary main_v27 main_v41 main_v42 (addf : (⟨S64x900, .f32⟩ : BufTy).Contents (Elt F) → (⟨S64x900, .f32⟩ : BufTy).Contents (Elt F) → (⟨S64x900, .f32⟩ : BufTy).Contents (Elt F)),
    nullary main_cst_7 (constant S_ .f32 0x3F000000#32),
    unary main_cst_7 main_v43 (broadcastInDim S64x900 ![] bcast_S_S64x900 : (⟨S_, .f32⟩ : BufTy).Contents (Elt F) → (⟨S64x900, .f32⟩ : BufTy).Contents (Elt F)),
    binary main_v43 main_v33 main_v44 (mulf : (⟨S64x900, .f32⟩ : BufTy).Contents (Elt F) → (⟨S64x900, .f32⟩ : BufTy).Contents (Elt F) → (⟨S64x900, .f32⟩ : BufTy).Contents (Elt F)),
    binary main_v29 main_v44 main_v45 (addf : (⟨S64x900, .f32⟩ : BufTy).Contents (Elt F) → (⟨S64x900, .f32⟩ : BufTy).Contents (Elt F) → (⟨S64x900, .f32⟩ : BufTy).Contents (Elt F)),
    unary main_v36 main_v46 (broadcastInDim S64x900x1 ![0, 1] bcast_S64x900_S64x900x1_0_1 : (⟨S64x900, .f32⟩ : BufTy).Contents (Elt F) → (⟨S64x900x1, .f32⟩ : BufTy).Contents (Elt F)),
    unary main_v39 main_v47 (broadcastInDim S64x900x1 ![0, 1] bcast_S64x900_S64x900x1_0_1 : (⟨S64x900, .f32⟩ : BufTy).Contents (Elt F) → (⟨S64x900x1, .f32⟩ : BufTy).Contents (Elt F)),
    unary main_v42 main_v48 (broadcastInDim S64x900x1 ![0, 1] bcast_S64x900_S64x900x1_0_1 : (⟨S64x900, .f32⟩ : BufTy).Contents (Elt F) → (⟨S64x900x1, .f32⟩ : BufTy).Contents (Elt F)),
    unary main_v45 main_v49 (broadcastInDim S64x900x1 ![0, 1] bcast_S64x900_S64x900x1_0_1 : (⟨S64x900, .f32⟩ : BufTy).Contents (Elt F) → (⟨S64x900x1, .f32⟩ : BufTy).Contents (Elt F)) ]

/-- The buffers those operations write, in order. -/
abbrev ops_c1_W : List (Ref sig .tc) :=
  [main_cst_3, main_v25, main_v26, main_v27, main_v28, main_v29, main_v30, main_v31, main_v32, main_v33, main_cst_4, main_v34, main_v35, main_v36, main_cst_5, main_v37, main_v38, main_v39, main_cst_6, main_v40, main_v41, main_v42, main_cst_7, main_v43, main_v44, main_v45, main_v46, main_v47, main_v48, main_v49]

/-- Operations 61 … 90 of 193 (in @main's window `main_part1`). -/
abbrev ops_c2 : List (HloOp τ sig (Elt F)) :=
  [ nary ![main_v46, main_v47, main_v48, main_v49] main_v50 (fun u => concatenate S64x900x4 2 [⟨S64x900x1, u 0⟩, ⟨S64x900x1, u 1⟩, ⟨S64x900x1, u 2⟩, ⟨S64x900x1, u 3⟩] concatenates_S64x900x1_S64x900x1_S64x900x1_S64x900x1_S64x900x4_d2),
    unary main_v50 main_v51 (broadcastInDim S64x900x1x4 ![0, 1, 3] bcast_S64x900x4_S64x900x1x4_0_1_3 : (⟨S64x900x4, .f32⟩ : BufTy).Contents (Elt F) → (⟨S64x900x1x4, .f32⟩ : BufTy).Contents (Elt F)),
    unary main_arg3 main_v52 ((extractStridedSlice S64x256x1 ![0, 0, 0] · slices_S64x256x4_S64x256x1_0_0_0) : (⟨S64x256x4, .f32⟩ : BufTy).Contents (Elt F) → (⟨S64x256x1, .f32⟩ : BufTy).Contents (Elt F)),
    reshape main_v52 main_v53 rfl shapeCasts_S64x256x1_S64x256,
    unary main_arg3 main_v54 ((extractStridedSlice S64x256x1 ![0, 0, 1] · slices_S64x256x4_S64x256x1_0_0_1) : (⟨S64x256x4, .f32⟩ : BufTy).Contents (Elt F) → (⟨S64x256x1, .f32⟩ : BufTy).Contents (Elt F)),
    reshape main_v54 main_v55 rfl shapeCasts_S64x256x1_S64x256,
    unary main_arg3 main_v56 ((extractStridedSlice S64x256x1 ![0, 0, 2] · slices_S64x256x4_S64x256x1_0_0_2) : (⟨S64x256x4, .f32⟩ : BufTy).Contents (Elt F) → (⟨S64x256x1, .f32⟩ : BufTy).Contents (Elt F)),
    reshape main_v56 main_v57 rfl shapeCasts_S64x256x1_S64x256,
    unary main_arg3 main_v58 ((extractStridedSlice S64x256x1 ![0, 0, 3] · slices_S64x256x4_S64x256x1_0_0_3) : (⟨S64x256x4, .f32⟩ : BufTy).Contents (Elt F) → (⟨S64x256x1, .f32⟩ : BufTy).Contents (Elt F)),
    reshape main_v58 main_v59 rfl shapeCasts_S64x256x1_S64x256,
    nullary main_cst_8 (constant S_ .f32 0x3F000000#32),
    unary main_cst_8 main_v60 (broadcastInDim S64x256 ![] bcast_S_S64x256 : (⟨S_, .f32⟩ : BufTy).Contents (Elt F) → (⟨S64x256, .f32⟩ : BufTy).Contents (Elt F)),
    binary main_v60 main_v57 main_v61 (mulf : (⟨S64x256, .f32⟩ : BufTy).Contents (Elt F) → (⟨S64x256, .f32⟩ : BufTy).Contents (Elt F) → (⟨S64x256, .f32⟩ : BufTy).Contents (Elt F)),
    binary main_v53 main_v61 main_v62 (subf : (⟨S64x256, .f32⟩ : BufTy).Contents (Elt F) → (⟨S64x256, .f32⟩ : BufTy).Contents (Elt F) → (⟨S64x256, .f32⟩ : BufTy).Contents (Elt F)),
    nullary main_cst_9 (constant S_ .f32 0x3F000000#32),
    unary main_cst_9 main_v63 (broadcastInDim S64x256 ![] bcast_S_S64x256 : (⟨S_, .f32⟩ : BufTy).Contents (Elt F) → (⟨S64x256, .f32⟩ : BufTy).Contents (Elt F)),
    binary main_v63 main_v59 main_v64 (mulf : (⟨S64x256, .f32⟩ : BufTy).Contents (Elt F) → (⟨S64x256, .f32⟩ : BufTy).Contents (Elt F) → (⟨S64x256, .f32⟩ : BufTy).Contents (Elt F)),
    binary main_v55 main_v64 main_v65 (subf : (⟨S64x256, .f32⟩ : BufTy).Contents (Elt F) → (⟨S64x256, .f32⟩ : BufTy).Contents (Elt F) → (⟨S64x256, .f32⟩ : BufTy).Contents (Elt F)),
    nullary main_cst_10 (constant S_ .f32 0x3F000000#32),
    unary main_cst_10 main_v66 (broadcastInDim S64x256 ![] bcast_S_S64x256 : (⟨S_, .f32⟩ : BufTy).Contents (Elt F) → (⟨S64x256, .f32⟩ : BufTy).Contents (Elt F)),
    binary main_v66 main_v57 main_v67 (mulf : (⟨S64x256, .f32⟩ : BufTy).Contents (Elt F) → (⟨S64x256, .f32⟩ : BufTy).Contents (Elt F) → (⟨S64x256, .f32⟩ : BufTy).Contents (Elt F)),
    binary main_v53 main_v67 main_v68 (addf : (⟨S64x256, .f32⟩ : BufTy).Contents (Elt F) → (⟨S64x256, .f32⟩ : BufTy).Contents (Elt F) → (⟨S64x256, .f32⟩ : BufTy).Contents (Elt F)),
    nullary main_cst_11 (constant S_ .f32 0x3F000000#32),
    unary main_cst_11 main_v69 (broadcastInDim S64x256 ![] bcast_S_S64x256 : (⟨S_, .f32⟩ : BufTy).Contents (Elt F) → (⟨S64x256, .f32⟩ : BufTy).Contents (Elt F)),
    binary main_v69 main_v59 main_v70 (mulf : (⟨S64x256, .f32⟩ : BufTy).Contents (Elt F) → (⟨S64x256, .f32⟩ : BufTy).Contents (Elt F) → (⟨S64x256, .f32⟩ : BufTy).Contents (Elt F)),
    binary main_v55 main_v70 main_v71 (addf : (⟨S64x256, .f32⟩ : BufTy).Contents (Elt F) → (⟨S64x256, .f32⟩ : BufTy).Contents (Elt F) → (⟨S64x256, .f32⟩ : BufTy).Contents (Elt F)),
    unary main_v62 main_v72 (broadcastInDim S64x256x1 ![0, 1] bcast_S64x256_S64x256x1_0_1 : (⟨S64x256, .f32⟩ : BufTy).Contents (Elt F) → (⟨S64x256x1, .f32⟩ : BufTy).Contents (Elt F)),
    unary main_v65 main_v73 (broadcastInDim S64x256x1 ![0, 1] bcast_S64x256_S64x256x1_0_1 : (⟨S64x256, .f32⟩ : BufTy).Contents (Elt F) → (⟨S64x256x1, .f32⟩ : BufTy).Contents (Elt F)),
    unary main_v68 main_v74 (broadcastInDim S64x256x1 ![0, 1] bcast_S64x256_S64x256x1_0_1 : (⟨S64x256, .f32⟩ : BufTy).Contents (Elt F) → (⟨S64x256x1, .f32⟩ : BufTy).Contents (Elt F)),
    unary main_v71 main_v75 (broadcastInDim S64x256x1 ![0, 1] bcast_S64x256_S64x256x1_0_1 : (⟨S64x256, .f32⟩ : BufTy).Contents (Elt F) → (⟨S64x256x1, .f32⟩ : BufTy).Contents (Elt F)) ]

/-- The buffers those operations write, in order. -/
abbrev ops_c2_W : List (Ref sig .tc) :=
  [main_v50, main_v51, main_v52, main_v53, main_v54, main_v55, main_v56, main_v57, main_v58, main_v59, main_cst_8, main_v60, main_v61, main_v62, main_cst_9, main_v63, main_v64, main_v65, main_cst_10, main_v66, main_v67, main_v68, main_cst_11, main_v69, main_v70, main_v71, main_v72, main_v73, main_v74, main_v75]

/-- Operations 91 … 120 of 193 (in @main's window `main_part1`). -/
abbrev ops_c3 : List (HloOp τ sig (Elt F)) :=
  [ nary ![main_v72, main_v73, main_v74, main_v75] main_v76 (fun u => concatenate S64x256x4 2 [⟨S64x256x1, u 0⟩, ⟨S64x256x1, u 1⟩, ⟨S64x256x1, u 2⟩, ⟨S64x256x1, u 3⟩] concatenates_S64x256x1_S64x256x1_S64x256x1_S64x256x1_S64x256x4_d2),
    unary main_v76 main_v77 (broadcastInDim S64x1x256x4 ![0, 2, 3] bcast_S64x256x4_S64x1x256x4_0_2_3 : (⟨S64x256x4, .f32⟩ : BufTy).Contents (Elt F) → (⟨S64x1x256x4, .f32⟩ : BufTy).Contents (Elt F)),
    unary main_v51 main_v78 ((extractStridedSlice S64x900x1x1 ![0, 0, 0, 2] · slices_S64x900x1x4_S64x900x1x1_0_0_0_2) : (⟨S64x900x1x4, .f32⟩ : BufTy).Contents (Elt F) → (⟨S64x900x1x1, .f32⟩ : BufTy).Contents (Elt F)),
    reshape main_v78 main_v79 rfl shapeCasts_S64x900x1x1_S64x900x1,
    unary main_v51 main_v80 ((extractStridedSlice S64x900x1x1 ![0, 0, 0, 0] · slices_S64x900x1x4_S64x900x1x1_0_0_0_0) : (⟨S64x900x1x4, .f32⟩ : BufTy).Contents (Elt F) → (⟨S64x900x1x1, .f32⟩ : BufTy).Contents (Elt F)),
    reshape main_v80 main_v81 rfl shapeCasts_S64x900x1x1_S64x900x1,
    binary main_v79 main_v81 main_v82 (subf : (⟨S64x900x1, .f32⟩ : BufTy).Contents (Elt F) → (⟨S64x900x1, .f32⟩ : BufTy).Contents (Elt F) → (⟨S64x900x1, .f32⟩ : BufTy).Contents (Elt F)),
    unary main_v51 main_v83 ((extractStridedSlice S64x900x1x1 ![0, 0, 0, 3] · slices_S64x900x1x4_S64x900x1x1_0_0_0_3) : (⟨S64x900x1x4, .f32⟩ : BufTy).Contents (Elt F) → (⟨S64x900x1x1, .f32⟩ : BufTy).Contents (Elt F)),
    reshape main_v83 main_v84 rfl shapeCasts_S64x900x1x1_S64x900x1,
    unary main_v51 main_v85 ((extractStridedSlice S64x900x1x1 ![0, 0, 0, 1] · slices_S64x900x1x4_S64x900x1x1_0_0_0_1) : (⟨S64x900x1x4, .f32⟩ : BufTy).Contents (Elt F) → (⟨S64x900x1x1, .f32⟩ : BufTy).Contents (Elt F)),
    reshape main_v85 main_v86 rfl shapeCasts_S64x900x1x1_S64x900x1,
    binary main_v84 main_v86 main_v87 (subf : (⟨S64x900x1, .f32⟩ : BufTy).Contents (Elt F) → (⟨S64x900x1, .f32⟩ : BufTy).Contents (Elt F) → (⟨S64x900x1, .f32⟩ : BufTy).Contents (Elt F)),
    binary main_v82 main_v87 main_v88 (mulf : (⟨S64x900x1, .f32⟩ : BufTy).Contents (Elt F) → (⟨S64x900x1, .f32⟩ : BufTy).Contents (Elt F) → (⟨S64x900x1, .f32⟩ : BufTy).Contents (Elt F)),
    unary main_v77 main_v89 ((extractStridedSlice S64x1x256x1 ![0, 0, 0, 2] · slices_S64x1x256x4_S64x1x256x1_0_0_0_2) : (⟨S64x1x256x4, .f32⟩ : BufTy).Contents (Elt F) → (⟨S64x1x256x1, .f32⟩ : BufTy).Contents (Elt F)),
    reshape main_v89 main_v90 rfl shapeCasts_S64x1x256x1_S64x1x256,
    unary main_v77 main_v91 ((extractStridedSlice S64x1x256x1 ![0, 0, 0, 0] · slices_S64x1x256x4_S64x1x256x1_0_0_0_0) : (⟨S64x1x256x4, .f32⟩ : BufTy).Contents (Elt F) → (⟨S64x1x256x1, .f32⟩ : BufTy).Contents (Elt F)),
    reshape main_v91 main_v92 rfl shapeCasts_S64x1x256x1_S64x1x256,
    binary main_v90 main_v92 main_v93 (subf : (⟨S64x1x256, .f32⟩ : BufTy).Contents (Elt F) → (⟨S64x1x256, .f32⟩ : BufTy).Contents (Elt F) → (⟨S64x1x256, .f32⟩ : BufTy).Contents (Elt F)),
    unary main_v77 main_v94 ((extractStridedSlice S64x1x256x1 ![0, 0, 0, 3] · slices_S64x1x256x4_S64x1x256x1_0_0_0_3) : (⟨S64x1x256x4, .f32⟩ : BufTy).Contents (Elt F) → (⟨S64x1x256x1, .f32⟩ : BufTy).Contents (Elt F)),
    reshape main_v94 main_v95 rfl shapeCasts_S64x1x256x1_S64x1x256,
    unary main_v77 main_v96 ((extractStridedSlice S64x1x256x1 ![0, 0, 0, 1] · slices_S64x1x256x4_S64x1x256x1_0_0_0_1) : (⟨S64x1x256x4, .f32⟩ : BufTy).Contents (Elt F) → (⟨S64x1x256x1, .f32⟩ : BufTy).Contents (Elt F)),
    reshape main_v96 main_v97 rfl shapeCasts_S64x1x256x1_S64x1x256,
    binary main_v95 main_v97 main_v98 (subf : (⟨S64x1x256, .f32⟩ : BufTy).Contents (Elt F) → (⟨S64x1x256, .f32⟩ : BufTy).Contents (Elt F) → (⟨S64x1x256, .f32⟩ : BufTy).Contents (Elt F)),
    binary main_v93 main_v98 main_v99 (mulf : (⟨S64x1x256, .f32⟩ : BufTy).Contents (Elt F) → (⟨S64x1x256, .f32⟩ : BufTy).Contents (Elt F) → (⟨S64x1x256, .f32⟩ : BufTy).Contents (Elt F)),
    unary main_v51 main_v100 ((extractStridedSlice S64x900x1x2 ![0, 0, 0, 0] · slices_S64x900x1x4_S64x900x1x2_0_0_0_0) : (⟨S64x900x1x4, .f32⟩ : BufTy).Contents (Elt F) → (⟨S64x900x1x2, .f32⟩ : BufTy).Contents (Elt F)),
    unary main_v77 main_v101 ((extractStridedSlice S64x1x256x2 ![0, 0, 0, 0] · slices_S64x1x256x4_S64x1x256x2_0_0_0_0) : (⟨S64x1x256x4, .f32⟩ : BufTy).Contents (Elt F) → (⟨S64x1x256x2, .f32⟩ : BufTy).Contents (Elt F)),
    unary main_v100 main_v102 (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)),
    unary main_v101 main_v103 (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)),
    binary main_v102 main_v103 main_v104 (maximumf : (⟨S64x900x256x2, .f32⟩ : BufTy).Contents (Elt F) → (⟨S64x900x256x2, .f32⟩ : BufTy).Contents (Elt F) → (⟨S64x900x256x2, .f32⟩ : BufTy).Contents (Elt F)),
    unary main_v51 main_v105 ((extractStridedSlice S64x900x1x2 ![0, 0, 0, 2] · slices_S64x900x1x4_S64x900x1x2_0_0_0_2) : (⟨S64x900x1x4, .f32⟩ : BufTy).Contents (Elt F) → (⟨S64x900x1x2, .f32⟩ : BufTy).Contents (Elt F)) ]

/-- The buffers those operations write, in order. -/
abbrev ops_c3_W : List (Ref sig .tc) :=
  [main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105]

/-- Operations 121 … 145 of 193 (in @main's window `main_part2`). -/
abbrev ops_c4 : List (HloOp τ sig (Elt F)) :=
  [ unary main_v77 main_v106 ((extractStridedSlice S64x1x256x2 ![0, 0, 0, 2] · slices_S64x1x256x4_S64x1x256x2_0_0_0_2) : (⟨S64x1x256x4, .f32⟩ : BufTy).Contents (Elt F) → (⟨S64x1x256x2, .f32⟩ : BufTy).Contents (Elt F)),
    unary main_v105 main_v107 (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)),
    unary main_v106 main_v108 (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)),
    binary main_v107 main_v108 main_v109 (minimumf : (⟨S64x900x256x2, .f32⟩ : BufTy).Contents (Elt F) → (⟨S64x900x256x2, .f32⟩ : BufTy).Contents (Elt F) → (⟨S64x900x256x2, .f32⟩ : BufTy).Contents (Elt F)),
    binary main_v109 main_v104 main_v110 (subf : (⟨S64x900x256x2, .f32⟩ : BufTy).Contents (Elt F) → (⟨S64x900x256x2, .f32⟩ : BufTy).Contents (Elt F) → (⟨S64x900x256x2, .f32⟩ : BufTy).Contents (Elt F)),
    nullary main_cst_12 (constant S_ .f32 0x00000000#32),
    TRef.unary (.of main_cst_12 : TRef sig ⟨S_, .f32⟩) main_call0.v0 id,
    TRef.unary main_call0.v0 main_call0.v1 (broadcastInDim S64x900x256x2 ![] bcast_S_S64x900x256x2),
    TRef.binary main_call0.v1 (.of main_v110 : TRef sig ⟨S64x900x256x2, .f32⟩) main_call0.v2 maximumf,
    unary main_v111 main_v112 ((extractStridedSlice S64x900x256x1 ![0, 0, 0, 0] · slices_S64x900x256x2_S64x900x256x1_0_0_0_0) : (⟨S64x900x256x2, .f32⟩ : BufTy).Contents (Elt F) → (⟨S64x900x256x1, .f32⟩ : BufTy).Contents (Elt F)),
    reshape main_v112 main_v113 rfl shapeCasts_S64x900x256x1_S64x900x256,
    unary main_v111 main_v114 ((extractStridedSlice S64x900x256x1 ![0, 0, 0, 1] · slices_S64x900x256x2_S64x900x256x1_0_0_0_1) : (⟨S64x900x256x2, .f32⟩ : BufTy).Contents (Elt F) → (⟨S64x900x256x1, .f32⟩ : BufTy).Contents (Elt F)),
    reshape main_v114 main_v115 rfl shapeCasts_S64x900x256x1_S64x900x256,
    binary main_v113 main_v115 main_v116 (mulf : (⟨S64x900x256, .f32⟩ : BufTy).Contents (Elt F) → (⟨S64x900x256, .f32⟩ : BufTy).Contents (Elt F) → (⟨S64x900x256, .f32⟩ : BufTy).Contents (Elt F)),
    unary main_v88 main_v117 (broadcastInDim S64x900x256 ![0, 1, 2] bcast_S64x900x1_S64x900x256_0_1_2 : (⟨S64x900x1, .f32⟩ : BufTy).Contents (Elt F) → (⟨S64x900x256, .f32⟩ : BufTy).Contents (Elt F)),
    unary main_v99 main_v118 (broadcastInDim S64x900x256 ![0, 1, 2] bcast_S64x1x256_S64x900x256_0_1_2 : (⟨S64x1x256, .f32⟩ : BufTy).Contents (Elt F) → (⟨S64x900x256, .f32⟩ : BufTy).Contents (Elt F)),
    binary main_v117 main_v118 main_v119 (addf : (⟨S64x900x256, .f32⟩ : BufTy).Contents (Elt F) → (⟨S64x900x256, .f32⟩ : BufTy).Contents (Elt F) → (⟨S64x900x256, .f32⟩ : BufTy).Contents (Elt F)),
    binary main_v119 main_v116 main_v120 (subf : (⟨S64x900x256, .f32⟩ : BufTy).Contents (Elt F) → (⟨S64x900x256, .f32⟩ : BufTy).Contents (Elt F) → (⟨S64x900x256, .f32⟩ : BufTy).Contents (Elt F)),
    binary main_v116 main_v120 main_v121 (Host.divf : (⟨S64x900x256, .f32⟩ : BufTy).Contents (Elt F) → (⟨S64x900x256, .f32⟩ : BufTy).Contents (Elt F) → (⟨S64x900x256, .f32⟩ : BufTy).Contents (Elt F)),
    unary main_v51 main_v122 ((extractStridedSlice S64x900x1x2 ![0, 0, 0, 0] · slices_S64x900x1x4_S64x900x1x2_0_0_0_0) : (⟨S64x900x1x4, .f32⟩ : BufTy).Contents (Elt F) → (⟨S64x900x1x2, .f32⟩ : BufTy).Contents (Elt F)),
    unary main_v77 main_v123 ((extractStridedSlice S64x1x256x2 ![0, 0, 0, 0] · slices_S64x1x256x4_S64x1x256x2_0_0_0_0) : (⟨S64x1x256x4, .f32⟩ : BufTy).Contents (Elt F) → (⟨S64x1x256x2, .f32⟩ : BufTy).Contents (Elt F)),
    unary main_v122 main_v124 (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)),
    unary main_v123 main_v125 (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)),
    binary main_v124 main_v125 main_v126 (minimumf : (⟨S64x900x256x2, .f32⟩ : BufTy).Contents (Elt F) → (⟨S64x900x256x2, .f32⟩ : BufTy).Contents (Elt F) → (⟨S64x900x256x2, .f32⟩ : BufTy).Contents (Elt F)),
    unary main_v51 main_v127 ((extractStridedSlice S64x900x1x2 ![0, 0, 0, 2] · slices_S64x900x1x4_S64x900x1x2_0_0_0_2) : (⟨S64x900x1x4, .f32⟩ : BufTy).Contents (Elt F) → (⟨S64x900x1x2, .f32⟩ : BufTy).Contents (Elt F)) ]

/-- The buffers those operations write, in order. -/
abbrev ops_c4_W : List (Ref sig .tc) :=
  [main_v106, main_v107, main_v108, main_v109, main_v110, main_cst_12, main_call0_v0, main_call0_v1, main_v111, main_v112, main_v113, main_v114, main_v115, main_v116, main_v117, main_v118, main_v119, main_v120, main_v121, main_v122, main_v123, main_v124, main_v125, main_v126, main_v127]

/-- Operations 146 … 170 of 193 (in @main's window `main_part2`). -/
abbrev ops_c5 : List (HloOp τ sig (Elt F)) :=
  [ unary main_v77 main_v128 ((extractStridedSlice S64x1x256x2 ![0, 0, 0, 2] · slices_S64x1x256x4_S64x1x256x2_0_0_0_2) : (⟨S64x1x256x4, .f32⟩ : BufTy).Contents (Elt F) → (⟨S64x1x256x2, .f32⟩ : BufTy).Contents (Elt F)),
    unary main_v127 main_v129 (broadcastInDim S64x900x256x2 ![0, 1, 2, 3] bcast_S64x900x1x2_S64x900x256x2_0_1_2_3 : (⟨S64x900x1x2, .f32⟩ : BufTy).Contents (Elt F) → (⟨S64x900x256x2, .f32⟩ : BufTy).Contents (Elt F)),
    unary main_v128 main_v130 (broadcastInDim S64x900x256x2 ![0, 1, 2, 3] bcast_S64x1x256x2_S64x900x256x2_0_1_2_3 : (⟨S64x1x256x2, .f32⟩ : BufTy).Contents (Elt F) → (⟨S64x900x256x2, .f32⟩ : BufTy).Contents (Elt F)),
    binary main_v129 main_v130 main_v131 (maximumf : (⟨S64x900x256x2, .f32⟩ : BufTy).Contents (Elt F) → (⟨S64x900x256x2, .f32⟩ : BufTy).Contents (Elt F) → (⟨S64x900x256x2, .f32⟩ : BufTy).Contents (Elt F)),
    binary main_v131 main_v126 main_v132 (subf : (⟨S64x900x256x2, .f32⟩ : BufTy).Contents (Elt F) → (⟨S64x900x256x2, .f32⟩ : BufTy).Contents (Elt F) → (⟨S64x900x256x2, .f32⟩ : BufTy).Contents (Elt F)),
    nullary main_cst_13 (constant S_ .f32 0x00000000#32),
    TRef.unary (.of main_cst_13 : TRef sig ⟨S_, .f32⟩) main_call1.v0 id,
    TRef.unary main_call1.v0 main_call1.v1 (broadcastInDim S64x900x256x2 ![] bcast_S_S64x900x256x2),
    TRef.binary main_call1.v1 (.of main_v132 : TRef sig ⟨S64x900x256x2, .f32⟩) main_call1.v2 maximumf,
    unary main_v133 main_v134 ((extractStridedSlice S64x900x256x1 ![0, 0, 0, 0] · slices_S64x900x256x2_S64x900x256x1_0_0_0_0) : (⟨S64x900x256x2, .f32⟩ : BufTy).Contents (Elt F) → (⟨S64x900x256x1, .f32⟩ : BufTy).Contents (Elt F)),
    reshape main_v134 main_v135 rfl shapeCasts_S64x900x256x1_S64x900x256,
    unary main_v133 main_v136 ((extractStridedSlice S64x900x256x1 ![0, 0, 0, 1] · slices_S64x900x256x2_S64x900x256x1_0_0_0_1) : (⟨S64x900x256x2, .f32⟩ : BufTy).Contents (Elt F) → (⟨S64x900x256x1, .f32⟩ : BufTy).Contents (Elt F)),
    reshape main_v136 main_v137 rfl shapeCasts_S64x900x256x1_S64x900x256,
    binary main_v135 main_v137 main_v138 (mulf : (⟨S64x900x256, .f32⟩ : BufTy).Contents (Elt F) → (⟨S64x900x256, .f32⟩ : BufTy).Contents (Elt F) → (⟨S64x900x256, .f32⟩ : BufTy).Contents (Elt F)),
    binary main_v138 main_v120 main_v139 (subf : (⟨S64x900x256, .f32⟩ : BufTy).Contents (Elt F) → (⟨S64x900x256, .f32⟩ : BufTy).Contents (Elt F) → (⟨S64x900x256, .f32⟩ : BufTy).Contents (Elt F)),
    binary main_v139 main_v138 main_v140 (Host.divf : (⟨S64x900x256, .f32⟩ : BufTy).Contents (Elt F) → (⟨S64x900x256, .f32⟩ : BufTy).Contents (Elt F) → (⟨S64x900x256, .f32⟩ : BufTy).Contents (Elt F)),
    binary main_v121 main_v140 main_v141 (subf : (⟨S64x900x256, .f32⟩ : BufTy).Contents (Elt F) → (⟨S64x900x256, .f32⟩ : BufTy).Contents (Elt F) → (⟨S64x900x256, .f32⟩ : BufTy).Contents (Elt F)),
    nullary main_cst_14 (constant S_ .f32 0x3F800000#32),
    unary main_cst_14 main_v142 (broadcastInDim S64x900x256 ![] bcast_S_S64x900x256 : (⟨S_, .f32⟩ : BufTy).Contents (Elt F) → (⟨S64x900x256, .f32⟩ : BufTy).Contents (Elt F)),
    binary main_v142 main_v18 main_v143 (mulf : (⟨S64x900x256, .f32⟩ : BufTy).Contents (Elt F) → (⟨S64x900x256, .f32⟩ : BufTy).Contents (Elt F) → (⟨S64x900x256, .f32⟩ : BufTy).Contents (Elt F)),
    nullary main_cst_15 (constant S_ .f32 0x40A00000#32),
    unary main_cst_15 main_v144 (broadcastInDim S64x900x256 ![] bcast_S_S64x900x256 : (⟨S_, .f32⟩ : BufTy).Contents (Elt F) → (⟨S64x900x256, .f32⟩ : BufTy).Contents (Elt F)),
    binary main_v144 main_v25 main_v145 (mulf : (⟨S64x900x256, .f32⟩ : BufTy).Contents (Elt F) → (⟨S64x900x256, .f32⟩ : BufTy).Contents (Elt F) → (⟨S64x900x256, .f32⟩ : BufTy).Contents (Elt F)),
    binary main_v143 main_v145 main_v146 (addf : (⟨S64x900x256, .f32⟩ : BufTy).Contents (Elt F) → (⟨S64x900x256, .f32⟩ : BufTy).Contents (Elt F) → (⟨S64x900x256, .f32⟩ : BufTy).Contents (Elt F)),
    unary main_v141 main_v147 (Host.negf : (⟨S64x900x256, .f32⟩ : BufTy).Contents (Elt F) → (⟨S64x900x256, .f32⟩ : BufTy).Contents (Elt F)) ]

/-- The buffers those operations write, in order. -/
abbrev ops_c5_W : List (Ref sig .tc) :=
  [main_v128, main_v129, main_v130, main_v131, main_v132, main_cst_13, main_call1_v0, main_call1_v1, main_v133, main_v134, main_v135, main_v136, main_v137, main_v138, main_v139, main_v140, main_v141, main_cst_14, main_v142, main_v143, main_cst_15, main_v144, main_v145, main_v146, main_v147]

/-- Operations 171 … 193 of 193 (in @main's window `main_part2`). -/
abbrev ops_c6 : List (HloOp τ sig (Elt F)) :=
  [ nullary main_cst_16 (constant S_ .f32 0x40000000#32),
    unary main_cst_16 main_v148 (broadcastInDim S64x900x256 ![] bcast_S_S64x900x256 : (⟨S_, .f32⟩ : BufTy).Contents (Elt F) → (⟨S64x900x256, .f32⟩ : BufTy).Contents (Elt F)),
    binary main_v148 main_v147 main_v149 (mulf : (⟨S64x900x256, .f32⟩ : BufTy).Contents (Elt F) → (⟨S64x900x256, .f32⟩ : BufTy).Contents (Elt F) → (⟨S64x900x256, .f32⟩ : BufTy).Contents (Elt F)),
    binary main_v146 main_v149 main_v150 (addf : (⟨S64x900x256, .f32⟩ : BufTy).Contents (Elt F) → (⟨S64x900x256, .f32⟩ : BufTy).Contents (Elt F) → (⟨S64x900x256, .f32⟩ : BufTy).Contents (Elt F)),
    nullary main_cst_17 (constant S_ .f32 0x49742400#32),
    nullary main_cst_18 (constant S_ .f32 0xC9742400#32),
    nullary main_cst_19 (constant S_ .f32 0x49742400#32),
    TRef.binary (.of main_v150 : TRef sig ⟨S64x900x256, .f32⟩) (.of main_v150 : TRef sig ⟨S64x900x256, .f32⟩) main_call2.v0 (cmpf .une),
    TRef.unary (.of main_cst_17 : TRef sig ⟨S_, .f32⟩) main_call2.v1 id,
    TRef.unary main_call2.v1 main_call2.call0.v0 (broadcastInDim S64x900x256 ![] bcast_S_S64x900x256),
    TRef.ternary main_call2.v0 main_call2.call0.v0 (.of main_v150 : TRef sig ⟨S64x900x256, .f32⟩) main_call2.call0.v1 select,
    TRef.nullary main_call2.cst (constant S_ .f32 0x7F800000#32),
    TRef.unary main_call2.cst main_call2.v3 (broadcastInDim S64x900x256 ![] bcast_S_S64x900x256),
    TRef.binary main_call2.call0.v1 main_call2.v3 main_call2.v4 (cmpf .oeq),
    TRef.unary (.of main_cst_19 : TRef sig ⟨S_, .f32⟩) main_call2.v5 id,
    TRef.unary main_call2.v5 main_call2.call1.v0 (broadcastInDim S64x900x256 ![] bcast_S_S64x900x256),
    TRef.ternary main_call2.v4 main_call2.call1.v0 main_call2.call0.v1 main_call2.call1.v1 select,
    TRef.nullary main_call2.cst_0 (constant S_ .f32 0xFF800000#32),
    TRef.unary main_call2.cst_0 main_call2.v7 (broadcastInDim S64x900x256 ![] bcast_S_S64x900x256),
    TRef.binary main_call2.call1.v1 main_call2.v7 main_call2.v8 (cmpf .oeq),
    TRef.unary (.of main_cst_18 : TRef sig ⟨S_, .f32⟩) main_call2.v9 id,
    TRef.unary main_call2.v9 main_call2.call2.v0 (broadcastInDim S64x900x256 ![] bcast_S_S64x900x256),
    TRef.ternary main_call2.v8 main_call2.call2.v0 main_call2.call1.v1 main_call2.call2.v1 select ]

/-- The buffers those operations write, in order. -/
abbrev ops_c6_W : List (Ref sig .tc) :=
  [main_cst_16, main_v148, main_v149, main_v150, main_cst_17, main_cst_18, main_cst_19, main_call2_v0, main_call2_v1, main_call2_call0_v0, main_call2_v2, main_call2_cst, main_call2_v3, main_call2_v4, main_call2_v5, main_call2_call1_v0, main_call2_v6, main_call2_cst_0, main_call2_v7, main_call2_v8, main_call2_v9, main_call2_call2_v0, main_v151]

/-- The 193 operations, in order. -/
abbrev ops : List (HloOp τ sig (Elt F)) :=
  ops_c0 ++ (ops_c1 ++ (ops_c2 ++ (ops_c3 ++ (ops_c4 ++ (ops_c5 ++ (ops_c6))))))

end Cert.ReferenceIdeal.RefRun

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.RefRun.lean ====
/-
  The reference program's run, read back as a term.

  The reference's @main is a straight line of host operations once each of its three calls — `clip` twice and
  `nan_to_num`, which itself calls `_where` three times — is replaced by its callee's body over the call's buffer
  record: the 193 operations `ops`, listed in seven consecutive lists `ops_c0 … ops_c6` (Proof/RefOps.lean). So every
  weakly fair execution of @main terminates with each buffer at the fold of the operations' results over the launch
  contents (`StableHlo.run_seq`), and what is proved here is what that fold holds at the result buffer `main_v151` and at the four
  argument buffers: the result is `res_main_v151` of the four argument arrays (Proof/RefTerms.lean: one definition per operation,
  the operation's pure function applied to the definitions of its operands), and the arguments are unchanged.

  The fold is read list by list. `val‹k›` is the valuation after the first `k` lists. A buffer a list does not write keeps
  its contents through it (`val‹k›_keep`, from the list `ops_c‹k›_W` of the buffers it writes). For each buffer `b` that a later
  list reads, `val‹k›_b` says that after the list that writes it the buffer holds `res_b` of the arguments: inside the list each
  operation's result is its function of its operands' contents (the library's result lemmas: one `simp` pass, or rewriting one at a
  time where the term is just a concatenate of earlier lists' buffers, whose operands a `simp` pass leaves under a binder), the operands written
  by earlier lists are rewritten by their own `val` lemmas, and what remains is the unfolding of the definitions `res_…`.
  The callees' operations are spelt over typed references, whose two transports of contents are the identity at literal
  references, so they unfold with the rest.
-/
import proofs.«412448_j60825326846459_2_alg».proof.Proof.RefTerms
import proofs.«412448_j60825326846459_2_alg».proof.Proof.RefOps
import proofs.«412448_j60825326846459_2_alg».proof.Proof.LibTRef
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line `ops` -/

set_option maxRecDepth 8192 in
/-- @main's first window is the first two lists run in order. -/
theorem main_part0_eq (c : Dev nD) : main_part0 (F := F) c = seq (ops_c0 ++ ops_c1) := rfl

set_option maxRecDepth 8192 in
/-- Its second window is the next two. -/
theorem main_part1_eq (c : Dev nD) : main_part1 (F := F) c = seq (ops_c2 ++ ops_c3) := rfl

set_option maxRecDepth 8192 in
/-- Its third window is the last three: the two calls of `clip` and the call of `nan_to_num` (with its three calls of
    `_where`) unfold to their callees' operations over the calls' buffer records, and sequencing re-associates by
    computation. -/
theorem main_part2_eq (c : Dev nD) : main_part2 (F := F) c = seq (ops_c4 ++ (ops_c5 ++ ops_c6)) := rfl

/-- @main is the seven lists run in order. -/
theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only

Each list's `Forall` is a conjunction, one conjunct per operation, and each conjunct is its builder's fact. -/

theorem ops_c0_sub : (ops_c0 : List (HloOp τ sig (Elt F))).Forall fun op => op.bufs ⊆ tcRefs τ sig := by
  simp only [ops_c0, List.Forall, nullary_bufs_sub, unary_bufs_sub, binary_bufs_sub, ternary_bufs_sub, reshape_bufs_sub, nary_bufs_sub, and_self]
theorem ops_c1_sub : (ops_c1 : List (HloOp τ sig (Elt F))).Forall fun op => op.bufs ⊆ tcRefs τ sig := by
  simp only [ops_c1, List.Forall, nullary_bufs_sub, unary_bufs_sub, binary_bufs_sub, ternary_bufs_sub, reshape_bufs_sub, nary_bufs_sub, and_self]
theorem ops_c2_sub : (ops_c2 : List (HloOp τ sig (Elt F))).Forall fun op => op.bufs ⊆ tcRefs τ sig := by
  simp only [ops_c2, List.Forall, nullary_bufs_sub, unary_bufs_sub, binary_bufs_sub, ternary_bufs_sub, reshape_bufs_sub, nary_bufs_sub, and_self]
theorem ops_c3_sub : (ops_c3 : List (HloOp τ sig (Elt F))).Forall fun op => op.bufs ⊆ tcRefs τ sig := by
  simp only [ops_c3, List.Forall, nullary_bufs_sub, unary_bufs_sub, binary_bufs_sub, ternary_bufs_sub, reshape_bufs_sub, nary_bufs_sub, and_self]
theorem ops_c4_sub : (ops_c4 : List (HloOp τ sig (Elt F))).Forall fun op => op.bufs ⊆ tcRefs τ sig := by
  simp only [ops_c4, List.Forall, nullary_bufs_sub, unary_bufs_sub, binary_bufs_sub, ternary_bufs_sub, reshape_bufs_sub, nary_bufs_sub, and_self]
theorem ops_c5_sub : (ops_c5 : List (HloOp τ sig (Elt F))).Forall fun op => op.bufs ⊆ tcRefs τ sig := by
  simp only [ops_c5, List.Forall, nullary_bufs_sub, unary_bufs_sub, binary_bufs_sub, ternary_bufs_sub, reshape_bufs_sub, nary_bufs_sub, and_self]
theorem ops_c6_sub : (ops_c6 : List (HloOp τ sig (Elt F))).Forall fun op => op.bufs ⊆ tcRefs τ sig := by
  simp only [ops_c6, List.Forall, nullary_bufs_sub, unary_bufs_sub, binary_bufs_sub, ternary_bufs_sub, reshape_bufs_sub, nary_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_c0_sub op h, List.forall_iff_forall_mem.mp ops_c1_sub op h,
      List.forall_iff_forall_mem.mp ops_c2_sub op h, List.forall_iff_forall_mem.mp ops_c3_sub op h,
      List.forall_iff_forall_mem.mp ops_c4_sub op h, List.forall_iff_forall_mem.mp ops_c5_sub op h,
      List.forall_iff_forall_mem.mp ops_c6_sub op h]

/-! ## What each list writes -/

/-- For a literal list of the builders' operations and a literal list `W` of references: each operation writes one buffer,
    and that buffer's reference is in `W`. -/
local macro "writes_sub_all" : tactic =>
  `(tactic| (simp only [List.Forall]
             repeat' apply And.intro
             all_goals
               (simp only [nullary_writes, unary_writes, binary_writes, ternary_writes, reshape_writes, nary_writes,
                  Finset.singleton_subset_iff, List.mem_toFinset]
                exact List.mem_map_of_mem (by decide))))

theorem ops_c0_writes : (ops_c0 : List (HloOp τ sig (Elt F))).Forall fun op => op.writes ⊆ (ops_c0_W.map (Proc.devRef (τ := τ) .tc)).toFinset := by writes_sub_all
theorem ops_c1_writes : (ops_c1 : List (HloOp τ sig (Elt F))).Forall fun op => op.writes ⊆ (ops_c1_W.map (Proc.devRef (τ := τ) .tc)).toFinset := by writes_sub_all
theorem ops_c2_writes : (ops_c2 : List (HloOp τ sig (Elt F))).Forall fun op => op.writes ⊆ (ops_c2_W.map (Proc.devRef (τ := τ) .tc)).toFinset := by writes_sub_all
theorem ops_c3_writes : (ops_c3 : List (HloOp τ sig (Elt F))).Forall fun op => op.writes ⊆ (ops_c3_W.map (Proc.devRef (τ := τ) .tc)).toFinset := by writes_sub_all
theorem ops_c4_writes : (ops_c4 : List (HloOp τ sig (Elt F))).Forall fun op => op.writes ⊆ (ops_c4_W.map (Proc.devRef (τ := τ) .tc)).toFinset := by writes_sub_all
theorem ops_c5_writes : (ops_c5 : List (HloOp τ sig (Elt F))).Forall fun op => op.writes ⊆ (ops_c5_W.map (Proc.devRef (τ := τ) .tc)).toFinset := by writes_sub_all
theorem ops_c6_writes : (ops_c6 : List (HloOp τ sig (Elt F))).Forall fun op => op.writes ⊆ (ops_c6_W.map (Proc.devRef (τ := τ) .tc)).toFinset := by writes_sub_all

/-! ## The fold, list by list -/

/-- The device's buffer contents after the first `k` lists, from contents `V0`. -/
def val1 (V0 : Valuation τ sig (Elt F)) : Valuation τ sig (Elt F) := after ops_c0 V0
@[inherit_doc val1] def val2 (V0 : Valuation τ sig (Elt F)) : Valuation τ sig (Elt F) := after ops_c1 (val1 V0)
@[inherit_doc val1] def val3 (V0 : Valuation τ sig (Elt F)) : Valuation τ sig (Elt F) := after ops_c2 (val2 V0)
@[inherit_doc val1] def val4 (V0 : Valuation τ sig (Elt F)) : Valuation τ sig (Elt F) := after ops_c3 (val3 V0)
@[inherit_doc val1] def val5 (V0 : Valuation τ sig (Elt F)) : Valuation τ sig (Elt F) := after ops_c4 (val4 V0)
@[inherit_doc val1] def val6 (V0 : Valuation τ sig (Elt F)) : Valuation τ sig (Elt F) := after ops_c5 (val5 V0)
@[inherit_doc val1] def val7 (V0 : Valuation τ sig (Elt F)) : Valuation τ sig (Elt F) := after ops_c6 (val6 V0)

/-- The fold over all the operations is the fold list by list. -/
theorem after_ops (V0 : Valuation τ sig (Elt F)) : after ops V0 = val7 V0 := by
  simp only [ops, after_append]
  rfl

/-- A buffer a list does not write keeps its contents through it. -/
theorem val1_keep (V0 : Valuation τ sig (Elt F)) (r : Ref sig .tc) (h : r ∉ ops_c0_W) :
    val1 V0 (Proc.devRef .tc r) = V0 (Proc.devRef .tc r) := after_of_writes_sub ops_c0 _ ops_c0_writes h
@[inherit_doc val1_keep] theorem val2_keep (V0 : Valuation τ sig (Elt F)) (r : Ref sig .tc) (h : r ∉ ops_c1_W) :
    val2 V0 (Proc.devRef .tc r) = val1 V0 (Proc.devRef .tc r) := after_of_writes_sub ops_c1 _ ops_c1_writes h
@[inherit_doc val1_keep] theorem val3_keep (V0 : Valuation τ sig (Elt F)) (r : Ref sig .tc) (h : r ∉ ops_c2_W) :
    val3 V0 (Proc.devRef .tc r) = val2 V0 (Proc.devRef .tc r) := after_of_writes_sub ops_c2 _ ops_c2_writes h
@[inherit_doc val1_keep] theorem val4_keep (V0 : Valuation τ sig (Elt F)) (r : Ref sig .tc) (h : r ∉ ops_c3_W) :
    val4 V0 (Proc.devRef .tc r) = val3 V0 (Proc.devRef .tc r) := after_of_writes_sub ops_c3 _ ops_c3_writes h
@[inherit_doc val1_keep] theorem val5_keep (V0 : Valuation τ sig (Elt F)) (r : Ref sig .tc) (h : r ∉ ops_c4_W) :
    val5 V0 (Proc.devRef .tc r) = val4 V0 (Proc.devRef .tc r) := after_of_writes_sub ops_c4 _ ops_c4_writes h
@[inherit_doc val1_keep] theorem val6_keep (V0 : Valuation τ sig (Elt F)) (r : Ref sig .tc) (h : r ∉ ops_c5_W) :
    val6 V0 (Proc.devRef .tc r) = val5 V0 (Proc.devRef .tc r) := after_of_writes_sub ops_c5 _ ops_c5_writes h
@[inherit_doc val1_keep] theorem val7_keep (V0 : Valuation τ sig (Elt F)) (r : Ref sig .tc) (h : r ∉ ops_c6_W) :
    val7 V0 (Proc.devRef .tc r) = val6 V0 (Proc.devRef .tc r) := after_of_writes_sub ops_c6 _ ops_c6_writes h

/-- A buffer no list writes — each of the four arguments — holds at the end what it held at the start. -/
theorem val7_of_not_written (V0 : Valuation τ sig (Elt F)) (r : Ref sig .tc) (h0 : r ∉ ops_c0_W) (h1 : r ∉ ops_c1_W)
    (h2 : r ∉ ops_c2_W) (h3 : r ∉ ops_c3_W) (h4 : r ∉ ops_c4_W) (h5 : r ∉ ops_c5_W) (h6 : r ∉ ops_c6_W) :
    val7 V0 (Proc.devRef .tc r) = V0 (Proc.devRef .tc r) :=
  (val7_keep V0 r h6).trans ((val6_keep V0 r h5).trans ((val5_keep V0 r h4).trans ((val4_keep V0 r h3).trans
    ((val3_keep V0 r h2).trans ((val2_keep V0 r h1).trans (val1_keep V0 r h0))))))

/-! ### The first list: the softmax, the wrapped label, the gather, and the boxes' differences -/

set_option maxRecDepth 8192 in
set_option maxHeartbeats 2000000 in
theorem val1_main_v18 (V0 : Valuation τ sig (Elt F)) :
    val1 V0 (no_index (Proc.devRef .tc main_v18)) = res_main_v18 (V0 (Proc.devRef .tc main_arg0)) (V0 (Proc.devRef .tc main_arg1)) (V0 (Proc.devRef .tc main_arg2)) (V0 (Proc.devRef .tc main_arg3)) := by
  unfold val1
  simp only [ops_c0]
  after_results_simp <;> rfl

set_option maxRecDepth 8192 in
set_option maxHeartbeats 2000000 in
theorem val1_main_v24 (V0 : Valuation τ sig (Elt F)) :
    val1 V0 (no_index (Proc.devRef .tc main_v24)) = res_main_v24 (V0 (Proc.devRef .tc main_arg0)) (V0 (Proc.devRef .tc main_arg1)) (V0 (Proc.devRef .tc main_arg2)) (V0 (Proc.devRef .tc main_arg3)) := by
  unfold val1
  simp only [ops_c0]
  after_results_simp <;> rfl

theorem val1_main_arg1 (V0 : Valuation τ sig (Elt F)) :
    val1 V0 (no_index (Proc.devRef .tc main_arg1)) = V0 (Proc.devRef .tc main_arg1) := val1_keep V0 main_arg1 (by decide)
theorem val1_main_arg3 (V0 : Valuation τ sig (Elt F)) :
    val1 V0 (no_index (Proc.devRef .tc main_arg3)) = V0 (Proc.devRef .tc main_arg3) := val1_keep V0 main_arg3 (by decide)

/-! ### The second list: the L1 cost, and the query boxes' four corner coordinates -/

set_option maxRecDepth 8192 in
set_option maxHeartbeats 2000000 in
theorem val2_main_v25 (V0 : Valuation τ sig (Elt F)) :
    val2 V0 (no_index (Proc.devRef .tc main_v25)) = res_main_v25 (V0 (Proc.devRef .tc main_arg0)) (V0 (Proc.devRef .tc main_arg1)) (V0 (Proc.devRef .tc main_arg2)) (V0 (Proc.devRef .tc main_arg3)) := by
  unfold val2
  simp only [ops_c1]
  after_results_simp
  simp only [val1_main_v24, val1_main_arg1] <;> rfl

set_option maxRecDepth 8192 in
set_option maxHeartbeats 2000000 in
theorem val2_main_v46 (V0 : Valuation τ sig (Elt F)) :
    val2 V0 (no_index (Proc.devRef .tc main_v46)) = res_main_v46 (V0 (Proc.devRef .tc main_arg0)) (V0 (Proc.devRef .tc main_arg1)) (V0 (Proc.devRef .tc main_arg2)) (V0 (Proc.devRef .tc main_arg3)) := by
  unfold val2
  simp only [ops_c1]
  after_results_simp
  simp only [val1_main_arg1] <;> rfl

set_option maxRecDepth 8192 in
set_option maxHeartbeats 2000000 in
theorem val2_main_v47 (V0 : Valuation τ sig (Elt F)) :
    val2 V0 (no_index (Proc.devRef .tc main_v47)) = res_main_v47 (V0 (Proc.devRef .tc main_arg0)) (V0 (Proc.devRef .tc main_arg1)) (V0 (Proc.devRef .tc main_arg2)) (V0 (Proc.devRef .tc main_arg3)) := by
  unfold val2
  simp only [ops_c1]
  after_results_simp
  simp only [val1_main_arg1] <;> rfl

set_option maxRecDepth 8192 in
set_option maxHeartbeats 2000000 in
theorem val2_main_v48 (V0 : Valuation τ sig (Elt F)) :
    val2 V0 (no_index (Proc.devRef .tc main_v48)) = res_main_v48 (V0 (Proc.devRef .tc main_arg0)) (V0 (Proc.devRef .tc main_arg1)) (V0 (Proc.devRef .tc main_arg2)) (V0 (Proc.devRef .tc main_arg3)) := by
  unfold val2
  simp only [ops_c1]
  after_results_simp
  simp only [val1_main_arg1] <;> rfl

set_option maxRecDepth 8192 in
set_option maxHeartbeats 2000000 in
theorem val2_main_v49 (V0 : Valuation τ sig (Elt F)) :
    val2 V0 (no_index (Proc.devRef .tc main_v49)) = res_main_v49 (V0 (Proc.devRef .tc main_arg0)) (V0 (Proc.devRef .tc main_arg1)) (V0 (Proc.devRef .tc main_arg2)) (V0 (Proc.devRef .tc main_arg3)) := by
  unfold val2
  simp only [ops_c1]
  after_results_simp
  simp only [val1_main_arg1] <;> rfl

theorem val2_main_v18 (V0 : Valuation τ sig (Elt F)) :
    val2 V0 (no_index (Proc.devRef .tc main_v18)) = res_main_v18 (V0 (Proc.devRef .tc main_arg0)) (V0 (Proc.devRef .tc main_arg1)) (V0 (Proc.devRef .tc main_arg2)) (V0 (Proc.devRef .tc main_arg3)) :=
  (val2_keep V0 main_v18 (by decide)).trans (val1_main_v18 V0)
theorem val2_main_arg3 (V0 : Valuation τ sig (Elt F)) :
    val2 V0 (no_index (Proc.devRef .tc main_arg3)) = V0 (Proc.devRef .tc main_arg3) :=
  (val2_keep V0 main_arg3 (by decide)).trans (val1_main_arg3 V0)

/-! ### The third list: the query boxes as corners (a concatenate of the four coordinates), and the target boxes' four -/

set_option maxRecDepth 8192 in
set_option maxHeartbeats 2000000 in
theorem val3_main_v51 (V0 : Valuation τ sig (Elt F)) :
    val3 V0 (no_index (Proc.devRef .tc main_v51)) = res_main_v51 (V0 (Proc.devRef .tc main_arg0)) (V0 (Proc.devRef .tc main_arg1)) (V0 (Proc.devRef .tc main_arg2)) (V0 (Proc.devRef .tc main_arg3)) := by
  unfold val3
  simp only [ops_c2]
  after_results
  simp only [val2_main_v46, val2_main_v47, val2_main_v48, val2_main_v49] <;> rfl

set_option maxRecDepth 8192 in
set_option maxHeartbeats 2000000 in
theorem val3_main_v72 (V0 : Valuation τ sig (Elt F)) :
    val3 V0 (no_index (Proc.devRef .tc main_v72)) = res_main_v72 (V0 (Proc.devRef .tc main_arg0)) (V0 (Proc.devRef .tc main_arg1)) (V0 (Proc.devRef .tc main_arg2)) (V0 (Proc.devRef .tc main_arg3)) := by
  unfold val3
  simp only [ops_c2]
  after_results_simp
  simp only [val2_main_arg3] <;> rfl

set_option maxRecDepth 8192 in
set_option maxHeartbeats 2000000 in
theorem val3_main_v73 (V0 : Valuation τ sig (Elt F)) :
    val3 V0 (no_index (Proc.devRef .tc main_v73)) = res_main_v73 (V0 (Proc.devRef .tc main_arg0)) (V0 (Proc.devRef .tc main_arg1)) (V0 (Proc.devRef .tc main_arg2)) (V0 (Proc.devRef .tc main_arg3)) := by
  unfold val3
  simp only [ops_c2]
  after_results_simp
  simp only [val2_main_arg3] <;> rfl

set_option maxRecDepth 8192 in
set_option maxHeartbeats 2000000 in
theorem val3_main_v74 (V0 : Valuation τ sig (Elt F)) :
    val3 V0 (no_index (Proc.devRef .tc main_v74)) = res_main_v74 (V0 (Proc.devRef .tc main_arg0)) (V0 (Proc.devRef .tc main_arg1)) (V0 (Proc.devRef .tc main_arg2)) (V0 (Proc.devRef .tc main_arg3)) := by
  unfold val3
  simp only [ops_c2]
  after_results_simp
  simp only [val2_main_arg3] <;> rfl

set_option maxRecDepth 8192 in
set_option maxHeartbeats 2000000 in
theorem val3_main_v75 (V0 : Valuation τ sig (Elt F)) :
    val3 V0 (no_index (Proc.devRef .tc main_v75)) = res_main_v75 (V0 (Proc.devRef .tc main_arg0)) (V0 (Proc.devRef .tc main_arg1)) (V0 (Proc.devRef .tc main_arg2)) (V0 (Proc.devRef .tc main_arg3)) := by
  unfold val3
  simp only [ops_c2]
  after_results_simp
  simp only [val2_main_arg3] <;> rfl

theorem val3_main_v18 (V0 : Valuation τ sig (Elt F)) :
    val3 V0 (no_index (Proc.devRef .tc main_v18)) = res_main_v18 (V0 (Proc.devRef .tc main_arg0)) (V0 (Proc.devRef .tc main_arg1)) (V0 (Proc.devRef .tc main_arg2)) (V0 (Proc.devRef .tc main_arg3)) :=
  (val3_keep V0 main_v18 (by decide)).trans (val2_main_v18 V0)
theorem val3_main_v25 (V0 : Valuation τ sig (Elt F)) :
    val3 V0 (no_index (Proc.devRef .tc main_v25)) = res_main_v25 (V0 (Proc.devRef .tc main_arg0)) (V0 (Proc.devRef .tc main_arg1)) (V0 (Proc.devRef .tc main_arg2)) (V0 (Proc.devRef .tc main_arg3)) :=
  (val3_keep V0 main_v25 (by decide)).trans (val2_main_v25 V0)

/-! ### The fourth list: the target boxes as corners (the second concatenate), the two areas, and the first of the pairwise corners -/

set_option maxRecDepth 8192 in
set_option maxHeartbeats 2000000 in
theorem val4_main_v77 (V0 : Valuation τ sig (Elt F)) :
    val4 V0 (no_index (Proc.devRef .tc main_v77)) = res_main_v77 (V0 (Proc.devRef .tc main_arg0)) (V0 (Proc.devRef .tc main_arg1)) (V0 (Proc.devRef .tc main_arg2)) (V0 (Proc.devRef .tc main_arg3)) := by
  unfold val4
  simp only [ops_c3]
  after_results
  simp only [val3_main_v72, val3_main_v73, val3_main_v74, val3_main_v75] <;> rfl

set_option maxRecDepth 8192 in
set_option maxHeartbeats 4000000 in
theorem val4_main_v88 (V0 : Valuation τ sig (Elt F)) :
    val4 V0 (no_index (Proc.devRef .tc main_v88)) = res_main_v88 (V0 (Proc.devRef .tc main_arg0)) (V0 (Proc.devRef .tc main_arg1)) (V0 (Proc.devRef .tc main_arg2)) (V0 (Proc.devRef .tc main_arg3)) := by
  unfold val4
  simp only [ops_c3]
  after_results_simp
  simp only [val3_main_v51] <;> rfl

set_option maxRecDepth 8192 in
set_option maxHeartbeats 4000000 in
theorem val4_main_v99 (V0 : Valuation τ sig (Elt F)) :
    val4 V0 (no_index (Proc.devRef .tc main_v99)) = res_main_v99 (V0 (Proc.devRef .tc main_arg0)) (V0 (Proc.devRef .tc main_arg1)) (V0 (Proc.devRef .tc main_arg2)) (V0 (Proc.devRef .tc main_arg3)) := by
  unfold val4
  simp only [ops_c3]
  after_results
  simp only [val3_main_v72, val3_main_v73, val3_main_v74, val3_main_v75] <;> rfl

set_option maxRecDepth 8192 in
set_option maxHeartbeats 4000000 in
theorem val4_main_v104 (V0 : Valuation τ sig (Elt F)) :
    val4 V0 (no_index (Proc.devRef .tc main_v104)) = res_main_v104 (V0 (Proc.devRef .tc main_arg0)) (V0 (Proc.devRef .tc main_arg1)) (V0 (Proc.devRef .tc main_arg2)) (V0 (Proc.devRef .tc main_arg3)) := by
  unfold val4
  simp only [ops_c3]
  after_results_simp
  simp only [val3_main_v51, val3_main_v72, val3_main_v73, val3_main_v74, val3_main_v75] <;> rfl

set_option maxRecDepth 8192 in
set_option maxHeartbeats 4000000 in
theorem val4_main_v105 (V0 : Valuation τ sig (Elt F)) :
    val4 V0 (no_index (Proc.devRef .tc main_v105)) = res_main_v105 (V0 (Proc.devRef .tc main_arg0)) (V0 (Proc.devRef .tc main_arg1)) (V0 (Proc.devRef .tc main_arg2)) (V0 (Proc.devRef .tc main_arg3)) := by
  unfold val4
  simp only [ops_c3]
  after_results_simp
  simp only [val3_main_v51] <;> rfl

theorem val4_main_v51 (V0 : Valuation τ sig (Elt F)) :
    val4 V0 (no_index (Proc.devRef .tc main_v51)) = res_main_v51 (V0 (Proc.devRef .tc main_arg0)) (V0 (Proc.devRef .tc main_arg1)) (V0 (Proc.devRef .tc main_arg2)) (V0 (Proc.devRef .tc main_arg3)) :=
  (val4_keep V0 main_v51 (by decide)).trans (val3_main_v51 V0)
theorem val4_main_v18 (V0 : Valuation τ sig (Elt F)) :
    val4 V0 (no_index (Proc.devRef .tc main_v18)) = res_main_v18 (V0 (Proc.devRef .tc main_arg0)) (V0 (Proc.devRef .tc main_arg1)) (V0 (Proc.devRef .tc main_arg2)) (V0 (Proc.devRef .tc main_arg3)) :=
  (val4_keep V0 main_v18 (by decide)).trans (val3_main_v18 V0)
theorem val4_main_v25 (V0 : Valuation τ sig (Elt F)) :
    val4 V0 (no_index (Proc.devRef .tc main_v25)) = res_main_v25 (V0 (Proc.devRef .tc main_arg0)) (V0 (Proc.devRef .tc main_arg1)) (V0 (Proc.devRef .tc main_arg2)) (V0 (Proc.devRef .tc main_arg3)) :=
  (val4_keep V0 main_v25 (by decide)).trans (val3_main_v25 V0)

/-! ### The fifth list: the intersection (the first `clip`), its area, the union and the IoU, and the first of the hull's corners -/

set_option maxRecDepth 8192 in
set_option maxHeartbeats 4000000 in
theorem val5_main_v120 (V0 : Valuation τ sig (Elt F)) :
    val5 V0 (no_index (Proc.devRef .tc main_v120)) = res_main_v120 (V0 (Proc.devRef .tc main_arg0)) (V0 (Proc.devRef .tc main_arg1)) (V0 (Proc.devRef .tc main_arg2)) (V0 (Proc.devRef .tc main_arg3)) := by
  unfold val5
  simp only [ops_c4]
  after_results_simp
  simp only [val4_main_v77, val4_main_v88, val4_main_v99, val4_main_v104, val4_main_v105] <;> rfl

set_option maxRecDepth 8192 in
set_option maxHeartbeats 4000000 in
theorem val5_main_v121 (V0 : Valuation τ sig (Elt F)) :
    val5 V0 (no_index (Proc.devRef .tc main_v121)) = res_main_v121 (V0 (Proc.devRef .tc main_arg0)) (V0 (Proc.devRef .tc main_arg1)) (V0 (Proc.devRef .tc main_arg2)) (V0 (Proc.devRef .tc main_arg3)) := by
  unfold val5
  simp only [ops_c4]
  after_results_simp
  simp only [val4_main_v77, val4_main_v88, val4_main_v99, val4_main_v104, val4_main_v105] <;> rfl

set_option maxRecDepth 8192 in
set_option maxHeartbeats 4000000 in
theorem val5_main_v126 (V0 : Valuation τ sig (Elt F)) :
    val5 V0 (no_index (Proc.devRef .tc main_v126)) = res_main_v126 (V0 (Proc.devRef .tc main_arg0)) (V0 (Proc.devRef .tc main_arg1)) (V0 (Proc.devRef .tc main_arg2)) (V0 (Proc.devRef .tc main_arg3)) := by
  unfold val5
  simp only [ops_c4]
  after_results_simp
  simp only [val4_main_v51, val4_main_v77] <;> rfl

set_option maxRecDepth 8192 in
set_option maxHeartbeats 4000000 in
theorem val5_main_v127 (V0 : Valuation τ sig (Elt F)) :
    val5 V0 (no_index (Proc.devRef .tc main_v127)) = res_main_v127 (V0 (Proc.devRef .tc main_arg0)) (V0 (Proc.devRef .tc main_arg1)) (V0 (Proc.devRef .tc main_arg2)) (V0 (Proc.devRef .tc main_arg3)) := by
  unfold val5
  simp only [ops_c4]
  after_results_simp
  simp only [val4_main_v51] <;> rfl

theorem val5_main_v77 (V0 : Valuation τ sig (Elt F)) :
    val5 V0 (no_index (Proc.devRef .tc main_v77)) = res_main_v77 (V0 (Proc.devRef .tc main_arg0)) (V0 (Proc.devRef .tc main_arg1)) (V0 (Proc.devRef .tc main_arg2)) (V0 (Proc.devRef .tc main_arg3)) :=
  (val5_keep V0 main_v77 (by decide)).trans (val4_main_v77 V0)
theorem val5_main_v18 (V0 : Valuation τ sig (Elt F)) :
    val5 V0 (no_index (Proc.devRef .tc main_v18)) = res_main_v18 (V0 (Proc.devRef .tc main_arg0)) (V0 (Proc.devRef .tc main_arg1)) (V0 (Proc.devRef .tc main_arg2)) (V0 (Proc.devRef .tc main_arg3)) :=
  (val5_keep V0 main_v18 (by decide)).trans (val4_main_v18 V0)
theorem val5_main_v25 (V0 : Valuation τ sig (Elt F)) :
    val5 V0 (no_index (Proc.devRef .tc main_v25)) = res_main_v25 (V0 (Proc.devRef .tc main_arg0)) (V0 (Proc.devRef .tc main_arg1)) (V0 (Proc.devRef .tc main_arg2)) (V0 (Proc.devRef .tc main_arg3)) :=
  (val5_keep V0 main_v25 (by decide)).trans (val4_main_v25 V0)

/-! ### The sixth list: the hull (the second `clip`), its area, the GIoU, and the weighted class and box costs -/

set_option maxRecDepth 8192 in
set_option maxHeartbeats 4000000 in
theorem val6_main_v146 (V0 : Valuation τ sig (Elt F)) :
    val6 V0 (no_index (Proc.devRef .tc main_v146)) = res_main_v146 (V0 (Proc.devRef .tc main_arg0)) (V0 (Proc.devRef .tc main_arg1)) (V0 (Proc.devRef .tc main_arg2)) (V0 (Proc.devRef .tc main_arg3)) := by
  unfold val6
  simp only [ops_c5]
  after_results_simp
  simp only [val5_main_v18, val5_main_v25] <;> rfl

set_option maxRecDepth 8192 in
set_option maxHeartbeats 4000000 in
theorem val6_main_v147 (V0 : Valuation τ sig (Elt F)) :
    val6 V0 (no_index (Proc.devRef .tc main_v147)) = res_main_v147 (V0 (Proc.devRef .tc main_arg0)) (V0 (Proc.devRef .tc main_arg1)) (V0 (Proc.devRef .tc main_arg2)) (V0 (Proc.devRef .tc main_arg3)) := by
  unfold val6
  simp only [ops_c5]
  after_results_simp
  simp only [val5_main_v77, val5_main_v120, val5_main_v121, val5_main_v126, val5_main_v127] <;> rfl

/-! ### The seventh list: the weighted sum, and `nan_to_num` with its three selects -/

set_option maxRecDepth 8192 in
set_option maxHeartbeats 4000000 in
theorem val7_main_v151 (V0 : Valuation τ sig (Elt F)) :
    val7 V0 (no_index (Proc.devRef .tc main_v151)) = res_main_v151 (V0 (Proc.devRef .tc main_arg0)) (V0 (Proc.devRef .tc main_arg1)) (V0 (Proc.devRef .tc main_arg2)) (V0 (Proc.devRef .tc main_arg3)) := by
  unfold val7
  simp only [ops_c6]
  after_results_simp
  simp only [val6_main_v146, val6_main_v147] <;> rfl

/-! ## The run -/

set_option maxRecDepth 8192 in
/-- On every device, for any float values, from any memory with zero counters: every weakly fair execution of the reference's
    @main terminates with the result buffer at `res_main_v151` of the four argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151) = res_main_v151 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v151).trans (by simp only [after_ops]; exact val7_main_v151 (launchContents m c)),
       (h c main_arg0).trans (by
          simp only [after_ops]
          exact val7_of_not_written (launchContents m c) main_arg0 (by decide) (by decide) (by decide) (by decide) (by decide) (by decide) (by decide)),
       (h c main_arg1).trans (by
          simp only [after_ops]
          exact val7_of_not_written (launchContents m c) main_arg1 (by decide) (by decide) (by decide) (by decide) (by decide) (by decide) (by decide)),
       (h c main_arg2).trans (by
          simp only [after_ops]
          exact val7_of_not_written (launchContents m c) main_arg2 (by decide) (by decide) (by decide) (by decide) (by decide) (by decide) (by decide)),
       (h c main_arg3).trans (by
          simp only [after_ops]
          exact val7_of_not_written (launchContents m c) main_arg3 (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.LibGatherBatchedLast.lean ====
/-
  `stablehlo.gather` of a [B, Q, C] operand at [B, T, 1] start indices: batched on axis 0 of both, the start
  index naming the operand's last axis (collapsed, slice size 1), the middle axis taken whole as the result's one
  offset axis (slice sizes [1, Q, 1], offset_dims [1], index_vector_dim 2). It is what picking, for every batch b
  and every row q, the entries of row (b, q, ·) at the positions idx[b, ·] lowers to. Result element (b, q, t) is
  the operand at (b, q, idx[b, t, 0]), the start index read as a signed integer and clamped into [0, C − 1].
-/
import Idealize.ShloMosaic.Lib.ValueIdx

namespace Cert.LibGatherBatchedLast

open Idealize.ShloMosaic Idealize.ShloMosaic.ValueIdx

variable {α : Type}

/-- Two indices with different values: the one is not in the other's singleton list. -/
private theorem not_mem_singleton_of_val_ne {n : Nat} {a c : Fin n} (h : a.val ≠ c.val) : a ∉ [c] :=
  fun hm => h (congrArg Fin.val (List.mem_singleton.1 hm))

/-- Those dimension numbers for an operand [B, Q, C], start indices [B, T, 1] and result [B, Q, T]; the conditions
    `wf` are decided on a program's literal shapes. -/
abbrev rowDims (B Q C T : Nat)
    (wf : GatherDims.WF ⟨3, ![B, Q, C]⟩ ⟨3, ![B, T, 1]⟩ ⟨3, ![B, Q, T]⟩ [1] [2] [0] [2] [0] 2 ![1, Q, 1]) :
    GatherDims ⟨3, ![B, Q, C]⟩ ⟨3, ![B, T, 1]⟩ ⟨3, ![B, Q, T]⟩ where
  offsetDims := [1]
  collapsedSliceDims := [2]
  operandBatchingDims := [0]
  startIndicesBatchingDims := [0]
  startIndexMap := [2]
  indexVectorDim := 2
  sliceSizes := ![1, Q, 1]
  wf := wf

/-- THE GATHER READ AT (b, q, t): the operand at (b, q, idx[b, t, 0]), the start index read signed and clamped
    into [0, C − 1]. -/
theorem gather_rowDims_apply {B Q C T w : Nat} (hC : 0 < C)
    (wf : GatherDims.WF ⟨3, ![B, Q, C]⟩ ⟨3, ![B, T, 1]⟩ ⟨3, ![B, Q, T]⟩ [1] [2] [0] [2] [0] 2 ![1, Q, 1])
    (x : (⟨3, ![B, Q, C]⟩ : Shape).Idx → α) (idx : IVec ⟨3, ![B, T, 1]⟩ w) (b : Fin B) (q : Fin Q) (t : Fin T) :
    Host.gather (rowDims B Q C T wf) x idx (ix3 b q t)
      = x (ix3 b q ⟨min (idx (ix3 b t (0 : Fin 1))).toInt.toNat (C - 1), by omega⟩) := by
  unfold Host.gather
  congr 1
  funext a
  refine Fin.ext ?_
  show (rowDims B Q C T wf).start (ix3 b q t) idx a + (rowDims B Q C T wf).batchCoord (ix3 b q t) a
    + (rowDims B Q C T wf).offCoord (ix3 b q t) a = _
  match a with
  | ⟨0, h0⟩ =>
    -- the batching axis: no start, no offset, the result's batch coordinate b
    have hb : (⟨0, h0⟩ : Fin 3) ∈ (rowDims B Q C T wf).operandBatchingDims := List.mem_singleton.mpr rfl
    rw [GatherDims.start_batching _ _ _ _ hb,
      GatherDims.offCoord_eq_zero _ _ _ (fun h => ((GatherDims.mem_sKept _ _).1 h).2 hb), Nat.zero_add, Nat.add_zero]
    unfold GatherDims.batchCoord
    rw [dif_pos hb]
    rfl
  | ⟨1, h1⟩ =>
    -- the row axis, taken whole: the result's offset coordinate q
    have hb : (⟨1, h1⟩ : Fin 3) ∉ (rowDims B Q C T wf).operandBatchingDims :=
      not_mem_singleton_of_val_ne (show (1 : Nat) ≠ 0 by decide)
    have hm : (⟨1, h1⟩ : Fin 3) ∉ (rowDims B Q C T wf).startIndexMap :=
      not_mem_singleton_of_val_ne (show (1 : Nat) ≠ 2 by decide)
    have hk : (⟨1, h1⟩ : Fin 3) ∈ (rowDims B Q C T wf).sKept :=
      (GatherDims.mem_sKept _ _).2 ⟨not_mem_singleton_of_val_ne (show (1 : Nat) ≠ 2 by decide), hb⟩
    rw [GatherDims.batchCoord_eq_zero _ _ _ hb, Nat.add_zero]
    unfold GatherDims.start GatherDims.offCoord
    rw [dif_neg hm, dif_pos hk, Nat.zero_add]
    rfl
  | ⟨2, h2⟩ =>
    -- the class axis: collapsed, the clamped start index alone
    have hb : (⟨2, h2⟩ : Fin 3) ∉ (rowDims B Q C T wf).operandBatchingDims :=
      not_mem_singleton_of_val_ne (show (2 : Nat) ≠ 0 by decide)
    have hm : (⟨2, h2⟩ : Fin 3) ∈ (rowDims B Q C T wf).startIndexMap := List.mem_singleton.mpr rfl
    have hk : (⟨2, h2⟩ : Fin 3) ∉ (rowDims B Q C T wf).sKept :=
      fun h => ((GatherDims.mem_sKept _ _).1 h).1 (List.mem_singleton.mpr rfl)
    rw [GatherDims.batchCoord_eq_zero _ _ _ hb, GatherDims.offCoord_eq_zero _ _ _ hk]
    show (rowDims B Q C T wf).start (ix3 b q t) idx ⟨2, h2⟩ = _
    unfold GatherDims.start
    rw [dif_pos hm]
    have hsi : (rowDims B Q C T wf).siIdx (ix3 b q t) ⟨List.idxOf (⟨2, h2⟩ : Fin 3) (rowDims B Q C T wf).startIndexMap,
        List.idxOf_lt_length_iff.2 hm⟩ = ix3 b t (0 : Fin 1) := by
      funext c; refine Fin.ext ?_
      match c with
      | ⟨0, _⟩ => rfl
      | ⟨1, _⟩ => rfl
      | ⟨2, _⟩ => rfl
    rw [hsi]
    rfl

end Cert.LibGatherBatchedLast
-- ==== Proof.RefClass.lean ====
/-
  The reference's class cost read at an index.

  The reference takes the softmax of the logits along the class axis — the row's maximum (a reduce with a
  maximum body from −∞, then one more maximum with −∞, which changes nothing), the shifted exponentials, their sum
  (a reduce with an add body from 0), the quotient —, wraps the labels (l < 0 ? l + 256 : l, the identity on a label in
  [0, 256)), gathers for every (batch b, query q, target t) the probability p[b, q, label[b, t]] and negates it.
  Each operation is read at explicit coordinates; the result at (b, q, t) is minus the specification's
  `prob` of row (b, q) at the target's label.
-/
import proofs.«412448_j60825326846459_2_alg».proof.Proof.Gen.ReferenceIdeal
import proofs.«412448_j60825326846459_2_alg».proof.Proof.CostSpec
import proofs.«412448_j60825326846459_2_alg».proof.Proof.RefTerms
import proofs.«412448_j60825326846459_2_alg».proof.Proof.LibGatherBatchedLast
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

namespace Cert.ReferenceIdeal.RefClass

open Cert.ReferenceIdeal Cert.ReferenceIdeal.Gen Idealize.ShloMosaic Idealize.ShloMosaic.ValueIdx

/-! ## Broadcasts read at explicit coordinates -/

section Layout
variable {α : Type}

/-- A scalar broadcast to [64, 900] reads the scalar. -/
theorem bcast_scalar_S64x900 (x : S_.Idx → α) (b : Fin 64) (q : Fin 900) :
    broadcastInDim S64x900 ![] bcast_S_S64x900 x (ix2 b q) = x ix0 :=
  broadcastInDim_scalar_apply _ x _

/-- A scalar broadcast to [64, 256] reads the scalar. -/
theorem bcast_scalar_S64x256 (x : S_.Idx → α) (b : Fin 64) (t : Fin 256) :
    broadcastInDim S64x256 ![] bcast_S_S64x256 x (ix2 b t) = x ix0 :=
  broadcastInDim_scalar_apply _ x _

/-- [64, 900] with a unit axis appended reads the same (b, q). -/
theorem bcast_S64x900_unit (x : S64x900.Idx → α) (b : Fin 64) (q : Fin 900) (z : Fin 1) :
    broadcastInDim S64x900x1 ![0, 1] bcast_S64x900_S64x900x1_0_1 x (ix3 b q z) = x (ix2 b q) := by
  refine broadcastInDim_apply _ _ x _ (ix2 b q) fun a => ?_
  match a with
  | ⟨0, _⟩ => rfl
  | ⟨1, _⟩ => rfl

/-- [64, 900, 1] broadcast along its unit axis to [64, 900, 256] reads (b, q, 0). -/
theorem bcast_S64x900x1_row (x : S64x900x1.Idx → α) (b : Fin 64) (q : Fin 900) (c : Fin 256) :
    broadcastInDim S64x900x256 ![0, 1, 2] bcast_S64x900x1_S64x900x256_0_1_2 x (ix3 b q c) = x (ix3 b q (0 : Fin 1)) := by
  refine broadcastInDim_apply _ _ x _ (ix3 b q (0 : Fin 1)) fun a => ?_
  match a with
  | ⟨0, _⟩ => rfl
  | ⟨1, _⟩ => rfl
  | ⟨2, _⟩ => rfl

/-- [64, 256] with a unit axis appended reads the same (b, t). -/
theorem bcast_S64x256_unit (x : S64x256.Idx → α) (b : Fin 64) (t : Fin 256) (z : Fin 1) :
    broadcastInDim S64x256x1 ![0, 1] bcast_S64x256_S64x256x1_0_1 x (ix3 b t z) = x (ix2 b t) := by
  refine broadcastInDim_apply _ _ x _ (ix2 b t) fun a => ?_
  match a with
  | ⟨0, _⟩ => rfl
  | ⟨1, _⟩ => rfl

end Layout

/-! ## The two reductions over the class axis -/

/-- The reduced index (b, q) with class coordinate `k` put back is (b, q, k). -/
theorem lift_row (h : S64x900x256.Reduces [2] S64x900) (b : Fin 64) (q : Fin 900) (k : Fin (S64x900x256.size 2)) :
    h.lift (ix2 b q) k = ix3 b q (⟨k.val, k.isLt⟩ : Fin 256) := by
  funext c; apply Fin.ext
  fin_cases c <;> rfl

/-- From −∞ the reduce with a maximum body over the class axis, at (b, q), is the row's maximum. -/
theorem hostReduce_max_row (x : FVec Ideal S64x900x256 .f32) (b : Fin 64) (q : Fin 900) :
    Host.reduce FloatOps.maximumf x (constant (F := Ideal) S_ .f32 0xFF800000#32) reducesTo_S64x900x256_S64x900_d2 h_S_ (ix2 b q)
      = Cert.CostSpec.rowMax (fun c => x (ix3 b q c)) := by
  have h : S64x900x256.Reduces [2] S64x900 := by decide
  rw [Host.reduce_eq_fold_single FloatOps.maximumf x _ reducesTo_S64x900x256_S64x900_d2 h h_S_]
  have hf : (x ∘ h.lift (ix2 b q)) = fun k : Fin 256 => x (ix3 b q k) := funext fun k => congrArg x (lift_row h b q k)
  unfold Cert.CostSpec.rowMax Cert.CostSpec.ninf
  exact congrArg (fun f => Finset.fold max (Ideal.ofBits .f32 0xFF800000#32) f (Finset.univ : Finset (Fin 256))) hf

/-- From 0 the reduce with an add body over the class axis, at (b, q), is the row's sum. -/
theorem hostReduceAdd_row (x : FVec Ideal S64x900x256 .f32) (b : Fin 64) (q : Fin 900) :
    Host.reduceAdd x (constant (F := Ideal) S_ .f32 0x00000000#32) reducesTo_S64x900x256_S64x900_d2 h_S_ (ix2 b q)
      = ∑ k : Fin 256, x (ix3 b q k) := by
  have h : S64x900x256.Reduces [2] S64x900 := by decide
  rw [hostReduceAdd_apply, Ideal.hostReduceAdd_single _ h, constant_apply, Ideal.ofBits_zero_f32, zero_add]
  exact Fintype.sum_congr _ _ fun k => congrArg x (lift_row h b q k)

/-! ## The label wrap -/

/-- A label below 256 is not negative as a signed word, so the wrap `l < 0 ? l + 256 : l` leaves it. -/
theorem label_wrap (l y : BitVec 32) (hl : l.toNat < 256) :
    Scalar.select (IntOp.cmpi .slt l 0#32) y l = l := by
  have hs : l.slt 0#32 = false := by
    have h1 : l.toInt = (l.toNat : Int) := by
      rw [BitVec.toInt_eq_toNat_cond]; rw [if_pos (by omega)]
    simp only [BitVec.slt, h1, BitVec.toInt_zero]
    exact decide_eq_false (by omega)
  have hc : IntOp.cmpi .slt l 0#32 = 0#1 := by
    show BitVec.ofBool (l.slt 0#32) = 0#1
    rw [hs]; rfl
  rw [hc]; exact select_zero _ _

/-- Such a label read signed is itself, inside [0, 255]: the clamp of the gather leaves it. -/
theorem label_clamp (l : BitVec 32) (hl : l.toNat < 256) : min l.toInt.toNat 255 = l.toNat := by
  have h1 : l.toInt = (l.toNat : Int) := by
    rw [BitVec.toInt_eq_toNat_cond]; rw [if_pos (by omega)]
  rw [h1, Int.toNat_natCast]; omega

/-! ## Pointwise operations of the host read at an index (each by unfolding the definition, over any vector) -/

section Pointwise
variable {s : Shape}

theorem hostExp_apply (x : FVec Ideal s .f32) (i : s.Idx) : Host.exp x i = Ideal.exp (x i) := rfl

theorem hostNegf_apply (x : FVec Ideal s .f32) (i : s.Idx) : Host.negf x i = -(x i) := rfl

theorem cmpi_apply {w : Nat} (p : CmpIPredicate) (x y : IVec s w) (i : s.Idx) : cmpi p x y i = IntOp.cmpi p (x i) (y i) := rfl

theorem constantI_apply {w : Nat} (v : BitVec w) (i : s.Idx) : constantI s w v i = v := rfl

/-- −∞ is the bottom element: a maximum with it on the left is the other operand. -/
theorem max_ninf_left (r : Ideal .f32) : max (Ideal.ofBits .f32 0xFF800000#32) r = r :=
  (congrArg (fun m => max m r) Cert.CostSpec.ninf_eq).trans (max_bot_left r)

end Pointwise

/-! ## The reference's class cost, operation by operation -/

section Chain
open Cert.ReferenceIdeal.RefRun

variable (a0 : FVec Ideal S64x900x256 .f32) (a1 : FVec Ideal S64x900x4 .f32) (a2 : IVec S64x256 32)
  (a3 : FVec Ideal S64x256x4 .f32)

/-- The reduce-max of the logits at (b, q) is the row's maximum. -/
theorem v0_apply (b : Fin 64) (q : Fin 900) :
    res_main_v0 (F := Ideal) a0 a1 a2 a3 (ix2 b q) = Cert.CostSpec.rowMax (fun c => a0 (ix3 b q c)) := by
  unfold res_main_v0 res_main_cst
  exact hostReduce_max_row a0 b q

/-- The further maximum with −∞ changes nothing. -/
theorem v2_apply (b : Fin 64) (q : Fin 900) :
    res_main_v2 (F := Ideal) a0 a1 a2 a3 (ix2 b q) = Cert.CostSpec.rowMax (fun c => a0 (ix3 b q c)) := by
  unfold res_main_v2
  refine (maximumf_apply _ _ _).trans ?_
  rw [v0_apply]
  unfold res_main_v1 res_main_cst_0
  rw [bcast_scalar_S64x900, constant_apply]
  exact max_ninf_left _

/-- The row's maximum broadcast back along the class axis. -/
theorem v4_apply (b : Fin 64) (q : Fin 900) (c : Fin 256) :
    res_main_v4 (F := Ideal) a0 a1 a2 a3 (ix3 b q c) = Cert.CostSpec.rowMax (fun c => a0 (ix3 b q c)) := by
  unfold res_main_v4
  refine (bcast_S64x900x1_row _ b q c).trans ?_
  unfold res_main_v3
  exact (bcast_S64x900_unit _ b q 0).trans (v2_apply a0 a1 a2 a3 b q)

/-- The exponential of the shifted logit. -/
theorem v6_apply (b : Fin 64) (q : Fin 900) (c : Fin 256) :
    res_main_v6 (F := Ideal) a0 a1 a2 a3 (ix3 b q c)
      = Ideal.exp (a0 (ix3 b q c) - Cert.CostSpec.rowMax (fun c => a0 (ix3 b q c))) := by
  unfold res_main_v6
  refine (hostExp_apply _ _).trans (congrArg Ideal.exp ?_)
  unfold res_main_v5
  refine (subf_apply _ _ _).trans ?_
  rw [v4_apply]

/-- The row's sum of exponentials. -/
theorem v7_apply (b : Fin 64) (q : Fin 900) :
    res_main_v7 (F := Ideal) a0 a1 a2 a3 (ix2 b q)
      = ∑ k : Fin 256, Ideal.exp (a0 (ix3 b q k) - Cert.CostSpec.rowMax (fun c => a0 (ix3 b q c))) := by
  unfold res_main_v7 res_main_cst_1
  refine (hostReduceAdd_row _ b q).trans ?_
  exact Fintype.sum_congr _ _ fun k => v6_apply a0 a1 a2 a3 b q k

/-- The sum broadcast back along the class axis. -/
theorem v9_apply (b : Fin 64) (q : Fin 900) (c : Fin 256) :
    res_main_v9 (F := Ideal) a0 a1 a2 a3 (ix3 b q c)
      = ∑ k : Fin 256, Ideal.exp (a0 (ix3 b q k) - Cert.CostSpec.rowMax (fun c => a0 (ix3 b q c))) := by
  unfold res_main_v9
  refine (bcast_S64x900x1_row _ b q c).trans ?_
  unfold res_main_v8
  exact (bcast_S64x900_unit _ b q 0).trans (v7_apply a0 a1 a2 a3 b q)

/-- The softmax entry is the specification's class probability. -/
theorem v10_apply (b : Fin 64) (q : Fin 900) (c : Fin 256) :
    res_main_v10 (F := Ideal) a0 a1 a2 a3 (ix3 b q c) = Cert.CostSpec.prob (fun c => a0 (ix3 b q c)) c := by
  unfold res_main_v10
  refine (hostDivf_apply _ _ _).trans ?_
  rw [v6_apply, v9_apply]
  simp only [Cert.CostSpec.prob]

/-- Under the range hypothesis the wrapped label is the label. -/
theorem v15_apply (hlab : ∀ j, (a2 j).toNat < 256) (b : Fin 64) (t : Fin 256) :
    res_main_v15 (F := Ideal) a0 a1 a2 a3 (ix2 b t) = a2 (ix2 b t) := by
  unfold res_main_v15
  refine (select_apply _ _ _ _).trans ?_
  have h12 : res_main_v12 (F := Ideal) a0 a1 a2 a3 (ix2 b t) = IntOp.cmpi .slt (a2 (ix2 b t)) 0#32 := by
    unfold res_main_v12
    refine (cmpi_apply _ _ _ _).trans (congrArg (IntOp.cmpi .slt (a2 (ix2 b t))) ?_)
    unfold res_main_v11 res_main_c
    exact (bcast_scalar_S64x256 _ b t).trans (constantI_apply _ _)
  rw [h12]
  exact label_wrap _ _ (hlab _)

/-- The start index the gather reads at (b, t, 0) is the label. -/
theorem v16_apply (hlab : ∀ j, (a2 j).toNat < 256) (b : Fin 64) (t : Fin 256) :
    res_main_v16 (F := Ideal) a0 a1 a2 a3 (ix3 b t (0 : Fin 1)) = a2 (ix2 b t) := by
  unfold res_main_v16
  exact (bcast_S64x256_unit _ b t 0).trans (v15_apply a0 a1 a2 a3 hlab b t)

/-- The gathered probability at (b, q, t) is the softmax entry at the target's label. -/
theorem v17_apply (hlab : ∀ j, (a2 j).toNat < 256) (b : Fin 64) (q : Fin 900) (t : Fin 256) :
    res_main_v17 (F := Ideal) a0 a1 a2 a3 (ix3 b q t)
      = Cert.CostSpec.prob (fun c => a0 (ix3 b q c)) (Cert.CostSpec.labelIdx (a2 (ix2 b t))) := by
  unfold res_main_v17
  refine (Cert.LibGatherBatchedLast.gather_rowDims_apply (by decide)
    gather_S64x900x256_S64x256x1_S64x900x256_1_2_0_0_2_2_19001_wf _ _ b q t).trans ?_
  refine (v10_apply a0 a1 a2 a3 b q _).trans (congrArg (Cert.CostSpec.prob fun c => a0 (ix3 b q c)) (Fin.ext ?_))
  refine (Fin.val_mk _).trans ?_
  rw [v16_apply a0 a1 a2 a3 hlab, label_clamp _ (hlab _)]
  exact (Nat.mod_eq_of_lt (hlab _)).symm

end Chain

/-- THE CLASS COST of the reference at (b, q, t): minus the softmax probability of the target's label. -/
theorem classCost_apply (a0 : FVec Ideal S64x900x256 .f32) (a1 : FVec Ideal S64x900x4 .f32) (a2 : IVec S64x256 32) (a3 : FVec Ideal S64x256x4 .f32)
    (hlab : ∀ j, (a2 j).toNat < 256) (b : Fin 64) (q : Fin 900) (t : Fin 256) :
    Cert.ReferenceIdeal.RefRun.res_main_v18 (F := Ideal) a0 a1 a2 a3 (ix3 b q t)
      = -(Cert.CostSpec.prob (fun c => a0 (ix3 b q c)) (Cert.CostSpec.labelIdx (a2 (ix2 b t)))) := by
  unfold Cert.ReferenceIdeal.RefRun.res_main_v18
  exact (hostNegf_apply _ _).trans (congrArg Neg.neg (v17_apply a0 a1 a2 a3 hlab b q t))

end Cert.ReferenceIdeal.RefClass

end
-- ==== Proof.RefBoxes.lean ====
/-
  The reference's L1 box cost and the corner boxes of the two box arrays, read at an index.

  For batch b, query q, target t the reference's L1 cost array holds
      ((|p₀ − t₀| + |p₁ − t₁|) + |p₂ − t₂|) + |p₃ − t₃|
  over the query box p = boxes[b,q,·] and the target box t = tboxes[b,t,·], and the corner arrays hold,
  for a box (cx, cy, w, h), the four numbers cx − ½w, cy − ½h, cx + ½w, cy + ½h in that order.

  Every step between the arguments and those arrays is either a pointwise operation, which reads at an
  index as the scalar operation, or a layout operation (a broadcast along new or unit axes, a unit slice of
  the last axis, a reshape that drops a trailing unit axis, a concatenation of four unit pieces along the
  last axis), which reads at an index as its operand at ONE index.  The first part states each layout
  operation as that one index equation over explicit coordinates; the second part walks the reference's
  definitions with them.
-/
import proofs.«412448_j60825326846459_2_alg».proof.Proof.Gen.ReferenceIdeal
import proofs.«412448_j60825326846459_2_alg».proof.Proof.RefTerms
import proofs.«412448_j60825326846459_2_alg».proof.Proof.CostSpec
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefBoxes

open Cert.ReferenceIdeal Cert.ReferenceIdeal.Gen Idealize.ShloMosaic Idealize.ShloMosaic.ValueIdx
open Cert.CostSpec

/-! ## Layout operations at an index -/

section Layout
variable {α : Type}

/-- A box array [m, n, 4] given a unit axis before its last: at (b, q, u, k) it reads (b, q, k). -/
theorem bcast_mid_unit_apply {m n : Nat} (h : (⟨3, ![m, n, 4]⟩ : Shape).BroadcastsInDim ⟨4, ![m, n, 1, 4]⟩ ![0, 1, 3])
    (x : (⟨3, ![m, n, 4]⟩ : Shape).Idx → α) (b : Fin m) (q : Fin n) (u : Fin 1) (k : Fin 4) :
    broadcastInDim ⟨4, ![m, n, 1, 4]⟩ ![0, 1, 3] h x (ix4 b q u k) = x (ix3 b q k) :=
  broadcastInDim_apply _ h x _ (ix3 b q k) (fun a => by
    match a with
    | ⟨0, _⟩ => show b.val = if m = 1 then 0 else b.val; split <;> omega
    | ⟨1, _⟩ => show q.val = if n = 1 then 0 else q.val; split <;> omega
    | ⟨2, _⟩ => rfl)

/-- A box array [m, n, 4] given a unit axis after its first: at (b, u, t, k) it reads (b, t, k). -/
theorem bcast_fst_unit_apply {m n : Nat} (h : (⟨3, ![m, n, 4]⟩ : Shape).BroadcastsInDim ⟨4, ![m, 1, n, 4]⟩ ![0, 2, 3])
    (x : (⟨3, ![m, n, 4]⟩ : Shape).Idx → α) (b : Fin m) (u : Fin 1) (t : Fin n) (k : Fin 4) :
    broadcastInDim ⟨4, ![m, 1, n, 4]⟩ ![0, 2, 3] h x (ix4 b u t k) = x (ix3 b t k) :=
  broadcastInDim_apply _ h x _ (ix3 b t k) (fun a => by
    match a with
    | ⟨0, _⟩ => show b.val = if m = 1 then 0 else b.val; split <;> omega
    | ⟨1, _⟩ => show t.val = if n = 1 then 0 else t.val; split <;> omega
    | ⟨2, _⟩ => rfl)

/-- The query boxes spread over the 256 targets: at (b, q, t, k) the operand at (b, q, 0, k). -/
theorem bcast_q_full_apply (h : S64x900x1x4.BroadcastsInDim S64x900x256x4 ![0, 1, 2, 3])
    (x : S64x900x1x4.Idx → α) (b : Fin 64) (q : Fin 900) (t : Fin 256) (k : Fin 4) :
    broadcastInDim S64x900x256x4 ![0, 1, 2, 3] h x (ix4 b q t k) = x (ix4 b q (0 : Fin 1) k) :=
  broadcastInDim_apply _ h x _ (ix4 b q (0 : Fin 1) k) (fun a => by
    match a with
    | ⟨0, _⟩ => rfl
    | ⟨1, _⟩ => rfl
    | ⟨2, _⟩ => rfl
    | ⟨3, _⟩ => rfl)

/-- The target boxes spread over the 900 queries: at (b, q, t, k) the operand at (b, 0, t, k). -/
theorem bcast_t_full_apply (h : S64x1x256x4.BroadcastsInDim S64x900x256x4 ![0, 1, 2, 3])
    (x : S64x1x256x4.Idx → α) (b : Fin 64) (q : Fin 900) (t : Fin 256) (k : Fin 4) :
    broadcastInDim S64x900x256x4 ![0, 1, 2, 3] h x (ix4 b q t k) = x (ix4 b (0 : Fin 1) t k) :=
  broadcastInDim_apply _ h x _ (ix4 b (0 : Fin 1) t k) (fun a => by
    match a with
    | ⟨0, _⟩ => rfl
    | ⟨1, _⟩ => rfl
    | ⟨2, _⟩ => rfl
    | ⟨3, _⟩ => rfl)

/-- The unit slice of the last axis at offset c: at (b, q, u) it reads (b, q, k) with k = c. -/
theorem slice_last_unit_apply {m n : Nat} (c : Nat) (x : (⟨3, ![m, n, 4]⟩ : Shape).Idx → α)
    (h : (⟨3, ![m, n, 4]⟩ : Shape).Slices ![0, 0, c] ⟨3, ![m, n, 1]⟩)
    (b : Fin m) (q : Fin n) (u : Fin 1) (k : Fin 4) (hk : k.val = c) :
    extractStridedSlice ⟨3, ![m, n, 1]⟩ ![0, 0, c] x h (ix3 b q u) = x (ix3 b q k) :=
  extractStridedSlice_apply _ _ _ _ _ (fun ax => by
    match ax with
    | ⟨0, _⟩ => exact (Nat.zero_add _).symm
    | ⟨1, _⟩ => exact (Nat.zero_add _).symm
    | ⟨2, _⟩ => show k.val = c + u.val; omega)

/-- Dropping a trailing unit axis: [m, n, 1] read as [m, n] at (b, q) is the operand at (b, q, 0). -/
theorem shapeCast_ab1_ab_apply {m n : Nat} (x : (⟨3, ![m, n, 1]⟩ : Shape).Idx → α)
    (h : (⟨3, ![m, n, 1]⟩ : Shape).ShapeCasts ⟨2, ![m, n]⟩) (b : Fin m) (q : Fin n) :
    shapeCast ⟨2, ![m, n]⟩ x h (ix2 b q) = x (ix3 b q (0 : Fin 1)) :=
  shapeCast_apply x h _ _ (by
    rw [Shape.rowMajor_val_three, Shape.rowMajor_val_two]
    show (b.val * n + q.val) * 1 + 0 = b.val * n + q.val
    omega)

/-- Adding a trailing unit axis by broadcast: [m, n] read as [m, n, 1] at (b, q, u) is the operand at (b, q). -/
theorem bcast_ab_ab1_apply {m n : Nat} (h : (⟨2, ![m, n]⟩ : Shape).BroadcastsInDim ⟨3, ![m, n, 1]⟩ ![0, 1])
    (x : (⟨2, ![m, n]⟩ : Shape).Idx → α) (b : Fin m) (q : Fin n) (u : Fin 1) :
    broadcastInDim ⟨3, ![m, n, 1]⟩ ![0, 1] h x (ix3 b q u) = x (ix2 b q) :=
  broadcastInDim_apply _ h x _ (ix2 b q) (fun a => by
    match a with
    | ⟨0, _⟩ => show b.val = if m = 1 then 0 else b.val; split <;> omega
    | ⟨1, _⟩ => show q.val = if n = 1 then 0 else q.val; split <;> omega)

/-- Four unit pieces laid along the last axis: at (b, q, k) the concatenation reads piece k at (b, q, 0). -/
theorem concat4_unit_apply {m n : Nat} (x0 x1 x2 x3 : (⟨3, ![m, n, 1]⟩ : Shape).Idx → α)
    (h : Shape.Concatenates
      (([⟨⟨3, ![m, n, 1]⟩, x0⟩, ⟨⟨3, ![m, n, 1]⟩, x1⟩, ⟨⟨3, ![m, n, 1]⟩, x2⟩, ⟨⟨3, ![m, n, 1]⟩, x3⟩] :
        List ((s : Shape) × (s.Idx → α))).map (·.1)) ⟨3, ![m, n, 4]⟩ 2)
    (b : Fin m) (q : Fin n) (k : Fin 4) :
    concatenate ⟨3, ![m, n, 4]⟩ 2
      [⟨⟨3, ![m, n, 1]⟩, x0⟩, ⟨⟨3, ![m, n, 1]⟩, x1⟩, ⟨⟨3, ![m, n, 1]⟩, x2⟩, ⟨⟨3, ![m, n, 1]⟩, x3⟩] h (ix3 b q k)
      = (![x0, x1, x2, x3] : Fin 4 → ((⟨3, ![m, n, 1]⟩ : Shape).Idx → α)) k (ix3 b q (0 : Fin 1)) :=
  concatenate_ofFn_unit_apply (t := ⟨3, ![m, n, 4]⟩) (s₁ := ⟨3, ![m, n, 1]⟩) 2
    (![x0, x1, x2, x3] : Fin 4 → ((⟨3, ![m, n, 1]⟩ : Shape).Idx → α)) h rfl rfl (ix3 b q k) k rfl
    (ix3 b q (0 : Fin 1)) (fun a ha => by
      match a with
      | ⟨0, _⟩ => rfl
      | ⟨1, _⟩ => rfl
      | ⟨2, _⟩ => exact absurd rfl ha)

end Layout

/-! ## The sum over the four coordinates, and the scalars -/

/-- The host's sum over the last axis of a [64, 900, 256, 4] array, at (b, q, t): the initial value plus the four
    entries added in coordinate order. -/
theorem reduce_last4_apply (h' : S64x900x256x4.ReducesTo [3] S64x900x256) (hu : 0 < S_.numel)
    (x : FVec Ideal S64x900x256x4 .f32) (init : FVec Ideal S_ .f32) (b : Fin 64) (q : Fin 900) (t : Fin 256) :
    Host.reduceAdd x init h' hu (ix3 b q t)
      = init (Shape.Idx.first hu)
        + (((x (ix4 b q t (0 : Fin 4)) + x (ix4 b q t (1 : Fin 4))) + x (ix4 b q t (2 : Fin 4))) + x (ix4 b q t (3 : Fin 4))) := by
  have h : S64x900x256x4.Reduces [3] S64x900x256 := by decide
  have e : ∀ k : Fin 4, h.lift (ix3 b q t) k = ix4 b q t k := fun k => funext fun a => Fin.ext (by
    match a with
    | ⟨0, _⟩ => rfl
    | ⟨1, _⟩ => rfl
    | ⟨2, _⟩ => rfl
    | ⟨3, _⟩ => rfl)
  rw [hostReduceAdd_apply, Ideal.hostReduceAdd_single h' h]
  show _ + ∑ k : Fin 4, x (h.lift (ix3 b q t) k) = _
  rw [Fin.sum_univ_four, e, e, e, e]

/-- The host's absolute value at an index is the specification's |·| of the entry. -/
theorem hostAbsf_apply {s : Shape} {φ : FTy} (x : FVec Ideal s φ) (i : s.Idx) : Host.absf x i = absE (x i) := rfl

/-- The scalar one half spread over any shape reads the specification's half everywhere. -/
theorem half_bcast_apply {T : Shape} (h : S_.BroadcastsInDim T ![]) (j : T.Idx) :
    broadcastInDim T ![] h (constant (F := Ideal) S_ .f32 0x3F000000#32) j = half :=
  broadcastInDim_scalar_apply h _ j

/-! ## The reference's definitions, read at an index -/

/-- A unit slice of the last axis, reshaped to drop that axis, reads one coordinate of the box. -/
theorem coord_apply {α : Type} {m n : Nat} (c : Nat) (x : (⟨3, ![m, n, 4]⟩ : Shape).Idx → α)
    (hs : (⟨3, ![m, n, 4]⟩ : Shape).Slices ![0, 0, c] ⟨3, ![m, n, 1]⟩)
    (hc : (⟨3, ![m, n, 1]⟩ : Shape).ShapeCasts ⟨2, ![m, n]⟩) (b : Fin m) (q : Fin n) (k : Fin 4) (hk : k.val = c) :
    shapeCast ⟨2, ![m, n]⟩ (extractStridedSlice ⟨3, ![m, n, 1]⟩ ![0, 0, c] x hs) hc (ix2 b q) = x (ix3 b q k) :=
  (shapeCast_ab1_ab_apply _ hc b q).trans (slice_last_unit_apply c x hs b q (0 : Fin 1) k hk)

section Walk
variable (a0 : FVec Ideal S64x900x256 .f32) (a1 : FVec Ideal S64x900x4 .f32) (a2 : IVec S64x256 32)
  (a3 : FVec Ideal S64x256x4 .f32)

/-! ### The L1 cost -/

/-- The query boxes with the unit target axis: (b, q, u, k) reads the query box's coordinate k. -/
theorem v19_apply (b : Fin 64) (q : Fin 900) (u : Fin 1) (k : Fin 4) :
    RefRun.res_main_v19 (F := Ideal) a0 a1 a2 a3 (ix4 b q u k) = a1 (ix3 b q k) := by
  unfold RefRun.res_main_v19
  exact bcast_mid_unit_apply _ a1 b q u k

/-- The target boxes with the unit query axis: (b, u, t, k) reads the target box's coordinate k. -/
theorem v20_apply (b : Fin 64) (u : Fin 1) (t : Fin 256) (k : Fin 4) :
    RefRun.res_main_v20 (F := Ideal) a0 a1 a2 a3 (ix4 b u t k) = a3 (ix3 b t k) := by
  unfold RefRun.res_main_v20
  exact bcast_fst_unit_apply _ a3 b u t k

theorem v21_apply (b : Fin 64) (q : Fin 900) (t : Fin 256) (k : Fin 4) :
    RefRun.res_main_v21 (F := Ideal) a0 a1 a2 a3 (ix4 b q t k) = a1 (ix3 b q k) := by
  unfold RefRun.res_main_v21
  exact (bcast_q_full_apply _ _ b q t k).trans (v19_apply a0 a1 a2 a3 b q (0 : Fin 1) k)

theorem v22_apply (b : Fin 64) (q : Fin 900) (t : Fin 256) (k : Fin 4) :
    RefRun.res_main_v22 (F := Ideal) a0 a1 a2 a3 (ix4 b q t k) = a3 (ix3 b t k) := by
  unfold RefRun.res_main_v22
  exact (bcast_t_full_apply _ _ b q t k).trans (v20_apply a0 a1 a2 a3 b (0 : Fin 1) t k)

/-- The absolute coordinate difference of query box q and target box t on coordinate k. -/
theorem v24_apply (b : Fin 64) (q : Fin 900) (t : Fin 256) (k : Fin 4) :
    RefRun.res_main_v24 (F := Ideal) a0 a1 a2 a3 (ix4 b q t k) = absE (a1 (ix3 b q k) - a3 (ix3 b t k)) := by
  unfold RefRun.res_main_v24 RefRun.res_main_v23
  show absE (RefRun.res_main_v21 (F := Ideal) a0 a1 a2 a3 (ix4 b q t k)
      - RefRun.res_main_v22 (F := Ideal) a0 a1 a2 a3 (ix4 b q t k)) = _
  rw [v21_apply, v22_apply]

/-- The reference's L1 cost at (b, q, t) is the specification's L1 distance of the two boxes. -/
theorem l1_apply (b : Fin 64) (q : Fin 900) (t : Fin 256) :
    RefRun.res_main_v25 (F := Ideal) a0 a1 a2 a3 (ix3 b q t)
      = l1 (a1 (ix3 b q (0 : Fin 4))) (a1 (ix3 b q (1 : Fin 4))) (a1 (ix3 b q (2 : Fin 4))) (a1 (ix3 b q (3 : Fin 4)))
          (a3 (ix3 b t (0 : Fin 4))) (a3 (ix3 b t (1 : Fin 4))) (a3 (ix3 b t (2 : Fin 4))) (a3 (ix3 b t (3 : Fin 4))) := by
  unfold RefRun.res_main_v25 RefRun.res_main_cst_3
  refine (reduce_last4_apply _ _ _ _ b q t).trans ?_
  rw [v24_apply, v24_apply, v24_apply, v24_apply]
  show (Ideal.ofBits .f32 0x00000000#32 : EReal) + _ = _
  rw [Ideal.ofBits_zero_f32, zero_add]
  rfl

/-! ### The corner boxes

A box (cx, cy, w, h) becomes (cx − ½w, cy − ½h, cx + ½w, cy + ½h).  The reference computes each of the four
numbers on the [·, ·] arrays of single coordinates, gives it back a trailing unit axis, and lays the four
along the last axis.  The two lemmas below read one such piece for ANY two coordinate arrays c and w; the
lemmas after them name, per box array, which coordinate arrays the reference uses. -/

/-- A piece c − ½·w with its trailing unit axis, at (b, q, u): the low corner of centre c[b,q] and extent w[b,q]. -/
theorem lo_piece_apply {m n : Nat} (c w : FVec Ideal ⟨2, ![m, n]⟩ .f32)
    (hb : S_.BroadcastsInDim ⟨2, ![m, n]⟩ ![]) (hB : (⟨2, ![m, n]⟩ : Shape).BroadcastsInDim ⟨3, ![m, n, 1]⟩ ![0, 1])
    (b : Fin m) (q : Fin n) (u : Fin 1) :
    broadcastInDim ⟨3, ![m, n, 1]⟩ ![0, 1] hB
        (subf c (mulf (broadcastInDim ⟨2, ![m, n]⟩ ![] hb (constant (F := Ideal) S_ .f32 0x3F000000#32)) w)) (ix3 b q u)
      = lo (c (ix2 b q)) (w (ix2 b q)) := by
  refine (bcast_ab_ab1_apply hB _ b q u).trans ?_
  show c (ix2 b q)
      - broadcastInDim ⟨2, ![m, n]⟩ ![] hb (constant (F := Ideal) S_ .f32 0x3F000000#32) (ix2 b q) * w (ix2 b q) = _
  rw [half_bcast_apply]
  rfl

/-- A piece c + ½·w with its trailing unit axis, at (b, q, u): the high corner of centre c[b,q] and extent w[b,q]. -/
theorem hi_piece_apply {m n : Nat} (c w : FVec Ideal ⟨2, ![m, n]⟩ .f32)
    (hb : S_.BroadcastsInDim ⟨2, ![m, n]⟩ ![]) (hB : (⟨2, ![m, n]⟩ : Shape).BroadcastsInDim ⟨3, ![m, n, 1]⟩ ![0, 1])
    (b : Fin m) (q : Fin n) (u : Fin 1) :
    broadcastInDim ⟨3, ![m, n, 1]⟩ ![0, 1] hB
        (addf c (mulf (broadcastInDim ⟨2, ![m, n]⟩ ![] hb (constant (F := Ideal) S_ .f32 0x3F000000#32)) w)) (ix3 b q u)
      = hi (c (ix2 b q)) (w (ix2 b q)) := by
  refine (bcast_ab_ab1_apply hB _ b q u).trans ?_
  show c (ix2 b q)
      + broadcastInDim ⟨2, ![m, n]⟩ ![] hb (constant (F := Ideal) S_ .f32 0x3F000000#32) (ix2 b q) * w (ix2 b q) = _
  rw [half_bcast_apply]
  rfl

/-! #### The query boxes -/

/-- The query box's centre abscissa. -/
theorem v27_apply (b : Fin 64) (q : Fin 900) :
    RefRun.res_main_v27 (F := Ideal) a0 a1 a2 a3 (ix2 b q) = a1 (ix3 b q (0 : Fin 4)) := by
  unfold RefRun.res_main_v27 RefRun.res_main_v26
  exact coord_apply 0 a1 _ _ b q (0 : Fin 4) rfl

/-- The query box's centre ordinate. -/
theorem v29_apply (b : Fin 64) (q : Fin 900) :
    RefRun.res_main_v29 (F := Ideal) a0 a1 a2 a3 (ix2 b q) = a1 (ix3 b q (1 : Fin 4)) := by
  unfold RefRun.res_main_v29 RefRun.res_main_v28
  exact coord_apply 1 a1 _ _ b q (1 : Fin 4) rfl

/-- The query box's width. -/
theorem v31_apply (b : Fin 64) (q : Fin 900) :
    RefRun.res_main_v31 (F := Ideal) a0 a1 a2 a3 (ix2 b q) = a1 (ix3 b q (2 : Fin 4)) := by
  unfold RefRun.res_main_v31 RefRun.res_main_v30
  exact coord_apply 2 a1 _ _ b q (2 : Fin 4) rfl

/-- The query box's height. -/
theorem v33_apply (b : Fin 64) (q : Fin 900) :
    RefRun.res_main_v33 (F := Ideal) a0 a1 a2 a3 (ix2 b q) = a1 (ix3 b q (3 : Fin 4)) := by
  unfold RefRun.res_main_v33 RefRun.res_main_v32
  exact coord_apply 3 a1 _ _ b q (3 : Fin 4) rfl

/-- x₁ of the query box: cx − ½w. -/
theorem v46_apply (b : Fin 64) (q : Fin 900) (u : Fin 1) :
    RefRun.res_main_v46 (F := Ideal) a0 a1 a2 a3 (ix3 b q u) = lo (a1 (ix3 b q (0 : Fin 4))) (a1 (ix3 b q (2 : Fin 4))) := by
  unfold RefRun.res_main_v46 RefRun.res_main_v36 RefRun.res_main_v35 RefRun.res_main_v34 RefRun.res_main_cst_4
  refine (lo_piece_apply _ _ _ _ b q u).trans ?_
  rw [v27_apply, v31_apply]

/-- y₁ of the query box: cy − ½h. -/
theorem v47_apply (b : Fin 64) (q : Fin 900) (u : Fin 1) :
    RefRun.res_main_v47 (F := Ideal) a0 a1 a2 a3 (ix3 b q u) = lo (a1 (ix3 b q (1 : Fin 4))) (a1 (ix3 b q (3 : Fin 4))) := by
  unfold RefRun.res_main_v47 RefRun.res_main_v39 RefRun.res_main_v38 RefRun.res_main_v37 RefRun.res_main_cst_5
  refine (lo_piece_apply _ _ _ _ b q u).trans ?_
  rw [v29_apply, v33_apply]

/-- x₂ of the query box: cx + ½w. -/
theorem v48_apply (b : Fin 64) (q : Fin 900) (u : Fin 1) :
    RefRun.res_main_v48 (F := Ideal) a0 a1 a2 a3 (ix3 b q u) = hi (a1 (ix3 b q (0 : Fin 4))) (a1 (ix3 b q (2 : Fin 4))) := by
  unfold RefRun.res_main_v48 RefRun.res_main_v42 RefRun.res_main_v41 RefRun.res_main_v40 RefRun.res_main_cst_6
  refine (hi_piece_apply _ _ _ _ b q u).trans ?_
  rw [v27_apply, v31_apply]

/-- y₂ of the query box: cy + ½h. -/
theorem v49_apply (b : Fin 64) (q : Fin 900) (u : Fin 1) :
    RefRun.res_main_v49 (F := Ideal) a0 a1 a2 a3 (ix3 b q u) = hi (a1 (ix3 b q (1 : Fin 4))) (a1 (ix3 b q (3 : Fin 4))) := by
  unfold RefRun.res_main_v49 RefRun.res_main_v45 RefRun.res_main_v44 RefRun.res_main_v43 RefRun.res_main_cst_7
  refine (hi_piece_apply _ _ _ _ b q u).trans ?_
  rw [v29_apply, v33_apply]

/-- The query corner boxes with the unit target axis: (b, q, 0, ·) reads (x₁, y₁, x₂, y₂) of query box q. -/
theorem qcorner_apply (b : Fin 64) (q : Fin 900) :
    RefRun.res_main_v51 (F := Ideal) a0 a1 a2 a3 (ix4 b q (0 : Fin 1) (0 : Fin 4)) = lo (a1 (ix3 b q 0)) (a1 (ix3 b q 2))
    ∧ RefRun.res_main_v51 (F := Ideal) a0 a1 a2 a3 (ix4 b q (0 : Fin 1) (1 : Fin 4)) = lo (a1 (ix3 b q 1)) (a1 (ix3 b q 3))
    ∧ RefRun.res_main_v51 (F := Ideal) a0 a1 a2 a3 (ix4 b q (0 : Fin 1) (2 : Fin 4)) = hi (a1 (ix3 b q 0)) (a1 (ix3 b q 2))
    ∧ RefRun.res_main_v51 (F := Ideal) a0 a1 a2 a3 (ix4 b q (0 : Fin 1) (3 : Fin 4)) = hi (a1 (ix3 b q 1)) (a1 (ix3 b q 3)) := by
  unfold RefRun.res_main_v51
  rw [RefRun.res_main_v50_eq]
  exact ⟨(bcast_mid_unit_apply _ _ b q (0 : Fin 1) (0 : Fin 4)).trans
      ((concat4_unit_apply _ _ _ _ _ b q (0 : Fin 4)).trans (v46_apply a0 a1 a2 a3 b q (0 : Fin 1))),
    (bcast_mid_unit_apply _ _ b q (0 : Fin 1) (1 : Fin 4)).trans
      ((concat4_unit_apply _ _ _ _ _ b q (1 : Fin 4)).trans (v47_apply a0 a1 a2 a3 b q (0 : Fin 1))),
    (bcast_mid_unit_apply _ _ b q (0 : Fin 1) (2 : Fin 4)).trans
      ((concat4_unit_apply _ _ _ _ _ b q (2 : Fin 4)).trans (v48_apply a0 a1 a2 a3 b q (0 : Fin 1))),
    (bcast_mid_unit_apply _ _ b q (0 : Fin 1) (3 : Fin 4)).trans
      ((concat4_unit_apply _ _ _ _ _ b q (3 : Fin 4)).trans (v49_apply a0 a1 a2 a3 b q (0 : Fin 1)))⟩

/-! #### The target boxes -/

/-- The target box's centre abscissa. -/
theorem v53_apply (b : Fin 64) (t : Fin 256) :
    RefRun.res_main_v53 (F := Ideal) a0 a1 a2 a3 (ix2 b t) = a3 (ix3 b t (0 : Fin 4)) := by
  unfold RefRun.res_main_v53 RefRun.res_main_v52
  exact coord_apply 0 a3 _ _ b t (0 : Fin 4) rfl

/-- The target box's centre ordinate. -/
theorem v55_apply (b : Fin 64) (t : Fin 256) :
    RefRun.res_main_v55 (F := Ideal) a0 a1 a2 a3 (ix2 b t) = a3 (ix3 b t (1 : Fin 4)) := by
  unfold RefRun.res_main_v55 RefRun.res_main_v54
  exact coord_apply 1 a3 _ _ b t (1 : Fin 4) rfl

/-- The target box's width. -/
theorem v57_apply (b : Fin 64) (t : Fin 256) :
    RefRun.res_main_v57 (F := Ideal) a0 a1 a2 a3 (ix2 b t) = a3 (ix3 b t (2 : Fin 4)) := by
  unfold RefRun.res_main_v57 RefRun.res_main_v56
  exact coord_apply 2 a3 _ _ b t (2 : Fin 4) rfl

/-- The target box's height. -/
theorem v59_apply (b : Fin 64) (t : Fin 256) :
    RefRun.res_main_v59 (F := Ideal) a0 a1 a2 a3 (ix2 b t) = a3 (ix3 b t (3 : Fin 4)) := by
  unfold RefRun.res_main_v59 RefRun.res_main_v58
  exact coord_apply 3 a3 _ _ b t (3 : Fin 4) rfl

/-- x₁ of the target box: cx − ½w. -/
theorem v72_apply (b : Fin 64) (t : Fin 256) (u : Fin 1) :
    RefRun.res_main_v72 (F := Ideal) a0 a1 a2 a3 (ix3 b t u) = lo (a3 (ix3 b t (0 : Fin 4))) (a3 (ix3 b t (2 : Fin 4))) := by
  unfold RefRun.res_main_v72 RefRun.res_main_v62 RefRun.res_main_v61 RefRun.res_main_v60 RefRun.res_main_cst_8
  refine (lo_piece_apply _ _ _ _ b t u).trans ?_
  rw [v53_apply, v57_apply]

/-- y₁ of the target box: cy − ½h. -/
theorem v73_apply (b : Fin 64) (t : Fin 256) (u : Fin 1) :
    RefRun.res_main_v73 (F := Ideal) a0 a1 a2 a3 (ix3 b t u) = lo (a3 (ix3 b t (1 : Fin 4))) (a3 (ix3 b t (3 : Fin 4))) := by
  unfold RefRun.res_main_v73 RefRun.res_main_v65 RefRun.res_main_v64 RefRun.res_main_v63 RefRun.res_main_cst_9
  refine (lo_piece_apply _ _ _ _ b t u).trans ?_
  rw [v55_apply, v59_apply]

/-- x₂ of the target box: cx + ½w. -/
theorem v74_apply (b : Fin 64) (t : Fin 256) (u : Fin 1) :
    RefRun.res_main_v74 (F := Ideal) a0 a1 a2 a3 (ix3 b t u) = hi (a3 (ix3 b t (0 : Fin 4))) (a3 (ix3 b t (2 : Fin 4))) := by
  unfold RefRun.res_main_v74 RefRun.res_main_v68 RefRun.res_main_v67 RefRun.res_main_v66 RefRun.res_main_cst_10
  refine (hi_piece_apply _ _ _ _ b t u).trans ?_
  rw [v53_apply, v57_apply]

/-- y₂ of the target box: cy + ½h. -/
theorem v75_apply (b : Fin 64) (t : Fin 256) (u : Fin 1) :
    RefRun.res_main_v75 (F := Ideal) a0 a1 a2 a3 (ix3 b t u) = hi (a3 (ix3 b t (1 : Fin 4))) (a3 (ix3 b t (3 : Fin 4))) := by
  unfold RefRun.res_main_v75 RefRun.res_main_v71 RefRun.res_main_v70 RefRun.res_main_v69 RefRun.res_main_cst_11
  refine (hi_piece_apply _ _ _ _ b t u).trans ?_
  rw [v55_apply, v59_apply]

/-- The target corner boxes with the unit query axis: (b, 0, t, ·) reads (x₁, y₁, x₂, y₂) of target box t. -/
theorem tcorner_apply (b : Fin 64) (t : Fin 256) :
    RefRun.res_main_v77 (F := Ideal) a0 a1 a2 a3 (ix4 b (0 : Fin 1) t (0 : Fin 4)) = lo (a3 (ix3 b t 0)) (a3 (ix3 b t 2))
    ∧ RefRun.res_main_v77 (F := Ideal) a0 a1 a2 a3 (ix4 b (0 : Fin 1) t (1 : Fin 4)) = lo (a3 (ix3 b t 1)) (a3 (ix3 b t 3))
    ∧ RefRun.res_main_v77 (F := Ideal) a0 a1 a2 a3 (ix4 b (0 : Fin 1) t (2 : Fin 4)) = hi (a3 (ix3 b t 0)) (a3 (ix3 b t 2))
    ∧ RefRun.res_main_v77 (F := Ideal) a0 a1 a2 a3 (ix4 b (0 : Fin 1) t (3 : Fin 4)) = hi (a3 (ix3 b t 1)) (a3 (ix3 b t 3)) := by
  unfold RefRun.res_main_v77
  rw [RefRun.res_main_v76_eq]
  exact ⟨(bcast_fst_unit_apply _ _ b (0 : Fin 1) t (0 : Fin 4)).trans
      ((concat4_unit_apply _ _ _ _ _ b t (0 : Fin 4)).trans (v72_apply a0 a1 a2 a3 b t (0 : Fin 1))),
    (bcast_fst_unit_apply _ _ b (0 : Fin 1) t (1 : Fin 4)).trans
      ((concat4_unit_apply _ _ _ _ _ b t (1 : Fin 4)).trans (v73_apply a0 a1 a2 a3 b t (0 : Fin 1))),
    (bcast_fst_unit_apply _ _ b (0 : Fin 1) t (2 : Fin 4)).trans
      ((concat4_unit_apply _ _ _ _ _ b t (2 : Fin 4)).trans (v74_apply a0 a1 a2 a3 b t (0 : Fin 1))),
    (bcast_fst_unit_apply _ _ b (0 : Fin 1) t (3 : Fin 4)).trans
      ((concat4_unit_apply _ _ _ _ _ b t (3 : Fin 4)).trans (v75_apply a0 a1 a2 a3 b t (0 : Fin 1)))⟩

end Walk

end Cert.ReferenceIdeal.RefBoxes

end
-- ==== Proof.RefInter.lean ====
/-
  The reference's intersection area of a query box and a target box, read at one (batch, query, target).

  The reference holds the corner boxes (x1, y1, x2, y2) of the queries as [64,900,1,4] and of the targets as
  [64,1,256,4].  It slices the low corners (coordinates 0, 1) and the high corners (coordinates 2, 3), spreads each
  over [64,900,256,2], takes the maximum of the lows and the minimum of the highs, their difference, clips it below
  at zero, and multiplies the two coordinates of the result.  At (b, q, t) the x factor is
  max 0 (min(hi qx, hi tx) − max(lo qx, lo tx)), the overlap of the two x intervals, and the y factor likewise, so
  the product is the specification's intersection area.
-/
import proofs.«412448_j60825326846459_2_alg».proof.Proof.RefTerms
import proofs.«412448_j60825326846459_2_alg».proof.Proof.CostSpec
import proofs.«412448_j60825326846459_2_alg».proof.Proof.RefBoxes
import Idealize.ShloMosaic.Lib.Pipeline.Value
import Idealize.ShloMosaic.Lib.IdealHost
import Idealize.ShloMosaic.Lib.ValueIdx

noncomputable section

namespace Cert.ReferenceIdeal.RefInter

open Cert.ReferenceIdeal Cert.ReferenceIdeal.Gen Idealize.ShloMosaic Idealize.ShloMosaic.ValueIdx
open Cert.CostSpec

/-! ## Layout operations at an index -/

section Layout
variable {α : Type}

/-- A pair slice of the last axis of a rank-4 array at offset c: at (b, q, u, k) it reads (b, q, u, c + k). -/
theorem slice_pair_apply {m n p : Nat} (c : Nat) (x : (⟨4, ![m, n, p, 4]⟩ : Shape).Idx → α)
    (h : (⟨4, ![m, n, p, 4]⟩ : Shape).Slices ![0, 0, 0, c] ⟨4, ![m, n, p, 2]⟩)
    (b : Fin m) (q : Fin n) (u : Fin p) (k : Fin 2) (k' : Fin 4) (hk : k'.val = c + k.val) :
    extractStridedSlice ⟨4, ![m, n, p, 2]⟩ ![0, 0, 0, c] x h (ix4 b q u k) = x (ix4 b q u k') :=
  extractStridedSlice_apply _ x h _ (ix4 b q u k') (fun a => by
    match a with
    | ⟨0, _⟩ => show b.val = 0 + b.val; omega
    | ⟨1, _⟩ => show q.val = 0 + q.val; omega
    | ⟨2, _⟩ => show u.val = 0 + u.val; omega
    | ⟨3, _⟩ => show k'.val = c + k.val; exact hk)

/-- A unit slice of the last axis of a rank-4 array of pairs at offset c: at (b, q, t, 0) it reads (b, q, t, c). -/
theorem slice_unit_apply {m n p : Nat} (c : Nat) (x : (⟨4, ![m, n, p, 2]⟩ : Shape).Idx → α)
    (h : (⟨4, ![m, n, p, 2]⟩ : Shape).Slices ![0, 0, 0, c] ⟨4, ![m, n, p, 1]⟩)
    (b : Fin m) (q : Fin n) (t : Fin p) (u : Fin 1) (k : Fin 2) (hk : k.val = c) :
    extractStridedSlice ⟨4, ![m, n, p, 1]⟩ ![0, 0, 0, c] x h (ix4 b q t u) = x (ix4 b q t k) :=
  extractStridedSlice_apply _ x h _ (ix4 b q t k) (fun a => by
    match a with
    | ⟨0, _⟩ => show b.val = 0 + b.val; omega
    | ⟨1, _⟩ => show q.val = 0 + q.val; omega
    | ⟨2, _⟩ => show t.val = 0 + t.val; omega
    | ⟨3, _⟩ => show k.val = c + u.val; have := u.isLt; omega)

/-- The queries' pairs spread over the 256 targets: at (b, q, t, k) the operand at (b, q, 0, k). -/
theorem bcast_q_apply (h : S64x900x1x2.BroadcastsInDim S64x900x256x2 ![0, 1, 2, 3])
    (x : S64x900x1x2.Idx → α) (b : Fin 64) (q : Fin 900) (t : Fin 256) (k : Fin 2) :
    broadcastInDim S64x900x256x2 ![0, 1, 2, 3] h x (ix4 b q t k) = x (ix4 b q (0 : Fin 1) k) :=
  broadcastInDim_apply _ h x _ (ix4 b q (0 : Fin 1) k) (fun a => by
    match a with
    | ⟨0, _⟩ => rfl
    | ⟨1, _⟩ => rfl
    | ⟨2, _⟩ => rfl
    | ⟨3, _⟩ => rfl)

/-- The targets' pairs spread over the 900 queries: at (b, q, t, k) the operand at (b, 0, t, k). -/
theorem bcast_t_apply (h : S64x1x256x2.BroadcastsInDim S64x900x256x2 ![0, 1, 2, 3])
    (x : S64x1x256x2.Idx → α) (b : Fin 64) (q : Fin 900) (t : Fin 256) (k : Fin 2) :
    broadcastInDim S64x900x256x2 ![0, 1, 2, 3] h x (ix4 b q t k) = x (ix4 b (0 : Fin 1) t k) :=
  broadcastInDim_apply _ h x _ (ix4 b (0 : Fin 1) t k) (fun a => by
    match a with
    | ⟨0, _⟩ => rfl
    | ⟨1, _⟩ => rfl
    | ⟨2, _⟩ => rfl
    | ⟨3, _⟩ => rfl)

/-- Dropping the trailing unit axis: at (b, q, t) the operand at (b, q, t, 0). -/
theorem reshape_drop_apply (h : S64x900x256x1.ShapeCasts S64x900x256) (x : S64x900x256x1.Idx → α)
    (b : Fin 64) (q : Fin 900) (t : Fin 256) :
    shapeCast S64x900x256 x h (ix3 b q t) = x (ix4 b q t (0 : Fin 1)) :=
  shapeCast_apply x h _ (ix4 b q t (0 : Fin 1)) (by
    rw [Shape.rowMajor_val_four, Shape.rowMajor_val_three]
    show ((b.val * 900 + q.val) * 256 + t.val) * 1 + 0 = (b.val * 900 + q.val) * 256 + t.val
    omega)

end Layout

/-! ## The reference's definitions, read at an index -/

section Walk
variable (a0 : FVec Ideal S64x900x256 .f32) (a1 : FVec Ideal S64x900x4 .f32) (a2 : IVec S64x256 32)
  (a3 : FVec Ideal S64x256x4 .f32)

/-- The larger of the two low corners, coordinate k of (x, y): the queries' corner coordinate k against the targets'. -/
theorem v104_apply (b : Fin 64) (q : Fin 900) (t : Fin 256) (k : Fin 2) (k' : Fin 4) (hk : k'.val = 0 + k.val) :
    RefRun.res_main_v104 (F := Ideal) a0 a1 a2 a3 (ix4 b q t k)
      = max (RefRun.res_main_v51 (F := Ideal) a0 a1 a2 a3 (ix4 b q (0 : Fin 1) k'))
          (RefRun.res_main_v77 (F := Ideal) a0 a1 a2 a3 (ix4 b (0 : Fin 1) t k')) := by
  unfold RefRun.res_main_v104
  show max (RefRun.res_main_v102 (F := Ideal) a0 a1 a2 a3 (ix4 b q t k)) (RefRun.res_main_v103 (F := Ideal) a0 a1 a2 a3 (ix4 b q t k)) = _
  unfold RefRun.res_main_v102 RefRun.res_main_v103
  rw [bcast_q_apply, bcast_t_apply]
  unfold RefRun.res_main_v100 RefRun.res_main_v101
  beta_reduce
  rw [slice_pair_apply 0 _ _ b q (0 : Fin 1) k k' hk, slice_pair_apply 0 _ _ b (0 : Fin 1) t k k' hk]

/-- The smaller of the two high corners, coordinate k of (x, y). -/
theorem v109_apply (b : Fin 64) (q : Fin 900) (t : Fin 256) (k : Fin 2) (k' : Fin 4) (hk : k'.val = 2 + k.val) :
    RefRun.res_main_v109 (F := Ideal) a0 a1 a2 a3 (ix4 b q t k)
      = min (RefRun.res_main_v51 (F := Ideal) a0 a1 a2 a3 (ix4 b q (0 : Fin 1) k'))
          (RefRun.res_main_v77 (F := Ideal) a0 a1 a2 a3 (ix4 b (0 : Fin 1) t k')) := by
  unfold RefRun.res_main_v109
  show min (RefRun.res_main_v107 (F := Ideal) a0 a1 a2 a3 (ix4 b q t k)) (RefRun.res_main_v108 (F := Ideal) a0 a1 a2 a3 (ix4 b q t k)) = _
  unfold RefRun.res_main_v107 RefRun.res_main_v108
  rw [bcast_q_apply, bcast_t_apply]
  unfold RefRun.res_main_v105 RefRun.res_main_v106
  beta_reduce
  rw [slice_pair_apply 2 _ _ b q (0 : Fin 1) k k' hk, slice_pair_apply 2 _ _ b (0 : Fin 1) t k k' hk]

/-- The clipped difference, coordinate k: the overlap of the two intervals from their four ends. -/
theorem v111_apply (b : Fin 64) (q : Fin 900) (t : Fin 256) (k : Fin 2) (kl kh : Fin 4)
    (hl : kl.val = 0 + k.val) (hh : kh.val = 2 + k.val) :
    RefRun.res_main_v111 (F := Ideal) a0 a1 a2 a3 (ix4 b q t k)
      = overlap (RefRun.res_main_v51 (F := Ideal) a0 a1 a2 a3 (ix4 b q (0 : Fin 1) kl))
          (RefRun.res_main_v51 (F := Ideal) a0 a1 a2 a3 (ix4 b q (0 : Fin 1) kh))
          (RefRun.res_main_v77 (F := Ideal) a0 a1 a2 a3 (ix4 b (0 : Fin 1) t kl))
          (RefRun.res_main_v77 (F := Ideal) a0 a1 a2 a3 (ix4 b (0 : Fin 1) t kh)) := by
  unfold RefRun.res_main_v111
  show max (RefRun.res_main_call0_v1 (F := Ideal) a0 a1 a2 a3 (ix4 b q t k)) (RefRun.res_main_v110 (F := Ideal) a0 a1 a2 a3 (ix4 b q t k)) = _
  have hz : RefRun.res_main_call0_v1 (F := Ideal) a0 a1 a2 a3 (ix4 b q t k) = zero := by
    unfold RefRun.res_main_call0_v1
    exact broadcastInDim_scalar_apply _ _ _
  have hd : RefRun.res_main_v110 (F := Ideal) a0 a1 a2 a3 (ix4 b q t k)
      = RefRun.res_main_v109 (F := Ideal) a0 a1 a2 a3 (ix4 b q t k) - RefRun.res_main_v104 (F := Ideal) a0 a1 a2 a3 (ix4 b q t k) := by
    unfold RefRun.res_main_v110
    rfl
  rw [hz, hd, v109_apply a0 a1 a2 a3 b q t k kh hh, v104_apply a0 a1 a2 a3 b q t k kl hl, max_comm]
  rfl

/-- THE INTERSECTION AREA AT AN INDEX: the product of the overlaps of the two boxes' x intervals and y intervals. -/
theorem inter_apply (b : Fin 64) (q : Fin 900) (t : Fin 256) :
    RefRun.res_main_v116 (F := Ideal) a0 a1 a2 a3 (ix3 b q t)
      = Cert.CostSpec.overlap (lo (a1 (ix3 b q 0)) (a1 (ix3 b q 2))) (hi (a1 (ix3 b q 0)) (a1 (ix3 b q 2)))
          (lo (a3 (ix3 b t 0)) (a3 (ix3 b t 2))) (hi (a3 (ix3 b t 0)) (a3 (ix3 b t 2)))
        * Cert.CostSpec.overlap (lo (a1 (ix3 b q 1)) (a1 (ix3 b q 3))) (hi (a1 (ix3 b q 1)) (a1 (ix3 b q 3)))
          (lo (a3 (ix3 b t 1)) (a3 (ix3 b t 3))) (hi (a3 (ix3 b t 1)) (a3 (ix3 b t 3))) := by
  obtain ⟨q0, q1, q2, q3⟩ := RefBoxes.qcorner_apply a0 a1 a2 a3 b q
  obtain ⟨t0, t1, t2, t3⟩ := RefBoxes.tcorner_apply a0 a1 a2 a3 b t
  unfold RefRun.res_main_v116
  show RefRun.res_main_v113 (F := Ideal) a0 a1 a2 a3 (ix3 b q t) * RefRun.res_main_v115 (F := Ideal) a0 a1 a2 a3 (ix3 b q t) = _
  unfold RefRun.res_main_v113 RefRun.res_main_v115
  rw [reshape_drop_apply, reshape_drop_apply]
  unfold RefRun.res_main_v112 RefRun.res_main_v114
  beta_reduce
  rw [slice_unit_apply 0 _ _ b q t (0 : Fin 1) (0 : Fin 2) rfl, slice_unit_apply 1 _ _ b q t (0 : Fin 1) (1 : Fin 2) rfl,
    v111_apply a0 a1 a2 a3 b q t (0 : Fin 2) (0 : Fin 4) (2 : Fin 4) rfl rfl,
    v111_apply a0 a1 a2 a3 b q t (1 : Fin 2) (1 : Fin 4) (3 : Fin 4) rfl rfl,
    q0, q1, q2, q3, t0, t1, t2, t3]

end Walk

end Cert.ReferenceIdeal.RefInter

end
-- ==== Proof.RefHull.lean ====
/-
  The reference's hull area read at one index (batch, query, target).

  The reference keeps each box's corners as one vector (x₁, y₁, x₂, y₂) on a last axis of extent 4 and
  works on coordinate PAIRS: the low pair is the slice [0:2] of that axis, the high pair the slice [2:4].
  For the smallest box holding a query box and a target box it stretches both pairs to [64,900,256,2],
  takes the minimum of the lows and the maximum of the highs, subtracts, clips below at zero (as
  max 0 ·), and multiplies the two coordinates of the result, each cut out as a unit slice and reshaped
  to [64,900,256].  Read at (b,q,t), coordinate k ∈ {0,1} of the clipped difference is the
  specification's hull extent of the two boxes' intervals on that axis, so the product is the
  specification's hull area.
-/
import proofs.«412448_j60825326846459_2_alg».proof.Proof.RefTerms
import proofs.«412448_j60825326846459_2_alg».proof.Proof.RefBoxes
import proofs.«412448_j60825326846459_2_alg».proof.Proof.CostSpec
import Idealize.ShloMosaic.Lib.ValueIdx
import Idealize.ShloMosaic.Lib.Pipeline.Value
import Idealize.ShloMosaic.PureOps.Ideal.Laws

noncomputable section

namespace Cert.ReferenceIdeal.RefHull

open Cert.ReferenceIdeal Cert.ReferenceIdeal.Gen Idealize.ShloMosaic Idealize.ShloMosaic.ValueIdx
open Cert.CostSpec

/-! ## The layout readings of the stretch -/

section Layout
variable {α : Type}

/-- The pair of a query corner box at offset `c` of the last axis: at (b,q,u,k) it reads (b,q,u,c+k). -/
theorem qpair_apply (c : Nat) (x : S64x900x1x4.Idx → α) (h : S64x900x1x4.Slices ![0, 0, 0, c] S64x900x1x2)
    (b : Fin 64) (q : Fin 900) (u : Fin 1) (k : Fin 2) (k' : Fin 4) (hk : k'.val = c + k.val) :
    extractStridedSlice S64x900x1x2 ![0, 0, 0, c] x h (ix4 b q u k) = x (ix4 b q u k') :=
  extractStridedSlice_apply _ x h _ _ fun a =>
    match a with
    | ⟨0, _⟩ => by show b.val = 0 + b.val; omega
    | ⟨1, _⟩ => by show q.val = 0 + q.val; omega
    | ⟨2, _⟩ => by show u.val = 0 + u.val; omega
    | ⟨3, _⟩ => hk

/-- The pair of a target corner box at offset `c` of the last axis: at (b,u,t,k) it reads (b,u,t,c+k). -/
theorem tpair_apply (c : Nat) (x : S64x1x256x4.Idx → α) (h : S64x1x256x4.Slices ![0, 0, 0, c] S64x1x256x2)
    (b : Fin 64) (u : Fin 1) (t : Fin 256) (k : Fin 2) (k' : Fin 4) (hk : k'.val = c + k.val) :
    extractStridedSlice S64x1x256x2 ![0, 0, 0, c] x h (ix4 b u t k) = x (ix4 b u t k') :=
  extractStridedSlice_apply _ x h _ _ fun a =>
    match a with
    | ⟨0, _⟩ => by show b.val = 0 + b.val; omega
    | ⟨1, _⟩ => by show u.val = 0 + u.val; omega
    | ⟨2, _⟩ => by show t.val = 0 + t.val; omega
    | ⟨3, _⟩ => hk

/-- A query pair stretched along the target axis: at (b,q,t,k) it reads (b,q,0,k). -/
theorem bcQ_apply (h : S64x900x1x2.BroadcastsInDim S64x900x256x2 ![0, 1, 2, 3]) (x : S64x900x1x2.Idx → α)
    (b : Fin 64) (q : Fin 900) (t : Fin 256) (k : Fin 2) :
    broadcastInDim S64x900x256x2 ![0, 1, 2, 3] h x (ix4 b q t k) = x (ix4 b q (0 : Fin 1) k) :=
  broadcastInDim_apply _ h x _ _ fun a =>
    match a with
    | ⟨0, _⟩ => rfl
    | ⟨1, _⟩ => rfl
    | ⟨2, _⟩ => rfl
    | ⟨3, _⟩ => rfl

/-- A target pair stretched along the query axis: at (b,q,t,k) it reads (b,0,t,k). -/
theorem bcT_apply (h : S64x1x256x2.BroadcastsInDim S64x900x256x2 ![0, 1, 2, 3]) (x : S64x1x256x2.Idx → α)
    (b : Fin 64) (q : Fin 900) (t : Fin 256) (k : Fin 2) :
    broadcastInDim S64x900x256x2 ![0, 1, 2, 3] h x (ix4 b q t k) = x (ix4 b (0 : Fin 1) t k) :=
  broadcastInDim_apply _ h x _ _ fun a =>
    match a with
    | ⟨0, _⟩ => rfl
    | ⟨1, _⟩ => rfl
    | ⟨2, _⟩ => rfl
    | ⟨3, _⟩ => rfl

/-- A scalar stretched to any shape reads its one element everywhere. -/
theorem bc0_apply {T : Shape} (h : S_.BroadcastsInDim T ![]) (x : S_.Idx → α) (j : T.Idx) :
    broadcastInDim T ![] h x j = x ix0 :=
  broadcastInDim_apply _ h x j ix0 fun a => a.elim0

/-- Coordinate `c` of a pair array cut out as a unit slice: at (b,q,t,0) it reads (b,q,t,c). -/
theorem unit_apply (c : Nat) (x : S64x900x256x2.Idx → α) (h : S64x900x256x2.Slices ![0, 0, 0, c] S64x900x256x1)
    (b : Fin 64) (q : Fin 900) (t : Fin 256) (k : Fin 2) (hk : k.val = c) :
    extractStridedSlice S64x900x256x1 ![0, 0, 0, c] x h (ix4 b q t (0 : Fin 1)) = x (ix4 b q t k) :=
  extractStridedSlice_apply _ x h _ _ fun a =>
    match a with
    | ⟨0, _⟩ => by show b.val = 0 + b.val; omega
    | ⟨1, _⟩ => by show q.val = 0 + q.val; omega
    | ⟨2, _⟩ => by show t.val = 0 + t.val; omega
    | ⟨3, _⟩ => by show k.val = c + 0; omega

/-- Dropping the trailing unit axis keeps the row-major position: (b,q,t) reads (b,q,t,0). -/
theorem drop_apply (x : S64x900x256x1.Idx → α) (h : S64x900x256x1.ShapeCasts S64x900x256)
    (b : Fin 64) (q : Fin 900) (t : Fin 256) :
    shapeCast S64x900x256 x h (ix3 b q t) = x (ix4 b q t (0 : Fin 1)) :=
  shapeCast_apply x h _ _ (by
    rw [Shape.rowMajor_val_four, Shape.rowMajor_val_three]
    show ((b.val * 900 + q.val) * 256 + t.val) * 1 + 0 = (b.val * 900 + q.val) * 256 + t.val
    omega)

end Layout

/-! ## The stretch, operation by operation -/

section Walk
variable (a0 : FVec Ideal S64x900x256 .f32) (a1 : FVec Ideal S64x900x4 .f32) (a2 : IVec S64x256 32)
  (a3 : FVec Ideal S64x256x4 .f32)

/-- The smaller of the two low corners on axis `k`. -/
theorem v126_apply (b : Fin 64) (q : Fin 900) (t : Fin 256) (k : Fin 2) (k' : Fin 4) (hk : k'.val = 0 + k.val) :
    RefRun.res_main_v126 (F := Ideal) a0 a1 a2 a3 (ix4 b q t k)
      = min (RefRun.res_main_v51 (F := Ideal) a0 a1 a2 a3 (ix4 b q (0 : Fin 1) k'))
          (RefRun.res_main_v77 (F := Ideal) a0 a1 a2 a3 (ix4 b (0 : Fin 1) t k')) := by
  unfold RefRun.res_main_v126 RefRun.res_main_v124 RefRun.res_main_v125 RefRun.res_main_v122 RefRun.res_main_v123
  exact congrArg₂ min ((bcQ_apply _ _ b q t k).trans (qpair_apply 0 _ _ b q 0 k k' hk))
    ((bcT_apply _ _ b q t k).trans (tpair_apply 0 _ _ b 0 t k k' hk))

/-- The larger of the two high corners on axis `k`. -/
theorem v131_apply (b : Fin 64) (q : Fin 900) (t : Fin 256) (k : Fin 2) (k' : Fin 4) (hk : k'.val = 2 + k.val) :
    RefRun.res_main_v131 (F := Ideal) a0 a1 a2 a3 (ix4 b q t k)
      = max (RefRun.res_main_v51 (F := Ideal) a0 a1 a2 a3 (ix4 b q (0 : Fin 1) k'))
          (RefRun.res_main_v77 (F := Ideal) a0 a1 a2 a3 (ix4 b (0 : Fin 1) t k')) := by
  unfold RefRun.res_main_v131 RefRun.res_main_v129 RefRun.res_main_v130 RefRun.res_main_v127 RefRun.res_main_v128
  exact congrArg₂ max ((bcQ_apply _ _ b q t k).trans (qpair_apply 2 _ _ b q 0 k k' hk))
    ((bcT_apply _ _ b q t k).trans (tpair_apply 2 _ _ b 0 t k k' hk))

/-- The clipped extent on axis `k`: the reference's max 0 (high − low) is the specification's hull extent,
    whose clip is written max (high − low) 0. -/
theorem v133_apply (b : Fin 64) (q : Fin 900) (t : Fin 256) (k : Fin 2) (k0 k2 : Fin 4)
    (h0 : k0.val = 0 + k.val) (h2 : k2.val = 2 + k.val) :
    RefRun.res_main_v133 (F := Ideal) a0 a1 a2 a3 (ix4 b q t k)
      = hull (RefRun.res_main_v51 (F := Ideal) a0 a1 a2 a3 (ix4 b q (0 : Fin 1) k0))
          (RefRun.res_main_v51 (F := Ideal) a0 a1 a2 a3 (ix4 b q (0 : Fin 1) k2))
          (RefRun.res_main_v77 (F := Ideal) a0 a1 a2 a3 (ix4 b (0 : Fin 1) t k0))
          (RefRun.res_main_v77 (F := Ideal) a0 a1 a2 a3 (ix4 b (0 : Fin 1) t k2)) := by
  unfold RefRun.res_main_v133 RefRun.res_main_v132 RefRun.res_main_call1_v1 RefRun.res_main_call1_v0 RefRun.res_main_cst_13
  refine (congrArg₂ max (bc0_apply _ _ _)
    (congrArg₂ (· - ·) (v131_apply a0 a1 a2 a3 b q t k k2 h2) (v126_apply a0 a1 a2 a3 b q t k k0 h0))).trans ?_
  exact max_comm _ _

/-- The hull's extent on the x axis, reshaped to [64,900,256]. -/
theorem v135_apply (b : Fin 64) (q : Fin 900) (t : Fin 256) :
    RefRun.res_main_v135 (F := Ideal) a0 a1 a2 a3 (ix3 b q t)
      = RefRun.res_main_v133 (F := Ideal) a0 a1 a2 a3 (ix4 b q t (0 : Fin 2)) := by
  unfold RefRun.res_main_v135 RefRun.res_main_v134
  exact (drop_apply _ _ b q t).trans (unit_apply 0 _ _ b q t 0 rfl)

/-- The hull's extent on the y axis, reshaped to [64,900,256]. -/
theorem v137_apply (b : Fin 64) (q : Fin 900) (t : Fin 256) :
    RefRun.res_main_v137 (F := Ideal) a0 a1 a2 a3 (ix3 b q t)
      = RefRun.res_main_v133 (F := Ideal) a0 a1 a2 a3 (ix4 b q t (1 : Fin 2)) := by
  unfold RefRun.res_main_v137 RefRun.res_main_v136
  exact (drop_apply _ _ b q t).trans (unit_apply 1 _ _ b q t 1 rfl)

/-- THE HULL AREA AT AN INDEX: the product of the hull's two extents, each the specification's `hull` of the
    two boxes' intervals on that axis. -/
theorem hull_apply (b : Fin 64) (q : Fin 900) (t : Fin 256) :
    RefRun.res_main_v138 (F := Ideal) a0 a1 a2 a3 (ix3 b q t)
      = Cert.CostSpec.hull (lo (a1 (ix3 b q 0)) (a1 (ix3 b q 2))) (hi (a1 (ix3 b q 0)) (a1 (ix3 b q 2)))
            (lo (a3 (ix3 b t 0)) (a3 (ix3 b t 2))) (hi (a3 (ix3 b t 0)) (a3 (ix3 b t 2)))
          * Cert.CostSpec.hull (lo (a1 (ix3 b q 1)) (a1 (ix3 b q 3))) (hi (a1 (ix3 b q 1)) (a1 (ix3 b q 3)))
            (lo (a3 (ix3 b t 1)) (a3 (ix3 b t 3))) (hi (a3 (ix3 b t 1)) (a3 (ix3 b t 3))) := by
  obtain ⟨q0, q1, q2, q3⟩ := RefBoxes.qcorner_apply a0 a1 a2 a3 b q
  obtain ⟨t0, t1, t2, t3⟩ := RefBoxes.tcorner_apply a0 a1 a2 a3 b t
  unfold RefRun.res_main_v138
  refine (congrArg₂ (· * ·) ((v135_apply a0 a1 a2 a3 b q t).trans (v133_apply a0 a1 a2 a3 b q t 0 0 2 rfl rfl))
    ((v137_apply a0 a1 a2 a3 b q t).trans (v133_apply a0 a1 a2 a3 b q t 1 1 3 rfl rfl))).trans ?_
  rw [q0, q1, q2, q3, t0, t1, t2, t3]

end Walk

end Cert.ReferenceIdeal.RefHull

end
-- ==== Proof.RefCost.lean ====
/-
  The reference's matching cost read at one (batch, query, target) index: from the two corner boxes the
  areas, the intersection, the union, the IoU, the hull, the generalized IoU, then the weighted sum with the
  class and L1 terms and the scrub of the infinities, each buffer of the program read at an index and
  identified with the corresponding term of the specification.
-/
import proofs.«412448_j60825326846459_2_alg».proof.Proof.RefTerms
import proofs.«412448_j60825326846459_2_alg».proof.Proof.CostSpec
import proofs.«412448_j60825326846459_2_alg».proof.Proof.RefBoxes
import proofs.«412448_j60825326846459_2_alg».proof.Proof.RefInter
import proofs.«412448_j60825326846459_2_alg».proof.Proof.RefHull
import Idealize.ShloMosaic.Lib.ValueLayout

noncomputable section

namespace Cert.ReferenceIdeal.RefCost

open Cert.ReferenceIdeal Cert.ReferenceIdeal.Gen Idealize.ShloMosaic Idealize.ShloMosaic.ValueIdx
open Cert.CostSpec

/-! ## Layout operations of the program's shapes read at coordinates -/

section Layout
variable {α : Type}

/-- A rank-4 array cut along its last axis from `o` reads, at `(a, b, c, j)`, the source at `(a, b, c, k)`, `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- An `[a, b, c, 1]` array cast to `[a, b, c]` reads, at `(i, j, k)`, the operand at `(i, j, k, 0)`: the two
    row-major positions agree. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- The query areas `[64, 900, 1]` broadcast over the targets: `(b, q, t)` reads `(b, q, 0)`. -/
theorem bcastQ1_apply (v : S64x900x1.Idx → α) (b : Fin 64) (q : Fin 900) (t : Fin 256) :
    broadcastInDim S64x900x256 ![0, 1, 2] bcast_S64x900x1_S64x900x256_0_1_2 v (ix3 b q t)
      = v (ix3 b q (0 : Fin 1)) :=
  broadcastInDim_apply _ _ v _ _ (fun ax => by
    match ax with
    | ⟨0, _⟩ => exact (if_neg (show ¬((64 : ℕ) = 1) by decide)).symm
    | ⟨1, _⟩ => exact (if_neg (show ¬((900 : ℕ) = 1) by decide)).symm
    | ⟨2, _⟩ => exact (if_pos rfl).symm)

/-- The target areas `[64, 1, 256]` broadcast over the queries: `(b, q, t)` reads `(b, 0, t)`. -/
theorem bcastT1_apply (v : S64x1x256.Idx → α) (b : Fin 64) (q : Fin 900) (t : Fin 256) :
    broadcastInDim S64x900x256 ![0, 1, 2] bcast_S64x1x256_S64x900x256_0_1_2 v (ix3 b q t)
      = v (ix3 b (0 : Fin 1) t) :=
  broadcastInDim_apply _ _ v _ _ (fun ax => by
    match ax with
    | ⟨0, _⟩ => exact (if_neg (show ¬((64 : ℕ) = 1) by decide)).symm
    | ⟨1, _⟩ => exact (if_pos rfl).symm
    | ⟨2, _⟩ => exact (if_neg (show ¬((256 : ℕ) = 1) by decide)).symm)

end Layout

/-! ## The program's buffers read at an index -/

section Walk
variable (a0 : FVec Ideal S64x900x256 .f32) (a1 : FVec Ideal S64x900x4 .f32) (a2 : IVec S64x256 32)
  (a3 : FVec Ideal S64x256x4 .f32)
open RefRun

/-! ### The two areas: unit slices of a corner box, squeezed, subtracted and multiplied -/

theorem v79_apply (b : Fin 64) (q : Fin 900) :
    res_main_v79 (F := Ideal) a0 a1 a2 a3 (ix3 b q (0 : Fin 1)) = res_main_v51 (F := Ideal) a0 a1 a2 a3 (ix4 b q (0 : Fin 1) (2 : Fin 4)) := by
  unfold res_main_v79 res_main_v78
  exact (shapeCast_abc1_abc_apply _ _ _ _ _).trans (slice4_axis3_apply 2 _ _ _ _ _ (0 : Fin 1) (2 : Fin 4) (by decide))

theorem v81_apply (b : Fin 64) (q : Fin 900) :
    res_main_v81 (F := Ideal) a0 a1 a2 a3 (ix3 b q (0 : Fin 1)) = res_main_v51 (F := Ideal) a0 a1 a2 a3 (ix4 b q (0 : Fin 1) (0 : Fin 4)) := by
  unfold res_main_v81 res_main_v80
  exact (shapeCast_abc1_abc_apply _ _ _ _ _).trans (slice4_axis3_apply 0 _ _ _ _ _ (0 : Fin 1) (0 : Fin 4) (by decide))

theorem v84_apply (b : Fin 64) (q : Fin 900) :
    res_main_v84 (F := Ideal) a0 a1 a2 a3 (ix3 b q (0 : Fin 1)) = res_main_v51 (F := Ideal) a0 a1 a2 a3 (ix4 b q (0 : Fin 1) (3 : Fin 4)) := by
  unfold res_main_v84 res_main_v83
  exact (shapeCast_abc1_abc_apply _ _ _ _ _).trans (slice4_axis3_apply 3 _ _ _ _ _ (0 : Fin 1) (3 : Fin 4) (by decide))

theorem v86_apply (b : Fin 64) (q : Fin 900) :
    res_main_v86 (F := Ideal) a0 a1 a2 a3 (ix3 b q (0 : Fin 1)) = res_main_v51 (F := Ideal) a0 a1 a2 a3 (ix4 b q (0 : Fin 1) (1 : Fin 4)) := by
  unfold res_main_v86 res_main_v85
  exact (shapeCast_abc1_abc_apply _ _ _ _ _).trans (slice4_axis3_apply 1 _ _ _ _ _ (0 : Fin 1) (1 : Fin 4) (by decide))

/-- The query box's area `(x₂ − x₁)·(y₂ − y₁)` from its corner entries. -/
theorem v88_apply (b : Fin 64) (q : Fin 900) :
    res_main_v88 (F := Ideal) a0 a1 a2 a3 (ix3 b q (0 : Fin 1)) = area (res_main_v51 (F := Ideal) a0 a1 a2 a3 (ix4 b q (0 : Fin 1) (0 : Fin 4))) (res_main_v51 (F := Ideal) a0 a1 a2 a3 (ix4 b q (0 : Fin 1) (1 : Fin 4))) (res_main_v51 (F := Ideal) a0 a1 a2 a3 (ix4 b q (0 : Fin 1) (2 : Fin 4))) (res_main_v51 (F := Ideal) a0 a1 a2 a3 (ix4 b q (0 : Fin 1) (3 : Fin 4))) := by
  unfold res_main_v88 res_main_v82 res_main_v87
  rw [mulf_apply, subf_apply, subf_apply, v79_apply, v81_apply, v84_apply, v86_apply]
  rfl

theorem v90_apply (b : Fin 64) (t : Fin 256) :
    res_main_v90 (F := Ideal) a0 a1 a2 a3 (ix3 b (0 : Fin 1) t) = res_main_v77 (F := Ideal) a0 a1 a2 a3 (ix4 b (0 : Fin 1) t (2 : Fin 4)) := by
  unfold res_main_v90 res_main_v89
  exact (shapeCast_abc1_abc_apply _ _ _ _ _).trans (slice4_axis3_apply 2 _ _ _ _ _ (0 : Fin 1) (2 : Fin 4) (by decide))

theorem v92_apply (b : Fin 64) (t : Fin 256) :
    res_main_v92 (F := Ideal) a0 a1 a2 a3 (ix3 b (0 : Fin 1) t) = res_main_v77 (F := Ideal) a0 a1 a2 a3 (ix4 b (0 : Fin 1) t (0 : Fin 4)) := by
  unfold res_main_v92 res_main_v91
  exact (shapeCast_abc1_abc_apply _ _ _ _ _).trans (slice4_axis3_apply 0 _ _ _ _ _ (0 : Fin 1) (0 : Fin 4) (by decide))

theorem v95_apply (b : Fin 64) (t : Fin 256) :
    res_main_v95 (F := Ideal) a0 a1 a2 a3 (ix3 b (0 : Fin 1) t) = res_main_v77 (F := Ideal) a0 a1 a2 a3 (ix4 b (0 : Fin 1) t (3 : Fin 4)) := by
  unfold res_main_v95 res_main_v94
  exact (shapeCast_abc1_abc_apply _ _ _ _ _).trans (slice4_axis3_apply 3 _ _ _ _ _ (0 : Fin 1) (3 : Fin 4) (by decide))

theorem v97_apply (b : Fin 64) (t : Fin 256) :
    res_main_v97 (F := Ideal) a0 a1 a2 a3 (ix3 b (0 : Fin 1) t) = res_main_v77 (F := Ideal) a0 a1 a2 a3 (ix4 b (0 : Fin 1) t (1 : Fin 4)) := by
  unfold res_main_v97 res_main_v96
  exact (shapeCast_abc1_abc_apply _ _ _ _ _).trans (slice4_axis3_apply 1 _ _ _ _ _ (0 : Fin 1) (1 : Fin 4) (by decide))

/-- The target box's area from its corner entries. -/
theorem v99_apply (b : Fin 64) (t : Fin 256) :
    res_main_v99 (F := Ideal) a0 a1 a2 a3 (ix3 b (0 : Fin 1) t) = area (res_main_v77 (F := Ideal) a0 a1 a2 a3 (ix4 b (0 : Fin 1) t (0 : Fin 4))) (res_main_v77 (F := Ideal) a0 a1 a2 a3 (ix4 b (0 : Fin 1) t (1 : Fin 4))) (res_main_v77 (F := Ideal) a0 a1 a2 a3 (ix4 b (0 : Fin 1) t (2 : Fin 4))) (res_main_v77 (F := Ideal) a0 a1 a2 a3 (ix4 b (0 : Fin 1) t (3 : Fin 4))) := by
  unfold res_main_v99 res_main_v93 res_main_v98
  rw [mulf_apply, subf_apply, subf_apply, v90_apply, v92_apply, v95_apply, v97_apply]
  rfl

/-! ### Union, IoU, generalized IoU -/

/-- The union: the two areas, each broadcast over the other box's axis, added, less the intersection. -/
theorem v120_apply (b : Fin 64) (q : Fin 900) (t : Fin 256) :
    res_main_v120 (F := Ideal) a0 a1 a2 a3 (ix3 b q t) = (res_main_v88 (F := Ideal) a0 a1 a2 a3 (ix3 b q (0 : Fin 1)) + res_main_v99 (F := Ideal) a0 a1 a2 a3 (ix3 b (0 : Fin 1) t)) - res_main_v116 (F := Ideal) a0 a1 a2 a3 (ix3 b q t) := by
  unfold res_main_v120 res_main_v119 res_main_v117 res_main_v118
  rw [subf_apply, addf_apply, bcastQ1_apply, bcastT1_apply]

/-- The IoU is the quotient intersection / union. -/
theorem v121_apply (j : S64x900x256.Idx) :
    res_main_v121 (F := Ideal) a0 a1 a2 a3 j = Ideal.div (res_main_v116 (F := Ideal) a0 a1 a2 a3 j) (res_main_v120 (F := Ideal) a0 a1 a2 a3 j) := by
  unfold res_main_v121
  rfl

/-- The generalized IoU: IoU − (hull − union) / hull. -/
theorem v141_apply (j : S64x900x256.Idx) :
    res_main_v141 (F := Ideal) a0 a1 a2 a3 j = res_main_v121 (F := Ideal) a0 a1 a2 a3 j - Ideal.div (res_main_v138 (F := Ideal) a0 a1 a2 a3 j - res_main_v120 (F := Ideal) a0 a1 a2 a3 j) (res_main_v138 (F := Ideal) a0 a1 a2 a3 j) := by
  unfold res_main_v141 res_main_v140 res_main_v139
  rfl

/-! ### The weighted sum -/

/-- The weighted sum of the class term, the L1 term and the negated generalized IoU. -/
theorem v150_apply (j : S64x900x256.Idx) :
    res_main_v150 (F := Ideal) a0 a1 a2 a3 j = (wClass * res_main_v18 (F := Ideal) a0 a1 a2 a3 j + wBox * res_main_v25 (F := Ideal) a0 a1 a2 a3 j) + wGiou * (-(res_main_v141 (F := Ideal) a0 a1 a2 a3 j)) := by
  unfold res_main_v150 res_main_v146 res_main_v149 res_main_v143 res_main_v145 res_main_v147
    res_main_v142 res_main_v144 res_main_v148 res_main_cst_14 res_main_cst_15 res_main_cst_16
  rfl

/-! ### The scrub -/

/-- No extended real differs from itself. -/
theorem cmp_une_self (x : EReal) : Ideal.cmp .une x x = 0#1 := by
  simp [Ideal.cmp]

/-- The first replacement (of what is not equal to itself) never fires. -/
theorem call2_v2_apply (j : S64x900x256.Idx) :
    res_main_call2_v2 (F := Ideal) a0 a1 a2 a3 j = res_main_v150 (F := Ideal) a0 a1 a2 a3 j := by
  unfold res_main_call2_v2 res_main_call2_v0
  rw [select_apply, cmpf_apply]
  exact (congrArg (fun c => Scalar.select c _ _) (cmp_une_self _)).trans (select_zero _ _)

/-- The result is the scrub of the weighted sum: +∞ replaced by 10⁶, then −∞ by −10⁶. -/
theorem v151_apply (j : S64x900x256.Idx) :
    res_main_v151 (F := Ideal) a0 a1 a2 a3 j = scrub (res_main_v150 (F := Ideal) a0 a1 a2 a3 j) := by
  rw [← call2_v2_apply]
  unfold res_main_v151 res_main_call2_v8 res_main_call2_call2_v0 res_main_call2_v9 res_main_cst_18
    res_main_call2_v7 res_main_call2_cst_0 res_main_call2_v6 res_main_call2_v4 res_main_call2_call1_v0
    res_main_call2_v5 res_main_cst_19 res_main_call2_v3 res_main_call2_cst
  rfl

end Walk

/-! ## The stages in the specification's terms -/

section Spec
variable (a0 : FVec Ideal S64x900x256 .f32) (a1 : FVec Ideal S64x900x4 .f32) (a2 : IVec S64x256 32)
  (a3 : FVec Ideal S64x256x4 .f32) (b : Fin 64) (q : Fin 900) (t : Fin 256)
open RefRun

/-- The query box's area in the specification's corners. -/
theorem qarea_apply :
    res_main_v88 (F := Ideal) a0 a1 a2 a3 (ix3 b q (0 : Fin 1))
      = area (lo (a1 (ix3 b q (0 : Fin 4))) (a1 (ix3 b q (2 : Fin 4)))) (lo (a1 (ix3 b q (1 : Fin 4))) (a1 (ix3 b q (3 : Fin 4)))) (hi (a1 (ix3 b q (0 : Fin 4))) (a1 (ix3 b q (2 : Fin 4)))) (hi (a1 (ix3 b q (1 : Fin 4))) (a1 (ix3 b q (3 : Fin 4)))) := by
  obtain ⟨h0, h1, h2, h3⟩ := RefBoxes.qcorner_apply a0 a1 a2 a3 b q
  rw [v88_apply, h0, h1, h2, h3]

/-- The target box's area in the specification's corners. -/
theorem tarea_apply :
    res_main_v99 (F := Ideal) a0 a1 a2 a3 (ix3 b (0 : Fin 1) t)
      = area (lo (a3 (ix3 b t (0 : Fin 4))) (a3 (ix3 b t (2 : Fin 4)))) (lo (a3 (ix3 b t (1 : Fin 4))) (a3 (ix3 b t (3 : Fin 4)))) (hi (a3 (ix3 b t (0 : Fin 4))) (a3 (ix3 b t (2 : Fin 4)))) (hi (a3 (ix3 b t (1 : Fin 4))) (a3 (ix3 b t (3 : Fin 4)))) := by
  obtain ⟨h0, h1, h2, h3⟩ := RefBoxes.tcorner_apply a0 a1 a2 a3 b t
  rw [v99_apply, h0, h1, h2, h3]

/-- The generalized IoU of the pair is the specification's. -/
theorem giou_apply :
    res_main_v141 (F := Ideal) a0 a1 a2 a3 (ix3 b q t) = giou (a1 (ix3 b q (0 : Fin 4))) (a1 (ix3 b q (1 : Fin 4))) (a1 (ix3 b q (2 : Fin 4))) (a1 (ix3 b q (3 : Fin 4))) (a3 (ix3 b t (0 : Fin 4))) (a3 (ix3 b t (1 : Fin 4))) (a3 (ix3 b t (2 : Fin 4))) (a3 (ix3 b t (3 : Fin 4))) := by
  rw [v141_apply, v121_apply, v120_apply, RefInter.inter_apply, RefHull.hull_apply, qarea_apply, tarea_apply]
  rfl

/-- THE COST AT AN INDEX: given the class term `−pl`, the reference's result at `(b, q, t)` is the specification's
    pair cost of `pl` and the two boxes. -/
theorem cost_apply (pl : EReal) (hcls : res_main_v18 (F := Ideal) a0 a1 a2 a3 (ix3 b q t) = -pl) :
    res_main_v151 (F := Ideal) a0 a1 a2 a3 (ix3 b q t) = pairCost pl (a1 (ix3 b q (0 : Fin 4))) (a1 (ix3 b q (1 : Fin 4))) (a1 (ix3 b q (2 : Fin 4))) (a1 (ix3 b q (3 : Fin 4))) (a3 (ix3 b t (0 : Fin 4))) (a3 (ix3 b t (1 : Fin 4))) (a3 (ix3 b t (2 : Fin 4))) (a3 (ix3 b t (3 : Fin 4))) := by
  rw [v151_apply, v150_apply, hcls, RefBoxes.l1_apply, giou_apply]
  rfl

end Spec

end Cert.ReferenceIdeal.RefCost

end
-- ==== Proof.RefValue.lean ====
/-
  The reference's result array is the cost function of the specification: at batch b, query q, target t its
  class term is −p[b,q,ℓ(b,t)] and the rest of the program combines it with the L1 and GIoU terms and scrubs the
  infinities, which is `Cert.CostSpec.pairCost` of the same nine numbers.
-/
import proofs.«412448_j60825326846459_2_alg».proof.Proof.CostSpec
import proofs.«412448_j60825326846459_2_alg».proof.Proof.RefTerms
import proofs.«412448_j60825326846459_2_alg».proof.Proof.RefClass
import proofs.«412448_j60825326846459_2_alg».proof.Proof.RefCost

noncomputable section

namespace Cert.ReferenceIdeal.RefValue

open Cert.ReferenceIdeal Idealize.ShloMosaic Idealize.ShloMosaic.ValueIdx

/-- Index by index the reference's result is the specification's cost array, for labels in range. -/
theorem res_eq_G (a0 : FVec Ideal S64x900x256 .f32) (a1 : FVec Ideal S64x900x4 .f32) (a2 : IVec S64x256 32) (a3 : FVec Ideal S64x256x4 .f32)
    (hlab : ∀ j, (a2 j).toNat < 256) :
    RefRun.res_main_v151 (F := Ideal) a0 a1 a2 a3 = Cert.CostSpec.G a0 a1 a2 a3 := by
  funext i
  obtain ⟨b, q, t, rfl⟩ : ∃ (b : Fin 64) (q : Fin 900) (t : Fin 256), i = ix3 b q t := ⟨i 0, i 1, i 2, eq_ix3 i⟩
  rw [Cert.CostSpec.G_ix3]
  exact RefCost.cost_apply a0 a1 a2 a3 b q t _ (RefClass.classCost_apply a0 a1 a2 a3 hlab b q t)

end Cert.ReferenceIdeal.RefValue

end
-- ==== Proof.lean ====
/-
  The certificate of the matching-cost kernel against its jnp reference, over the extended reals.

  Both programs compute, for every batch b, query q and target t,
      scrub ( 1 · (−p[b,q,ℓ(b,t)]) + 5 · L1(box_q, box_t) + 2 · (−GIoU(box_q, box_t)) ),
  the function `Cert.CostSpec.G` of the four argument arrays (Proof/CostSpec.lean).  The kernel takes the class
  probability by a product with a one-hot table of the (clamped) labels, split in two summands whose second vanishes
  because a probability is a finite number; the reference gathers it at the (wrapped) label.  For labels in
  [0, 256) — the precondition's evident-domain conjunct — clamp, wrap and the gather's own clamp are all the identity, and
  the one-hot product picks the same entry.  The box terms are the same scalar formula on both sides, laid out
  differently.  Finiteness of the logits is used once (p − p = 0); the box inputs' finiteness is not needed, the two
  programs being the same extended-real function of them, a quotient by zero included.

  Kernel side: the generated frame and value leg give the result array block by block; Proof/KernelClass.lean and
  Proof/KernelBox.lean read the body at an index and Proof/KernelArray.lean assembles the blocks into `G`.
  Reference side: Proof/RefRun.lean reads the program's run back as the term `res_main_v151` of the arguments, and
  Proof/RefClass.lean, Proof/RefBoxes.lean, Proof/RefCost.lean read that term at an index (Proof/RefValue.lean: it is `G`).
  The ledger's one entry (a bf16 round trip of the probabilities removed) is the rule's own statement.
-/
import proofs.«412448_j60825326846459_2_alg».proof.Defs
import proofs.«412448_j60825326846459_2_alg».proof.Proof.Gen.Kernel
import proofs.«412448_j60825326846459_2_alg».proof.Proof.Gen.Kernel.Skeleton
import proofs.«412448_j60825326846459_2_alg».proof.Proof.Gen.Kernel.Launch
import proofs.«412448_j60825326846459_2_alg».proof.Proof.Gen.Kernel.Points
import proofs.«412448_j60825326846459_2_alg».proof.Proof.Gen.Kernel.Frame
import proofs.«412448_j60825326846459_2_alg».proof.Proof.Gen.KernelIdeal
import proofs.«412448_j60825326846459_2_alg».proof.Proof.Gen.KernelIdeal.Skeleton
import proofs.«412448_j60825326846459_2_alg».proof.Proof.Gen.KernelIdeal.Launch
import proofs.«412448_j60825326846459_2_alg».proof.Proof.Gen.KernelIdeal.Points
import proofs.«412448_j60825326846459_2_alg».proof.Proof.Gen.KernelIdeal.Frame
import proofs.«412448_j60825326846459_2_alg».proof.Proof.Gen.ReferenceIdeal
import proofs.«412448_j60825326846459_2_alg».proof.Proof.Gen.Pre_finite_inputs
import proofs.«412448_j60825326846459_2_alg».proof.Proof.PreFacts
import proofs.«412448_j60825326846459_2_alg».proof.Proof.KernelArray
import proofs.«412448_j60825326846459_2_alg».proof.Proof.RefRun
import proofs.«412448_j60825326846459_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ledger's one entry: rounding the probabilities to bf16 and widening them back, removed by the ideal pass. -/
theorem preserves : Cert.preserves_Kernel_KernelIdeal :=
  IdealRules.truncf_extf.statement _ .f32 .bf16

/-- From memories agreeing on the arguments both programs end at the specification's cost array of the arguments:
    the kernel by its blocks, the reference by its run's term; the precondition gives finite logits and labels in range. -/
theorem algebraic : Cert.algebraic_KernelIdeal_ReferenceIdeal := by
  intro m ρ m' ρ' hpre hagree
  have hP := fun c => Cert.PreFacts.read _ _ _ _ (hpre c)
  refine ⟨fun c => Cert.CostSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KArray.run m ρ (fun c => (hP c).1) (fun c => (hP c).2), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.res_eq_G _ _ _ _ (hP c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
